-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S120x64 : Shape := ⟨2, ![120, 64]⟩
abbrev S_ : Shape := ⟨0, ![]⟩
abbrev S100000x1 : Shape := ⟨2, ![100000, 1]⟩
abbrev S100000 : Shape := ⟨1, ![100000]⟩

class Facts : Prop where
  bcast_S_S120x64 : S_.BroadcastsInDim S120x64 (![] : Fin 0 → Fin S120x64.rank)
  reducesTo_S120x64_S_d0_1 : S120x64.ReducesTo [0, 1] S_
  h_S_ : 0 < S_.numel
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S100000x2 32) (main_arg1 : IVec S2x1600000 32) (main_arg2 : FVec F S120x64 .f32) : IVec S_ 1 :=
  let main_v0 : FVec F S120x64 .f32 := Host.absf main_arg2
  let main_cst : FVec F S_ .f32 := constant S_ .f32 0x7F800000#32
  let main_v1 : FVec F S120x64 .f32 := broadcastInDim S120x64 ![] bcast_S_S120x64 main_cst
  let main_v2 : IVec S120x64 1 := cmpf .olt main_v0 main_v1
  let main_c : IVec S_ 1 := constantI S_ 1 1#1
  let main_v3 : IVec S_ 1 := (fun x v => Host.reduce IntOp.andi x v reducesTo_S120x64_S_d0_1 h_S_) main_v2 main_c
  let main_v4 : IVec S100000x1 32 := (extractStridedSlice S100000x1 ![0, 0] · slices_S100000x2_S100000x1_0_0) main_arg0
  let main_v5 : IVec S100000 32 := shapeCast S100000 main_v4 shapeCasts_S100000x1_S100000
  let main_c_0 : IVec S_ 32 := constantI S_ 32 0#32
  let main_v6 : IVec S100000 32 := broadcastInDim S100000 ![] bcast_S_S100000 main_c_0
  let main_v7 : IVec S100000 1 := cmpi .sge main_v5 main_v6
  let main_c_1 : IVec S_ 1 := constantI S_ 1 1#1
  let main_v8 : IVec S_ 1 := (fun x v => Host.reduce IntOp.andi x v reducesTo_S100000_S_d0 h_S_) main_v7 main_c_1
  let main_v9 : IVec S_ 1 := andi main_v3 main_v8
  let main_v10 : IVec S100000x1 32 := (extractStridedSlice S100000x1 ![0, 0] · slices_S100000x2_S100000x1_0_0) main_arg0
  let main_v11 : IVec S100000 32 := shapeCast S100000 main_v10 shapeCasts_S100000x1_S100000
  let main_c_2 : IVec S_ 32 := constantI S_ 32 120#32
  let main_v12 : IVec S100000 32 := broadcastInDim S100000 ![] bcast_S_S100000 main_c_2
  let main_v13 : IVec S100000 1 := cmpi .slt main_v11 main_v12
  let main_c_3 : IVec S_ 1 := constantI S_ 1 1#1
  let main_v14 : IVec S_ 1 := (fun x v => Host.reduce IntOp.andi x v reducesTo_S100000_S_d0 h_S_) main_v13 main_c_3
  let main_v15 : IVec S_ 1 := andi main_v9 main_v14
  main_v15
-- ==== Kernel.lean ====
abbrev S100000x2 : Shape := ⟨2, ![100000, 2]⟩
abbrev S2x1600000 : Shape := ⟨2, ![2, 1600000]⟩
abbrev S120x64 : Shape := ⟨2, ![120, 64]⟩
abbrev S1x1600000 : Shape := ⟨2, ![1, 1600000]⟩
abbrev S1600000 : Shape := ⟨1, ![1600000]⟩
abbrev S100000x1 : Shape := ⟨2, ![100000, 1]⟩
abbrev S100000 : Shape := ⟨1, ![100000]⟩
abbrev S100000x64 : Shape := ⟨2, ![100000, 64]⟩
abbrev S5000x1 : Shape := ⟨2, ![5000, 1]⟩
abbrev S5000x64 : Shape := ⟨2, ![5000, 64]⟩
abbrev S5000x120 : Shape := ⟨2, ![5000, 120]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64 : Shape := ⟨1, ![64]⟩

abbrev nBuf : Space → Nat
  | .hbm => 151
  | .vmem => 75
  | .smem => 0
  | _ => 0

abbrev hbmTy0_0 (i : Nat) : BufTy := match i % 128 with
  | 0 => ⟨S100000x2, .i32⟩
  | 1 => ⟨S2x1600000, .i32⟩
  | 2 => ⟨S120x64, .f32⟩
  | 3 => ⟨S1x1600000, .i32⟩
  | 4 => ⟨S1600000, .i32⟩
  | 5 => ⟨S1x1600000, .i32⟩
  | 6 => ⟨S1600000, .i32⟩
  | 7 => ⟨S100000x1, .i32⟩
  | 8 => ⟨S100000, .i32⟩
  | 9 => ⟨S100000x1, .i32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S1x64, .f32⟩
  | 34 => ⟨S_, .f32⟩
  | 35 => ⟨S1x64, .f32⟩
  | 36 => ⟨S1x64, .f32⟩
  | 37 => ⟨S1x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S_, .f32⟩
  | 58 => ⟨S1x64, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x2, .i32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S100000x64, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | .local _ .vmem, ⟨0, _⟩ => ⟨S5000x1, .i32⟩
  | .local _ .vmem, ⟨1, _⟩ => ⟨S5000x1, .i32⟩
  | .local _ .vmem, ⟨2, _⟩ => ⟨S120x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S1x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S1x64, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S1x64, .f32⟩
  | .local _ .vmem, ⟨66, _⟩ => ⟨S1x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S1x64, .f32⟩
  | .local _ .vmem, ⟨72, _⟩ => ⟨S1x64, .f32⟩
  | .local _ .vmem, ⟨73, _⟩ => ⟨S5000x64, .f32⟩
  | .local _ .vmem, ⟨74, _⟩ => ⟨S5000x64, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60_0 : Ref sig .tc := ⟨.hbm, 80, rfl⟩
abbrev main_v60_1 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81_0 : Ref sig .tc := ⟨.hbm, 108, rfl⟩
abbrev main_v81_1 : Ref sig .tc := ⟨.hbm, 109, rfl⟩
abbrev main_cst_19 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_21 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_22 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_24 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102_0 : Ref sig .tc := ⟨.hbm, 136, rfl⟩
abbrev main_v102_1 : Ref sig .tc := ⟨.hbm, 137, rfl⟩
abbrev main_cst_25 : Ref sig .tc := ⟨.hbm, 138, rfl⟩
abbrev main_v103 : Ref sig .tc := ⟨.hbm, 139, rfl⟩
abbrev main_v104 : Ref sig .tc := ⟨.hbm, 140, rfl⟩
abbrev main_cst_26 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_27 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg4_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg3_0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg4_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg3_0 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg1_1 : Ref sig .tc := ⟨.vmem, 70, rfl⟩
abbrev cc10_stg2_0 : Ref sig .tc := ⟨.vmem, 71, rfl⟩
abbrev cc10_stg3_0 : Ref sig .tc := ⟨.vmem, 72, rfl⟩
abbrev cc10_stg4_0 : Ref sig .tc := ⟨.vmem, 73, rfl⟩
abbrev cc10_stg4_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem4_0 : DmaSem sig := 45
abbrev cc6_sem4_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem4_0 : DmaSem sig := 59
abbrev cc8_sem4_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc10_sem0_0 : DmaSem sig := 67
abbrev cc10_sem0_1 : DmaSem sig := 68
abbrev cc10_sem1_0 : DmaSem sig := 69
abbrev cc10_sem1_1 : DmaSem sig := 70
abbrev cc10_sem2_0 : DmaSem sig := 71
abbrev cc10_sem3_0 : DmaSem sig := 72
abbrev cc10_sem4_0 : DmaSem sig := 73
abbrev cc10_sem4_1 : DmaSem sig := 74

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x2_S100000x1_0_0 : S100000x2.Slices ![0, 0] S100000x1
  shapeCasts_S100000x1_S100000 : S100000x1.ShapeCasts S100000
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x120_d1_w32 : S5000x120.Iotas .tc 32 [1]
  broadcasts_S5000x1_S5000x120 : S5000x1.Broadcasts S5000x120
  natLt_1_32 : 1 < 32
  bitsLt_bf16_f32 : FTy.bits .bf16 < FTy.bits .f32
  inb_S120x64_S120x64_0_0 : ∀ a, (![0, 0] : Fin 2 → Nat) a + S120x64.size a ≤ S120x64.size a
  h_S120x64 : 0 < S120x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  dot_S5000x120_S120x64_S5000x64_1_0_0_1_n_n_wf : DotDims.WF S5000x120 S120x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x64.size a ≤ S120x64.size a
  hwx0_1 : ∀ i : grid0.Coords, EltTy.bits .f32 = 32 ∨ (Rect.block (s := S120x64) S120x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .f32 = 32 ∨ (Rect.block (s := S100000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S100000x64.size a
  hwx10_4 : ∀ i : grid10.Coords, EltTy.bits .f32 = 32 ∨ (Rect.block (s := S100000x64) S5000x64.size (cc10_transform_4 i) (hinb10_4 i)).WholeWords (EltTy.packing .f32)

variable [Facts₀]

def dot_S5000x120_S120x64_S5000x64_1_0_0_1_n_n : DotDims S5000x120 S120x64 S5000x64 where
  lhsContracting := [1]
  rhsContracting := [0]
  lhsNonContracting := [0]
  rhsNonContracting := [1]
  lhsBatch := []
  rhsBatch := []
  wf := dot_S5000x120_S120x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v6) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S120x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39_0) S1x64.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39_1) S1x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60_0) S1x64.size cc5_transform_2 reads5_2 true true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60_1) S1x64.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v59) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v62) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v80) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v80) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v70) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v83) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v91) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v101) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v91) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v102_0) S1x64.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102_1) S1x64.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v101) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v91) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v104) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v111) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v112) S5000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S120x64 : Shape := ⟨2, ![120, 64]⟩
abbrev S1x1600000 : Shape := ⟨2, ![1, 1600000]⟩
abbrev S1600000 : Shape := ⟨1, ![1600000]⟩
abbrev S100000x1 : Shape := ⟨2, ![100000, 1]⟩
abbrev S100000 : Shape := ⟨1, ![100000]⟩
abbrev S_ : Shape := ⟨0, ![]⟩
abbrev S100000x64 : Shape := ⟨2, ![100000, 64]⟩
abbrev S1600000x1 : Shape := ⟨2, ![1600000, 1]⟩
abbrev S1600000x64 : Shape := ⟨2, ![1600000, 64]⟩
abbrev S64 : Shape := ⟨1, ![64]⟩
abbrev S1x64 : Shape := ⟨2, ![1, 64]⟩

abbrev nBuf : Space → Nat
  | .hbm => 293
  | .vmem => 0
  | .smem => 0
  | _ => 0

abbrev hbmTy0_0 (i : Nat) : BufTy := match i % 128 with
  | 0 => ⟨S100000x2, .i32⟩
  | 1 => ⟨S2x1600000, .i32⟩
  | 2 => ⟨S120x64, .f32⟩
  | 3 => ⟨S1x1600000, .i32⟩
  | 4 => ⟨S1600000, .i32⟩
  | 5 => ⟨S1x1600000, .i32⟩
  | 6 => ⟨S1600000, .i32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S100000x64, .f32⟩
  | 103 => ⟨S100000x64, .f32⟩
  | 104 => ⟨S100000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x2, .i32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S_, .i32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S100000x64, .f32⟩
  | 30 => ⟨S100000x64, .f32⟩
  | 31 => ⟨S100000x64, .f32⟩
  | 32 => ⟨S_, .f32⟩
  | 33 => ⟨S_, .f32⟩
  | 34 => ⟨S_, .f32⟩
  | 35 => ⟨S_, .f32⟩
  | 36 => ⟨S64, .f32⟩
  | 37 => ⟨S64, .f32⟩
  | 38 => ⟨S64, .f32⟩
  | 39 => ⟨S_, .f32⟩
  | 40 => ⟨S_, .i1⟩
  | 41 => ⟨S_, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S_, .f32⟩
  | 49 => ⟨S64, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S_, .f32⟩
  | _ => ⟨S100000x2, .i32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S100000x64, .f32⟩
  | 12 => ⟨S100000x64, .f32⟩
  | 13 => ⟨S100000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S_, .f32⟩
  | 31 => ⟨S64, .f32⟩
  | 32 => ⟨S64, .f32⟩
  | 33 => ⟨S64, .f32⟩
  | 34 => ⟨S1x64, .f32⟩
  | 35 => ⟨S100000x64, .f32⟩
  | 36 => ⟨S100000x64, .f32⟩
  | _ => ⟨S100000x2, .i32⟩

abbrev hbmTy (i : Nat) : BufTy := match i / 128 with
  | 0 => hbmTy0_0 i
  | 1 => hbmTy0_1 i
  | 2 => hbmTy0_2 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_11 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_12 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_c_14 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_15 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_16 : Ref sig .tc := ⟨.hbm, 128, rfl⟩
abbrev main_v65 : Ref sig .tc := ⟨.hbm, 129, rfl⟩
abbrev main_v66 : Ref sig .tc := ⟨.hbm, 130, rfl⟩
abbrev main_c_17 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_18 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_19 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_20 : Ref sig .tc := ⟨.hbm, 145, rfl⟩
abbrev main_v78 : Ref sig .tc := ⟨.hbm, 146, rfl⟩
abbrev main_cst_21 : Ref sig .tc := ⟨.hbm, 147, rfl⟩
abbrev main_v79 : Ref sig .tc := ⟨.hbm, 148, rfl⟩
abbrev main_v80 : Ref sig .tc := ⟨.hbm, 149, rfl⟩
abbrev main_c_22 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_cst_0 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_cst_1 : Ref sig .tc := ⟨.hbm, 161, rfl⟩
abbrev main_call2_v8 : Ref sig .tc := ⟨.hbm, 162, rfl⟩
abbrev main_call2_cst_2 : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_call2_cst_3 : Ref sig .tc := ⟨.hbm, 167, rfl⟩
abbrev main_call2_v12 : Ref sig .tc := ⟨.hbm, 168, rfl⟩
abbrev main_call2_cst_4 : Ref sig .tc := ⟨.hbm, 169, rfl⟩
abbrev main_call2_call0_v0 : Ref sig .tc := ⟨.hbm, 170, rfl⟩
abbrev main_call2_call0_v1 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_cst_23 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_c_24 : Ref sig .tc := ⟨.hbm, 183, rfl⟩
abbrev main_v91 : Ref sig .tc := ⟨.hbm, 184, rfl⟩
abbrev main_v92 : Ref sig .tc := ⟨.hbm, 185, rfl⟩
abbrev main_c_25 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_cst_26 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_cst_27 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_cst_28 : Ref sig .tc := ⟨.hbm, 200, rfl⟩
abbrev main_v104 : Ref sig .tc := ⟨.hbm, 201, rfl⟩
abbrev main_cst_29 : Ref sig .tc := ⟨.hbm, 202, rfl⟩
abbrev main_v105 : Ref sig .tc := ⟨.hbm, 203, rfl⟩
abbrev main_v106 : Ref sig .tc := ⟨.hbm, 204, rfl⟩
abbrev main_c_30 : Ref sig .tc := ⟨.hbm, 205, rfl⟩
abbrev main_call3_cst : Ref sig .tc := ⟨.hbm, 206, rfl⟩
abbrev main_call3_v0 : Ref sig .tc := ⟨.hbm, 207, rfl⟩
abbrev main_call3_v1 : Ref sig .tc := ⟨.hbm, 208, rfl⟩
abbrev main_call3_cst_0 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_v5 : Ref sig .tc := ⟨.hbm, 213, rfl⟩
abbrev main_call3_v6 : Ref sig .tc := ⟨.hbm, 214, rfl⟩
abbrev main_call3_v7 : Ref sig .tc := ⟨.hbm, 215, rfl⟩
abbrev main_call3_cst_1 : Ref sig .tc := ⟨.hbm, 216, rfl⟩
abbrev main_call3_v8 : Ref sig .tc := ⟨.hbm, 217, rfl⟩
abbrev main_call3_cst_2 : Ref sig .tc := ⟨.hbm, 218, rfl⟩
abbrev main_call3_v9 : Ref sig .tc := ⟨.hbm, 219, rfl⟩
abbrev main_call3_v10 : Ref sig .tc := ⟨.hbm, 220, rfl⟩
abbrev main_call3_v11 : Ref sig .tc := ⟨.hbm, 221, rfl⟩
abbrev main_call3_cst_3 : Ref sig .tc := ⟨.hbm, 222, rfl⟩
abbrev main_call3_v12 : Ref sig .tc := ⟨.hbm, 223, rfl⟩
abbrev main_call3_cst_4 : Ref sig .tc := ⟨.hbm, 224, rfl⟩
abbrev main_call3_call0_v0 : Ref sig .tc := ⟨.hbm, 225, rfl⟩
abbrev main_call3_call0_v1 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_cst_31 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_c_32 : Ref sig .tc := ⟨.hbm, 238, rfl⟩
abbrev main_v117 : Ref sig .tc := ⟨.hbm, 239, rfl⟩
abbrev main_v118 : Ref sig .tc := ⟨.hbm, 240, rfl⟩
abbrev main_c_33 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_cst_34 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_cst_35 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_cst_36 : Ref sig .tc := ⟨.hbm, 255, rfl⟩
abbrev main_v130 : Ref sig .tc := ⟨.hbm, 256, rfl⟩
abbrev main_cst_37 : Ref sig .tc := ⟨.hbm, 257, rfl⟩
abbrev main_v131 : Ref sig .tc := ⟨.hbm, 258, rfl⟩
abbrev main_v132 : Ref sig .tc := ⟨.hbm, 259, rfl⟩
abbrev main_c_38 : Ref sig .tc := ⟨.hbm, 260, rfl⟩
abbrev main_call4_cst : Ref sig .tc := ⟨.hbm, 261, rfl⟩
abbrev main_call4_v0 : Ref sig .tc := ⟨.hbm, 262, rfl⟩
abbrev main_call4_v1 : Ref sig .tc := ⟨.hbm, 263, rfl⟩
abbrev main_call4_cst_0 : Ref sig .tc := ⟨.hbm, 264, rfl⟩
abbrev main_call4_v2 : Ref sig .tc := ⟨.hbm, 265, rfl⟩
abbrev main_call4_v3 : Ref sig .tc := ⟨.hbm, 266, rfl⟩
abbrev main_call4_v4 : Ref sig .tc := ⟨.hbm, 267, rfl⟩
abbrev main_call4_v5 : Ref sig .tc := ⟨.hbm, 268, rfl⟩
abbrev main_call4_v6 : Ref sig .tc := ⟨.hbm, 269, rfl⟩
abbrev main_call4_v7 : Ref sig .tc := ⟨.hbm, 270, rfl⟩
abbrev main_call4_cst_1 : Ref sig .tc := ⟨.hbm, 271, rfl⟩
abbrev main_call4_v8 : Ref sig .tc := ⟨.hbm, 272, rfl⟩
abbrev main_call4_cst_2 : Ref sig .tc := ⟨.hbm, 273, rfl⟩
abbrev main_call4_v9 : Ref sig .tc := ⟨.hbm, 274, rfl⟩
abbrev main_call4_v10 : Ref sig .tc := ⟨.hbm, 275, rfl⟩
abbrev main_call4_v11 : Ref sig .tc := ⟨.hbm, 276, rfl⟩
abbrev main_call4_cst_3 : Ref sig .tc := ⟨.hbm, 277, rfl⟩
abbrev main_call4_v12 : Ref sig .tc := ⟨.hbm, 278, rfl⟩
abbrev main_call4_cst_4 : Ref sig .tc := ⟨.hbm, 279, rfl⟩
abbrev main_call4_call0_v0 : Ref sig .tc := ⟨.hbm, 280, rfl⟩
abbrev main_call4_call0_v1 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_cst_39 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  gather_S120x64_S100000x1_S100000x64_1_0_n_n_0_1_164_wf : GatherDims.WF S120x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S120x64_S100000x1_S100000x64_1_0_n_n_0_1_164 : GatherDims S120x64 S100000x1 S100000x64 where
  offsetDims := [1]
  collapsedSliceDims := [0]
  operandBatchingDims := []
  startIndicesBatchingDims := []
  startIndexMap := [0]
  indexVectorDim := 1
  sliceSizes := ![1, 64]
  wf := gather_S120x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, stated once over the extended reals.

  A node-feature array is [100000, 64]. One layer takes the neighbour sum `A` (the edge gather and scatter-add,
  carried here as an arbitrary function `G` of the features, because the two programs spell it with the same host
  operations) and the features `h`, forms `a = A + (1/2)·h`, and normalises every column of `a` by its mean and
  its biased variance over the 100000 rows.

  The two programs differ only in how the column statistics are taken:
    * one takes the column sums of `a` and of `a·a`, sets `mean = Σa / n`, `var = Σa² / n − mean²`, and multiplies
      `a − mean` by `rsqrt (var + eps)`                                             (`normK`);
    * the other takes `mean = Σa / n`, `var = Σ(a − mean)² / n`, and divides `a − mean` by `sqrt (var + eps)` (`normR`).
  On arrays all of whose entries are real numbers the two agree (the module that proves it is the algebra module).
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- Node features: 100000 rows, 64 columns. -/
abbrev SN64 : Shape := ⟨2, ![100000, 64]⟩
/-- One row of 64 column statistics, kept as a [1, 64] array. -/
abbrev S164 : Shape := ⟨2, ![1, 64]⟩
/-- The embedding table: 120 rows, 64 columns. -/
abbrev SV64 : Shape := ⟨2, ![120, 64]⟩

/-- The node attributes: 100000 rows of two 32-bit integers; column 0 is the atom type. -/
abbrev SN2 : Shape := ⟨2, ![100000, 2]⟩
/-- One integer per node, kept as a [100000, 1] column. -/
abbrev SN1 : Shape := ⟨2, ![100000, 1]⟩

/-- Column 0 of the node attributes as a [100000, 1] column. -/
def x0col (x : IVec SN2 32) : IVec SN1 32 := fun j => x (ix2 (j 0) (0 : Fin 2))

/-- Every atom type is a row number of the 120-row table (as a 32-bit word read unsigned: below 120, so also
    non-negative when read signed). -/
def InRange (x : IVec SN2 32) : Prop := ∀ r : Fin 100000, (x (ix2 r (0 : Fin 2))).toNat < 120

/-- The embedding lookup: node `i` takes row `x[i, 0]` of the table. -/
def lookup (x : IVec SN2 32) (hx : InRange x) (tbl : SV64.Idx → EReal) : SN64.Idx → EReal :=
  fun i => tbl (ix2 (⟨(x (ix2 (i 0) (0 : Fin 2))).toNat, hx (i 0)⟩ : Fin 120) (i 1))

/-- The self-contribution weight, the f32 word of 0.5. -/
abbrev half : EReal := Ideal.ofBits .f32 0x3F000000#32
/-- The row count as both programs carry it, the f32 word of 100000. -/
abbrev nf : EReal := Ideal.ofBits .f32 0x47C35000#32
/-- The variance offset, the f32 word nearest 1e-5 (the same word in both programs). -/
abbrev eps : EReal := Ideal.ofBits .f32 0x3727C5AC#32

/-- Every entry of the array is a real number (no infinity). -/
def FinArr {s : Shape} (a : s.Idx → EReal) : Prop := ∀ i, ∃ r : ℝ, a i = (r : EReal)

/-- The layer's input to normalisation: the neighbour sum plus half the node's own features. -/
def selfAdd (A h : SN64.Idx → EReal) : SN64.Idx → EReal := fun i => A i + half * h i

/-- The sum of column `d` over the 100000 rows. -/
def colSum (a : SN64.Idx → EReal) (d : Fin 64) : EReal := ∑ i : Fin 100000, a (ix2 i d)

/-- The column mean: the column sum divided by the row count. -/
def meanOf (a : SN64.Idx → EReal) (d : Fin 64) : EReal := Ideal.div (colSum a d) nf

/-- The column's mean square: the column sum of squares divided by the row count. -/
def msqOf (a : SN64.Idx → EReal) (d : Fin 64) : EReal := Ideal.div (colSum (fun i => a i * a i) d) nf

/-- The reciprocal standard deviation from the mean square and the mean. -/
def invStdK (a : SN64.Idx → EReal) (d : Fin 64) : EReal :=
  Ideal.rsqrt (msqOf a d - meanOf a d * meanOf a d + eps)

/-- Normalisation by mean-of-squares statistics and a reciprocal square root. -/
def normK (a : SN64.Idx → EReal) : SN64.Idx → EReal :=
  fun i => (a i - meanOf a (i 1)) * invStdK a (i 1)

/-- The biased variance as the mean of squared deviations from the mean. -/
def varR (a : SN64.Idx → EReal) (d : Fin 64) : EReal :=
  Ideal.div (colSum (fun i => (a i - meanOf a (i 1)) * (a i - meanOf a (i 1))) d) nf

/-- Normalisation by centred statistics and a division by the square root. -/
def normR (a : SN64.Idx → EReal) : SN64.Idx → EReal :=
  fun i => Ideal.div (a i - meanOf a (i 1)) (Ideal.sqrt (varR a (i 1) + eps))

/-- One layer, statistics taken the first way, over a neighbour-sum function `G`. -/
def layerK (G : (SN64.Idx → EReal) → (SN64.Idx → EReal)) (h : SN64.Idx → EReal) : SN64.Idx → EReal :=
  normK (selfAdd (G h) h)

/-- One layer, statistics taken the second way, over a neighbour-sum function `G`. -/
def layerR (G : (SN64.Idx → EReal) → (SN64.Idx → EReal)) (h : SN64.Idx → EReal) : SN64.Idx → EReal :=
  normR (selfAdd (G h) h)

/-- Five layers. -/
def five (L : (SN64.Idx → EReal) → (SN64.Idx → EReal)) (h : SN64.Idx → EReal) : SN64.Idx → EReal :=
  L (L (L (L (L h))))

end Cert.Gin

end
-- ==== Proof.PreDecode.lean ====
/-
  The printed precondition, read back.

  The predicate is the conjunction of three "for all" statements, each an and-reduction of a one-bit array down to a
  single bit: every table entry has absolute value below +∞; every word of column 0 of the node attributes is ≥ 0
  read signed; every such word is < 120 read signed. When the predicate's one output bit is 1, each and-reduction is 1,
  hence each of its operand bits is 1, and these bits say of the inputs:

    * a 32-bit word in [0, 120) signed is below 120 unsigned, so it is a row number of the 120-row table;
    * an extended real whose absolute value max t (−t) is below ⊤ is neither ⊤ nor ⊥, so it is a real number.

  Column 0 is taken by a [0:100000, 0:1] slice followed by a reshape [100000, 1] → [100000]; at position r both keep the
  row-major place r·1 + 0 = r, so the reshaped slice at r is the attribute array at (r, 0).
-/
import proofs.«415324_j50955491999984_1_alg».proof.Pre_finite_inputs
import proofs.«415324_j50955491999984_1_alg».proof.Proof.Gen.Pre_finite_inputs
import proofs.«415324_j50955491999984_1_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Gen

/-- The scalar shape has one index. -/
instance : Subsingleton S_.Idx := ⟨fun _ _ => funext fun d => d.elim0⟩

/-- A 32-bit word that is ≥ 0 and < 120 when read signed is < 120 when read unsigned: a non-negative signed reading
    is the unsigned reading itself. -/
theorem toNat_lt_of_signed (w : BitVec 32) (h0 : IntOp.cmpi .sge w 0#32 = 1#1) (h1 : IntOp.cmpi .slt w 120#32 = 1#1) :
    w.toNat < 120 := by
  simp only [IntOp.cmpi, StableHlo.Predicate.ofBool_eq_one_iff, BitVec.sle, BitVec.slt, decide_eq_true_eq] at h0 h1
  have z : (0#32 : BitVec 32).toInt = 0 := by decide
  have c : (120#32 : BitVec 32).toInt = 120 := by decide
  rw [z] at h0
  rw [c] at h1
  rw [BitVec.toInt_eq_toNat_cond] at h0 h1
  split at h0 <;> omega

/-- The f32 word 0x7F800000 is +∞. -/
theorem inf_word : Ideal.ofBits .f32 0x7F800000#32 = (⊤ : EReal) := by
  simp [Ideal.ofBits, Ideal.ieee]

/-- An extended real with max t (−t) < ⊤ is a real number: at ⊤ the maximum is ⊤, and at ⊥ it is −⊥ = ⊤. -/
theorem real_of_abs_lt_top (t : EReal) (h : max t (-t) < ⊤) : ∃ r : ℝ, t = (r : EReal) := by
  induction t using EReal.rec with
  | bot => simp at h
  | coe r => exact ⟨r, rfl⟩
  | top => simp at h

/-- Column 0 as the predicate takes it — the [0:100000, 0:1] slice reshaped to a vector — read at r is the array at (r, 0). -/
theorem col0_read (x : IVec S100000x2 32) (hs : S100000x2.Slices ![0, 0] S100000x1) (hc : S100000x1.ShapeCasts S100000)
    (r : Fin 100000) :
    shapeCast S100000 (extractStridedSlice S100000x1 ![0, 0] x hs) hc (ix1 r) = x (ix2 r (0 : Fin 2)) := by
  -- the reshape: position r of the vector is position (r, 0) of the [100000, 1] column
  have hk : Shape.reshapeEquiv hc (ix1 r : S100000.Idx) = (ix2 r (0 : Fin 1) : S100000x1.Idx) := by
    apply Shape.reshapeEquiv_eq_of_rowMajor
    rw [Shape.rowMajor_val_two, Shape.rowMajor_val_one]
    show r.val * 1 + 0 = r.val
    omega
  unfold shapeCast
  rw [hk]
  -- the slice at offsets (0, 0): the column's (r, 0) is the array's (0 + r, 0 + 0)
  unfold extractStridedSlice
  refine congrArg x (funext fun a => Fin.ext ?_)
  match a with
  | ⟨0, _⟩ => show 0 + r.val = r.val; omega
  | ⟨1, _⟩ => rfl

theorem decode (x : IVec S100000x2 32) (e : IVec S2x1600000 32) (tbl : FVec Ideal S120x64 .f32)
    (h : fn (F := Ideal) x e tbl = fun _ => 1#1) : Cert.Gin.InRange x ∧ Cert.Gin.FinArr tbl := by
  have h0 := congrFun h ValueIdx.ix0
  dsimp only [fn] at h0
  -- the conjunction of the three single bits
  change IntOp.andi (IntOp.andi _ _) _ = 1#1 at h0
  rw [IntOp.andi_eq_one, IntOp.andi_eq_one] at h0
  obtain ⟨⟨hfin, hge⟩, hlt⟩ := h0
  refine ⟨fun r => ?_, fun i => ?_⟩
  · -- bit r of each of the two integer comparisons
    have a := Host.reduce_andi_all _ _ _ _ _ hge (ix1 r)
    have b := Host.reduce_andi_all _ _ _ _ _ hlt (ix1 r)
    change IntOp.cmpi .sge (shapeCast S100000 (extractStridedSlice S100000x1 ![0, 0] x _) _ (ix1 r)) 0#32 = 1#1 at a
    change IntOp.cmpi .slt (shapeCast S100000 (extractStridedSlice S100000x1 ![0, 0] x _) _ (ix1 r)) 120#32 = 1#1 at b
    rw [col0_read] at a b
    exact toNat_lt_of_signed _ a b
  · -- bit i of the float comparison
    have a := Host.reduce_andi_all _ _ _ _ _ hfin i
    change Ideal.cmp .olt (max (tbl i) (-(tbl i))) (Ideal.ofBits .f32 0x7F800000#32) = 1#1 at a
    rw [inf_word] at a
    simp only [Ideal.cmp, StableHlo.Predicate.ofBool_eq_one_iff, decide_eq_true_eq] at a
    exact real_of_abs_lt_top _ a

end Cert.PreDecode

end
-- ==== Proof.Consts.lean ====
/-
  The three float words the specification names, as the extended reals they denote.

  A 32-bit IEEE word with sign 0, biased exponent e (neither 0 nor 255) and fraction f denotes
  (2^23 + f) · 2^(e − 127 − 23).
    * 0x47C35000: e = 143, f = 4411392, so (8388608 + 4411392) · 2^(−7) = 12800000 / 128 = 100000;
    * 0x3F000000: e = 126, f = 0, so 2^23 · 2^(−24) = 1/2;
    * 0x3727C5AC: e = 110, f = 2606508, so 10995116 · 2^(−40), a positive real (the float nearest 1e-5).
-/
import proofs.«415324_j50955491999984_1_alg».proof.Proof.Spec

noncomputable section

namespace Cert.Gin

open Idealize.ShloMosaic Idealize.ShloMosaic.ValueIdx

/-- The row count word denotes the real 100000. -/
theorem nf_eq : nf = ((100000 : ℝ) : EReal) := by
  simp [nf, Ideal.ofBits, Ideal.ieee, -EReal.coe_mul]; norm_num

/-- The self-contribution word denotes the real 1/2. -/
theorem half_eq : half = ((1 / 2 : ℝ) : EReal) := by
  simp [half, Ideal.ofBits, Ideal.ieee, -EReal.coe_mul]; norm_num

/-- The variance offset word denotes a positive real. -/
theorem eps_eq : ∃ e : ℝ, 0 < e ∧ eps = (e : EReal) := by
  refine ⟨10995116 * (2 : ℝ) ^ (-40 : Int), by positivity, ?_⟩
  simp [eps, Ideal.ofBits, Ideal.ieee, -EReal.coe_mul]

end Cert.Gin

end
-- ==== Proof.Algebra.lean ====
/-
  The algebra that joins the two ways of taking the column statistics of a [100000, 64] array whose entries
  are all real numbers.

  For one column with real entries r_i (i < n = 100000) and μ = (Σ r_i)/n:
      Σ (r_i − μ)² / n  =  (Σ r_i²)/n − μ²
  (expand the square; Σ μ = n·μ; n ≠ 0). The left side is a mean of squares, so it is ≥ 0, and with the positive
  offset added it is > 0. On a positive real x the reciprocal square root is (√x)⁻¹, the square root is √x ≠ 0,
  and division by √x is multiplication by (√x)⁻¹. So both normalisations give the real number
      (r_i − μ) · (√(v + eps))⁻¹
  at every entry, and in particular an array of real numbers again; five layers follow one after the other.
-/
import proofs.«415324_j50955491999984_1_alg».proof.Proof.Spec
import proofs.«415324_j50955491999984_1_alg».proof.Proof.Consts
import Mathlib.Data.EReal.Basic
import Mathlib.Data.EReal.Operations
import Mathlib.Data.EReal.Inv
import Mathlib.Analysis.Real.Sqrt
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Linarith

noncomputable section

namespace Cert.Gin

open Idealize.ShloMosaic Idealize.ShloMosaic.ValueIdx

namespace Alg

/-! ## Sums and quotients of real numbers inside the extended reals -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken in the extended reals, is the real quotient. -/
theorem div_real (x y : ℝ) (hy : y ≠ 0) : Ideal.div (x : EReal) (y : EReal) = ((x / y : ℝ) : EReal) := by
  rw [Ideal.div_coe hy, ← EReal.coe_mul, mul_one_div]

/-! ## The variance identity in the real numbers -/

/-- Over a finite index set of n ≠ 0 elements: the mean of the squared deviations from the mean is the mean of
    the squares minus the square of the mean. -/
theorem var_identity {ι : Type*} [Fintype ι] (f : ι → ℝ) (n : ℝ) (hn : (Fintype.card ι : ℝ) = n) (hn0 : n ≠ 0) :
    (∑ i, (f i - (∑ j, f j) / n) * (f i - (∑ j, f j) / n)) / n
      = (∑ i, f i * f i) / n - ((∑ j, f j) / n) * ((∑ j, f j) / n) := by
  generalize hS : (∑ j, f j) = S
  have hexp : ∀ i, (f i - S / n) * (f i - S / n) = f i * f i - 2 * (S / n) * f i + (S / n) * (S / n) :=
    fun i => by ring
  have h1 : (∑ i, (f i - S / n) * (f i - S / n))
      = (∑ i, f i * f i) - 2 * (S / n) * S + n * ((S / n) * (S / n)) := by
    rw [Finset.sum_congr rfl (fun i _ => hexp i), Finset.sum_add_distrib, Finset.sum_sub_distrib,
      ← Finset.mul_sum, hS, Finset.sum_const, Finset.card_univ, nsmul_eq_mul, hn]
  rw [h1]
  field_simp
  ring

/-! ## Real witnesses of an array and its column statistics -/

/-- The real column sum. -/
def rsum (r : SN64.Idx → ℝ) (d : Fin 64) : ℝ := ∑ i : Fin 100000, r (ix2 i d)

/-- The real column mean. -/
def rmean (r : SN64.Idx → ℝ) (d : Fin 64) : ℝ := rsum r d / 100000

/-- The real column mean of squares. -/
def rmsq (r : SN64.Idx → ℝ) (d : Fin 64) : ℝ := rsum (fun i => r i * r i) d / 100000

/-- The real column variance, as the mean of squared deviations. -/
def rvar (r : SN64.Idx → ℝ) (d : Fin 64) : ℝ :=
  rsum (fun i => (r i - rmean r (i 1)) * (r i - rmean r (i 1))) d / 100000

section Witness

variable (a : SN64.Idx → EReal) (r : SN64.Idx → ℝ) (hr : ∀ i, a i = (r i : EReal))
include hr

/-- The column sum of an array of reals is the real column sum. -/
theorem colSum_coe (d : Fin 64) : colSum a d = (rsum r d : EReal) := by
  unfold colSum rsum
  rw [← coe_sum]
  exact Finset.sum_congr rfl (fun i _ => hr _)

/-- The column mean of an array of reals is the real column mean. -/
theorem meanOf_coe (d : Fin 64) : meanOf a d = (rmean r d : EReal) := by
  unfold meanOf rmean
  rw [colSum_coe a r hr, nf_eq, div_real _ _ (by norm_num)]

/-- The column mean of squares of an array of reals is the real one. -/
theorem msqOf_coe (d : Fin 64) : msqOf a d = (rmsq r d : EReal) := by
  unfold msqOf rmsq
  rw [colSum_coe (fun i => a i * a i) (fun i => r i * r i)
      (fun i => by rw [hr i]; exact (EReal.coe_mul _ _).symm), nf_eq, div_real _ _ (by norm_num)]

/-- The centred variance of an array of reals is the real one. -/
theorem varR_coe (d : Fin 64) : varR a d = (rvar r d : EReal) := by
  unfold varR rvar
  rw [colSum_coe (fun i => (a i - meanOf a (i 1)) * (a i - meanOf a (i 1)))
      (fun i => (r i - rmean r (i 1)) * (r i - rmean r (i 1)))
      (fun i => by rw [hr i, meanOf_coe a r hr (i 1), ← EReal.coe_sub]; exact (EReal.coe_mul _ _).symm),
    nf_eq, div_real _ _ (by norm_num)]

end Witness

/-- The real variance identity for a column: centred variance = mean of squares − squared mean. -/
theorem rvar_eq (r : SN64.Idx → ℝ) (d : Fin 64) : rvar r d = rmsq r d - rmean r d * rmean r d := by
  have h := var_identity (fun i : Fin 100000 => r (ix2 i d)) 100000 (by simp) (by norm_num)
  exact h

/-- The real variance of a column is not negative: it is a mean of squares. -/
theorem rvar_nonneg (r : SN64.Idx → ℝ) (d : Fin 64) : 0 ≤ rvar r d := by
  unfold rvar rsum
  exact div_nonneg (Finset.sum_nonneg (fun i _ => mul_self_nonneg _)) (by norm_num)

/-! ## The two normalisations at an array of reals -/

/-- At every entry both normalisations are one and the same real number. -/
theorem norm_both (a : SN64.Idx → EReal) (ha : FinArr a) (i : SN64.Idx) :
    ∃ y : ℝ, normK a i = (y : EReal) ∧ normR a i = (y : EReal) := by
  choose r hr using ha
  obtain ⟨e, he, hE⟩ := eps_eq
  have hμ := meanOf_coe a r hr (i 1)
  have hq := msqOf_coe a r hr (i 1)
  have hv := varR_coe a r hr (i 1)
  have hid := rvar_eq r (i 1)
  have hpos : 0 < rvar r (i 1) + e := by have := rvar_nonneg r (i 1); linarith
  have hs : 0 < Real.sqrt (rvar r (i 1) + e) := Real.sqrt_pos.2 hpos
  refine ⟨(r i - rmean r (i 1)) * (Real.sqrt (rvar r (i 1) + e))⁻¹, ?_, ?_⟩
  · show (a i - meanOf a (i 1)) * Ideal.rsqrt (msqOf a (i 1) - meanOf a (i 1) * meanOf a (i 1) + eps) = _
    rw [hr i, hμ, hq, hE, ← EReal.coe_mul, ← EReal.coe_sub, ← EReal.coe_sub, ← EReal.coe_add, ← hid,
      Ideal.rsqrt_coe, if_neg (not_lt.2 hpos.le), if_neg hpos.ne', ← EReal.coe_mul]
  · show Ideal.div (a i - meanOf a (i 1)) (Ideal.sqrt (varR a (i 1) + eps)) = _
    rw [hr i, hμ, hv, hE, ← EReal.coe_sub, ← EReal.coe_add, Ideal.sqrt_coe, if_neg (not_lt.2 hpos.le),
      Ideal.div_coe hs.ne', ← EReal.coe_mul, one_div]

end Alg

open Alg

/-! ## The results -/

/-- The neighbour sum plus half the features, of two arrays of reals, is an array of reals. -/
theorem selfAdd_fin (A h : SN64.Idx → EReal) (hA : FinArr A) (hh : FinArr h) : FinArr (selfAdd A h) := by
  intro i
  obtain ⟨x, hx⟩ := hA i
  obtain ⟨y, hy⟩ := hh i
  refine ⟨x + 1 / 2 * y, ?_⟩
  show A i + half * h i = _
  rw [hx, hy, half_eq, ← EReal.coe_mul, ← EReal.coe_add]

/-- Rows looked up in a table of reals form an array of reals. -/
theorem lookup_fin (x : IVec SN2 32) (hx : InRange x) (tbl : SV64.Idx → EReal) (ht : FinArr tbl) :
    FinArr (lookup x hx tbl) := fun _ => ht _

/-- On an array of reals the two normalisations agree. -/
theorem normK_eq_normR (a : SN64.Idx → EReal) (ha : FinArr a) : normK a = normR a := by
  funext i
  obtain ⟨y, h1, h2⟩ := norm_both a ha i
  rw [h1, h2]

/-- The normalisation of an array of reals is an array of reals. -/
theorem normR_fin (a : SN64.Idx → EReal) (ha : FinArr a) : FinArr (normR a) := by
  intro i
  obtain ⟨y, _, h2⟩ := norm_both a ha i
  exact ⟨y, h2⟩

/-- One layer: the two ways agree on real features, when the neighbour sum keeps arrays real. -/
theorem layer_eq (G : (SN64.Idx → EReal) → (SN64.Idx → EReal)) (hG : ∀ h, FinArr h → FinArr (G h))
    (h : SN64.Idx → EReal) (hh : FinArr h) : layerK G h = layerR G h :=
  normK_eq_normR _ (selfAdd_fin _ _ (hG h hh) hh)

/-- One layer keeps real features real. -/
theorem layerR_fin (G : (SN64.Idx → EReal) → (SN64.Idx → EReal)) (hG : ∀ h, FinArr h → FinArr (G h))
    (h : SN64.Idx → EReal) (hh : FinArr h) : FinArr (layerR G h) :=
  normR_fin _ (selfAdd_fin _ _ (hG h hh) hh)

/-- Five layers: the two ways agree, layer after layer, each layer's output being real again. -/
theorem five_layer_eq (G : (SN64.Idx → EReal) → (SN64.Idx → EReal)) (hG : ∀ h, FinArr h → FinArr (G h))
    (h0 : SN64.Idx → EReal) (h0fin : FinArr h0) : five (layerK G) h0 = five (layerR G) h0 := by
  have f1 := layerR_fin G hG h0 h0fin
  have f2 := layerR_fin G hG _ f1
  have f3 := layerR_fin G hG _ f2
  have f4 := layerR_fin G hG _ f3
  unfold five
  rw [layer_eq G hG h0 h0fin, layer_eq G hG _ f1, layer_eq G hG _ f2, layer_eq G hG _ f3, layer_eq G hG _ f4]

end Cert.Gin

end
-- ==== Proof.LibGather2.lean ====
/-
  `stablehlo.gather` of a rank-2 operand along ONE of its axes at a column [P, 1] of start indices, read at an index:
  what `x[idx]` (rows of an [N, C] table; `gather_rows_apply`) and `jnp.take(x, idx, axis=1)` (columns of a [C, N]
  table; `gather_cols_apply`) lower to.  The gathered axis is collapsed and start-indexed, the other axis is the one
  offset axis with a whole slice, the index vector sits on axis 1 of the start indices, nothing is batched.  The
  result element reads the operand at the start index read as a SIGNED integer and clamped into [0, N − 1], as
  StableHLO's gather clamps every start index.
-/
import Idealize.ShloMosaic.PureOps
import Idealize.ShloMosaic.Lib.ValueIdx

noncomputable section

namespace Cert.LibGather2

open Idealize.ShloMosaic Idealize.ShloMosaic.ValueIdx

variable {α : Type}

/-- Rows of an [N, C] table at a column of start indices: result (p, c) is the table at (clamp idx[p, 0], c). -/
theorem gather_rows_apply {N C P w : Nat} (hN : 0 < N)
    (d : GatherDims ⟨2, ![N, C]⟩ ⟨2, ![P, 1]⟩ ⟨2, ![P, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ w) (p : Fin P) (c : Fin C) :
    Host.gather d x idx (ix2 p c)
      = x (ix2 (⟨min (idx (ix2 p (0 : Fin 1))).toInt.toNat (N - 1), by omega⟩ : Fin N) c) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the gathered axis: collapsed (so not kept: offset coordinate 0), start-indexed, slice size 1
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 p c : (⟨2, ![P, C]⟩ : Shape).Idx) X).val = p.val := fun X hX => by
        have hX1 : X ∉ d.offsetDims := by
          have := (List.mem_filter.1 hX).2
          simpa using this
        rw [hoff] at hX1
        match X with
        | ⟨0, _⟩ => rfl
        | ⟨1, _⟩ => exact absurd (List.mem_singleton.mpr rfl) hX1
      exact e _ (List.getElem_mem _)
    | ⟨1, _⟩ =>
      -- axis 1 is the index vector's: the component of the start index for the gathered axis is component 0
      unfold GatherDims.siIdx
      rw [dif_pos (by rw [hivd])]
      apply Fin.ext
      show List.idxOf (0 : Fin 2) d.startIndexMap = 0
      rw [hsim]; simp
  | ⟨1, _⟩ =>
    -- the offset axis: kept, not start-indexed (start 0), its coordinate the result's on the one offset axis
    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hb 1), Nat.add_zero]
    unfold GatherDims.start GatherDims.offCoord
    rw [dif_neg hm, dif_pos hk, Nat.zero_add]
    have e : ∀ X : Fin 2, X ∈ d.offsetDims → ((ix2 p c : (⟨2, ![P, C]⟩ : Shape).Idx) X).val = c.val := fun X hX => by
      rw [hoff] at hX
      obtain rfl := List.mem_singleton.1 hX
      rfl
    exact e _ (List.getElem_mem _)

/-- Columns of a [C, N] table at a column of start indices: result (c, p) is the table at (c, clamp idx[p, 0]). -/
theorem gather_cols_apply {N C P w : Nat} (hN : 0 < N)
    (d : GatherDims ⟨2, ![C, N]⟩ ⟨2, ![P, 1]⟩ ⟨2, ![C, P]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![C, 1])
    (x : (⟨2, ![C, N]⟩ : Shape).Idx → α) (idx : IVec ⟨2, ![P, 1]⟩ w) (c : Fin C) (p : Fin P) :
    Host.gather d x idx (ix2 c p)
      = x (ix2 c (⟨min (idx (ix2 p (0 : Fin 1))).toInt.toNat (N - 1), by omega⟩ : Fin N)) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the offset axis: kept, not start-indexed (start 0), its coordinate the result's on the one offset axis
    have hk : (0 : Fin 2) ∈ d.sKept := by rw [GatherDims.mem_sKept, hcoll, hob]; simp
    have hm : (0 : Fin 2) ∉ d.startIndexMap := by rw [hsim]; simp
    show d.start (ix2 c p) idx 0 + d.batchCoord (ix2 c p) 0 + d.offCoord (ix2 c p) 0 = c.val
    rw [GatherDims.batchCoord_eq_zero _ _ _ (hb 0), Nat.add_zero]
    unfold GatherDims.start GatherDims.offCoord
    rw [dif_neg hm, dif_pos hk, Nat.zero_add]
    have e : ∀ X : Fin 2, X ∈ d.offsetDims → ((ix2 c p : (⟨2, ![C, P]⟩ : Shape).Idx) X).val = c.val := fun X hX => by
      rw [hoff] at hX
      obtain rfl := List.mem_singleton.1 hX
      rfl
    exact e _ (List.getElem_mem _)
  | ⟨1, _⟩ =>
    -- the gathered axis: collapsed (so not kept: offset coordinate 0), start-indexed, slice size 1
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c p) idx 1 + d.batchCoord (ix2 c p) 1 + d.offCoord (ix2 c p) 1 = min _ (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 c p : (⟨2, ![C, P]⟩ : Shape).Idx) X).val = p.val := fun X hX => by
        have hX1 : X ∉ d.offsetDims := by
          have := (List.mem_filter.1 hX).2
          simpa using this
        rw [hoff] at hX1
        match X with
        | ⟨0, _⟩ => exact absurd (List.mem_singleton.mpr rfl) hX1
        | ⟨1, _⟩ => rfl
      exact e _ (List.getElem_mem _)
    | ⟨1, _⟩ =>
      -- axis 1 is the index vector's: the component of the start index for the gathered axis is component 0
      unfold GatherDims.siIdx
      rw [dif_pos (by rw [hivd])]
      apply Fin.ext
      show List.idxOf (1 : Fin 2) d.startIndexMap = 0
      rw [hsim]; simp

end Cert.LibGather2

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScatterHost.lean ====
import Idealize.ShloMosaic.PureOps.Ideal
import Idealize.ShloMosaic.PureOps.Contract
import Idealize.ShloMosaic.Lib.ValueIdx
import proofs.«415324_j50955491999984_1_alg».proof.Proof.LibScatterRows

/-!
# The host's scatter-add of rows in a program's spelling, read at an index

A program states `out = operand.at[idx].add(updates)` as `Host.scatterAdd` at its dimension numbers. At the ideal
values, for the dimension numbers of a row scatter, the result at `(r, c)` is the operand's entry plus the sum, over
the update rows `n` whose start row is `r`, of `updates (n, c)`. Stated over variable arrays: a use site names its own
arrays as arguments.
-/

noncomputable section

namespace Idealize.ShloMosaic.ScatterRows

open Idealize.ShloMosaic Idealize.ShloMosaic.ValueIdx

variable {R C N : Nat}

/-- THE PROGRAM'S ROW SCATTER-ADD AT AN INDEX. -/
theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.Agg.lean ====
/-
  The neighbour sum of one layer, as both programs spell it on the host: every edge (src, dst) adds the source node's
  feature row into the target node's row of a zero array. A negative source index is first wrapped by the node count
  (Python indexing), the gather then clamps it into range, and the scatter-add drops an edge whose target is out of
  range. Every entry of the result is therefore a finite sum of entries of the feature array: real whenever they are.
-/
import Idealize.ShloMosaic.PureOps
import Idealize.ShloMosaic.PureOps.Contract
import Idealize.ShloMosaic.PureOps.Ideal
import Idealize.ShloMosaic.Lib.ValueIdx
import Idealize.ShloMosaic.PureOps.Ideal.Laws
import proofs.«415324_j50955491999984_1_alg».proof.Proof.Spec
import proofs.«415324_j50955491999984_1_alg».proof.Proof.LibGather2
import proofs.«415324_j50955491999984_1_alg».proof.Proof.LibScatterRows
import proofs.«415324_j50955491999984_1_alg».proof.Proof.LibScatterHost

noncomputable section

namespace Cert.Gin

open Idealize.ShloMosaic Idealize.ShloMosaic.ValueIdx

/-- A scalar. -/
abbrev S0 : Shape := ⟨0, ![]⟩
/-- One 32-bit integer per edge. -/
abbrev SE : Shape := ⟨1, ![1600000]⟩
/-- The same as a [1600000, 1] column of start indices. -/
abbrev SE1 : Shape := ⟨2, ![1600000, 1]⟩
/-- One feature row per edge. -/
abbrev SE64 : Shape := ⟨2, ![1600000, 64]⟩

/-- The edge list: row 0 the sources, row 1 the targets. -/
abbrev S2E : Shape := ⟨2, ![2, 1600000]⟩
/-- One row of the edge list. -/
abbrev S1E : Shape := ⟨2, ![1, 1600000]⟩

theorem slices_row0 : S2E.Slices ![0, 0] S1E := by decide
theorem slices_row1 : S2E.Slices ![1, 0] S1E := by decide
theorem casts_S1E_SE : S1E.ShapeCasts SE := by decide

/-- The edges' source nodes: row 0 of the edge list. -/
def srcOf (e : IVec S2E 32) : IVec SE 32 := shapeCast SE (extractStridedSlice S1E ![0, 0] e slices_row0) casts_S1E_SE
/-- The edges' target nodes: row 1 of the edge list. -/
def dstOf (e : IVec S2E 32) : IVec SE 32 := shapeCast SE (extractStridedSlice S1E ![1, 0] e slices_row1) casts_S1E_SE

theorem bcast_S0_SE : S0.BroadcastsInDim SE (![] : Fin 0 → Fin SE.rank) := by decide
theorem bcast_SE_SE1 : SE.BroadcastsInDim SE1 (![0] : Fin 1 → Fin SE1.rank) := by decide
theorem bcast_S0_SN64 : S0.BroadcastsInDim SN64 (![] : Fin 0 → Fin SN64.rank) := by decide
theorem gather_wf : GatherDims.WF SN64 SE1 SE64 [1] [0] [] [0] [] 1 ![1, 64] := by decide
theorem scatter_wf : ScatterDims.WF SN64 SE1 SE64 [1] [0] [0] 1 := by decide

/-- Rows of the [100000, 64] array at a column of start indices. -/
def gatherD : GatherDims SN64 SE1 SE64 where
  offsetDims := [1]
  collapsedSliceDims := [0]
  operandBatchingDims := []
  startIndicesBatchingDims := []
  startIndexMap := [0]
  indexVectorDim := 1
  sliceSizes := ![1, 64]
  wf := gather_wf

/-- Rows added into the [100000, 64] array at a column of start indices. -/
def scatterD : ScatterDims SN64 SE1 SE64 where
  updateWindowDims := [1]
  insertedWindowDims := [0]
  scatterDimsToOperandDims := [0]
  indexVectorDim := 1
  wf := scatter_wf

/-- The source indices, a negative one wrapped by the node count, as a column of start indices. -/
def srcCol (src : IVec SE 32) : IVec SE1 32 :=
  broadcastInDim SE1 ![0] bcast_SE_SE1
    (select (cmpi .slt src (broadcastInDim SE ![] bcast_S0_SE (constantI S0 32 0#32)))
      (addi src (broadcastInDim SE ![] bcast_S0_SE (constantI S0 32 100000#32))) src)

/-- The target indices as a column of start indices. -/
def dstCol (dst : IVec SE 32) : IVec SE1 32 := broadcastInDim SE1 ![0] bcast_SE_SE1 dst

/-- The neighbour sum: the gathered source rows scatter-added into the zero array at the target rows. -/
def aggOf (src dst : IVec SE 32) (h : SN64.Idx → EReal) : SN64.Idx → EReal :=
  Host.scatterAdd (F := Ideal) (φ := .f32) scatterD
    (broadcastInDim SN64 ![] bcast_S0_SN64 (constant (F := Ideal) S0 .f32 0x00000000#32)) (dstCol dst)
    (Host.gather gatherD h (srcCol src))

/-- A finite sum of real numbers, taken in the extended reals, is the real sum. -/
theorem sum_coe {ι : Type} (s : Finset ι) (t : ι → ℝ) : ((∑ n ∈ s, t n : ℝ) : EReal) = ∑ n ∈ s, (t n : EReal) := by
  classical
  induction s using Finset.induction_on with
  | empty => simp
  | insert a s ha ih => rw [Finset.sum_insert ha, Finset.sum_insert ha, EReal.coe_add, ih]

/-- The neighbour sum of real entries has real entries. -/
theorem aggOf_fin (src dst : IVec SE 32) (h : SN64.Idx → EReal) (hh : FinArr h) : FinArr (aggOf src dst h) := by
  intro i
  obtain ⟨r, c, rfl⟩ : ∃ (r : Fin 100000) (c : Fin 64), i = ix2 r c := ⟨i 0, i 1, eq_ix2 i⟩
  -- the entry is the zero plus the sum, over the edges that target row `r`, of the gathered entries
  have key : aggOf src dst h (ix2 r c)
      = (broadcastInDim SN64 ![] bcast_S0_SN64 (constant (F := Ideal) S0 .f32 0x00000000#32) : SN64.Idx → EReal) (ix2 r c)
        + ∑ n : Fin 1600000, if ((dstCol dst) (ix2 n (0 : Fin 1))).toInt = (r.val : Int)
            then Host.gather gatherD h (srcCol src) (ix2 n c) else 0 :=
    ScatterRows.host_scatterAdd_apply scatter_wf _ (dstCol dst) (Host.gather gatherD h (srcCol src)) r c
  rw [key]
  -- every summand is real: a gathered entry is an entry of `h`
  have hg : ∀ n : Fin 1600000, ∃ t : ℝ, (if ((dstCol dst) (ix2 n (0 : Fin 1))).toInt = (r.val : Int)
      then Host.gather gatherD h (srcCol src) (ix2 n c) else 0) = (t : EReal) := by
    intro n
    split
    · rw [LibGather2.gather_rows_apply (by decide) gatherD rfl rfl rfl rfl rfl rfl rfl h (srcCol src) n c]
      exact hh _
    · exact ⟨0, by simp⟩
  choose t ht using hg
  have hs : (∑ n : Fin 1600000, if ((dstCol dst) (ix2 n (0 : Fin 1))).toInt = (r.val : Int)
      then Host.gather gatherD h (srcCol src) (ix2 n c) else 0) = ((∑ n : Fin 1600000, t n : ℝ) : EReal) := by
    rw [Finset.sum_congr rfl fun n _ => ht n]
    exact (sum_coe Finset.univ t).symm
  rw [hs]
  refine ⟨0 + ∑ n : Fin 1600000, t n, ?_⟩
  have hz : (broadcastInDim SN64 ![] bcast_S0_SN64 (constant (F := Ideal) S0 .f32 0x00000000#32) : SN64.Idx → EReal) (ix2 r c)
      = ((0 : ℝ) : EReal) := by
    show Ideal.ofBits .f32 0x00000000#32 = _
    rw [Ideal.ofBits_zero_f32]; rfl
  rw [hz, EReal.coe_add]

end Cert.Gin

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KReg0.lean ====
/-
  The embedding region as one whole-array function.

  The region's grid has 20 points; point `t` reads rows `5000·t … 5000·t + 4999` of the column of atom types and the
  whole 120-row table, and writes the same rows of the result. At a row `p` of the block and a column `q` the body
  forms the matrix product of the row's indicator vector — entry `v` is 1 where the 32-bit word of `v` equals the
  row's atom type, else 0 — with the table: the sum over the 120 table rows of indicator × table entry. An atom type
  below 120 matches exactly one `v`, so the sum is that one table entry: the table looked up at the atom type.
  The 20 row blocks tile the 100000 rows, so the result array is the lookup of every row.
-/
import proofs.«415324_j50955491999984_1_alg».proof.Proof.Gen.KernelIdeal.Frame
import proofs.«415324_j50955491999984_1_alg».proof.Proof.Spec
import proofs.«415324_j50955491999984_1_alg».proof.Proof.LibPlainMatmul
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg0

open Idealize.ShloMosaic Idealize.ShloMosaic.TcCoe Idealize.SL.Sem Idealize.ShloMosaic.ValueIdx Cert.KernelIdeal Cert.KernelIdeal.Gen
open Idealize.ShloMosaic.Pipeline (Dat)

/-! ## The indicator entry -/

/-- The indicator of two 32-bit words, as the body forms it: the one-bit comparison widened to 32 bits and read as a
    signed integer is 1 where the words are equal and 0 elsewhere. -/
theorem indicator_val (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℤ) : ℝ) : EReal) = 1
    rw [beq_self_eq_true, show ((BitVec.ofBool true).setWidth 32).toInt = 1 from by decide, Int.cast_one, EReal.coe_one]
  · rw [if_neg h]
    show (((((BitVec.ofBool (a == b)).setWidth 32).toInt : ℤ) : ℝ) : EReal) = 0
    rw [beq_eq_false_iff_ne.mpr h, show ((BitVec.ofBool false).setWidth 32).toInt = 0 from by decide, Int.cast_zero, EReal.coe_zero]

/-- Among the row numbers below 120, only the number of a word below 120 has that word. -/
theorem word_eq_iff (w : BitVec 32) (h : w.toNat < 120) (v : Fin 120) :
    BitVec.ofNat 32 v.val = w ↔ v = ⟨w.toNat, h⟩ := by
  constructor
  · intro e
    apply Fin.ext
    have := congrArg BitVec.toNat e
    rw [BitVec.toNat_ofNat] at this
    have hv := v.isLt
    show v.val = w.toNat
    omega
  · intro e
    subst e
    apply BitVec.eq_of_toNat_eq
    rw [BitVec.toNat_ofNat]
    show w.toNat % 2 ^ 32 = w.toNat
    omega

/-- Row `p`, entry `v` of the left operand: the column of atom types is spread along the 120 entries, compared with
    the entry's own number, and the comparison read as a number; the change of float format keeps the value. -/
theorem indicator_entry (x0 : Vec Ideal S5000x1 .i32) (hs : S5000x1.ShapeCasts S5000x1) (hi : S5000x120.Iotas .tc 32 [1])
    (hb : S5000x1.Broadcasts S5000x120) (h1 : 1 < 32) (hf : FTy.bits .bf16 < FTy.bits .f32) (p : Fin 5000) (v : Fin 120) :
    (truncf .bf16 (sitofp .f32 (extui 32 (cmpi .eq (iota .tc S5000x120 32 [1] hi)
        (broadcastTo S5000x120 (shapeCast S5000x1 x0 hs) hb)) h1) : FVec Ideal S5000x120 .f32) hf : FVec Ideal S5000x120 .bf16) (ix2 p v)
      = if BitVec.ofNat 32 v.val = x0 (ix2 p (0 : Fin 1)) then 1 else 0 := by
  rw [truncf_apply, sitofp_apply, extui_apply]
  show FloatOps.sitofp .f32 ((IntOp.cmpi .eq (iota .tc S5000x120 32 [1] hi (ix2 p v))
    (broadcastTo S5000x120 (shapeCast S5000x1 x0 hs) hb (ix2 p v))).setWidth 32) = _
  rw [iota_single_apply, shapeCast_self, Cert.Lib.broadcastTo_a1_ab_apply, indicator_val]

/-! ## The body's payload at an index -/

/-- The printed dimension numbers are the plain ones: contract axis 1 of the left operand with axis 0 of the right. -/
theorem dims_plain : dot_S5000x120_S120x64_S5000x64_1_0_0_1_n_n = DotDims.plain 5000 120 64 := rfl

/-- Row `p`, column `q` of the body's product: the table's row at the row's atom type `w`, when `w` is below 120.
    The product is the sum over the table's rows of indicator times table entry; every term but the one at `w` is
    zero times something, and that one is one times the entry. -/
theorem payload_apply (x0 : Vec Ideal S5000x1 .i32) (tbl : Vec Ideal S120x64 .f32) (p : Fin 5000) (q : Fin 64)
    (w : BitVec 32) (hw : x0 (ix2 p (0 : Fin 1)) = w) (h : w.toNat < 120) :
    (k0_pay1 (F := Ideal) x0 tbl : S5000x64.Idx → EReal) (ix2 p q) = tbl (ix2 (⟨w.toNat, h⟩ : Fin 120) q) := by
  unfold k0_pay1
  dsimp only
  rw [dims_plain]
  refine (Cert.Lib.matmul_plain_zero_apply 5000 120 64 none _ _ (ix2 p q)).trans ?_
  refine Eq.trans (b := ∑ v : Fin 120, (if BitVec.ofNat 32 v.val = w then (1 : EReal) else 0) * tbl (ix2 v q)) ?_ ?_
  · refine Finset.sum_congr rfl fun v _ => ?_
    refine congrArg₂ (· * ·) ?_ rfl
    exact (indicator_entry x0 _ _ _ _ _ p v).trans (by rw [hw])
  · rw [Finset.sum_eq_single (⟨w.toNat, h⟩ : Fin 120)]
    · rw [if_pos ((word_eq_iff w h _).mpr rfl), one_mul]
    · intro v _ hv
      rw [if_neg (fun e => hv ((word_eq_iff w h v).mp e)), zero_mul]
    · intro hn
      exact absurd (Finset.mem_univ _) hn

/-! ## The blocks -/

theorem zero_off : (![0, 0] : Fin 2 → Nat) = fun _ => 0 := funext fun a => by
  match a with
  | ⟨0, _⟩ => rfl
  | ⟨1, _⟩ => rfl

/-- The printed index maps over the grid: point `t` takes row block `t` of the column of atom types and of the result,
    and the one block of the table. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the lookup. -/
theorem flushed_eq (c : Dev nD) (x : IVec Cert.Gin.SN2 32) (hx : Cert.Gin.InRange x)
    (hV : (V c main_v6 : IVec Cert.Gin.SN1 32) = Cert.Gin.x0col x) (t : Fin cfg0.N) :
    (dat0 (F := Ideal) V c).flushed 2 t
      = ((cfg0.win 2).blk t).view.read (Elt Ideal) (Cert.Gin.lookup x hx (V c main_arg2)) := by
  show (cfg0.win 2).cut (grid0.coords t) ((dat0 V c).after 2 t) = _
  rw [after0_2]
  unfold out0_2
  rw [View.canon_unit_zero zero_off]
  simp only [View.ld_unit_zero (S := S5000x1) zero_off, View.ld_unit_zero (S := S120x64) zero_off]
  obtain ⟨e00, e01, e10, e11, e20, e21⟩ := block_index t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.Gin.lookup x hx (V c main_arg2) (((cfg0.win 2).blk t).view.emb (ix2 p q))
  have ht : t.val < 20 := t.isLt.trans_eq N_0
  have hp := p.isLt
  have hrow : 5000 * t.val + p.val < 100000 := by omega
  -- the array row of the block's row `p`
  let r : Fin 100000 := ⟨5000 * t.val + p.val, hrow⟩
  have hA : ((cfg0.win 2).blk t).view.emb (ix2 p q) = (ix2 r q : S100000x64.Idx) := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  have hB : ((cfg0.win 0).blk t).view.emb (ix2 p (0 : Fin 1)) = (ix2 r (0 : Fin 1) : S100000x1.Idx) := by
    funext a; apply Fin.ext
    match a with
    | ⟨0, _⟩ => show win0_0.index t (0 : Fin 2) * 5000 + 1 * p.val = 5000 * t.val + p.val; omega
    | ⟨1, _⟩ => show win0_0.index t (1 : Fin 2) * 1 + 1 * 0 = 0; omega
  have hC : ∀ k : Fin 120, ((cfg0.win 1).blk t).view.emb (ix2 k q) = (ix2 k q : S120x64.Idx) := fun k => by
    funext a; apply Fin.ext
    match a with
    | ⟨0, _⟩ => show win0_1.index t (0 : Fin 2) * 120 + 1 * k.val = k.val; omega
    | ⟨1, _⟩ => show win0_1.index t (1 : Fin 2) * 64 + 1 * q.val = q.val; omega
  have hw : (iblk0 V c 0 t : Vec Ideal S5000x1 .i32) (ix2 p (0 : Fin 1)) = x (ix2 r (0 : Fin 2)) := by
    show (V c main_v6 : IVec Cert.Gin.SN1 32) (((cfg0.win 0).blk t).view.emb (ix2 p (0 : Fin 1))) = _
    rw [hB, hV]
    rfl
  rw [payload_apply (iblk0 V c 0 t) (iblk0 V c 1 t) p q (x (ix2 r (0 : Fin 2))) hw (hx r), hA]
  show V c main_arg2 (((cfg0.win 1).blk t).view.emb (ix2 _ q)) = V c main_arg2 (ix2 _ q)
  rw [hC]

/-- An index of the result array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v7).slice (win0_2.rect t)).set ↔ _
  rw [View.set_slice_whole, Rect.mem_set_unit]
  exact Iff.rfl

/-- Every index of the result array is in some point's block: row `r` is in block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := (show (i 0).val / 5000 < 20 by omega).trans_eq N_0.symm
  refine ⟨⟨(i 0).val / 5000, hN⟩, flush0_2 _, ?_⟩
  obtain ⟨-, -, -, -, e20, e21⟩ := block_index ⟨(i 0).val / 5000, hN⟩
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, hN⟩ (1 : Fin 2) * 64 ≤ (i 1).val
      ∧ (i 1).val < win0_2.index ⟨(i 0).val / 5000, hN⟩ (1 : Fin 2) * 64 + 64
    rw [e21]
    omega

/-- The result array after the region: the table looked up at every row's atom type. -/
theorem final0 (V : (c : Dev nD) → (b : Ref sig .tc) → Buf (Elt Ideal) ((c : Thread nD τ).loc b)) (c : Dev nD)
    (x : IVec Cert.Gin.SN2 32) (hx : Cert.Gin.InRange x) (hV : (V c main_v6 : IVec Cert.Gin.SN1 32) = Cert.Gin.x0col x) :
    ((dat0 (F := Ideal) V c).arrAt 2 cfg0.N : Cert.Gin.SN64.Idx → EReal) = Cert.Gin.lookup x hx (V c main_arg2) :=
  (dat0 (F := Ideal) V c).arrAt_eq_of_cover 2 (Cert.Gin.lookup x hx (V c main_arg2))
    (fun t _ => flushed_eq V c x hx hV t) covered

end Cert.KernelIdeal.KReg0

end
-- ==== Proof.KStart.lean ====
/-
  The start of the idealized kernel program, read through the buffer contents of the generated run.

  Before the first region the host cuts the edge list into its two rows (the source nodes and the target nodes, each
  flattened to a vector) and cuts column 0 of the node attributes out as a [100000, 1] column. The first region is the
  embedding lookup: a one-hot matrix of that column times the table. So at the first region's exit
    * the embedding buffer holds row x[i, 0] of the launched table at node i,
    * the two edge-index buffers hold rows 0 and 1 of the launched edge list,
  and the first region changes no buffer but its own output.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg0
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KStart

open Idealize.ShloMosaic Idealize.ShloMosaic.TcCoe Idealize.SL.Sem Idealize.ShloMosaic.ValueIdx Cert.KernelIdeal Cert.KernelIdeal.Gen

/-- A [100000, 2] array cut to its column 0, flattened to a vector and set up again as a [100000, 1] column reads, at
    row r, the array at (r, 0): both reshapes keep the row-major position r, and the cut starts at column 0. -/
theorem col0_column_read (x : IVec S100000x2 32) (hs : S100000x2.Slices ![0, 0] S100000x1) (hc : S100000x1.ShapeCasts S100000)
    (hc' : S100000.ShapeCasts S100000x1) (r : Fin 100000) (u : Fin 1) :
    shapeCast S100000x1 (shapeCast S100000 (extractStridedSlice S100000x1 ![0, 0] x hs) hc) hc' (ix2 r u)
      = x (ix2 r (0 : Fin 2)) := by
  have hu : u.val = 0 := by omega
  rw [shapeCast_apply _ hc' (ix2 r u) (ix1 r) (by
        rw [Shape.rowMajor_val_one, Shape.rowMajor_val_two]
        show r.val = r.val * 1 + u.val
        omega),
      shapeCast_apply _ hc (ix1 r) (ix2 r (0 : Fin 1)) (by
        rw [Shape.rowMajor_val_one, Shape.rowMajor_val_two]
        show r.val * 1 + 0 = r.val
        omega)]
  exact slice2_axis1_apply 0 x hs r (0 : Fin 1) (0 : Fin 2) rfl

/-- At the first region's exit the source-index buffer holds row 0 of the launched edge list: the host cut it out before
    the region, and the region writes only its own output. -/
theorem src (m : (ℓ : Loc nD τ sig) → Buf (Elt Ideal) ℓ) (ρ : Dev nD → PrngReg) (c : Dev nD) : (W2 (F := Ideal) m ρ c (Proc.devRef .tc main_v1) : IVec Cert.Gin.SE 32) = Cert.Gin.srcOf (m ((c : Thread nD τ).loc main_arg1)) := by
  refine (W2_of_ne m ρ c main_v1 (by decide)).trans ?_
  show StableHlo.after hostOps0 _ (Proc.devRef .tc main_v1) = _
  after_results
  rfl

/-- At the first region's exit the target-index buffer holds row 1 of the launched edge list, for the same two reasons. -/
theorem dst (m : (ℓ : Loc nD τ sig) → Buf (Elt Ideal) ℓ) (ρ : Dev nD → PrngReg) (c : Dev nD) : (W2 (F := Ideal) m ρ c (Proc.devRef .tc main_v3) : IVec Cert.Gin.SE 32) = Cert.Gin.dstOf (m ((c : Thread nD τ).loc main_arg1)) := by
  refine (W2_of_ne m ρ c main_v3 (by decide)).trans ?_
  show StableHlo.after hostOps0 _ (Proc.devRef .tc main_v3) = _
  after_results
  rfl

/-- At the first region's entry the atom-type column holds column 0 of the launched node attributes. -/
theorem atoms (m : (ℓ : Loc nD τ sig) → Buf (Elt Ideal) ℓ) (ρ : Dev nD → PrngReg) (c : Dev nD) : (V1 (F := Ideal) m ρ c main_v6 : IVec Cert.Gin.SN1 32) = Cert.Gin.x0col (m ((c : Thread nD τ).loc main_arg0)) := by
  show StableHlo.after hostOps0 _ (Proc.devRef .tc main_v6) = _
  after_results
  funext j
  exact (congrArg _ (eq_ix2 j)).trans (col0_column_read _ _ _ _ (j 0) (j 1))

/-- The host operations before the first region do not write the table: it is entered as launched. -/
theorem table (m : (ℓ : Loc nD τ sig) → Buf (Elt Ideal) ℓ) (ρ : Dev nD → PrngReg) (c : Dev nD) : V1 (F := Ideal) m ρ c main_arg2 = m ((c : Thread nD τ).loc main_arg2) := by
  show StableHlo.after hostOps0 _ (Proc.devRef .tc main_arg2) = _
  after_results

/-- At the first region's exit the embedding buffer holds, at node i, row x[i, 0] of the launched table: the region's
    output array is that buffer, the region computes the lookup of its entry contents, and those are the launched
    column 0 and the launched table. -/
theorem embed (m : (ℓ : Loc nD τ sig) → Buf (Elt Ideal) ℓ) (ρ : Dev nD → PrngReg) (c : Dev nD) (hx : Cert.Gin.InRange (m ((c : Thread nD τ).loc main_arg0))) :
    (W2 (F := Ideal) m ρ c (Proc.devRef .tc main_v7) : Cert.Gin.SN64.Idx → EReal)
      = Cert.Gin.lookup (m ((c : Thread nD τ).loc main_arg0)) hx (m ((c : Thread nD τ).loc main_arg2)) := by
  refine (W2_arr m ρ c 2).trans ?_
  refine (KReg0.final0 (V1 m ρ) c _ hx (atoms m ρ c)).trans ?_
  exact congrArg (Cert.Gin.lookup _ hx) (table m ρ c)

end Cert.KernelIdeal.KStart

end
-- ==== Proof.KReg1.lean ====
/-
  The column statistics of one layer: what the two [1, 64] outputs of the statistics kernel hold when its grid of 20
  points has run, at any contents of the TensorCore's buffers on entry.

  The kernel walks the 100000 rows of two [100000, 64] arrays — the neighbour sums `A` and the features `h` — in 20 blocks
  of 5000 rows. With `a = A + (1/2)·h`, point 0 stores the zero row into both outputs, and every point adds to the first
  output the sums of `a` down the 5000 rows of its block, column by column, and to the second the sums of `a·a`. The
  outputs' block index never moves, so each is carried from point to point and written back once, after point 19.

  Read over the extended reals: after point `n` column `d` of the first output is the sum of `a(·, d)` over the rows below
  `5000·(n + 1)` (by induction on the point; addition of extended reals is associative and zero is its unit, so no
  finiteness is asked), hence after point 19 the sum over all rows; the second output likewise with `a·a`. The one
  write-back writes block (0, 0), which is the whole [1, 64] array.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KReg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each kind of point leaves in the two outputs

The first point stores the zero row, reads it back and stores the sum's update over it; every later point reads what the
point before left and stores the update. In each case the last store covers the block, so the block holds that store's
payload, with every load read at the contents it loads. -/

section Pieces
variable {F : FTy → Type} [FloatOps F]

/-- Zero offsets, as the stores and loads spell them. -/
theorem hz : (![0, 0] : Fin 2 → Nat) = fun _ => 0 := funext fun a => by fin_cases a <;> rfl

/-- A later point leaves in the first output the sum's update of what it held. -/
theorem out_B_sum (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond1_0 i)
    (x0 x1 : Vec F S5000x64 .f32) (xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread,
    View.ld_unit_zero (S := S5000x64) hz, View.ld_unit_zero (S := S1x64) hz]

/-- A later point leaves in the second output the squares' update of what it held. -/
theorem out_B_sq (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond1_0 i)
    (x0 x1 : Vec F S5000x64 .f32) (xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread,
    View.ld_unit_zero (S := S5000x64) hz, View.ld_unit_zero (S := S1x64) hz]

/-- The first point leaves in the first output the sum's update of the zero row it has just stored and read back. -/
theorem out_A_sum (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond1_0 i)
    (x0 x1 : Vec F S5000x64 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

/-- The first point leaves in the second output the squares' update of the zero row. -/
theorem out_A_sq (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond1_0 i)
    (x0 x1 : Vec F S5000x64 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Pieces

/-! ## The arithmetic of one point, read at an index over the extended reals -/

/-- The block the first point stores into the first output before adding: every entry is zero. -/
theorem zeroSum_apply (u : Fin 1) (d : Fin 64) : k1_pay1 (F := Ideal) (ix2 u d) = 0 :=
  Ideal.ofBits_zero_f32

/-- Likewise for the second output. -/
theorem zeroSq_apply (u : Fin 1) (d : Fin 64) : k1_pay2 (F := Ideal) (ix2 u d) = 0 :=
  Ideal.ofBits_zero_f32

/-- The summand: the neighbour-sum block plus one half of the feature block, entry by entry. -/
theorem summand_apply (x0 x1 : Vec Ideal S5000x64 .f32) (r : Fin 5000) (d : Fin 64) :
    k1_pay3 (F := Ideal) x0 x1 (ix2 r d) = x0 (ix2 r d) + Cert.Gin.half * x1 (ix2 r d) := by
  unfold k1_pay3
  simp only [shapeCast_self]
  rfl

/-- The first output after a point: what it held, plus the sum of the summand down the block's 5000 rows
    (the reduction over the row axis is a sum over that axis's coordinates; the cast from [64] to [1, 64]
    keeps the column). -/
theorem stepSum_apply (x0 x1 : Vec Ideal S5000x64 .f32) (acc : Vec Ideal S1x64 .f32) (u : Fin 1) (d : Fin 64) :
    k1_pay4 (F := Ideal) x0 x1 acc (ix2 u d)
      = acc (ix2 u d) + ∑ r : Fin 5000, (x0 (ix2 r d) + Cert.Gin.half * x1 (ix2 r d)) := by
  unfold k1_pay4
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (k1_pay3 (F := Ideal) x0 x1) 0x00000000#32 reduces_S5000x64_S64 (.inl rfl) rfl (ix1 d)).trans ?_
  refine Finset.sum_congr rfl fun r _ => ?_
  exact summand_apply x0 x1 r d

/-- The second output after a point: what it held, plus the sum of the summand's squares down the block's rows. -/
theorem stepSq_apply (x0 x1 : Vec Ideal S5000x64 .f32) (acc : Vec Ideal S1x64 .f32) (u : Fin 1) (d : Fin 64) :
    k1_pay5 (F := Ideal) x0 x1 acc (ix2 u d)
      = acc (ix2 u d) + ∑ r : Fin 5000, ((x0 (ix2 r d) + Cert.Gin.half * x1 (ix2 r d))
          * (x0 (ix2 r d) + Cert.Gin.half * x1 (ix2 r d))) := by
  unfold k1_pay5
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (mulf (k1_pay3 (F := Ideal) x0 x1) (k1_pay3 (F := Ideal) x0 x1)) 0x00000000#32
    reduces_S5000x64_S64 (.inl rfl) rfl (ix1 d)).trans ?_
  refine Finset.sum_congr rfl fun r _ => ?_
  show k1_pay3 (F := Ideal) x0 x1 (ix2 r d) * k1_pay3 (F := Ideal) x0 x1 (ix2 r d) = _
  exact congrArg₂ (· * ·) (summand_apply x0 x1 r d) (summand_apply x0 x1 r d)

/-! ## The blocks of a point, read off the arrays -/

section Values

variable (V : (c : Dev nD) → (b : Ref sig .tc) → Buf (Elt Ideal) ((c : Thread nD τ).loc b))

/-- The neighbour-sum block and the feature block of point `t`, and the two arrays, at their literal types. -/
abbrev blkA (c : Dev nD) (t : Fin cfg1.N) : Vec Ideal S5000x64 .f32 := iblk1 (F := Ideal) V c 0 t
abbrev blkH (c : Dev nD) (t : Fin cfg1.N) : Vec Ideal S5000x64 .f32 := iblk1 (F := Ideal) V c 1 t
abbrev arrA (c : Dev nD) : Vec Ideal S100000x64 .f32 := V c main_v17
abbrev arrH (c : Dev nD) : Vec Ideal S100000x64 .f32 := V c main_v7

/-- Point `t` takes row block `t` and the one column block of each input. -/
theorem index_A : ∀ t : Fin cfg1.N, win1_0.index t 0 = t.val ∧ win1_0.index t 1 = 0 :=
  (by decide +kernel : ∀ t : Fin grid1.N, win1_0.index t 0 = t.val ∧ win1_0.index t 1 = 0)
theorem index_H : ∀ t : Fin cfg1.N, win1_1.index t 0 = t.val ∧ win1_1.index t 1 = 0 :=
  (by decide +kernel : ∀ t : Fin grid1.N, win1_1.index t 0 = t.val ∧ win1_1.index t 1 = 0)

/-- Row `r` of the neighbour-sum block of point `t` is row `5000 t + r` of the array. -/
theorem blkA_apply (c : Dev nD) (t : Fin cfg1.N) (r : Fin 5000) (d : Fin 64) (h : 5000 * t.val + r.val < 100000) :
    blkA V c t (ix2 r d) = arrA V c (ix2 ⟨5000 * t.val + r.val, h⟩ d) := by
  unfold blkA iblk1
  rw [View.read_apply]
  show V c main_v17 _ = V c main_v17 _
  congr 1
  funext a
  apply Fin.ext
  match a with
  | ⟨0, _⟩ => show win1_0.index t 0 * 5000 + 1 * r.val = 5000 * t.val + r.val; rw [(index_A t).1]; omega
  | ⟨1, _⟩ => show win1_0.index t 1 * 64 + 1 * d.val = d.val; rw [(index_A t).2]; omega

/-- Row `r` of the feature block of point `t` is row `5000 t + r` of the array. -/
theorem blkH_apply (c : Dev nD) (t : Fin cfg1.N) (r : Fin 5000) (d : Fin 64) (h : 5000 * t.val + r.val < 100000) :
    blkH V c t (ix2 r d) = arrH V c (ix2 ⟨5000 * t.val + r.val, h⟩ d) := by
  unfold blkH iblk1
  rw [View.read_apply]
  show V c main_v7 _ = V c main_v7 _
  congr 1
  funext a
  apply Fin.ext
  match a with
  | ⟨0, _⟩ => show win1_1.index t 0 * 5000 + 1 * r.val = 5000 * t.val + r.val; rw [(index_H t).1]; omega
  | ⟨1, _⟩ => show win1_1.index t 1 * 64 + 1 * d.val = d.val; rw [(index_H t).2]; omega

end Values

/-! ## Column sums over row ranges -/

/-- Column `d` of an array as a function of a natural row number: zero past the last row, so that a sum over a range
    of row numbers needs no bound in its statement. -/
def rowAt (a : Cert.Gin.SN64.Idx → EReal) (d : Fin 64) (k : ℕ) : EReal :=
  if h : k < 100000 then a (ix2 ⟨k, h⟩ d) else 0

/-- The column sum is the sum over the first 100000 row numbers. -/
theorem colSum_eq_range (a : Cert.Gin.SN64.Idx → EReal) (d : Fin 64) :
    Cert.Gin.colSum a d = ∑ k ∈ Finset.range 100000, rowAt a d k := by
  unfold Cert.Gin.colSum
  rw [← Fin.sum_univ_eq_sum_range (rowAt a d) 100000]
  refine Finset.sum_congr rfl fun i _ => ?_
  unfold rowAt
  rw [dif_pos i.isLt]

section Sums

variable (V : (c : Dev nD) → (b : Ref sig .tc) → Buf (Elt Ideal) ((c : Thread nD τ).loc b))

/-- What is summed: the neighbour sum plus one half of the features, over the whole arrays. -/
abbrev summand (c : Dev nD) : Cert.Gin.SN64.Idx → EReal := Cert.Gin.selfAdd (V c main_v17) (V c main_v7)
/-- and its square. -/
abbrev summandSq (c : Dev nD) : Cert.Gin.SN64.Idx → EReal := fun i => summand V c i * summand V c i

/-- The sum down the rows of point `n`'s blocks is the sum of the summand over row numbers `5000 n … 5000 n + 4999`. -/
theorem blockSum_eq (c : Dev nD) (n : ℕ) (h : n < cfg1.N) (d : Fin 64) :
    ∑ r : Fin 5000, (blkA V c ⟨n, h⟩ (ix2 r d) + Cert.Gin.half * blkH V c ⟨n, h⟩ (ix2 r d))
      = ∑ r ∈ Finset.range 5000, rowAt (summand V c) d (5000 * n + r) := by
  have hN : n < 20 := lt_of_lt_of_eq h (show cfg1.N = 20 from N_1)
  rw [← Fin.sum_univ_eq_sum_range (fun r => rowAt (summand V c) d (5000 * n + r)) 5000]
  refine Finset.sum_congr rfl fun r _ => ?_
  have hr : 5000 * n + r.val < 100000 := by have := r.isLt; omega
  show _ = rowAt (summand V c) d (5000 * n + r.val)
  unfold rowAt
  rw [dif_pos hr, blkA_apply V c ⟨n, h⟩ r d hr, blkH_apply V c ⟨n, h⟩ r d hr]
  rfl

/-- Likewise for the squares. -/
theorem blockSq_eq (c : Dev nD) (n : ℕ) (h : n < cfg1.N) (d : Fin 64) :
    ∑ r : Fin 5000, ((blkA V c ⟨n, h⟩ (ix2 r d) + Cert.Gin.half * blkH V c ⟨n, h⟩ (ix2 r d))
        * (blkA V c ⟨n, h⟩ (ix2 r d) + Cert.Gin.half * blkH V c ⟨n, h⟩ (ix2 r d)))
      = ∑ r ∈ Finset.range 5000, rowAt (summandSq V c) d (5000 * n + r) := by
  have hN : n < 20 := lt_of_lt_of_eq h (show cfg1.N = 20 from N_1)
  rw [← Fin.sum_univ_eq_sum_range (fun r => rowAt (summandSq V c) d (5000 * n + r)) 5000]
  refine Finset.sum_congr rfl fun r _ => ?_
  have hr : 5000 * n + r.val < 100000 := by have := r.isLt; omega
  show _ = rowAt (summandSq V c) d (5000 * n + r.val)
  unfold rowAt
  rw [dif_pos hr, blkA_apply V c ⟨n, h⟩ r d hr, blkH_apply V c ⟨n, h⟩ r d hr]
  rfl

/-! ## The two outputs after each point -/

/-- The first output after a point of the first kind: the zero block plus the point's row sums. -/
theorem pointA_sum (c : Dev nD) (t : Fin cfg1.N) (h0 : t.val % 20 = 0) :
    (outsAt1 (F := Ideal) V c t.val t.isLt).1 = k1_pay4 (F := Ideal) (blkA V c t) (blkH V c t) (k1_pay1 (F := Ideal)) := by
  rw [outsAt1_A V c t h0]
  dsimp only
  exact out_A_sum (F := Ideal) c (grid1.coords t) (ms1_0 t) (hs1_0 t) (ms1_1 t) (hs1_1 t) (ms1_2 t) (hs1_2 t) (ms1_3 t) (hs1_3 t)
    ((hcond1_0 t).mpr h0) (iblk1 (F := Ideal) V c 0 t) (iblk1 (F := Ideal) V c 1 t)

/-- The second output after a point of the first kind. -/
theorem pointA_sq (c : Dev nD) (t : Fin cfg1.N) (h0 : t.val % 20 = 0) :
    (outsAt1 (F := Ideal) V c t.val t.isLt).2 = k1_pay5 (F := Ideal) (blkA V c t) (blkH V c t) (k1_pay2 (F := Ideal)) := by
  rw [outsAt1_A V c t h0]
  dsimp only
  exact out_A_sq (F := Ideal) c (grid1.coords t) (ms1_0 t) (hs1_0 t) (ms1_1 t) (hs1_1 t) (ms1_2 t) (hs1_2 t) (ms1_3 t) (hs1_3 t)
    ((hcond1_0 t).mpr h0) (iblk1 (F := Ideal) V c 0 t) (iblk1 (F := Ideal) V c 1 t)

/-- The first output after a point of the second kind: what the point before left plus the point's row sums. -/
theorem pointB_sum (c : Dev nD) (t : Fin cfg1.N) (h0 : ¬t.val % 20 = 0) :
    (outsAt1 (F := Ideal) V c t.val t.isLt).1 = k1_pay4 (F := Ideal) (blkA V c t) (blkH V c t)
      (outsAt1 (F := Ideal) V c (t.val - 1) (Nat.lt_of_le_of_lt (Nat.sub_le _ _) t.isLt)).1 := by
  rw [outsAt1_B V c t h0]
  dsimp only
  exact out_B_sum (F := Ideal) c (grid1.coords t) (ms1_0 t) (hs1_0 t) (ms1_1 t) (hs1_1 t) (ms1_2 t) (hs1_2 t) (ms1_3 t) (hs1_3 t)
    (fun h => h0 ((hcond1_0 t).mp h)) (iblk1 (F := Ideal) V c 0 t) (iblk1 (F := Ideal) V c 1 t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2

/-- The second output after a point of the second kind. -/
theorem pointB_sq (c : Dev nD) (t : Fin cfg1.N) (h0 : ¬t.val % 20 = 0) :
    (outsAt1 (F := Ideal) V c t.val t.isLt).2 = k1_pay5 (F := Ideal) (blkA V c t) (blkH V c t)
      (outsAt1 (F := Ideal) V c (t.val - 1) (Nat.lt_of_le_of_lt (Nat.sub_le _ _) t.isLt)).2 := by
  rw [outsAt1_B V c t h0]
  dsimp only
  exact out_B_sq (F := Ideal) c (grid1.coords t) (ms1_0 t) (hs1_0 t) (ms1_1 t) (hs1_1 t) (ms1_2 t) (hs1_2 t) (ms1_3 t) (hs1_3 t)
    (fun h => h0 ((hcond1_0 t).mp h)) (iblk1 (F := Ideal) V c 0 t) (iblk1 (F := Ideal) V c 1 t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2

end Sums

section Run

variable (V : (c : Dev nD) → (b : Ref sig .tc) → Buf (Elt Ideal) ((c : Thread nD τ).loc b))

/-- THE INVARIANT of the first output: after point `n` its column `d` holds the sum of the summand over the rows below
    `5000 (n + 1)`. By induction on the point: the first point adds its block's rows to zero, every later point adds its
    block's rows to what the point before left, and a sum over a range splits at `5000 (n + 1)`. -/
theorem acc_sum (c : Dev nD) : ∀ (n : ℕ) (h : n < cfg1.N) (u : Fin 1) (d : Fin 64),
    (outsAt1 (F := Ideal) V c n h).1 (ix2 u d) = ∑ k ∈ Finset.range (5000 * (n + 1)), rowAt (summand V c) d k
  | 0, h, u, d => by
    refine (congrFun (pointA_sum V c ⟨0, h⟩ rfl) (ix2 u d)).trans ?_
    refine (stepSum_apply (blkA V c ⟨0, h⟩) (blkH V c ⟨0, h⟩) (k1_pay1 (F := Ideal)) u d).trans ?_
    rw [zeroSum_apply u d, zero_add, blockSum_eq V c 0 h d]
    refine Finset.sum_congr rfl fun r _ => ?_
    rw [Nat.mul_zero, Nat.zero_add]
  | n + 1, h, u, d => by
    have hN : n + 1 < 20 := lt_of_lt_of_eq h (show cfg1.N = 20 from N_1)
    have hB : ¬(⟨n + 1, h⟩ : Fin cfg1.N).val % 20 = 0 := by dsimp only; omega
    refine (congrFun (pointB_sum V c ⟨n + 1, h⟩ hB) (ix2 u d)).trans ?_
    refine (stepSum_apply (blkA V c ⟨n + 1, h⟩) (blkH V c ⟨n + 1, h⟩) _ u d).trans ?_
    show (outsAt1 (F := Ideal) V c n (Nat.lt_of_succ_lt h)).1 (ix2 u d) + _ = _
    rw [acc_sum c n (Nat.lt_of_succ_lt h) u d, blockSum_eq V c (n + 1) h d,
      show 5000 * (n + 1 + 1) = 5000 * (n + 1) + 5000 from by omega, Finset.sum_range_add]

/-- THE INVARIANT of the second output: the same with the summand's square. -/
theorem acc_sq (c : Dev nD) : ∀ (n : ℕ) (h : n < cfg1.N) (u : Fin 1) (d : Fin 64),
    (outsAt1 (F := Ideal) V c n h).2 (ix2 u d) = ∑ k ∈ Finset.range (5000 * (n + 1)), rowAt (summandSq V c) d k
  | 0, h, u, d => by
    refine (congrFun (pointA_sq V c ⟨0, h⟩ rfl) (ix2 u d)).trans ?_
    refine (stepSq_apply (blkA V c ⟨0, h⟩) (blkH V c ⟨0, h⟩) (k1_pay2 (F := Ideal)) u d).trans ?_
    rw [zeroSq_apply u d, zero_add, blockSq_eq V c 0 h d]
    refine Finset.sum_congr rfl fun r _ => ?_
    rw [Nat.mul_zero, Nat.zero_add]
  | n + 1, h, u, d => by
    have hN : n + 1 < 20 := lt_of_lt_of_eq h (show cfg1.N = 20 from N_1)
    have hB : ¬(⟨n + 1, h⟩ : Fin cfg1.N).val % 20 = 0 := by dsimp only; omega
    refine (congrFun (pointB_sq V c ⟨n + 1, h⟩ hB) (ix2 u d)).trans ?_
    refine (stepSq_apply (blkA V c ⟨n + 1, h⟩) (blkH V c ⟨n + 1, h⟩) _ u d).trans ?_
    show (outsAt1 (F := Ideal) V c n (Nat.lt_of_succ_lt h)).2 (ix2 u d) + _ = _
    rw [acc_sq c n (Nat.lt_of_succ_lt h) u d, blockSq_eq V c (n + 1) h d,
      show 5000 * (n + 1 + 1) = 5000 * (n + 1) + 5000 from by omega, Finset.sum_range_add]

/-- The last point. -/
abbrev tLast : Fin cfg1.N := ⟨19, by rw [show cfg1.N = 20 from N_1]; decide⟩

/-- The two results: row 0, column `d` holds the whole column sum of the summand, and of its square. -/
abbrev resultSum (c : Dev nD) : Vec Ideal S1x64 .f32 := fun j => Cert.Gin.colSum (summand V c) (j 1)
abbrev resultSq (c : Dev nD) : Vec Ideal S1x64 .f32 := fun j => Cert.Gin.colSum (summandSq V c) (j 1)

/-- After the last point the rows below `5000 · 20` are all the rows. -/
theorem last_sum (c : Dev nD) : (outsAt1 (F := Ideal) V c tLast.val tLast.isLt).1 = resultSum V c := by
  funext j
  refine (congrArg (outsAt1 (F := Ideal) V c tLast.val tLast.isLt).1 (eq_ix2 j)).trans ?_
  refine (acc_sum V c 19 tLast.isLt (j 0) (j 1)).trans ?_
  exact (colSum_eq_range (summand V c) (j 1)).symm

/-- Likewise for the squares. -/
theorem last_sq (c : Dev nD) : (outsAt1 (F := Ideal) V c tLast.val tLast.isLt).2 = resultSq V c := by
  funext j
  refine (congrArg (outsAt1 (F := Ideal) V c tLast.val tLast.isLt).2 (eq_ix2 j)).trans ?_
  refine (acc_sq V c 19 tLast.isLt (j 0) (j 1)).trans ?_
  exact (colSum_eq_range (summandSq V c) (j 1)).symm

/-! ## The one write-back -/

/-- Only the last point writes the first output back, and its block (0, 0) read through zero offsets is the array. -/
theorem flushed_sum (c : Dev nD) (t : Fin cfg1.N) (hf : (cfg1.win 2).flush t = true) :
    (dat1 (F := Ideal) V c).flushed 2 t = ((cfg1.win 2).blk t).view.read (Elt Ideal) (resultSum V c) := by
  have hN : cfg1.N = 20 := N_1
  have h19 : t.val = 19 := by have := (flush1_2 t).mp hf; have := t.isLt; omega
  obtain rfl : t = tLast := Fin.ext h19
  show (cfg1.win 2).cut (grid1.coords tLast) ((dat1 (F := Ideal) V c).after 2 tLast) = _
  rw [after1_2, last_sum]
  have hz' : (fun a => win1_2.index tLast a * main_v18_0.ty.shape.size a) = fun _ => 0 :=
    funext fun a => by fin_cases a <;> decide +kernel
  exact (Memref.read_access_unit_zero (Elt Ideal) main_v18_0 hz' (fun a => by rw [congrFun hz' a]; simp) (resultSum V c)).symm

/-- Likewise for the second output. -/
theorem flushed_sq (c : Dev nD) (t : Fin cfg1.N) (hf : (cfg1.win 3).flush t = true) :
    (dat1 (F := Ideal) V c).flushed 3 t = ((cfg1.win 3).blk t).view.read (Elt Ideal) (resultSq V c) := by
  have hN : cfg1.N = 20 := N_1
  have h19 : t.val = 19 := by have := (flush1_3 t).mp hf; have := t.isLt; omega
  obtain rfl : t = tLast := Fin.ext h19
  show (cfg1.win 3).cut (grid1.coords tLast) ((dat1 (F := Ideal) V c).after 3 tLast) = _
  rw [after1_3, last_sq]
  have hz' : (fun a => win1_3.index tLast a * main_v18_1.ty.shape.size a) = fun _ => 0 :=
    funext fun a => by fin_cases a <;> decide +kernel
  exact (Memref.read_access_unit_zero (Elt Ideal) main_v18_1 hz' (fun a => by rw [congrFun hz' a]; simp) (resultSq V c)).symm

end Run

/-! ## The result arrays -/

section Final

/-- The first output array ends holding, in column `d` of its one row, the column sum of the neighbour sum plus one half
    of the features: the last point's block covers the array, and no other point writes it back. -/
theorem final1_sum (V : (c : Dev nD) → (b : Ref sig .tc) → Buf (Elt Ideal) ((c : Thread nD τ).loc b)) (c : Dev nD) :
    ((dat1 (F := Ideal) V c).arrAt 2 cfg1.N : Cert.Gin.S164.Idx → EReal)
      = fun j => Cert.Gin.colSum (Cert.Gin.selfAdd (V c main_v17) (V c main_v7)) (j 1) :=
  (dat1 (F := Ideal) V c).arrAt_eq_of_cover 2 (resultSum V c) (flushed_sum V c) fun i =>
    ⟨tLast, (flush1_2 tLast).mpr rfl, by
      show i ∈ ((View.whole main_v18_0).slice (win1_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]
        omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 64 from by decide +kernel]
        omega⟩

/-- The second output array ends holding the column sums of the square of the same summand. -/
theorem final1_sq (V : (c : Dev nD) → (b : Ref sig .tc) → Buf (Elt Ideal) ((c : Thread nD τ).loc b)) (c : Dev nD) :
    ((dat1 (F := Ideal) V c).arrAt 3 cfg1.N : Cert.Gin.S164.Idx → EReal)
      = fun j => Cert.Gin.colSum (fun i => Cert.Gin.selfAdd (V c main_v17) (V c main_v7) i
          * Cert.Gin.selfAdd (V c main_v17) (V c main_v7) i) (j 1) :=
  (dat1 (F := Ideal) V c).arrAt_eq_of_cover 3 (resultSq V c) (flushed_sq V c) fun i =>
    ⟨tLast, (flush1_3 tLast).mpr rfl, by
      show i ∈ ((View.whole main_v18_1).slice (win1_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_3.index tLast 0 * win1_3.size 0 ≤ (i 0 : Nat)
          ∧ (i 0 : Nat) < win1_3.index tLast 0 * win1_3.size 0 + win1_3.xsize (grid1.coords tLast) 0
        rw [show win1_3.index tLast 0 * win1_3.size 0 = 0 from by decide +kernel,
          show win1_3.xsize (grid1.coords tLast) 0 = 1 from by decide +kernel]
        omega
      | ⟨1, _⟩ =>
        show win1_3.index tLast 1 * win1_3.size 1 ≤ (i 1 : Nat)
          ∧ (i 1 : Nat) < win1_3.index tLast 1 * win1_3.size 1 + win1_3.xsize (grid1.coords tLast) 1
        rw [show win1_3.index tLast 1 * win1_3.size 1 = 0 from by decide +kernel,
          show win1_3.xsize (grid1.coords tLast) 1 = 64 from by decide +kernel]
        omega⟩

end Final

end Cert.KernelIdeal.KReg1

end
-- ==== Proof.KReg2.lean ====
/-
  The normalisation kernel's output as one whole-array function.

  The kernel walks the [100000, 64] arrays in 20 blocks of 5000 rows. At each block it reads the block of the
  neighbour sums `A` and of the features `h` at the same rows, and the two [1, 64] rows of column statistics (the
  column means `mu` and the reciprocal standard deviations `iv`, each a single block that is the whole row), and
  writes, at row `p` and column `q` of the block,

      (A[r, q] + (1/2) · h[r, q] − mu[0, q]) · iv[0, q],        r = 5000 · t + p   at block `t`.

  The blocks tile the rows (row `r` lies in block `r / 5000`), every block is written back, and what block `t` writes
  is the restriction to its rows of one function of the whole arrays; so the output array is that function:
  entry `(r, q)` depends on row `r` of `A` and `h` and on column `q` of the two statistics rows only.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The zero offsets of a whole-block rectangle, spelt as a constant function. -/
theorem zero_offsets : (![0, 0] : Fin 2 → Nat) = fun _ => 0 := funext fun a => by fin_cases a <;> rfl

/-- A [1, 64] row broadcast along 5000 rows reads, at `(p, q)`, the row's entry `q`: the row axis of the operand is
    a unit axis and reads 0, the column axis is carried over. -/
theorem row_broadcast_apply (v : Vec Ideal S1x64 .f32) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry `(p, q)` of a block: the neighbour sum plus half the feature, minus the column's
    mean, times the column's reciprocal standard deviation. Every operation is pointwise but the two row
    broadcasts; the same-shape casts are the identity. -/
theorem payload_apply (xa xh : Vec Ideal S5000x64 .f32) (xm xs : Vec Ideal S1x64 .f32) (p : Fin 5000) (q : Fin 64) :
    (k2_pay1 (F := Ideal) xa xh xm xs (ix2 p q) : EReal)
      = ((xa (ix2 p q) : EReal) + Cert.Gin.half * (xh (ix2 p q) : EReal) - (xm (ix2 (0 : Fin 1) q) : EReal))
          * (xs (ix2 (0 : Fin 1) q) : EReal) := by
  unfold k2_pay1
  simp only [shapeCast_self]
  rw [mulf_apply, subf_apply, addf_apply, mulf_apply, broadcast_apply, row_broadcast_apply, row_broadcast_apply]
  rfl

/-- The same at a block index `j`, with the four blocks' entries named as entries of whole arrays: if the two
    [5000, 64] blocks hold at `j` the arrays' entries at `i`, and the two rows hold at `j`'s column the statistics of
    `i`'s column, then the body's entry at `j` is the normalised entry at `i`. -/
theorem payload_of_reads (xa xh : Vec Ideal S5000x64 .f32) (xm xs : Vec Ideal S1x64 .f32)
    (A h : Cert.Gin.SN64.Idx → EReal) (mu iv : Cert.Gin.S164.Idx → EReal) (j : S5000x64.Idx) (i : Cert.Gin.SN64.Idx)
    (ea : (xa j : EReal) = A i) (eh : (xh j : EReal) = h i)
    (em : (xm (ix2 (0 : Fin 1) (j 1)) : EReal) = mu (ix2 (0 : Fin 1) (i 1)))
    (es : (xs (ix2 (0 : Fin 1) (j 1)) : EReal) = iv (ix2 (0 : Fin 1) (i 1))) :
    (k2_pay1 (F := Ideal) xa xh xm xs j : EReal)
      = (Cert.Gin.selfAdd A h i - mu (ix2 (0 : Fin 1) (i 1))) * iv (ix2 (0 : Fin 1) (i 1)) := by
  obtain ⟨p, q, rfl⟩ : ∃ (p : Fin 5000) (q : Fin 64), j = ix2 p q := ⟨j 0, j 1, eq_ix2 j⟩
  rw [payload_apply, ea, eh]
  unfold Cert.Gin.selfAdd
  rw [← em, ← es]

/-! ## Where the blocks sit -/

/-- The windows' index maps over the 20 grid points: the two [5000, 64] inputs and the output sit at block row `t`,
    column block 0; the two [1, 64] rows always at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section AtContents
variable (V : (c : Dev nD) → (b : Ref sig .tc) → Buf (Elt Ideal) ((c : Thread nD τ).loc b))

/-- The normalised array: entry `i` is the neighbour sum plus half the feature, minus the mean of `i`'s column,
    times that column's reciprocal standard deviation. -/
abbrev normed (c : Dev nD) : Cert.Gin.SN64.Idx → EReal :=
  fun i => (Cert.Gin.selfAdd (V c main_v17) (V c main_v7) i - (V c main_v20 : Cert.Gin.S164.Idx → EReal) (ix2 (0 : Fin 1) (i 1)))
              * (V c main_v27 : Cert.Gin.S164.Idx → EReal) (ix2 (0 : Fin 1) (i 1))

/-- What grid point `t` writes back is rows 5000·t … 5000·t + 4999 of the normalised array: an element of a block
    sits in its array at block index × block size + its own coordinate on each axis, so the two [5000, 64] input
    blocks read the same rows as the output block, and the two statistics rows read column `q` at row 0. -/
theorem flushed_eq (c : Dev nD) (t : Fin cfg2.N) :
    (dat2 (F := Ideal) V c).flushed 4 t = ((cfg2.win 4).blk t).view.read (Elt Ideal) (normed V c) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S1x64) zero_offsets]
  obtain ⟨hA0, hA1, hH0, hH1, hM0, hM1, hS0, hS1, hO0, hO1⟩ := index_facts t
  funext j
  show (k2_pay1 (F := Ideal) (iblk2 V c 0 t) (iblk2 V c 1 t) (iblk2 V c 2 t) (iblk2 V c 3 t) j : EReal)
      = normed V c (((cfg2.win 4).blk t).view.emb j)
  refine payload_of_reads (iblk2 V c 0 t) (iblk2 V c 1 t) (iblk2 V c 2 t) (iblk2 V c 3 t)
    (V c main_v17) (V c main_v7) (V c main_v20) (V c main_v27) j (((cfg2.win 4).blk t).view.emb j) ?_ ?_ ?_ ?_
  · show V c main_v17 (((cfg2.win 0).blk t).view.emb j) = V c main_v17 (((cfg2.win 4).blk t).view.emb j)
    refine congrArg (V c main_v17) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  · show V c main_v7 (((cfg2.win 1).blk t).view.emb j) = V c main_v7 (((cfg2.win 4).blk t).view.emb j)
    refine congrArg (V c main_v7) (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 64 + 1 * (j 1).val = win2_4.index t (1 : Fin 2) * 64 + 1 * (j 1).val; omega
  · show V c main_v20 (((cfg2.win 2).blk t).view.emb (ix2 (0 : Fin 1) (j 1)))
        = V c main_v20 (ix2 (0 : Fin 1) (((cfg2.win 4).blk t).view.emb j 1))
    refine congrArg (V c main_v20) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_4.index t (1 : Fin 2) * 64 + 1 * (j 1).val; omega
  · show V c main_v27 (((cfg2.win 3).blk t).view.emb (ix2 (0 : Fin 1) (j 1)))
        = V c main_v27 (ix2 (0 : Fin 1) (((cfg2.win 4).blk t).view.emb j 1))
    refine congrArg (V c main_v27) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

end AtContents

/-! ## From the blocks to the array -/

/-- An index of the output array lies in grid point `t`'s block exactly when, on each axis, its coordinate is
    within the block's extent past the block's offset. -/
theorem mem_block (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v28).slice (win2_4.rect t)).set ↔ _
  rw [View.set_slice_whole, Rect.mem_set_unit]
  exact Iff.rfl

/-- The 20 blocks of 5000 rows tile the 100000 rows: row `r` lies in the block of grid point `r / 5000`, and every
    grid point writes its block back. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, -, -, hO0, hO1⟩ := index_facts t
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region's 20 grid points: every entry is the normalised entry of the arrays the
    region found — each block written back is the block of one whole-array function, and the blocks cover the array. -/
theorem final2 (V : (c : Dev nD) → (b : Ref sig .tc) → Buf (Elt Ideal) ((c : Thread nD τ).loc b)) (c : Dev nD) :
    ((dat2 (F := Ideal) V c).arrAt 4 cfg2.N : Cert.Gin.SN64.Idx → EReal)
      = fun i => (Cert.Gin.selfAdd (V c main_v17) (V c main_v7) i - (V c main_v20 : Cert.Gin.S164.Idx → EReal) (ix2 (0 : Fin 1) (i 1)))
                  * (V c main_v27 : Cert.Gin.S164.Idx → EReal) (ix2 (0 : Fin 1) (i 1)) :=
  (dat2 (F := Ideal) V c).arrAt_eq_of_cover 4 (normed V c) (fun t _ => flushed_eq V c t) covered

end Cert.KernelIdeal.KReg2

end
-- ==== Proof.KLayer1.lean ====
/-
  One layer of the kernel program, read through the buffer contents at the boundaries of its two regions.

  Between the exit of the region before it and the exit of its normalisation region the layer is four stretches:
    * host operations form the neighbour sum of the feature array (the edge gather and scatter-add);
    * the statistics region leaves the column sums of a = neighbour sum + half the features, and of a·a;
    * host operations divide both by the row count, subtract the squared mean from the mean square, add the variance
      offset and take the reciprocal square root;
    * the normalisation region writes (a − mean) · reciprocal deviation.
  Each stretch rewrites only its own result buffers, so a buffer is walked back through the stretches that do not
  write it, and the four values meet in the layer function of the specification.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg1
import proofs.«415324_j50955491999984_1_alg».proof.Proof.KReg2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
-- reading a buffer through a host stretch types every buffer the stretch names; the later layers' buffers sit deep in the buffer table
set_option maxHeartbeats 1600000

noncomputable section

namespace Cert.KernelIdeal.KLayer1

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg) (c : Dev nD)

/-! ## The neighbour sum -/

/-- Over any buffer contents the first host stretch leaves the neighbour sum of the features: its gather and
    scatter-add are the specification's, spelled with the same dimension records. -/
theorem agg_value_of (W : Valuation τ sig (Elt Ideal)) :
    (StableHlo.after hostOps1 W (Proc.devRef .tc main_v17) : Cert.Gin.SN64.Idx → EReal)
      = Cert.Gin.aggOf (W (Proc.devRef .tc main_v1)) (W (Proc.devRef .tc main_v3)) (W (Proc.devRef .tc main_v7)) := by
  after_results
  rfl

/-- The same at the contents the layer is entered with. -/
theorem agg_value :
    (W3 (F := Ideal) m ρ c (Proc.devRef .tc main_v17) : Cert.Gin.SN64.Idx → EReal)
      = Cert.Gin.aggOf (W2 m ρ c (Proc.devRef .tc main_v1)) (W2 m ρ c (Proc.devRef .tc main_v3))
          (W2 m ρ c (Proc.devRef .tc main_v7)) :=
  agg_value_of (W2 m ρ c)

/-- The first host stretch does not write the features. -/
theorem feat_after_gather :
    W3 (F := Ideal) m ρ c (Proc.devRef .tc main_v7) = W2 m ρ c (Proc.devRef .tc main_v7) := by
  show StableHlo.after hostOps1 (W2 m ρ c) (Proc.devRef .tc main_v7) = _
  after_results

/-! ## The column statistics -/

/-- The statistics region only reads the neighbour sum and the features: an input array is never written back. -/
theorem agg_after_stats :
    W4 (F := Ideal) m ρ c (Proc.devRef .tc main_v17) = W3 m ρ c (Proc.devRef .tc main_v17) :=
  (W4_arr m ρ c 0).trans ((dat1 (V3 m ρ) c).arrAt_in 0 rfl cfg1.N)

theorem feat_after_stats :
    W4 (F := Ideal) m ρ c (Proc.devRef .tc main_v7) = W3 m ρ c (Proc.devRef .tc main_v7) :=
  (W4_arr m ρ c 1).trans ((dat1 (V3 m ρ) c).arrAt_in 1 rfl cfg1.N)

/-- The statistics region leaves the column sums of a = neighbour sum + half the features … -/
theorem stat_sum :
    (W4 (F := Ideal) m ρ c (Proc.devRef .tc main_v18_0) : Cert.Gin.S164.Idx → EReal)
      = fun j => Cert.Gin.colSum (Cert.Gin.selfAdd (W3 m ρ c (Proc.devRef .tc main_v17))
          (W3 m ρ c (Proc.devRef .tc main_v7))) (j 1) :=
  (W4_arr m ρ c 2).trans (KReg1.final1_sum (V3 m ρ) c)

/-- … and the column sums of a·a. -/
theorem stat_sq :
    (W4 (F := Ideal) m ρ c (Proc.devRef .tc main_v18_1) : Cert.Gin.S164.Idx → EReal)
      = fun j => Cert.Gin.colSum (fun i => Cert.Gin.selfAdd (W3 m ρ c (Proc.devRef .tc main_v17))
            (W3 m ρ c (Proc.devRef .tc main_v7)) i
          * Cert.Gin.selfAdd (W3 m ρ c (Proc.devRef .tc main_v17)) (W3 m ρ c (Proc.devRef .tc main_v7)) i) (j 1) :=
  (W4_arr m ρ c 3).trans (KReg1.final1_sq (V3 m ρ) c)

/-! ## The mean and the reciprocal deviation -/

/-- The second host stretch writes neither the neighbour sum nor the features. -/
theorem agg_after_moments :
    W5 (F := Ideal) m ρ c (Proc.devRef .tc main_v17) = W4 m ρ c (Proc.devRef .tc main_v17) := by
  show StableHlo.after hostOps2 (W4 m ρ c) (Proc.devRef .tc main_v17) = _
  after_results

theorem feat_after_moments :
    W5 (F := Ideal) m ρ c (Proc.devRef .tc main_v7) = W4 m ρ c (Proc.devRef .tc main_v7) := by
  show StableHlo.after hostOps2 (W4 m ρ c) (Proc.devRef .tc main_v7) = _
  after_results

/-- The row count spread over the 64 columns reads the row count at every column: a spread scalar reads the scalar. -/
theorem count_apply (d : Fin 64) :
    (broadcastInDim S1x64 ![] bcast_S_S1x64 (constant (F := Ideal) S_ .f32 0x47C35000#32) : Cert.Gin.S164.Idx → EReal)
      (ix2 (0 : Fin 1) d) = Cert.Gin.nf := rfl

/-- The variance offset spread over the 64 columns reads the offset at every column. -/
theorem offset_apply (d : Fin 64) :
    (broadcastInDim S1x64 ![] bcast_S_S1x64 (constant (F := Ideal) S_ .f32 0x3727C5AC#32) : Cert.Gin.S164.Idx → EReal)
      (ix2 (0 : Fin 1) d) = Cert.Gin.eps := rfl

/-- The host quotient of two rows at a column is the quotient of their entries. -/
theorem quot_apply (a b : Cert.Gin.S164.Idx → EReal) (j : Cert.Gin.S164.Idx) :
    (Host.divf (F := Ideal) (φ := .f32) a b) j = Ideal.div (a j) (b j) := rfl

/-- The mean row: the row of column sums divided by the row count. -/
theorem mean_arr :
    (W5 (F := Ideal) m ρ c (Proc.devRef .tc main_v20) : Cert.Gin.S164.Idx → EReal)
      = Host.divf (W4 m ρ c (Proc.devRef .tc main_v18_0) : Cert.Gin.S164.Idx → EReal)
          (broadcastInDim S1x64 ![] bcast_S_S1x64 (constant (F := Ideal) S_ .f32 0x47C35000#32)) := by
  show StableHlo.after hostOps2 (W4 m ρ c) (Proc.devRef .tc main_v20) = _
  after_results

/-- The mean of column `d`. -/
theorem mean_apply (d : Fin 64) :
    (W5 (F := Ideal) m ρ c (Proc.devRef .tc main_v20) : Cert.Gin.S164.Idx → EReal) (ix2 (0 : Fin 1) d)
      = Ideal.div ((W4 m ρ c (Proc.devRef .tc main_v18_0) : Cert.Gin.S164.Idx → EReal) (ix2 (0 : Fin 1) d)) Cert.Gin.nf := by
  rw [mean_arr, quot_apply, count_apply]

/-- The reciprocal-deviation row: the row of sums of squares divided by the row count, less the squared mean row,
    plus the offset, under the reciprocal square root. -/
theorem inv_arr :
    (W5 (F := Ideal) m ρ c (Proc.devRef .tc main_v27) : Cert.Gin.S164.Idx → EReal)
      = Host.rsqrt (addf (subf
            (Host.divf (W4 m ρ c (Proc.devRef .tc main_v18_1) : Cert.Gin.S164.Idx → EReal)
              (broadcastInDim S1x64 ![] bcast_S_S1x64 (constant (F := Ideal) S_ .f32 0x47C35000#32)))
            (mulf
              (Host.divf (W4 m ρ c (Proc.devRef .tc main_v18_0) : Cert.Gin.S164.Idx → EReal)
                (broadcastInDim S1x64 ![] bcast_S_S1x64 (constant (F := Ideal) S_ .f32 0x47C35000#32)))
              (Host.divf (W4 m ρ c (Proc.devRef .tc main_v18_0) : Cert.Gin.S164.Idx → EReal)
                (broadcastInDim S1x64 ![] bcast_S_S1x64 (constant (F := Ideal) S_ .f32 0x47C35000#32)))))
          (broadcastInDim S1x64 ![] bcast_S_S1x64 (constant (F := Ideal) S_ .f32 0x3727C5AC#32))) := by
  show StableHlo.after hostOps2 (W4 m ρ c) (Proc.devRef .tc main_v27) = _
  after_results

/-- The reciprocal deviation of column `d`. -/
theorem inv_apply (d : Fin 64) :
    (W5 (F := Ideal) m ρ c (Proc.devRef .tc main_v27) : Cert.Gin.S164.Idx → EReal) (ix2 (0 : Fin 1) d)
      = Ideal.rsqrt
          (Ideal.div ((W4 m ρ c (Proc.devRef .tc main_v18_1) : Cert.Gin.S164.Idx → EReal) (ix2 (0 : Fin 1) d)) Cert.Gin.nf
            - Ideal.div ((W4 m ρ c (Proc.devRef .tc main_v18_0) : Cert.Gin.S164.Idx → EReal) (ix2 (0 : Fin 1) d)) Cert.Gin.nf
              * Ideal.div ((W4 m ρ c (Proc.devRef .tc main_v18_0) : Cert.Gin.S164.Idx → EReal) (ix2 (0 : Fin 1) d)) Cert.Gin.nf
            + Cert.Gin.eps) := by
  rw [inv_arr]
  show Ideal.rsqrt _ = _
  rw [addf_apply, subf_apply, mulf_apply, quot_apply, quot_apply, count_apply, offset_apply]

/-! ## The normalisation and the layer -/

/-- The normalisation region writes (a − mean) · reciprocal deviation, column by column. -/
theorem norm_value :
    (W6 (F := Ideal) m ρ c (Proc.devRef .tc main_v28) : Cert.Gin.SN64.Idx → EReal)
      = fun i => (Cert.Gin.selfAdd (W5 m ρ c (Proc.devRef .tc main_v17)) (W5 m ρ c (Proc.devRef .tc main_v7)) i
            - (W5 m ρ c (Proc.devRef .tc main_v20) : Cert.Gin.S164.Idx → EReal) (ix2 (0 : Fin 1) (i 1)))
          * (W5 m ρ c (Proc.devRef .tc main_v27) : Cert.Gin.S164.Idx → EReal) (ix2 (0 : Fin 1) (i 1)) :=
  (W6_arr m ρ c 4).trans (KReg2.final2 (V5 m ρ) c)

/-- The normalisation over an array `a` whose column sums and sums of squares the statistics are: the layer's
    normalisation of `a`, entry by entry. -/
theorem norm_meets (a : Cert.Gin.SN64.Idx → EReal) (i : Cert.Gin.SN64.Idx) :
    (a i - Ideal.div (Cert.Gin.colSum a (i 1)) Cert.Gin.nf)
        * Ideal.rsqrt (Ideal.div (Cert.Gin.colSum (fun k => a k * a k) (i 1)) Cert.Gin.nf
            - Ideal.div (Cert.Gin.colSum a (i 1)) Cert.Gin.nf * Ideal.div (Cert.Gin.colSum a (i 1)) Cert.Gin.nf
            + Cert.Gin.eps)
      = Cert.Gin.normK a i := rfl

/-- One layer: the normalisation region's result is the specification's layer over the neighbour sum, at the
    features the layer entered with. -/
theorem layer (m : (ℓ : Loc nD τ sig) → Buf (Elt Ideal) ℓ) (ρ : Dev nD → PrngReg) (c : Dev nD) :
    (W6 (F := Ideal) m ρ c (Proc.devRef .tc main_v28) : Cert.Gin.SN64.Idx → EReal)
      = Cert.Gin.layerK (Cert.Gin.aggOf (W2 m ρ c (Proc.devRef .tc main_v1)) (W2 m ρ c (Proc.devRef .tc main_v3)))
          (W2 m ρ c (Proc.devRef .tc main_v7)) := by
  rw [norm_value, agg_after_moments, feat_after_moments, agg_after_stats, feat_after_stats]
  funext i
  rw [mean_apply m ρ c (i 1), inv_apply m ρ c (i 1), stat_sum, stat_sq, agg_value, feat_after_gather]
  exact norm_meets _ i

/-- The two edge columns pass through the layer: no host operation writes them and neither region has them as an
    array. -/
theorem keep (m : (ℓ : Loc nD τ sig) → Buf (Elt Ideal) ℓ) (ρ : Dev nD → PrngReg) (c : Dev nD) (b : Ref sig .tc)
    (hb : b = main_v1 ∨ b = main_v3) :
    W6 (F := Ideal) m ρ c (Proc.devRef .tc b) = W2 m ρ c (Proc.devRef .tc b) := by
  rcases hb with rfl | rfl
  · calc W6 (F := Ideal) m ρ c (Proc.devRef .tc main_v1)
      _ = W5 m ρ c (Proc.devRef .tc main_v1) := W6_of_ne m ρ c main_v1 (by decide)
      _ = W4 m ρ c (Proc.devRef .tc main_v1) := by
          show StableHlo.after hostOps2 (W4 m ρ c) (Proc.devRef .tc main_v1) = _
          after_results
      _ = W3 m ρ c (Proc.devRef .tc main_v1) := W4_of_ne m ρ c main_v1 (by decide)
      _ = W2 m ρ c (Proc.devRef .tc main_v1) := by
          show StableHlo.after hostOps1 (W2 m ρ c) (Proc.devRef .tc main_v1) = _
          after_results
  · calc W6 (F := Ideal) m ρ c (Proc.devRef .tc main_v3)
      _ = W5 m ρ c (Proc.devRef .tc main_v3) := W6_of_ne m ρ c main_v3 (by decide)
      _ = W4 m ρ c (Proc.devRef .tc main_v3) := by
          show StableHlo.after hostOps2 (W4 m ρ c) (Proc.devRef .tc main_v3) = _
          after_results
      _ = W3 m ρ c (Proc.devRef .tc main_v3) := W4_of_ne m ρ c main_v3 (by decide)
      _ = W2 m ρ c (Proc.devRef .tc main_v3) := by
          show StableHlo.after hostOps1 (W2 m ρ c) (Proc.devRef .tc main_v3) = _
          after_results

end Cert.KernelIdeal.KLayer1

end
-- ==== Proof.KReg3.lean ====
/-
  The column statistics of one layer: what the two [1, 64] outputs of the statistics kernel hold when its grid of 20
  points has run, at any contents of the TensorCore's buffers on entry.

  The kernel walks the 100000 rows of two [100000, 64] arrays — the neighbour sums `A` and the features `h` — in 20 blocks
  of 5000 rows. With `a = A + (1/2)·h`, point 0 stores the zero row into both outputs, and every point adds to the first
  output the sums of `a` down the 5000 rows of its block, column by column, and to the second the sums of `a·a`. The
  outputs' block index never moves, so each is carried from point to point and written back once, after point 19.

  Read over the extended reals: after point `n` column `d` of the first output is the sum of `a(·, d)` over the rows below
  `5000·(n + 1)` (by induction on the point; addition of extended reals is associative and zero is its unit, so no
  finiteness is asked), hence after point 19 the sum over all rows; the second output likewise with `a·a`. The one
  write-back writes block (0, 0), which is the whole [1, 64] array.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KReg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each kind of point leaves in the two outputs

The first point stores the zero row, reads it back and stores the sum's update over it; every later point reads what the
point before left and stores the update. In each case the last store covers the block, so the block holds that store's
payload, with every load read at the contents it loads. -/

section Pieces
variable {F : FTy → Type} [FloatOps F]

/-- Zero offsets, as the stores and loads spell them. -/
theorem hz : (![0, 0] : Fin 2 → Nat) = fun _ => 0 := funext fun a => by fin_cases a <;> rfl

/-- A later point leaves in the first output the sum's update of what it held. -/
theorem out_B_sum (c : Dev nD) (i : grid3.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond3_0 i)
    (x0 x1 : Vec F S5000x64 .f32) (xo2 xo3 : Vec F S1x64 .f32) :
    out3_B_2 c i a1 h1 a2 h2 a3 h3 a4 h4 hc x0 x1 xo2 xo3 = k3_pay4 x0 x1 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread,
    View.ld_unit_zero (S := S5000x64) hz, View.ld_unit_zero (S := S1x64) hz]

/-- A later point leaves in the second output the squares' update of what it held. -/
theorem out_B_sq (c : Dev nD) (i : grid3.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond3_0 i)
    (x0 x1 : Vec F S5000x64 .f32) (xo2 xo3 : Vec F S1x64 .f32) :
    out3_B_3 c i a1 h1 a2 h2 a3 h3 a4 h4 hc x0 x1 xo2 xo3 = k3_pay5 x0 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h4.read_unread,
    View.ld_unit_zero (S := S5000x64) hz, View.ld_unit_zero (S := S1x64) hz]

/-- The first point leaves in the first output the sum's update of the zero row it has just stored and read back. -/
theorem out_A_sum (c : Dev nD) (i : grid3.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond3_0 i)
    (x0 x1 : Vec F S5000x64 .f32) :
    out3_A_2 c i a1 h1 a2 h2 a3 h3 a4 h4 hc x0 x1 = k3_pay4 x0 x1 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

/-- The first point leaves in the second output the squares' update of the zero row. -/
theorem out_A_sq (c : Dev nD) (i : grid3.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond3_0 i)
    (x0 x1 : Vec F S5000x64 .f32) :
    out3_A_3 c i a1 h1 a2 h2 a3 h3 a4 h4 hc x0 x1 = k3_pay5 x0 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Pieces

/-! ## The arithmetic of one point, read at an index over the extended reals -/

/-- The block the first point stores into the first output before adding: every entry is zero. -/
theorem zeroSum_apply (u : Fin 1) (d : Fin 64) : k3_pay1 (F := Ideal) (ix2 u d) = 0 :=
  Ideal.ofBits_zero_f32

/-- Likewise for the second output. -/
theorem zeroSq_apply (u : Fin 1) (d : Fin 64) : k3_pay2 (F := Ideal) (ix2 u d) = 0 :=
  Ideal.ofBits_zero_f32

/-- The summand: the neighbour-sum block plus one half of the feature block, entry by entry. -/
theorem summand_apply (x0 x1 : Vec Ideal S5000x64 .f32) (r : Fin 5000) (d : Fin 64) :
    k3_pay3 (F := Ideal) x0 x1 (ix2 r d) = x0 (ix2 r d) + Cert.Gin.half * x1 (ix2 r d) := by
  unfold k3_pay3
  simp only [shapeCast_self]
  rfl

/-- The first output after a point: what it held, plus the sum of the summand down the block's 5000 rows
    (the reduction over the row axis is a sum over that axis's coordinates; the cast from [64] to [1, 64]
    keeps the column). -/
theorem stepSum_apply (x0 x1 : Vec Ideal S5000x64 .f32) (acc : Vec Ideal S1x64 .f32) (u : Fin 1) (d : Fin 64) :
    k3_pay4 (F := Ideal) x0 x1 acc (ix2 u d)
      = acc (ix2 u d) + ∑ r : Fin 5000, (x0 (ix2 r d) + Cert.Gin.half * x1 (ix2 r d)) := by
  unfold k3_pay4
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (k3_pay3 (F := Ideal) x0 x1) 0x00000000#32 reduces_S5000x64_S64 (.inl rfl) rfl (ix1 d)).trans ?_
  refine Finset.sum_congr rfl fun r _ => ?_
  exact summand_apply x0 x1 r d

/-- The second output after a point: what it held, plus the sum of the summand's squares down the block's rows. -/
theorem stepSq_apply (x0 x1 : Vec Ideal S5000x64 .f32) (acc : Vec Ideal S1x64 .f32) (u : Fin 1) (d : Fin 64) :
    k3_pay5 (F := Ideal) x0 x1 acc (ix2 u d)
      = acc (ix2 u d) + ∑ r : Fin 5000, ((x0 (ix2 r d) + Cert.Gin.half * x1 (ix2 r d))
          * (x0 (ix2 r d) + Cert.Gin.half * x1 (ix2 r d))) := by
  unfold k3_pay5
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (mulf (k3_pay3 (F := Ideal) x0 x1) (k3_pay3 (F := Ideal) x0 x1)) 0x00000000#32
    reduces_S5000x64_S64 (.inl rfl) rfl (ix1 d)).trans ?_
  refine Finset.sum_congr rfl fun r _ => ?_
  show k3_pay3 (F := Ideal) x0 x1 (ix2 r d) * k3_pay3 (F := Ideal) x0 x1 (ix2 r d) = _
  exact congrArg₂ (· * ·) (summand_apply x0 x1 r d) (summand_apply x0 x1 r d)

/-! ## The blocks of a point, read off the arrays -/

section Values

variable (V : (c : Dev nD) → (b : Ref sig .tc) → Buf (Elt Ideal) ((c : Thread nD τ).loc b))

/-- The neighbour-sum block and the feature block of point `t`, and the two arrays, at their literal types. -/
abbrev blkA (c : Dev nD) (t : Fin cfg3.N) : Vec Ideal S5000x64 .f32 := iblk3 (F := Ideal) V c 0 t
abbrev blkH (c : Dev nD) (t : Fin cfg3.N) : Vec Ideal S5000x64 .f32 := iblk3 (F := Ideal) V c 1 t
abbrev arrA (c : Dev nD) : Vec Ideal S100000x64 .f32 := V c main_v38
abbrev arrH (c : Dev nD) : Vec Ideal S100000x64 .f32 := V c main_v28

/-- Point `t` takes row block `t` and the one column block of each input. -/
theorem index_A : ∀ t : Fin cfg3.N, win3_0.index t 0 = t.val ∧ win3_0.index t 1 = 0 :=
  (by decide +kernel : ∀ t : Fin grid3.N, win3_0.index t 0 = t.val ∧ win3_0.index t 1 = 0)
theorem index_H : ∀ t : Fin cfg3.N, win3_1.index t 0 = t.val ∧ win3_1.index t 1 = 0 :=
  (by decide +kernel : ∀ t : Fin grid3.N, win3_1.index t 0 = t.val ∧ win3_1.index t 1 = 0)

/-- Row `r` of the neighbour-sum block of point `t` is row `5000 t + r` of the array. -/
theorem blkA_apply (c : Dev nD) (t : Fin cfg3.N) (r : Fin 5000) (d : Fin 64) (h : 5000 * t.val + r.val < 100000) :
    blkA V c t (ix2 r d) = arrA V c (ix2 ⟨5000 * t.val + r.val, h⟩ d) := by
  unfold blkA iblk3
  rw [View.read_apply]
  show V c main_v38 _ = V c main_v38 _
  congr 1
  funext a
  apply Fin.ext
  match a with
  | ⟨0, _⟩ => show win3_0.index t 0 * 5000 + 1 * r.val = 5000 * t.val + r.val; rw [(index_A t).1]; omega
  | ⟨1, _⟩ => show win3_0.index t 1 * 64 + 1 * d.val = d.val; rw [(index_A t).2]; omega

/-- Row `r` of the feature block of point `t` is row `5000 t + r` of the array. -/
theorem blkH_apply (c : Dev nD) (t : Fin cfg3.N) (r : Fin 5000) (d : Fin 64) (h : 5000 * t.val + r.val < 100000) :
    blkH V c t (ix2 r d) = arrH V c (ix2 ⟨5000 * t.val + r.val, h⟩ d) := by
  unfold blkH iblk3
  rw [View.read_apply]
  show V c main_v28 _ = V c main_v28 _
  congr 1
  funext a
  apply Fin.ext
  match a with
  | ⟨0, _⟩ => show win3_1.index t 0 * 5000 + 1 * r.val = 5000 * t.val + r.val; rw [(index_H t).1]; omega
  | ⟨1, _⟩ => show win3_1.index t 1 * 64 + 1 * d.val = d.val; rw [(index_H t).2]; omega

end Values

/-! ## Column sums over row ranges -/

/-- Column `d` of an array as a function of a natural row number: zero past the last row, so that a sum over a range
    of row numbers needs no bound in its statement. -/
def rowAt (a : Cert.Gin.SN64.Idx → EReal) (d : Fin 64) (k : ℕ) : EReal :=
  if h : k < 100000 then a (ix2 ⟨k, h⟩ d) else 0

/-- The column sum is the sum over the first 100000 row numbers. -/
theorem colSum_eq_range (a : Cert.Gin.SN64.Idx → EReal) (d : Fin 64) :
    Cert.Gin.colSum a d = ∑ k ∈ Finset.range 100000, rowAt a d k := by
  unfold Cert.Gin.colSum
  rw [← Fin.sum_univ_eq_sum_range (rowAt a d) 100000]
  refine Finset.sum_congr rfl fun i _ => ?_
  unfold rowAt
  rw [dif_pos i.isLt]

section Sums

variable (V : (c : Dev nD) → (b : Ref sig .tc) → Buf (Elt Ideal) ((c : Thread nD τ).loc b))

/-- What is summed: the neighbour sum plus one half of the features, over the whole arrays. -/
abbrev summand (c : Dev nD) : Cert.Gin.SN64.Idx → EReal := Cert.Gin.selfAdd (V c main_v38) (V c main_v28)
/-- and its square. -/
abbrev summandSq (c : Dev nD) : Cert.Gin.SN64.Idx → EReal := fun i => summand V c i * summand V c i

/-- The sum down the rows of point `n`'s blocks is the sum of the summand over row numbers `5000 n … 5000 n + 4999`. -/
theorem blockSum_eq (c : Dev nD) (n : ℕ) (h : n < cfg3.N) (d : Fin 64) :
    ∑ r : Fin 5000, (blkA V c ⟨n, h⟩ (ix2 r d) + Cert.Gin.half * blkH V c ⟨n, h⟩ (ix2 r d))
      = ∑ r ∈ Finset.range 5000, rowAt (summand V c) d (5000 * n + r) := by
  have hN : n < 20 := lt_of_lt_of_eq h (show cfg3.N = 20 from N_3)
  rw [← Fin.sum_univ_eq_sum_range (fun r => rowAt (summand V c) d (5000 * n + r)) 5000]
  refine Finset.sum_congr rfl fun r _ => ?_
  have hr : 5000 * n + r.val < 100000 := by have := r.isLt; omega
  show _ = rowAt (summand V c) d (5000 * n + r.val)
  unfold rowAt
  rw [dif_pos hr, blkA_apply V c ⟨n, h⟩ r d hr, blkH_apply V c ⟨n, h⟩ r d hr]
  rfl

/-- Likewise for the squares. -/
theorem blockSq_eq (c : Dev nD) (n : ℕ) (h : n < cfg3.N) (d : Fin 64) :
    ∑ r : Fin 5000, ((blkA V c ⟨n, h⟩ (ix2 r d) + Cert.Gin.half * blkH V c ⟨n, h⟩ (ix2 r d))
        * (blkA V c ⟨n, h⟩ (ix2 r d) + Cert.Gin.half * blkH V c ⟨n, h⟩ (ix2 r d)))
      = ∑ r ∈ Finset.range 5000, rowAt (summandSq V c) d (5000 * n + r) := by
  have hN : n < 20 := lt_of_lt_of_eq h (show cfg3.N = 20 from N_3)
  rw [← Fin.sum_univ_eq_sum_range (fun r => rowAt (summandSq V c) d (5000 * n + r)) 5000]
  refine Finset.sum_congr rfl fun r _ => ?_
  have hr : 5000 * n + r.val < 100000 := by have := r.isLt; omega
  show _ = rowAt (summandSq V c) d (5000 * n + r.val)
  unfold rowAt
  rw [dif_pos hr, blkA_apply V c ⟨n, h⟩ r d hr, blkH_apply V c ⟨n, h⟩ r d hr]
  rfl

/-! ## The two outputs after each point -/

/-- The first output after a point of the first kind: the zero block plus the point's row sums. -/
theorem pointA_sum (c : Dev nD) (t : Fin cfg3.N) (h0 : t.val % 20 = 0) :
    (outsAt3 (F := Ideal) V c t.val t.isLt).1 = k3_pay4 (F := Ideal) (blkA V c t) (blkH V c t) (k3_pay1 (F := Ideal)) := by
  rw [outsAt3_A V c t h0]
  dsimp only
  exact out_A_sum (F := Ideal) c (grid3.coords t) (ms3_0 t) (hs3_0 t) (ms3_1 t) (hs3_1 t) (ms3_2 t) (hs3_2 t) (ms3_3 t) (hs3_3 t)
    ((hcond3_0 t).mpr h0) (iblk3 (F := Ideal) V c 0 t) (iblk3 (F := Ideal) V c 1 t)

/-- The second output after a point of the first kind. -/
theorem pointA_sq (c : Dev nD) (t : Fin cfg3.N) (h0 : t.val % 20 = 0) :
    (outsAt3 (F := Ideal) V c t.val t.isLt).2 = k3_pay5 (F := Ideal) (blkA V c t) (blkH V c t) (k3_pay2 (F := Ideal)) := by
  rw [outsAt3_A V c t h0]
  dsimp only
  exact out_A_sq (F := Ideal) c (grid3.coords t) (ms3_0 t) (hs3_0 t) (ms3_1 t) (hs3_1 t) (ms3_2 t) (hs3_2 t) (ms3_3 t) (hs3_3 t)
    ((hcond3_0 t).mpr h0) (iblk3 (F := Ideal) V c 0 t) (iblk3 (F := Ideal) V c 1 t)

/-- The first output after a point of the second kind: what the point before left plus the point's row sums. -/
theorem pointB_sum (c : Dev nD) (t : Fin cfg3.N) (h0 : ¬t.val % 20 = 0) :
    (outsAt3 (F := Ideal) V c t.val t.isLt).1 = k3_pay4 (F := Ideal) (blkA V c t) (blkH V c t)
      (outsAt3 (F := Ideal) V c (t.val - 1) (Nat.lt_of_le_of_lt (Nat.sub_le _ _) t.isLt)).1 := by
  rw [outsAt3_B V c t h0]
  dsimp only
  exact out_B_sum (F := Ideal) c (grid3.coords t) (ms3_0 t) (hs3_0 t) (ms3_1 t) (hs3_1 t) (ms3_2 t) (hs3_2 t) (ms3_3 t) (hs3_3 t)
    (fun h => h0 ((hcond3_0 t).mp h)) (iblk3 (F := Ideal) V c 0 t) (iblk3 (F := Ideal) V c 1 t)
    (outsAt3 (F := Ideal) V c (t.val - 1) (Nat.lt_of_le_of_lt (Nat.sub_le _ _) t.isLt)).1
    (outsAt3 (F := Ideal) V c (t.val - 1) (Nat.lt_of_le_of_lt (Nat.sub_le _ _) t.isLt)).2

/-- The second output after a point of the second kind. -/
theorem pointB_sq (c : Dev nD) (t : Fin cfg3.N) (h0 : ¬t.val % 20 = 0) :
    (outsAt3 (F := Ideal) V c t.val t.isLt).2 = k3_pay5 (F := Ideal) (blkA V c t) (blkH V c t)
      (outsAt3 (F := Ideal) V c (t.val - 1) (Nat.lt_of_le_of_lt (Nat.sub_le _ _) t.isLt)).2 := by
  rw [outsAt3_B V c t h0]
  dsimp only
  exact out_B_sq (F := Ideal) c (grid3.coords t) (ms3_0 t) (hs3_0 t) (ms3_1 t) (hs3_1 t) (ms3_2 t) (hs3_2 t) (ms3_3 t) (hs3_3 t)
    (fun h => h0 ((hcond3_0 t).mp h)) (iblk3 (F := Ideal) V c 0 t) (iblk3 (F := Ideal) V c 1 t)
    (outsAt3 (F := Ideal) V c (t.val - 1) (Nat.lt_of_le_of_lt (Nat.sub_le _ _) t.isLt)).1
    (outsAt3 (F := Ideal) V c (t.val - 1) (Nat.lt_of_le_of_lt (Nat.sub_le _ _) t.isLt)).2

end Sums

section Run

variable (V : (c : Dev nD) → (b : Ref sig .tc) → Buf (Elt Ideal) ((c : Thread nD τ).loc b))

/-- THE INVARIANT of the first output: after point `n` its column `d` holds the sum of the summand over the rows below
    `5000 (n + 1)`. By induction on the point: the first point adds its block's rows to zero, every later point adds its
    block's rows to what the point before left, and a sum over a range splits at `5000 (n + 1)`. -/
theorem acc_sum (c : Dev nD) : ∀ (n : ℕ) (h : n < cfg3.N) (u : Fin 1) (d : Fin 64),
    (outsAt3 (F := Ideal) V c n h).1 (ix2 u d) = ∑ k ∈ Finset.range (5000 * (n + 1)), rowAt (summand V c) d k
  | 0, h, u, d => by
    refine (congrFun (pointA_sum V c ⟨0, h⟩ rfl) (ix2 u d)).trans ?_
    refine (stepSum_apply (blkA V c ⟨0, h⟩) (blkH V c ⟨0, h⟩) (k3_pay1 (F := Ideal)) u d).trans ?_
    rw [zeroSum_apply u d, zero_add, blockSum_eq V c 0 h d]
    refine Finset.sum_congr rfl fun r _ => ?_
    rw [Nat.mul_zero, Nat.zero_add]
  | n + 1, h, u, d => by
    have hN : n + 1 < 20 := lt_of_lt_of_eq h (show cfg3.N = 20 from N_3)
    have hB : ¬(⟨n + 1, h⟩ : Fin cfg3.N).val % 20 = 0 := by dsimp only; omega
    refine (congrFun (pointB_sum V c ⟨n + 1, h⟩ hB) (ix2 u d)).trans ?_
    refine (stepSum_apply (blkA V c ⟨n + 1, h⟩) (blkH V c ⟨n + 1, h⟩) _ u d).trans ?_
    show (outsAt3 (F := Ideal) V c n (Nat.lt_of_succ_lt h)).1 (ix2 u d) + _ = _
    rw [acc_sum c n (Nat.lt_of_succ_lt h) u d, blockSum_eq V c (n + 1) h d,
      show 5000 * (n + 1 + 1) = 5000 * (n + 1) + 5000 from by omega, Finset.sum_range_add]

/-- THE INVARIANT of the second output: the same with the summand's square. -/
theorem acc_sq (c : Dev nD) : ∀ (n : ℕ) (h : n < cfg3.N) (u : Fin 1) (d : Fin 64),
    (outsAt3 (F := Ideal) V c n h).2 (ix2 u d) = ∑ k ∈ Finset.range (5000 * (n + 1)), rowAt (summandSq V c) d k
  | 0, h, u, d => by
    refine (congrFun (pointA_sq V c ⟨0, h⟩ rfl) (ix2 u d)).trans ?_
    refine (stepSq_apply (blkA V c ⟨0, h⟩) (blkH V c ⟨0, h⟩) (k3_pay2 (F := Ideal)) u d).trans ?_
    rw [zeroSq_apply u d, zero_add, blockSq_eq V c 0 h d]
    refine Finset.sum_congr rfl fun r _ => ?_
    rw [Nat.mul_zero, Nat.zero_add]
  | n + 1, h, u, d => by
    have hN : n + 1 < 20 := lt_of_lt_of_eq h (show cfg3.N = 20 from N_3)
    have hB : ¬(⟨n + 1, h⟩ : Fin cfg3.N).val % 20 = 0 := by dsimp only; omega
    refine (congrFun (pointB_sq V c ⟨n + 1, h⟩ hB) (ix2 u d)).trans ?_
    refine (stepSq_apply (blkA V c ⟨n + 1, h⟩) (blkH V c ⟨n + 1, h⟩) _ u d).trans ?_
    show (outsAt3 (F := Ideal) V c n (Nat.lt_of_succ_lt h)).2 (ix2 u d) + _ = _
    rw [acc_sq c n (Nat.lt_of_succ_lt h) u d, blockSq_eq V c (n + 1) h d,
      show 5000 * (n + 1 + 1) = 5000 * (n + 1) + 5000 from by omega, Finset.sum_range_add]

/-- The last point. -/
abbrev tLast : Fin cfg3.N := ⟨19, by rw [show cfg3.N = 20 from N_3]; decide⟩

/-- The two results: row 0, column `d` holds the whole column sum of the summand, and of its square. -/
abbrev resultSum (c : Dev nD) : Vec Ideal S1x64 .f32 := fun j => Cert.Gin.colSum (summand V c) (j 1)
abbrev resultSq (c : Dev nD) : Vec Ideal S1x64 .f32 := fun j => Cert.Gin.colSum (summandSq V c) (j 1)

/-- After the last point the rows below `5000 · 20` are all the rows. -/
theorem last_sum (c : Dev nD) : (outsAt3 (F := Ideal) V c tLast.val tLast.isLt).1 = resultSum V c := by
  funext j
  refine (congrArg (outsAt3 (F := Ideal) V c tLast.val tLast.isLt).1 (eq_ix2 j)).trans ?_
  refine (acc_sum V c 19 tLast.isLt (j 0) (j 1)).trans ?_
  exact (colSum_eq_range (summand V c) (j 1)).symm

/-- Likewise for the squares. -/
theorem last_sq (c : Dev nD) : (outsAt3 (F := Ideal) V c tLast.val tLast.isLt).2 = resultSq V c := by
  funext j
  refine (congrArg (outsAt3 (F := Ideal) V c tLast.val tLast.isLt).2 (eq_ix2 j)).trans ?_
  refine (acc_sq V c 19 tLast.isLt (j 0) (j 1)).trans ?_
  exact (colSum_eq_range (summandSq V c) (j 1)).symm

/-! ## The one write-back -/

/-- Only the last point writes the first output back, and its block (0, 0) read through zero offsets is the array. -/
theorem flushed_sum (c : Dev nD) (t : Fin cfg3.N) (hf : (cfg3.win 2).flush t = true) :
    (dat3 (F := Ideal) V c).flushed 2 t = ((cfg3.win 2).blk t).view.read (Elt Ideal) (resultSum V c) := by
  have hN : cfg3.N = 20 := N_3
  have h19 : t.val = 19 := by have := (flush3_2 t).mp hf; have := t.isLt; omega
  obtain rfl : t = tLast := Fin.ext h19
  show (cfg3.win 2).cut (grid3.coords tLast) ((dat3 (F := Ideal) V c).after 2 tLast) = _
  rw [after3_2, last_sum]
  have hz' : (fun a => win3_2.index tLast a * main_v39_0.ty.shape.size a) = fun _ => 0 :=
    funext fun a => by fin_cases a <;> decide +kernel
  exact (Memref.read_access_unit_zero (Elt Ideal) main_v39_0 hz' (fun a => by rw [congrFun hz' a]; simp) (resultSum V c)).symm

/-- Likewise for the second output. -/
theorem flushed_sq (c : Dev nD) (t : Fin cfg3.N) (hf : (cfg3.win 3).flush t = true) :
    (dat3 (F := Ideal) V c).flushed 3 t = ((cfg3.win 3).blk t).view.read (Elt Ideal) (resultSq V c) := by
  have hN : cfg3.N = 20 := N_3
  have h19 : t.val = 19 := by have := (flush3_3 t).mp hf; have := t.isLt; omega
  obtain rfl : t = tLast := Fin.ext h19
  show (cfg3.win 3).cut (grid3.coords tLast) ((dat3 (F := Ideal) V c).after 3 tLast) = _
  rw [after3_3, last_sq]
  have hz' : (fun a => win3_3.index tLast a * main_v39_1.ty.shape.size a) = fun _ => 0 :=
    funext fun a => by fin_cases a <;> decide +kernel
  exact (Memref.read_access_unit_zero (Elt Ideal) main_v39_1 hz' (fun a => by rw [congrFun hz' a]; simp) (resultSq V c)).symm

end Run

/-! ## The result arrays -/

section Final

/-- The first output array ends holding, in column `d` of its one row, the column sum of the neighbour sum plus one half
    of the features: the last point's block covers the array, and no other point writes it back. -/
theorem final3_sum (V : (c : Dev nD) → (b : Ref sig .tc) → Buf (Elt Ideal) ((c : Thread nD τ).loc b)) (c : Dev nD) :
    ((dat3 (F := Ideal) V c).arrAt 2 cfg3.N : Cert.Gin.S164.Idx → EReal)
      = fun j => Cert.Gin.colSum (Cert.Gin.selfAdd (V c main_v38) (V c main_v28)) (j 1) :=
  (dat3 (F := Ideal) V c).arrAt_eq_of_cover 2 (resultSum V c) (flushed_sum V c) fun i =>
    ⟨tLast, (flush3_2 tLast).mpr rfl, by
      show i ∈ ((View.whole main_v39_0).slice (win3_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win3_2.index tLast 0 * win3_2.size 0 ≤ (i 0 : Nat)
          ∧ (i 0 : Nat) < win3_2.index tLast 0 * win3_2.size 0 + win3_2.xsize (grid3.coords tLast) 0
        rw [show win3_2.index tLast 0 * win3_2.size 0 = 0 from by decide +kernel,
          show win3_2.xsize (grid3.coords tLast) 0 = 1 from by decide +kernel]
        omega
      | ⟨1, _⟩ =>
        show win3_2.index tLast 1 * win3_2.size 1 ≤ (i 1 : Nat)
          ∧ (i 1 : Nat) < win3_2.index tLast 1 * win3_2.size 1 + win3_2.xsize (grid3.coords tLast) 1
        rw [show win3_2.index tLast 1 * win3_2.size 1 = 0 from by decide +kernel,
          show win3_2.xsize (grid3.coords tLast) 1 = 64 from by decide +kernel]
        omega⟩

/-- The second output array ends holding the column sums of the square of the same summand. -/
theorem final3_sq (V : (c : Dev nD) → (b : Ref sig .tc) → Buf (Elt Ideal) ((c : Thread nD τ).loc b)) (c : Dev nD) :
    ((dat3 (F := Ideal) V c).arrAt 3 cfg3.N : Cert.Gin.S164.Idx → EReal)
      = fun j => Cert.Gin.colSum (fun i => Cert.Gin.selfAdd (V c main_v38) (V c main_v28) i
          * Cert.Gin.selfAdd (V c main_v38) (V c main_v28) i) (j 1) :=
  (dat3 (F := Ideal) V c).arrAt_eq_of_cover 3 (resultSq V c) (flushed_sq V c) fun i =>
    ⟨tLast, (flush3_3 tLast).mpr rfl, by
      show i ∈ ((View.whole main_v39_1).slice (win3_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win3_3.index tLast 0 * win3_3.size 0 ≤ (i 0 : Nat)
          ∧ (i 0 : Nat) < win3_3.index tLast 0 * win3_3.size 0 + win3_3.xsize (grid3.coords tLast) 0
        rw [show win3_3.index tLast 0 * win3_3.size 0 = 0 from by decide +kernel,
          show win3_3.xsize (grid3.coords tLast) 0 = 1 from by decide +kernel]
        omega
      | ⟨1, _⟩ =>
        show win3_3.index tLast 1 * win3_3.size 1 ≤ (i 1 : Nat)
          ∧ (i 1 : Nat) < win3_3.index tLast 1 * win3_3.size 1 + win3_3.xsize (grid3.coords tLast) 1
        rw [show win3_3.index tLast 1 * win3_3.size 1 = 0 from by decide +kernel,
          show win3_3.xsize (grid3.coords tLast) 1 = 64 from by decide +kernel]
        omega⟩

end Final

end Cert.KernelIdeal.KReg3

end
-- ==== Proof.KReg4.lean ====
/-
  The normalisation kernel's output as one whole-array function.

  The kernel walks the [100000, 64] arrays in 20 blocks of 5000 rows. At each block it reads the block of the
  neighbour sums `A` and of the features `h` at the same rows, and the two [1, 64] rows of column statistics (the
  column means `mu` and the reciprocal standard deviations `iv`, each a single block that is the whole row), and
  writes, at row `p` and column `q` of the block,

      (A[r, q] + (1/2) · h[r, q] − mu[0, q]) · iv[0, q],        r = 5000 · t + p   at block `t`.

  The blocks tile the rows (row `r` lies in block `r / 5000`), every block is written back, and what block `t` writes
  is the restriction to its rows of one function of the whole arrays; so the output array is that function:
  entry `(r, q)` depends on row `r` of `A` and `h` and on column `q` of the two statistics rows only.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The zero offsets of a whole-block rectangle, spelt as a constant function. -/
theorem zero_offsets : (![0, 0] : Fin 2 → Nat) = fun _ => 0 := funext fun a => by fin_cases a <;> rfl

/-- A [1, 64] row broadcast along 5000 rows reads, at `(p, q)`, the row's entry `q`: the row axis of the operand is
    a unit axis and reads 0, the column axis is carried over. -/
theorem row_broadcast_apply (v : Vec Ideal S1x64 .f32) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry `(p, q)` of a block: the neighbour sum plus half the feature, minus the column's
    mean, times the column's reciprocal standard deviation. Every operation is pointwise but the two row
    broadcasts; the same-shape casts are the identity. -/
theorem payload_apply (xa xh : Vec Ideal S5000x64 .f32) (xm xs : Vec Ideal S1x64 .f32) (p : Fin 5000) (q : Fin 64) :
    (k4_pay1 (F := Ideal) xa xh xm xs (ix2 p q) : EReal)
      = ((xa (ix2 p q) : EReal) + Cert.Gin.half * (xh (ix2 p q) : EReal) - (xm (ix2 (0 : Fin 1) q) : EReal))
          * (xs (ix2 (0 : Fin 1) q) : EReal) := by
  unfold k4_pay1
  simp only [shapeCast_self]
  rw [mulf_apply, subf_apply, addf_apply, mulf_apply, broadcast_apply, row_broadcast_apply, row_broadcast_apply]
  rfl

/-- The same at a block index `j`, with the four blocks' entries named as entries of whole arrays: if the two
    [5000, 64] blocks hold at `j` the arrays' entries at `i`, and the two rows hold at `j`'s column the statistics of
    `i`'s column, then the body's entry at `j` is the normalised entry at `i`. -/
theorem payload_of_reads (xa xh : Vec Ideal S5000x64 .f32) (xm xs : Vec Ideal S1x64 .f32)
    (A h : Cert.Gin.SN64.Idx → EReal) (mu iv : Cert.Gin.S164.Idx → EReal) (j : S5000x64.Idx) (i : Cert.Gin.SN64.Idx)
    (ea : (xa j : EReal) = A i) (eh : (xh j : EReal) = h i)
    (em : (xm (ix2 (0 : Fin 1) (j 1)) : EReal) = mu (ix2 (0 : Fin 1) (i 1)))
    (es : (xs (ix2 (0 : Fin 1) (j 1)) : EReal) = iv (ix2 (0 : Fin 1) (i 1))) :
    (k4_pay1 (F := Ideal) xa xh xm xs j : EReal)
      = (Cert.Gin.selfAdd A h i - mu (ix2 (0 : Fin 1) (i 1))) * iv (ix2 (0 : Fin 1) (i 1)) := by
  obtain ⟨p, q, rfl⟩ : ∃ (p : Fin 5000) (q : Fin 64), j = ix2 p q := ⟨j 0, j 1, eq_ix2 j⟩
  rw [payload_apply, ea, eh]
  unfold Cert.Gin.selfAdd
  rw [← em, ← es]

/-! ## Where the blocks sit -/

/-- The windows' index maps over the 20 grid points: the two [5000, 64] inputs and the output sit at block row `t`,
    column block 0; the two [1, 64] rows always at block (0, 0). -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section AtContents
variable (V : (c : Dev nD) → (b : Ref sig .tc) → Buf (Elt Ideal) ((c : Thread nD τ).loc b))

/-- The normalised array: entry `i` is the neighbour sum plus half the feature, minus the mean of `i`'s column,
    times that column's reciprocal standard deviation. -/
abbrev normed (c : Dev nD) : Cert.Gin.SN64.Idx → EReal :=
  fun i => (Cert.Gin.selfAdd (V c main_v38) (V c main_v28) i - (V c main_v41 : Cert.Gin.S164.Idx → EReal) (ix2 (0 : Fin 1) (i 1)))
              * (V c main_v48 : Cert.Gin.S164.Idx → EReal) (ix2 (0 : Fin 1) (i 1))

/-- What grid point `t` writes back is rows 5000·t … 5000·t + 4999 of the normalised array: an element of a block
    sits in its array at block index × block size + its own coordinate on each axis, so the two [5000, 64] input
    blocks read the same rows as the output block, and the two statistics rows read column `q` at row 0. -/
theorem flushed_eq (c : Dev nD) (t : Fin cfg4.N) :
    (dat4 (F := Ideal) V c).flushed 4 t = ((cfg4.win 4).blk t).view.read (Elt Ideal) (normed V c) := by
  show (cfg4.win 4).cut (grid4.coords t) ((dat4 V c).after 4 t) = _
  rw [after4_4]
  unfold out4_4
  rw [View.canon_unit_zero zero_offsets]
  simp only [View.ld_unit_zero (S := S5000x64) zero_offsets, View.ld_unit_zero (S := S1x64) zero_offsets]
  obtain ⟨hA0, hA1, hH0, hH1, hM0, hM1, hS0, hS1, hO0, hO1⟩ := index_facts t
  funext j
  show (k4_pay1 (F := Ideal) (iblk4 V c 0 t) (iblk4 V c 1 t) (iblk4 V c 2 t) (iblk4 V c 3 t) j : EReal)
      = normed V c (((cfg4.win 4).blk t).view.emb j)
  refine payload_of_reads (iblk4 V c 0 t) (iblk4 V c 1 t) (iblk4 V c 2 t) (iblk4 V c 3 t)
    (V c main_v38) (V c main_v28) (V c main_v41) (V c main_v48) j (((cfg4.win 4).blk t).view.emb j) ?_ ?_ ?_ ?_
  · show V c main_v38 (((cfg4.win 0).blk t).view.emb j) = V c main_v38 (((cfg4.win 4).blk t).view.emb j)
    refine congrArg (V c main_v38) (funext fun a => Fin.ext ?_)
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 64 + 1 * (j 1).val = win4_4.index t (1 : Fin 2) * 64 + 1 * (j 1).val; omega
  · show V c main_v28 (((cfg4.win 1).blk t).view.emb j) = V c main_v28 (((cfg4.win 4).blk t).view.emb j)
    refine congrArg (V c main_v28) (funext fun a => Fin.ext ?_)
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 64 + 1 * (j 1).val = win4_4.index t (1 : Fin 2) * 64 + 1 * (j 1).val; omega
  · show V c main_v41 (((cfg4.win 2).blk t).view.emb (ix2 (0 : Fin 1) (j 1)))
        = V c main_v41 (ix2 (0 : Fin 1) (((cfg4.win 4).blk t).view.emb j 1))
    refine congrArg (V c main_v41) (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_4.index t (1 : Fin 2) * 64 + 1 * (j 1).val; omega
  · show V c main_v48 (((cfg4.win 3).blk t).view.emb (ix2 (0 : Fin 1) (j 1)))
        = V c main_v48 (ix2 (0 : Fin 1) (((cfg4.win 4).blk t).view.emb j 1))
    refine congrArg (V c main_v48) (funext fun a => Fin.ext ?_)
    match a with
    | ⟨0, _⟩ => show win4_3.index t (0 : Fin 2) * 1 + 1 * 0 = 0; omega
    | ⟨1, _⟩ => show win4_3.index t (1 : Fin 2) * 64 + 1 * (j 1).val = win4_4.index t (1 : Fin 2) * 64 + 1 * (j 1).val; omega

end AtContents

/-! ## From the blocks to the array -/

/-- An index of the output array lies in grid point `t`'s block exactly when, on each axis, its coordinate is
    within the block's extent past the block's offset. -/
theorem mem_block (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v49).slice (win4_4.rect t)).set ↔ _
  rw [View.set_slice_whole, Rect.mem_set_unit]
  exact Iff.rfl

/-- The 20 blocks of 5000 rows tile the 100000 rows: row `r` lies in the block of grid point `r / 5000`, and every
    grid point writes its block back. -/
theorem covered (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨-, -, -, -, -, -, -, -, hO0, hO1⟩ := index_facts t
  refine ⟨t, flush4_4 t, ?_⟩
  rw [mem_block]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- The output array after the region's 20 grid points: every entry is the normalised entry of the arrays the
    region found — each block written back is the block of one whole-array function, and the blocks cover the array. -/
theorem final4 (V : (c : Dev nD) → (b : Ref sig .tc) → Buf (Elt Ideal) ((c : Thread nD τ).loc b)) (c : Dev nD) :
    ((dat4 (F := Ideal) V c).arrAt 4 cfg4.N : Cert.Gin.SN64.Idx → EReal)
      = fun i => (Cert.Gin.selfAdd (V c main_v38) (V c main_v28) i - (V c main_v41 : Cert.Gin.S164.Idx → EReal) (ix2 (0 : Fin 1) (i 1)))
                  * (V c main_v48 : Cert.Gin.S164.Idx → EReal) (ix2 (0 : Fin 1) (i 1)) :=
  (dat4 (F := Ideal) V c).arrAt_eq_of_cover 4 (normed V c) (fun t _ => flushed_eq V c t) covered

end Cert.KernelIdeal.KReg4

end
-- ==== Proof.KLayer2.lean ====
/-
  One layer of the kernel program, read through the buffer contents at the boundaries of its two regions.

  Between the exit of the region before it and the exit of its normalisation region the layer is four stretches:
    * host operations form the neighbour sum of the feature array (the edge gather and scatter-add);
    * the statistics region leaves the column sums of a = neighbour sum + half the features, and of a·a;
    * host operations divide both by the row count, subtract the squared mean from the mean square, add the variance
      offset and take the reciprocal square root;
    * the normalisation region writes (a − mean) · reciprocal deviation.
  Each stretch rewrites only its own result buffers, so a buffer is walked back through the stretches that do not
  write it, and the four values meet in the layer function of the specification.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg3
import proofs.«415324_j50955491999984_1_alg».proof.Proof.KReg4
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
-- reading a buffer through a host stretch types every buffer the stretch names; the later layers' buffers sit deep in the buffer table
set_option maxHeartbeats 1600000

noncomputable section

namespace Cert.KernelIdeal.KLayer2

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg) (c : Dev nD)

/-! ## The neighbour sum -/

/-- Over any buffer contents the first host stretch leaves the neighbour sum of the features: its gather and
    scatter-add are the specification's, spelled with the same dimension records. -/
theorem agg_value_of (W : Valuation τ sig (Elt Ideal)) :
    (StableHlo.after hostOps3 W (Proc.devRef .tc main_v38) : Cert.Gin.SN64.Idx → EReal)
      = Cert.Gin.aggOf (W (Proc.devRef .tc main_v1)) (W (Proc.devRef .tc main_v3)) (W (Proc.devRef .tc main_v28)) := by
  after_results
  rfl

/-- The same at the contents the layer is entered with. -/
theorem agg_value :
    (W7 (F := Ideal) m ρ c (Proc.devRef .tc main_v38) : Cert.Gin.SN64.Idx → EReal)
      = Cert.Gin.aggOf (W6 m ρ c (Proc.devRef .tc main_v1)) (W6 m ρ c (Proc.devRef .tc main_v3))
          (W6 m ρ c (Proc.devRef .tc main_v28)) :=
  agg_value_of (W6 m ρ c)

/-- The first host stretch does not write the features. -/
theorem feat_after_gather :
    W7 (F := Ideal) m ρ c (Proc.devRef .tc main_v28) = W6 m ρ c (Proc.devRef .tc main_v28) := by
  show StableHlo.after hostOps3 (W6 m ρ c) (Proc.devRef .tc main_v28) = _
  after_results

/-! ## The column statistics -/

/-- The statistics region only reads the neighbour sum and the features: an input array is never written back. -/
theorem agg_after_stats :
    W8 (F := Ideal) m ρ c (Proc.devRef .tc main_v38) = W7 m ρ c (Proc.devRef .tc main_v38) :=
  (W8_arr m ρ c 0).trans ((dat3 (V7 m ρ) c).arrAt_in 0 rfl cfg3.N)

theorem feat_after_stats :
    W8 (F := Ideal) m ρ c (Proc.devRef .tc main_v28) = W7 m ρ c (Proc.devRef .tc main_v28) :=
  (W8_arr m ρ c 1).trans ((dat3 (V7 m ρ) c).arrAt_in 1 rfl cfg3.N)

/-- The statistics region leaves the column sums of a = neighbour sum + half the features … -/
theorem stat_sum :
    (W8 (F := Ideal) m ρ c (Proc.devRef .tc main_v39_0) : Cert.Gin.S164.Idx → EReal)
      = fun j => Cert.Gin.colSum (Cert.Gin.selfAdd (W7 m ρ c (Proc.devRef .tc main_v38))
          (W7 m ρ c (Proc.devRef .tc main_v28))) (j 1) :=
  (W8_arr m ρ c 2).trans (KReg3.final3_sum (V7 m ρ) c)

/-- … and the column sums of a·a. -/
theorem stat_sq :
    (W8 (F := Ideal) m ρ c (Proc.devRef .tc main_v39_1) : Cert.Gin.S164.Idx → EReal)
      = fun j => Cert.Gin.colSum (fun i => Cert.Gin.selfAdd (W7 m ρ c (Proc.devRef .tc main_v38))
            (W7 m ρ c (Proc.devRef .tc main_v28)) i
          * Cert.Gin.selfAdd (W7 m ρ c (Proc.devRef .tc main_v38)) (W7 m ρ c (Proc.devRef .tc main_v28)) i) (j 1) :=
  (W8_arr m ρ c 3).trans (KReg3.final3_sq (V7 m ρ) c)

/-! ## The mean and the reciprocal deviation -/

/-- The second host stretch writes neither the neighbour sum nor the features. -/
theorem agg_after_moments :
    W9 (F := Ideal) m ρ c (Proc.devRef .tc main_v38) = W8 m ρ c (Proc.devRef .tc main_v38) := by
  show StableHlo.after hostOps4 (W8 m ρ c) (Proc.devRef .tc main_v38) = _
  after_results

theorem feat_after_moments :
    W9 (F := Ideal) m ρ c (Proc.devRef .tc main_v28) = W8 m ρ c (Proc.devRef .tc main_v28) := by
  show StableHlo.after hostOps4 (W8 m ρ c) (Proc.devRef .tc main_v28) = _
  after_results

/-- The row count spread over the 64 columns reads the row count at every column: a spread scalar reads the scalar. -/
theorem count_apply (d : Fin 64) :
    (broadcastInDim S1x64 ![] bcast_S_S1x64 (constant (F := Ideal) S_ .f32 0x47C35000#32) : Cert.Gin.S164.Idx → EReal)
      (ix2 (0 : Fin 1) d) = Cert.Gin.nf := rfl

/-- The variance offset spread over the 64 columns reads the offset at every column. -/
theorem offset_apply (d : Fin 64) :
    (broadcastInDim S1x64 ![] bcast_S_S1x64 (constant (F := Ideal) S_ .f32 0x3727C5AC#32) : Cert.Gin.S164.Idx → EReal)
      (ix2 (0 : Fin 1) d) = Cert.Gin.eps := rfl

/-- The host quotient of two rows at a column is the quotient of their entries. -/
theorem quot_apply (a b : Cert.Gin.S164.Idx → EReal) (j : Cert.Gin.S164.Idx) :
    (Host.divf (F := Ideal) (φ := .f32) a b) j = Ideal.div (a j) (b j) := rfl

/-- The mean row: the row of column sums divided by the row count. -/
theorem mean_arr :
    (W9 (F := Ideal) m ρ c (Proc.devRef .tc main_v41) : Cert.Gin.S164.Idx → EReal)
      = Host.divf (W8 m ρ c (Proc.devRef .tc main_v39_0) : Cert.Gin.S164.Idx → EReal)
          (broadcastInDim S1x64 ![] bcast_S_S1x64 (constant (F := Ideal) S_ .f32 0x47C35000#32)) := by
  show StableHlo.after hostOps4 (W8 m ρ c) (Proc.devRef .tc main_v41) = _
  after_results

/-- The mean of column `d`. -/
theorem mean_apply (d : Fin 64) :
    (W9 (F := Ideal) m ρ c (Proc.devRef .tc main_v41) : Cert.Gin.S164.Idx → EReal) (ix2 (0 : Fin 1) d)
      = Ideal.div ((W8 m ρ c (Proc.devRef .tc main_v39_0) : Cert.Gin.S164.Idx → EReal) (ix2 (0 : Fin 1) d)) Cert.Gin.nf := by
  rw [mean_arr, quot_apply, count_apply]

/-- The reciprocal-deviation row: the row of sums of squares divided by the row count, less the squared mean row,
    plus the offset, under the reciprocal square root. -/
theorem inv_arr :
    (W9 (F := Ideal) m ρ c (Proc.devRef .tc main_v48) : Cert.Gin.S164.Idx → EReal)
      = Host.rsqrt (addf (subf
            (Host.divf (W8 m ρ c (Proc.devRef .tc main_v39_1) : Cert.Gin.S164.Idx → EReal)
              (broadcastInDim S1x64 ![] bcast_S_S1x64 (constant (F := Ideal) S_ .f32 0x47C35000#32)))
            (mulf
              (Host.divf (W8 m ρ c (Proc.devRef .tc main_v39_0) : Cert.Gin.S164.Idx → EReal)
                (broadcastInDim S1x64 ![] bcast_S_S1x64 (constant (F := Ideal) S_ .f32 0x47C35000#32)))
              (Host.divf (W8 m ρ c (Proc.devRef .tc main_v39_0) : Cert.Gin.S164.Idx → EReal)
                (broadcastInDim S1x64 ![] bcast_S_S1x64 (constant (F := Ideal) S_ .f32 0x47C35000#32)))))
          (broadcastInDim S1x64 ![] bcast_S_S1x64 (constant (F := Ideal) S_ .f32 0x3727C5AC#32))) := by
  show StableHlo.after hostOps4 (W8 m ρ c) (Proc.devRef .tc main_v48) = _
  after_results

/-- The reciprocal deviation of column `d`. -/
theorem inv_apply (d : Fin 64) :
    (W9 (F := Ideal) m ρ c (Proc.devRef .tc main_v48) : Cert.Gin.S164.Idx → EReal) (ix2 (0 : Fin 1) d)
      = Ideal.rsqrt
          (Ideal.div ((W8 m ρ c (Proc.devRef .tc main_v39_1) : Cert.Gin.S164.Idx → EReal) (ix2 (0 : Fin 1) d)) Cert.Gin.nf
            - Ideal.div ((W8 m ρ c (Proc.devRef .tc main_v39_0) : Cert.Gin.S164.Idx → EReal) (ix2 (0 : Fin 1) d)) Cert.Gin.nf
              * Ideal.div ((W8 m ρ c (Proc.devRef .tc main_v39_0) : Cert.Gin.S164.Idx → EReal) (ix2 (0 : Fin 1) d)) Cert.Gin.nf
            + Cert.Gin.eps) := by
  rw [inv_arr]
  show Ideal.rsqrt _ = _
  rw [addf_apply, subf_apply, mulf_apply, quot_apply, quot_apply, count_apply, offset_apply]

/-! ## The normalisation and the layer -/

/-- The normalisation region writes (a − mean) · reciprocal deviation, column by column. -/
theorem norm_value :
    (W10 (F := Ideal) m ρ c (Proc.devRef .tc main_v49) : Cert.Gin.SN64.Idx → EReal)
      = fun i => (Cert.Gin.selfAdd (W9 m ρ c (Proc.devRef .tc main_v38)) (W9 m ρ c (Proc.devRef .tc main_v28)) i
            - (W9 m ρ c (Proc.devRef .tc main_v41) : Cert.Gin.S164.Idx → EReal) (ix2 (0 : Fin 1) (i 1)))
          * (W9 m ρ c (Proc.devRef .tc main_v48) : Cert.Gin.S164.Idx → EReal) (ix2 (0 : Fin 1) (i 1)) :=
  (W10_arr m ρ c 4).trans (KReg4.final4 (V9 m ρ) c)

/-- The normalisation over an array `a` whose column sums and sums of squares the statistics are: the layer's
    normalisation of `a`, entry by entry. -/
theorem norm_meets (a : Cert.Gin.SN64.Idx → EReal) (i : Cert.Gin.SN64.Idx) :
    (a i - Ideal.div (Cert.Gin.colSum a (i 1)) Cert.Gin.nf)
        * Ideal.rsqrt (Ideal.div (Cert.Gin.colSum (fun k => a k * a k) (i 1)) Cert.Gin.nf
            - Ideal.div (Cert.Gin.colSum a (i 1)) Cert.Gin.nf * Ideal.div (Cert.Gin.colSum a (i 1)) Cert.Gin.nf
            + Cert.Gin.eps)
      = Cert.Gin.normK a i := rfl

/-- One layer: the normalisation region's result is the specification's layer over the neighbour sum, at the
    features the layer entered with. -/
theorem layer (m : (ℓ : Loc nD τ sig) → Buf (Elt Ideal) ℓ) (ρ : Dev nD → PrngReg) (c : Dev nD) :
    (W10 (F := Ideal) m ρ c (Proc.devRef .tc main_v49) : Cert.Gin.SN64.Idx → EReal)
      = Cert.Gin.layerK (Cert.Gin.aggOf (W6 m ρ c (Proc.devRef .tc main_v1)) (W6 m ρ c (Proc.devRef .tc main_v3)))
          (W6 m ρ c (Proc.devRef .tc main_v28)) := by
  rw [norm_value, agg_after_moments, feat_after_moments, agg_after_stats, feat_after_stats]
  funext i
  rw [mean_apply m ρ c (i 1), inv_apply m ρ c (i 1), stat_sum, stat_sq, agg_value, feat_after_gather]
  exact norm_meets _ i

/-- The two edge columns pass through the layer: no host operation writes them and neither region has them as an
    array. -/
theorem keep (m : (ℓ : Loc nD τ sig) → Buf (Elt Ideal) ℓ) (ρ : Dev nD → PrngReg) (c : Dev nD) (b : Ref sig .tc)
    (hb : b = main_v1 ∨ b = main_v3) :
    W10 (F := Ideal) m ρ c (Proc.devRef .tc b) = W6 m ρ c (Proc.devRef .tc b) := by
  rcases hb with rfl | rfl
  · calc W10 (F := Ideal) m ρ c (Proc.devRef .tc main_v1)
      _ = W9 m ρ c (Proc.devRef .tc main_v1) := W10_of_ne m ρ c main_v1 (by decide)
      _ = W8 m ρ c (Proc.devRef .tc main_v1) := by
          show StableHlo.after hostOps4 (W8 m ρ c) (Proc.devRef .tc main_v1) = _
          after_results
      _ = W7 m ρ c (Proc.devRef .tc main_v1) := W8_of_ne m ρ c main_v1 (by decide)
      _ = W6 m ρ c (Proc.devRef .tc main_v1) := by
          show StableHlo.after hostOps3 (W6 m ρ c) (Proc.devRef .tc main_v1) = _
          after_results
  · calc W10 (F := Ideal) m ρ c (Proc.devRef .tc main_v3)
      _ = W9 m ρ c (Proc.devRef .tc main_v3) := W10_of_ne m ρ c main_v3 (by decide)
      _ = W8 m ρ c (Proc.devRef .tc main_v3) := by
          show StableHlo.after hostOps4 (W8 m ρ c) (Proc.devRef .tc main_v3) = _
          after_results
      _ = W7 m ρ c (Proc.devRef .tc main_v3) := W8_of_ne m ρ c main_v3 (by decide)
      _ = W6 m ρ c (Proc.devRef .tc main_v3) := by
          show StableHlo.after hostOps3 (W6 m ρ c) (Proc.devRef .tc main_v3) = _
          after_results

end Cert.KernelIdeal.KLayer2

end
-- ==== Proof.KReg5.lean ====
/-
  The column statistics of one layer: what the two [1, 64] outputs of the statistics kernel hold when its grid of 20
  points has run, at any contents of the TensorCore's buffers on entry.

  The kernel walks the 100000 rows of two [100000, 64] arrays — the neighbour sums `A` and the features `h` — in 20 blocks
  of 5000 rows. With `a = A + (1/2)·h`, point 0 stores the zero row into both outputs, and every point adds to the first
  output the sums of `a` down the 5000 rows of its block, column by column, and to the second the sums of `a·a`. The
  outputs' block index never moves, so each is carried from point to point and written back once, after point 19.

  Read over the extended reals: after point `n` column `d` of the first output is the sum of `a(·, d)` over the rows below
  `5000·(n + 1)` (by induction on the point; addition of extended reals is associative and zero is its unit, so no
  finiteness is asked), hence after point 19 the sum over all rows; the second output likewise with `a·a`. The one
  write-back writes block (0, 0), which is the whole [1, 64] array.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KReg5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each kind of point leaves in the two outputs

The first point stores the zero row, reads it back and stores the sum's update over it; every later point reads what the
point before left and stores the update. In each case the last store covers the block, so the block holds that store's
payload, with every load read at the contents it loads. -/

section Pieces
variable {F : FTy → Type} [FloatOps F]

/-- Zero offsets, as the stores and loads spell them. -/
theorem hz : (![0, 0] : Fin 2 → Nat) = fun _ => 0 := funext fun a => by fin_cases a <;> rfl

/-- A later point leaves in the first output the sum's update of what it held. -/
theorem out_B_sum (c : Dev nD) (i : grid5.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond5_0 i)
    (x0 x1 : Vec F S5000x64 .f32) (xo2 xo3 : Vec F S1x64 .f32) :
    out5_B_2 c i a1 h1 a2 h2 a3 h3 a4 h4 hc x0 x1 xo2 xo3 = k5_pay4 x0 x1 xo2 := by
  unfold out5_B_2
  rw [View.read_writes_eq_canon _ _ _ (cover5_B_2 c i a1 h1 a2 h2 a3 h3 a4 h4 hc x0 x1 xo2 xo3)]
  unfold kernelRun5_B
  dsimp only
  sl_unfold_words
  rw [View.canon_unit_zero hz]
  simp only [View.readAt_eq_ld, h1.read_unread, h2.read_unread, h3.read_unread,
    View.ld_unit_zero (S := S5000x64) hz, View.ld_unit_zero (S := S1x64) hz]

/-- A later point leaves in the second output the squares' update of what it held. -/
theorem out_B_sq (c : Dev nD) (i : grid5.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond5_0 i)
    (x0 x1 : Vec F S5000x64 .f32) (xo2 xo3 : Vec F S1x64 .f32) :
    out5_B_3 c i a1 h1 a2 h2 a3 h3 a4 h4 hc x0 x1 xo2 xo3 = k5_pay5 x0 x1 xo3 := by
  unfold out5_B_3
  rw [View.read_writes_eq_canon _ _ _ (cover5_B_3 c i a1 h1 a2 h2 a3 h3 a4 h4 hc x0 x1 xo2 xo3)]
  unfold kernelRun5_B
  dsimp only
  sl_unfold_words
  rw [View.canon_unit_zero hz]
  simp only [View.readAt_eq_ld, h1.read_unread, h2.read_unread, h4.read_unread,
    View.ld_unit_zero (S := S5000x64) hz, View.ld_unit_zero (S := S1x64) hz]

/-- The first point leaves in the first output the sum's update of the zero row it has just stored and read back. -/
theorem out_A_sum (c : Dev nD) (i : grid5.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond5_0 i)
    (x0 x1 : Vec F S5000x64 .f32) :
    out5_A_2 c i a1 h1 a2 h2 a3 h3 a4 h4 hc x0 x1 = k5_pay4 x0 x1 (k5_pay1 (F := F)) := by
  unfold out5_A_2
  rw [View.read_writes_eq_canon _ _ _ (cover5_A_2 c i a1 h1 a2 h2 a3 h3 a4 h4 hc x0 x1)]
  unfold kernelRun5_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

/-- The first point leaves in the second output the squares' update of the zero row. -/
theorem out_A_sq (c : Dev nD) (i : grid5.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond5_0 i)
    (x0 x1 : Vec F S5000x64 .f32) :
    out5_A_3 c i a1 h1 a2 h2 a3 h3 a4 h4 hc x0 x1 = k5_pay5 x0 x1 (k5_pay2 (F := F)) := by
  unfold out5_A_3
  rw [View.read_writes_eq_canon _ _ _ (cover5_A_3 c i a1 h1 a2 h2 a3 h3 a4 h4 hc x0 x1)]
  unfold kernelRun5_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Pieces

/-! ## The arithmetic of one point, read at an index over the extended reals -/

/-- The block the first point stores into the first output before adding: every entry is zero. -/
theorem zeroSum_apply (u : Fin 1) (d : Fin 64) : k5_pay1 (F := Ideal) (ix2 u d) = 0 :=
  Ideal.ofBits_zero_f32

/-- Likewise for the second output. -/
theorem zeroSq_apply (u : Fin 1) (d : Fin 64) : k5_pay2 (F := Ideal) (ix2 u d) = 0 :=
  Ideal.ofBits_zero_f32

/-- The summand: the neighbour-sum block plus one half of the feature block, entry by entry. -/
theorem summand_apply (x0 x1 : Vec Ideal S5000x64 .f32) (r : Fin 5000) (d : Fin 64) :
    k5_pay3 (F := Ideal) x0 x1 (ix2 r d) = x0 (ix2 r d) + Cert.Gin.half * x1 (ix2 r d) := by
  unfold k5_pay3
  simp only [shapeCast_self]
  rfl

/-- The first output after a point: what it held, plus the sum of the summand down the block's 5000 rows
    (the reduction over the row axis is a sum over that axis's coordinates; the cast from [64] to [1, 64]
    keeps the column). -/
theorem stepSum_apply (x0 x1 : Vec Ideal S5000x64 .f32) (acc : Vec Ideal S1x64 .f32) (u : Fin 1) (d : Fin 64) :
    k5_pay4 (F := Ideal) x0 x1 acc (ix2 u d)
      = acc (ix2 u d) + ∑ r : Fin 5000, (x0 (ix2 r d) + Cert.Gin.half * x1 (ix2 r d)) := by
  unfold k5_pay4
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (k5_pay3 (F := Ideal) x0 x1) 0x00000000#32 reduces_S5000x64_S64 (.inl rfl) rfl (ix1 d)).trans ?_
  refine Finset.sum_congr rfl fun r _ => ?_
  exact summand_apply x0 x1 r d

/-- The second output after a point: what it held, plus the sum of the summand's squares down the block's rows. -/
theorem stepSq_apply (x0 x1 : Vec Ideal S5000x64 .f32) (acc : Vec Ideal S1x64 .f32) (u : Fin 1) (d : Fin 64) :
    k5_pay5 (F := Ideal) x0 x1 acc (ix2 u d)
      = acc (ix2 u d) + ∑ r : Fin 5000, ((x0 (ix2 r d) + Cert.Gin.half * x1 (ix2 r d))
          * (x0 (ix2 r d) + Cert.Gin.half * x1 (ix2 r d))) := by
  unfold k5_pay5
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (mulf (k5_pay3 (F := Ideal) x0 x1) (k5_pay3 (F := Ideal) x0 x1)) 0x00000000#32
    reduces_S5000x64_S64 (.inl rfl) rfl (ix1 d)).trans ?_
  refine Finset.sum_congr rfl fun r _ => ?_
  show k5_pay3 (F := Ideal) x0 x1 (ix2 r d) * k5_pay3 (F := Ideal) x0 x1 (ix2 r d) = _
  exact congrArg₂ (· * ·) (summand_apply x0 x1 r d) (summand_apply x0 x1 r d)

/-! ## The blocks of a point, read off the arrays -/

section Values

variable (V : (c : Dev nD) → (b : Ref sig .tc) → Buf (Elt Ideal) ((c : Thread nD τ).loc b))

/-- The neighbour-sum block and the feature block of point `t`, and the two arrays, at their literal types. -/
abbrev blkA (c : Dev nD) (t : Fin cfg5.N) : Vec Ideal S5000x64 .f32 := iblk5 (F := Ideal) V c 0 t
abbrev blkH (c : Dev nD) (t : Fin cfg5.N) : Vec Ideal S5000x64 .f32 := iblk5 (F := Ideal) V c 1 t
abbrev arrA (c : Dev nD) : Vec Ideal S100000x64 .f32 := V c main_v59
abbrev arrH (c : Dev nD) : Vec Ideal S100000x64 .f32 := V c main_v49

/-- Point `t` takes row block `t` and the one column block of each input. -/
theorem index_A : ∀ t : Fin cfg5.N, win5_0.index t 0 = t.val ∧ win5_0.index t 1 = 0 :=
  (by decide +kernel : ∀ t : Fin grid5.N, win5_0.index t 0 = t.val ∧ win5_0.index t 1 = 0)
theorem index_H : ∀ t : Fin cfg5.N, win5_1.index t 0 = t.val ∧ win5_1.index t 1 = 0 :=
  (by decide +kernel : ∀ t : Fin grid5.N, win5_1.index t 0 = t.val ∧ win5_1.index t 1 = 0)

/-- Row `r` of the neighbour-sum block of point `t` is row `5000 t + r` of the array. -/
theorem blkA_apply (c : Dev nD) (t : Fin cfg5.N) (r : Fin 5000) (d : Fin 64) (h : 5000 * t.val + r.val < 100000) :
    blkA V c t (ix2 r d) = arrA V c (ix2 ⟨5000 * t.val + r.val, h⟩ d) := by
  unfold blkA iblk5
  rw [View.read_apply]
  show V c main_v59 _ = V c main_v59 _
  congr 1
  funext a
  apply Fin.ext
  match a with
  | ⟨0, _⟩ => show win5_0.index t 0 * 5000 + 1 * r.val = 5000 * t.val + r.val; rw [(index_A t).1]; omega
  | ⟨1, _⟩ => show win5_0.index t 1 * 64 + 1 * d.val = d.val; rw [(index_A t).2]; omega

/-- Row `r` of the feature block of point `t` is row `5000 t + r` of the array. -/
theorem blkH_apply (c : Dev nD) (t : Fin cfg5.N) (r : Fin 5000) (d : Fin 64) (h : 5000 * t.val + r.val < 100000) :
    blkH V c t (ix2 r d) = arrH V c (ix2 ⟨5000 * t.val + r.val, h⟩ d) := by
  unfold blkH iblk5
  rw [View.read_apply]
  show V c main_v49 _ = V c main_v49 _
  congr 1
  funext a
  apply Fin.ext
  match a with
  | ⟨0, _⟩ => show win5_1.index t 0 * 5000 + 1 * r.val = 5000 * t.val + r.val; rw [(index_H t).1]; omega
  | ⟨1, _⟩ => show win5_1.index t 1 * 64 + 1 * d.val = d.val; rw [(index_H t).2]; omega

end Values

/-! ## Column sums over row ranges -/

/-- Column `d` of an array as a function of a natural row number: zero past the last row, so that a sum over a range
    of row numbers needs no bound in its statement. -/
def rowAt (a : Cert.Gin.SN64.Idx → EReal) (d : Fin 64) (k : ℕ) : EReal :=
  if h : k < 100000 then a (ix2 ⟨k, h⟩ d) else 0

/-- The column sum is the sum over the first 100000 row numbers. -/
theorem colSum_eq_range (a : Cert.Gin.SN64.Idx → EReal) (d : Fin 64) :
    Cert.Gin.colSum a d = ∑ k ∈ Finset.range 100000, rowAt a d k := by
  unfold Cert.Gin.colSum
  rw [← Fin.sum_univ_eq_sum_range (rowAt a d) 100000]
  refine Finset.sum_congr rfl fun i _ => ?_
  unfold rowAt
  rw [dif_pos i.isLt]

section Sums

variable (V : (c : Dev nD) → (b : Ref sig .tc) → Buf (Elt Ideal) ((c : Thread nD τ).loc b))

/-- What is summed: the neighbour sum plus one half of the features, over the whole arrays. -/
abbrev summand (c : Dev nD) : Cert.Gin.SN64.Idx → EReal := Cert.Gin.selfAdd (V c main_v59) (V c main_v49)
/-- and its square. -/
abbrev summandSq (c : Dev nD) : Cert.Gin.SN64.Idx → EReal := fun i => summand V c i * summand V c i

/-- The sum down the rows of point `n`'s blocks is the sum of the summand over row numbers `5000 n … 5000 n + 4999`. -/
theorem blockSum_eq (c : Dev nD) (n : ℕ) (h : n < cfg5.N) (d : Fin 64) :
    ∑ r : Fin 5000, (blkA V c ⟨n, h⟩ (ix2 r d) + Cert.Gin.half * blkH V c ⟨n, h⟩ (ix2 r d))
      = ∑ r ∈ Finset.range 5000, rowAt (summand V c) d (5000 * n + r) := by
  have hN : n < 20 := lt_of_lt_of_eq h (show cfg5.N = 20 from N_5)
  rw [← Fin.sum_univ_eq_sum_range (fun r => rowAt (summand V c) d (5000 * n + r)) 5000]
  refine Finset.sum_congr rfl fun r _ => ?_
  have hr : 5000 * n + r.val < 100000 := by have := r.isLt; omega
  show _ = rowAt (summand V c) d (5000 * n + r.val)
  unfold rowAt
  rw [dif_pos hr, blkA_apply V c ⟨n, h⟩ r d hr, blkH_apply V c ⟨n, h⟩ r d hr]
  rfl

/-- Likewise for the squares. -/
theorem blockSq_eq (c : Dev nD) (n : ℕ) (h : n < cfg5.N) (d : Fin 64) :
    ∑ r : Fin 5000, ((blkA V c ⟨n, h⟩ (ix2 r d) + Cert.Gin.half * blkH V c ⟨n, h⟩ (ix2 r d))
        * (blkA V c ⟨n, h⟩ (ix2 r d) + Cert.Gin.half * blkH V c ⟨n, h⟩ (ix2 r d)))
      = ∑ r ∈ Finset.range 5000, rowAt (summandSq V c) d (5000 * n + r) := by
  have hN : n < 20 := lt_of_lt_of_eq h (show cfg5.N = 20 from N_5)
  rw [← Fin.sum_univ_eq_sum_range (fun r => rowAt (summandSq V c) d (5000 * n + r)) 5000]
  refine Finset.sum_congr rfl fun r _ => ?_
  have hr : 5000 * n + r.val < 100000 := by have := r.isLt; omega
  show _ = rowAt (summandSq V c) d (5000 * n + r.val)
  unfold rowAt
  rw [dif_pos hr, blkA_apply V c ⟨n, h⟩ r d hr, blkH_apply V c ⟨n, h⟩ r d hr]
  rfl

/-! ## The two outputs after each point -/

/-- The first output after a point of the first kind: the zero block plus the point's row sums. -/
theorem pointA_sum (c : Dev nD) (t : Fin cfg5.N) (h0 : t.val % 20 = 0) :
    (outsAt5 (F := Ideal) V c t.val t.isLt).1 = k5_pay4 (F := Ideal) (blkA V c t) (blkH V c t) (k5_pay1 (F := Ideal)) := by
  rw [outsAt5_A V c t h0]
  dsimp only
  exact out_A_sum (F := Ideal) c (grid5.coords t) (ms5_0 t) (hs5_0 t) (ms5_1 t) (hs5_1 t) (ms5_2 t) (hs5_2 t) (ms5_3 t) (hs5_3 t)
    ((hcond5_0 t).mpr h0) (iblk5 (F := Ideal) V c 0 t) (iblk5 (F := Ideal) V c 1 t)

/-- The second output after a point of the first kind. -/
theorem pointA_sq (c : Dev nD) (t : Fin cfg5.N) (h0 : t.val % 20 = 0) :
    (outsAt5 (F := Ideal) V c t.val t.isLt).2 = k5_pay5 (F := Ideal) (blkA V c t) (blkH V c t) (k5_pay2 (F := Ideal)) := by
  rw [outsAt5_A V c t h0]
  dsimp only
  exact out_A_sq (F := Ideal) c (grid5.coords t) (ms5_0 t) (hs5_0 t) (ms5_1 t) (hs5_1 t) (ms5_2 t) (hs5_2 t) (ms5_3 t) (hs5_3 t)
    ((hcond5_0 t).mpr h0) (iblk5 (F := Ideal) V c 0 t) (iblk5 (F := Ideal) V c 1 t)

/-- The first output after a point of the second kind: what the point before left plus the point's row sums. -/
theorem pointB_sum (c : Dev nD) (t : Fin cfg5.N) (h0 : ¬t.val % 20 = 0) :
    (outsAt5 (F := Ideal) V c t.val t.isLt).1 = k5_pay4 (F := Ideal) (blkA V c t) (blkH V c t)
      (outsAt5 (F := Ideal) V c (t.val - 1) (Nat.lt_of_le_of_lt (Nat.sub_le _ _) t.isLt)).1 := by
  rw [outsAt5_B V c t h0]
  dsimp only
  exact out_B_sum (F := Ideal) c (grid5.coords t) (ms5_0 t) (hs5_0 t) (ms5_1 t) (hs5_1 t) (ms5_2 t) (hs5_2 t) (ms5_3 t) (hs5_3 t)
    (fun h => h0 ((hcond5_0 t).mp h)) (iblk5 (F := Ideal) V c 0 t) (iblk5 (F := Ideal) V c 1 t)
    (outsAt5 (F := Ideal) V c (t.val - 1) (Nat.lt_of_le_of_lt (Nat.sub_le _ _) t.isLt)).1
    (outsAt5 (F := Ideal) V c (t.val - 1) (Nat.lt_of_le_of_lt (Nat.sub_le _ _) t.isLt)).2

/-- The second output after a point of the second kind. -/
theorem pointB_sq (c : Dev nD) (t : Fin cfg5.N) (h0 : ¬t.val % 20 = 0) :
    (outsAt5 (F := Ideal) V c t.val t.isLt).2 = k5_pay5 (F := Ideal) (blkA V c t) (blkH V c t)
      (outsAt5 (F := Ideal) V c (t.val - 1) (Nat.lt_of_le_of_lt (Nat.sub_le _ _) t.isLt)).2 := by
  rw [outsAt5_B V c t h0]
  dsimp only
  exact out_B_sq (F := Ideal) c (grid5.coords t) (ms5_0 t) (hs5_0 t) (ms5_1 t) (hs5_1 t) (ms5_2 t) (hs5_2 t) (ms5_3 t) (hs5_3 t)
    (fun h => h0 ((hcond5_0 t).mp h)) (iblk5 (F := Ideal) V c 0 t) (iblk5 (F := Ideal) V c 1 t)
    (outsAt5 (F := Ideal) V c (t.val - 1) (Nat.lt_of_le_of_lt (Nat.sub_le _ _) t.isLt)).1
    (outsAt5 (F := Ideal) V c (t.val - 1) (Nat.lt_of_le_of_lt (Nat.sub_le _ _) t.isLt)).2

end Sums

section Run

variable (V : (c : Dev nD) → (b : Ref sig .tc) → Buf (Elt Ideal) ((c : Thread nD τ).loc b))

/-- THE INVARIANT of the first output: after point `n` its column `d` holds the sum of the summand over the rows below
    `5000 (n + 1)`. By induction on the point: the first point adds its block's rows to zero, every later point adds its
    block's rows to what the point before left, and a sum over a range splits at `5000 (n + 1)`. -/
theorem acc_sum (c : Dev nD) : ∀ (n : ℕ) (h : n < cfg5.N) (u : Fin 1) (d : Fin 64),
    (outsAt5 (F := Ideal) V c n h).1 (ix2 u d) = ∑ k ∈ Finset.range (5000 * (n + 1)), rowAt (summand V c) d k
  | 0, h, u, d => by
    refine (congrFun (pointA_sum V c ⟨0, h⟩ rfl) (ix2 u d)).trans ?_
    refine (stepSum_apply (blkA V c ⟨0, h⟩) (blkH V c ⟨0, h⟩) (k5_pay1 (F := Ideal)) u d).trans ?_
    rw [zeroSum_apply u d, zero_add, blockSum_eq V c 0 h d]
    refine Finset.sum_congr rfl fun r _ => ?_
    rw [Nat.mul_zero, Nat.zero_add]
  | n + 1, h, u, d => by
    have hN : n + 1 < 20 := lt_of_lt_of_eq h (show cfg5.N = 20 from N_5)
    have hB : ¬(⟨n + 1, h⟩ : Fin cfg5.N).val % 20 = 0 := by dsimp only; omega
    refine (congrFun (pointB_sum V c ⟨n + 1, h⟩ hB) (ix2 u d)).trans ?_
    refine (stepSum_apply (blkA V c ⟨n + 1, h⟩) (blkH V c ⟨n + 1, h⟩) _ u d).trans ?_
    show (outsAt5 (F := Ideal) V c n (Nat.lt_of_succ_lt h)).1 (ix2 u d) + _ = _
    rw [acc_sum c n (Nat.lt_of_succ_lt h) u d, blockSum_eq V c (n + 1) h d,
      show 5000 * (n + 1 + 1) = 5000 * (n + 1) + 5000 from by omega, Finset.sum_range_add]

/-- THE INVARIANT of the second output: the same with the summand's square. -/
theorem acc_sq (c : Dev nD) : ∀ (n : ℕ) (h : n < cfg5.N) (u : Fin 1) (d : Fin 64),
    (outsAt5 (F := Ideal) V c n h).2 (ix2 u d) = ∑ k ∈ Finset.range (5000 * (n + 1)), rowAt (summandSq V c) d k
  | 0, h, u, d => by
    refine (congrFun (pointA_sq V c ⟨0, h⟩ rfl) (ix2 u d)).trans ?_
    refine (stepSq_apply (blkA V c ⟨0, h⟩) (blkH V c ⟨0, h⟩) (k5_pay2 (F := Ideal)) u d).trans ?_
    rw [zeroSq_apply u d, zero_add, blockSq_eq V c 0 h d]
    refine Finset.sum_congr rfl fun r _ => ?_
    rw [Nat.mul_zero, Nat.zero_add]
  | n + 1, h, u, d => by
    have hN : n + 1 < 20 := lt_of_lt_of_eq h (show cfg5.N = 20 from N_5)
    have hB : ¬(⟨n + 1, h⟩ : Fin cfg5.N).val % 20 = 0 := by dsimp only; omega
    refine (congrFun (pointB_sq V c ⟨n + 1, h⟩ hB) (ix2 u d)).trans ?_
    refine (stepSq_apply (blkA V c ⟨n + 1, h⟩) (blkH V c ⟨n + 1, h⟩) _ u d).trans ?_
    show (outsAt5 (F := Ideal) V c n (Nat.lt_of_succ_lt h)).2 (ix2 u d) + _ = _
    rw [acc_sq c n (Nat.lt_of_succ_lt h) u d, blockSq_eq V c (n + 1) h d,
      show 5000 * (n + 1 + 1) = 5000 * (n + 1) + 5000 from by omega, Finset.sum_range_add]

/-- The last point. -/
abbrev tLast : Fin cfg5.N := ⟨19, by rw [show cfg5.N = 20 from N_5]; decide⟩

/-- The two results: row 0, column `d` holds the whole column sum of the summand, and of its square. -/
abbrev resultSum (c : Dev nD) : Vec Ideal S1x64 .f32 := fun j => Cert.Gin.colSum (summand V c) (j 1)
abbrev resultSq (c : Dev nD) : Vec Ideal S1x64 .f32 := fun j => Cert.Gin.colSum (summandSq V c) (j 1)

/-- After the last point the rows below `5000 · 20` are all the rows. -/
theorem last_sum (c : Dev nD) : (outsAt5 (F := Ideal) V c tLast.val tLast.isLt).1 = resultSum V c := by
  funext j
  refine (congrArg (outsAt5 (F := Ideal) V c tLast.val tLast.isLt).1 (eq_ix2 j)).trans ?_
  refine (acc_sum V c 19 tLast.isLt (j 0) (j 1)).trans ?_
  exact (colSum_eq_range (summand V c) (j 1)).symm

/-- Likewise for the squares. -/
theorem last_sq (c : Dev nD) : (outsAt5 (F := Ideal) V c tLast.val tLast.isLt).2 = resultSq V c := by
  funext j
  refine (congrArg (outsAt5 (F := Ideal) V c tLast.val tLast.isLt).2 (eq_ix2 j)).trans ?_
  refine (acc_sq V c 19 tLast.isLt (j 0) (j 1)).trans ?_
  exact (colSum_eq_range (summandSq V c) (j 1)).symm

/-! ## The one write-back -/

/-- Only the last point writes the first output back, and its block (0, 0) read through zero offsets is the array. -/
theorem flushed_sum (c : Dev nD) (t : Fin cfg5.N) (hf : (cfg5.win 2).flush t = true) :
    (dat5 (F := Ideal) V c).flushed 2 t = ((cfg5.win 2).blk t).view.read (Elt Ideal) (resultSum V c) := by
  have hN : cfg5.N = 20 := N_5
  have h19 : t.val = 19 := by have := (flush5_2 t).mp hf; have := t.isLt; omega
  obtain rfl : t = tLast := Fin.ext h19
  show (cfg5.win 2).cut (grid5.coords tLast) ((dat5 (F := Ideal) V c).after 2 tLast) = _
  rw [after5_2, last_sum]
  have hz' : (fun a => win5_2.index tLast a * main_v60_0.ty.shape.size a) = fun _ => 0 :=
    funext fun a => by fin_cases a <;> decide +kernel
  exact (Memref.read_access_unit_zero (Elt Ideal) main_v60_0 hz' (fun a => by rw [congrFun hz' a]; simp) (resultSum V c)).symm

/-- Likewise for the second output. -/
theorem flushed_sq (c : Dev nD) (t : Fin cfg5.N) (hf : (cfg5.win 3).flush t = true) :
    (dat5 (F := Ideal) V c).flushed 3 t = ((cfg5.win 3).blk t).view.read (Elt Ideal) (resultSq V c) := by
  have hN : cfg5.N = 20 := N_5
  have h19 : t.val = 19 := by have := (flush5_3 t).mp hf; have := t.isLt; omega
  obtain rfl : t = tLast := Fin.ext h19
  show (cfg5.win 3).cut (grid5.coords tLast) ((dat5 (F := Ideal) V c).after 3 tLast) = _
  rw [after5_3, last_sq]
  have hz' : (fun a => win5_3.index tLast a * main_v60_1.ty.shape.size a) = fun _ => 0 :=
    funext fun a => by fin_cases a <;> decide +kernel
  exact (Memref.read_access_unit_zero (Elt Ideal) main_v60_1 hz' (fun a => by rw [congrFun hz' a]; simp) (resultSq V c)).symm

end Run

/-! ## The result arrays -/

section Final

/-- The first output array ends holding, in column `d` of its one row, the column sum of the neighbour sum plus one half
    of the features: the last point's block covers the array, and no other point writes it back. -/
theorem final5_sum (V : (c : Dev nD) → (b : Ref sig .tc) → Buf (Elt Ideal) ((c : Thread nD τ).loc b)) (c : Dev nD) :
    ((dat5 (F := Ideal) V c).arrAt 2 cfg5.N : Cert.Gin.S164.Idx → EReal)
      = fun j => Cert.Gin.colSum (Cert.Gin.selfAdd (V c main_v59) (V c main_v49)) (j 1) :=
  (dat5 (F := Ideal) V c).arrAt_eq_of_cover 2 (resultSum V c) (flushed_sum V c) fun i =>
    ⟨tLast, (flush5_2 tLast).mpr rfl, by
      show i ∈ ((View.whole main_v60_0).slice (win5_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win5_2.index tLast 0 * win5_2.size 0 ≤ (i 0 : Nat)
          ∧ (i 0 : Nat) < win5_2.index tLast 0 * win5_2.size 0 + win5_2.xsize (grid5.coords tLast) 0
        rw [show win5_2.index tLast 0 * win5_2.size 0 = 0 from by decide +kernel,
          show win5_2.xsize (grid5.coords tLast) 0 = 1 from by decide +kernel]
        omega
      | ⟨1, _⟩ =>
        show win5_2.index tLast 1 * win5_2.size 1 ≤ (i 1 : Nat)
          ∧ (i 1 : Nat) < win5_2.index tLast 1 * win5_2.size 1 + win5_2.xsize (grid5.coords tLast) 1
        rw [show win5_2.index tLast 1 * win5_2.size 1 = 0 from by decide +kernel,
          show win5_2.xsize (grid5.coords tLast) 1 = 64 from by decide +kernel]
        omega⟩

/-- The second output array ends holding the column sums of the square of the same summand. -/
theorem final5_sq (V : (c : Dev nD) → (b : Ref sig .tc) → Buf (Elt Ideal) ((c : Thread nD τ).loc b)) (c : Dev nD) :
    ((dat5 (F := Ideal) V c).arrAt 3 cfg5.N : Cert.Gin.S164.Idx → EReal)
      = fun j => Cert.Gin.colSum (fun i => Cert.Gin.selfAdd (V c main_v59) (V c main_v49) i
          * Cert.Gin.selfAdd (V c main_v59) (V c main_v49) i) (j 1) :=
  (dat5 (F := Ideal) V c).arrAt_eq_of_cover 3 (resultSq V c) (flushed_sq V c) fun i =>
    ⟨tLast, (flush5_3 tLast).mpr rfl, by
      show i ∈ ((View.whole main_v60_1).slice (win5_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win5_3.index tLast 0 * win5_3.size 0 ≤ (i 0 : Nat)
          ∧ (i 0 : Nat) < win5_3.index tLast 0 * win5_3.size 0 + win5_3.xsize (grid5.coords tLast) 0
        rw [show win5_3.index tLast 0 * win5_3.size 0 = 0 from by decide +kernel,
          show win5_3.xsize (grid5.coords tLast) 0 = 1 from by decide +kernel]
        omega
      | ⟨1, _⟩ =>
        show win5_3.index tLast 1 * win5_3.size 1 ≤ (i 1 : Nat)
          ∧ (i 1 : Nat) < win5_3.index tLast 1 * win5_3.size 1 + win5_3.xsize (grid5.coords tLast) 1
        rw [show win5_3.index tLast 1 * win5_3.size 1 = 0 from by decide +kernel,
          show win5_3.xsize (grid5.coords tLast) 1 = 64 from by decide +kernel]
        omega⟩

end Final

end Cert.KernelIdeal.KReg5

end
-- ==== Proof.KReg6.lean ====
/-
  The normalisation kernel's output as one whole-array function.

  The kernel walks the [100000, 64] arrays in 20 blocks of 5000 rows. At each block it reads the block of the
  neighbour sums `A` and of the features `h` at the same rows, and the two [1, 64] rows of column statistics (the
  column means `mu` and the reciprocal standard deviations `iv`, each a single block that is the whole row), and
  writes, at row `p` and column `q` of the block,

      (A[r, q] + (1/2) · h[r, q] − mu[0, q]) · iv[0, q],        r = 5000 · t + p   at block `t`.

  The blocks tile the rows (row `r` lies in block `r / 5000`), every block is written back, and what block `t` writes
  is the restriction to its rows of one function of the whole arrays; so the output array is that function:
  entry `(r, q)` depends on row `r` of `A` and `h` and on column `q` of the two statistics rows only.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The zero offsets of a whole-block rectangle, spelt as a constant function. -/
theorem zero_offsets : (![0, 0] : Fin 2 → Nat) = fun _ => 0 := funext fun a => by fin_cases a <;> rfl

/-- A [1, 64] row broadcast along 5000 rows reads, at `(p, q)`, the row's entry `q`: the row axis of the operand is
    a unit axis and reads 0, the column axis is carried over. -/
theorem row_broadcast_apply (v : Vec Ideal S1x64 .f32) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry `(p, q)` of a block: the neighbour sum plus half the feature, minus the column's
    mean, times the column's reciprocal standard deviation. Every operation is pointwise but the two row
    broadcasts; the same-shape casts are the identity. -/
theorem payload_apply (xa xh : Vec Ideal S5000x64 .f32) (xm xs : Vec Ideal S1x64 .f32) (p : Fin 5000) (q : Fin 64) :
    (k6_pay1 (F := Ideal) xa xh xm xs (ix2 p q) : EReal)
      = ((xa (ix2 p q) : EReal) + Cert.Gin.half * (xh (ix2 p q) : EReal) - (xm (ix2 (0 : Fin 1) q) : EReal))
          * (xs (ix2 (0 : Fin 1) q) : EReal) := by
  unfold k6_pay1
  simp only [shapeCast_self]
  rw [mulf_apply, subf_apply, addf_apply, mulf_apply, broadcast_apply, row_broadcast_apply, row_broadcast_apply]
  rfl

/-- The same at a block index `j`, with the four blocks' entries named as entries of whole arrays: if the two
    [5000, 64] blocks hold at `j` the arrays' entries at `i`, and the two rows hold at `j`'s column the statistics of
    `i`'s column, then the body's entry at `j` is the normalised entry at `i`. -/
theorem payload_of_reads (xa xh : Vec Ideal S5000x64 .f32) (xm xs : Vec Ideal S1x64 .f32)
    (A h : Cert.Gin.SN64.Idx → EReal) (mu iv : Cert.Gin.S164.Idx → EReal) (j : S5000x64.Idx) (i : Cert.Gin.SN64.Idx)
    (ea : (xa j : EReal) = A i) (eh : (xh j : EReal) = h i)
    (em : (xm (ix2 (0 : Fin 1) (j 1)) : EReal) = mu (ix2 (0 : Fin 1) (i 1)))
    (es : (xs (ix2 (0 : Fin 1) (j 1)) : EReal) = iv (ix2 (0 : Fin 1) (i 1))) :
    (k6_pay1 (F := Ideal) xa xh xm xs j : EReal)
      = (Cert.Gin.selfAdd A h i - mu (ix2 (0 : Fin 1) (i 1))) * iv (ix2 (0 : Fin 1) (i 1)) := by
  obtain ⟨p, q, rfl⟩ : ∃ (p : Fin 5000) (q : Fin 64), j = ix2 p q := ⟨j 0, j 1, eq_ix2 j⟩
  rw [payload_apply, ea, eh]
  unfold Cert.Gin.selfAdd
  rw [← em, ← es]

/-! ## Where the blocks sit -/

/-- The windows' index maps over the 20 grid points: the two [5000, 64] inputs and the output sit at block row `t`,
    column block 0; the two [1, 64] rows always at block (0, 0). -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section AtContents
variable (V : (c : Dev nD) → (b : Ref sig .tc) → Buf (Elt Ideal) ((c : Thread nD τ).loc b))

/-- The normalised array: entry `i` is the neighbour sum plus half the feature, minus the mean of `i`'s column,
    times that column's reciprocal standard deviation. -/
abbrev normed (c : Dev nD) : Cert.Gin.SN64.Idx → EReal :=
  fun i => (Cert.Gin.selfAdd (V c main_v59) (V c main_v49) i - (V c main_v62 : Cert.Gin.S164.Idx → EReal) (ix2 (0 : Fin 1) (i 1)))
              * (V c main_v69 : Cert.Gin.S164.Idx → EReal) (ix2 (0 : Fin 1) (i 1))

/-- What grid point `t` writes back is rows 5000·t … 5000·t + 4999 of the normalised array: an element of a block
    sits in its array at block index × block size + its own coordinate on each axis, so the two [5000, 64] input
    blocks read the same rows as the output block, and the two statistics rows read column `q` at row 0. -/
theorem flushed_eq (c : Dev nD) (t : Fin cfg6.N) :
    (dat6 (F := Ideal) V c).flushed 4 t = ((cfg6.win 4).blk t).view.read (Elt Ideal) (normed V c) := by
  show (cfg6.win 4).cut (grid6.coords t) ((dat6 V c).after 4 t) = _
  rw [after6_4]
  unfold out6_4
  rw [View.canon_unit_zero zero_offsets]
  simp only [View.ld_unit_zero (S := S5000x64) zero_offsets, View.ld_unit_zero (S := S1x64) zero_offsets]
  obtain ⟨hA0, hA1, hH0, hH1, hM0, hM1, hS0, hS1, hO0, hO1⟩ := index_facts t
  funext j
  show (k6_pay1 (F := Ideal) (iblk6 V c 0 t) (iblk6 V c 1 t) (iblk6 V c 2 t) (iblk6 V c 3 t) j : EReal)
      = normed V c (((cfg6.win 4).blk t).view.emb j)
  refine payload_of_reads (iblk6 V c 0 t) (iblk6 V c 1 t) (iblk6 V c 2 t) (iblk6 V c 3 t)
    (V c main_v59) (V c main_v49) (V c main_v62) (V c main_v69) j (((cfg6.win 4).blk t).view.emb j) ?_ ?_ ?_ ?_
  · show V c main_v59 (((cfg6.win 0).blk t).view.emb j) = V c main_v59 (((cfg6.win 4).blk t).view.emb j)
    refine congrArg (V c main_v59) (funext fun a => Fin.ext ?_)
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 64 + 1 * (j 1).val = win6_4.index t (1 : Fin 2) * 64 + 1 * (j 1).val; omega
  · show V c main_v49 (((cfg6.win 1).blk t).view.emb j) = V c main_v49 (((cfg6.win 4).blk t).view.emb j)
    refine congrArg (V c main_v49) (funext fun a => Fin.ext ?_)
    match a with
    | ⟨0, _⟩ => show win6_1.index t (0 : Fin 2) * 5000 + 1 * (j 0).val = win6_4.index t (0 : Fin 2) * 5000 + 1 * (j 0).val; omega
    | ⟨1, _⟩ => show win6_1.index t (1 : Fin 2) * 64 + 1 * (j 1).val = win6_4.index t (1 : Fin 2) * 64 + 1 * (j 1).val; omega
  · show V c main_v62 (((cfg6.win 2).blk t).view.emb (ix2 (0 : Fin 1) (j 1)))
        = V c main_v62 (ix2 (0 : Fin 1) (((cfg6.win 4).blk t).view.emb j 1))
    refine congrArg (V c main_v62) (funext fun a => Fin.ext ?_)
    match a with
    | ⟨0, _⟩ => show win6_2.index t (0 : Fin 2) * 1 + 1 * 0 = 0; omega
    | ⟨1, _⟩ => show win6_2.index t (1 : Fin 2) * 64 + 1 * (j 1).val = win6_4.index t (1 : Fin 2) * 64 + 1 * (j 1).val; omega
  · show V c main_v69 (((cfg6.win 3).blk t).view.emb (ix2 (0 : Fin 1) (j 1)))
        = V c main_v69 (ix2 (0 : Fin 1) (((cfg6.win 4).blk t).view.emb j 1))
    refine congrArg (V c main_v69) (funext fun a => Fin.ext ?_)
    match a with
    | ⟨0, _⟩ => show win6_3.index t (0 : Fin 2) * 1 + 1 * 0 = 0; omega
    | ⟨1, _⟩ => show win6_3.index t (1 : Fin 2) * 64 + 1 * (j 1).val = win6_4.index t (1 : Fin 2) * 64 + 1 * (j 1).val; omega

end AtContents

/-! ## From the blocks to the array -/

/-- An index of the output array lies in grid point `t`'s block exactly when, on each axis, its coordinate is
    within the block's extent past the block's offset. -/
theorem mem_block (t : Fin cfg6.N) (i : S100000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v70).slice (win6_4.rect t)).set ↔ _
  rw [View.set_slice_whole, Rect.mem_set_unit]
  exact Iff.rfl

/-- The 20 blocks of 5000 rows tile the 100000 rows: row `r` lies in the block of grid point `r / 5000`, and every
    grid point writes its block back. -/
theorem covered (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  obtain ⟨t, ht⟩ : ∃ t : Fin cfg6.N, t.val = (i 0).val / 5000 :=
    ⟨⟨(i 0).val / 5000, Nat.lt_of_lt_of_eq (by omega : (i 0).val / 5000 < 20) N_6.symm⟩, rfl⟩
  obtain ⟨-, -, -, -, -, -, -, -, hO0, hO1⟩ := index_facts t
  refine ⟨t, flush6_4 t, ?_⟩
  rw [mem_block]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- The output array after the region's 20 grid points: every entry is the normalised entry of the arrays the
    region found — each block written back is the block of one whole-array function, and the blocks cover the array. -/
theorem final6 (V : (c : Dev nD) → (b : Ref sig .tc) → Buf (Elt Ideal) ((c : Thread nD τ).loc b)) (c : Dev nD) :
    ((dat6 (F := Ideal) V c).arrAt 4 cfg6.N : Cert.Gin.SN64.Idx → EReal)
      = fun i => (Cert.Gin.selfAdd (V c main_v59) (V c main_v49) i - (V c main_v62 : Cert.Gin.S164.Idx → EReal) (ix2 (0 : Fin 1) (i 1)))
                  * (V c main_v69 : Cert.Gin.S164.Idx → EReal) (ix2 (0 : Fin 1) (i 1)) :=
  (dat6 (F := Ideal) V c).arrAt_eq_of_cover 4 (normed V c) (fun t _ => flushed_eq V c t) covered

end Cert.KernelIdeal.KReg6

end
-- ==== Proof.KLayer3.lean ====
/-
  One layer of the kernel program, read through the buffer contents at the boundaries of its two regions.

  Between the exit of the region before it and the exit of its normalisation region the layer is four stretches:
    * host operations form the neighbour sum of the feature array (the edge gather and scatter-add);
    * the statistics region leaves the column sums of a = neighbour sum + half the features, and of a·a;
    * host operations divide both by the row count, subtract the squared mean from the mean square, add the variance
      offset and take the reciprocal square root;
    * the normalisation region writes (a − mean) · reciprocal deviation.
  Each stretch rewrites only its own result buffers, so a buffer is walked back through the stretches that do not
  write it, and the four values meet in the layer function of the specification.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg5
import proofs.«415324_j50955491999984_1_alg».proof.Proof.KReg6
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
-- reading a buffer through a host stretch types every buffer the stretch names; the later layers' buffers sit deep in the buffer table
set_option maxHeartbeats 1600000

noncomputable section

namespace Cert.KernelIdeal.KLayer3

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg) (c : Dev nD)

/-! ## The neighbour sum -/

/-- Over any buffer contents the first host stretch leaves the neighbour sum of the features: its gather and
    scatter-add are the specification's, spelled with the same dimension records. -/
theorem agg_value_of (W : Valuation τ sig (Elt Ideal)) :
    (StableHlo.after hostOps5 W (Proc.devRef .tc main_v59) : Cert.Gin.SN64.Idx → EReal)
      = Cert.Gin.aggOf (W (Proc.devRef .tc main_v1)) (W (Proc.devRef .tc main_v3)) (W (Proc.devRef .tc main_v49)) := by
  after_results
  rfl

/-- The same at the contents the layer is entered with. -/
theorem agg_value :
    (W11 (F := Ideal) m ρ c (Proc.devRef .tc main_v59) : Cert.Gin.SN64.Idx → EReal)
      = Cert.Gin.aggOf (W10 m ρ c (Proc.devRef .tc main_v1)) (W10 m ρ c (Proc.devRef .tc main_v3))
          (W10 m ρ c (Proc.devRef .tc main_v49)) :=
  agg_value_of (W10 m ρ c)

/-- The first host stretch does not write the features. -/
theorem feat_after_gather :
    W11 (F := Ideal) m ρ c (Proc.devRef .tc main_v49) = W10 m ρ c (Proc.devRef .tc main_v49) := by
  show StableHlo.after hostOps5 (W10 m ρ c) (Proc.devRef .tc main_v49) = _
  after_results

/-! ## The column statistics -/

/-- The statistics region only reads the neighbour sum and the features: an input array is never written back. -/
theorem agg_after_stats :
    W12 (F := Ideal) m ρ c (Proc.devRef .tc main_v59) = W11 m ρ c (Proc.devRef .tc main_v59) :=
  (W12_arr m ρ c 0).trans ((dat5 (V11 m ρ) c).arrAt_in 0 rfl cfg5.N)

theorem feat_after_stats :
    W12 (F := Ideal) m ρ c (Proc.devRef .tc main_v49) = W11 m ρ c (Proc.devRef .tc main_v49) :=
  (W12_arr m ρ c 1).trans ((dat5 (V11 m ρ) c).arrAt_in 1 rfl cfg5.N)

/-- The statistics region leaves the column sums of a = neighbour sum + half the features … -/
theorem stat_sum :
    (W12 (F := Ideal) m ρ c (Proc.devRef .tc main_v60_0) : Cert.Gin.S164.Idx → EReal)
      = fun j => Cert.Gin.colSum (Cert.Gin.selfAdd (W11 m ρ c (Proc.devRef .tc main_v59))
          (W11 m ρ c (Proc.devRef .tc main_v49))) (j 1) :=
  (W12_arr m ρ c 2).trans (KReg5.final5_sum (V11 m ρ) c)

/-- … and the column sums of a·a. -/
theorem stat_sq :
    (W12 (F := Ideal) m ρ c (Proc.devRef .tc main_v60_1) : Cert.Gin.S164.Idx → EReal)
      = fun j => Cert.Gin.colSum (fun i => Cert.Gin.selfAdd (W11 m ρ c (Proc.devRef .tc main_v59))
            (W11 m ρ c (Proc.devRef .tc main_v49)) i
          * Cert.Gin.selfAdd (W11 m ρ c (Proc.devRef .tc main_v59)) (W11 m ρ c (Proc.devRef .tc main_v49)) i) (j 1) :=
  (W12_arr m ρ c 3).trans (KReg5.final5_sq (V11 m ρ) c)

/-! ## The mean and the reciprocal deviation -/

/-- The second host stretch writes neither the neighbour sum nor the features. -/
theorem agg_after_moments :
    W13 (F := Ideal) m ρ c (Proc.devRef .tc main_v59) = W12 m ρ c (Proc.devRef .tc main_v59) := by
  show StableHlo.after hostOps6 (W12 m ρ c) (Proc.devRef .tc main_v59) = _
  after_results

theorem feat_after_moments :
    W13 (F := Ideal) m ρ c (Proc.devRef .tc main_v49) = W12 m ρ c (Proc.devRef .tc main_v49) := by
  show StableHlo.after hostOps6 (W12 m ρ c) (Proc.devRef .tc main_v49) = _
  after_results

/-- The row count spread over the 64 columns reads the row count at every column: a spread scalar reads the scalar. -/
theorem count_apply (d : Fin 64) :
    (broadcastInDim S1x64 ![] bcast_S_S1x64 (constant (F := Ideal) S_ .f32 0x47C35000#32) : Cert.Gin.S164.Idx → EReal)
      (ix2 (0 : Fin 1) d) = Cert.Gin.nf := rfl

/-- The variance offset spread over the 64 columns reads the offset at every column. -/
theorem offset_apply (d : Fin 64) :
    (broadcastInDim S1x64 ![] bcast_S_S1x64 (constant (F := Ideal) S_ .f32 0x3727C5AC#32) : Cert.Gin.S164.Idx → EReal)
      (ix2 (0 : Fin 1) d) = Cert.Gin.eps := rfl

/-- The host quotient of two rows at a column is the quotient of their entries. -/
theorem quot_apply (a b : Cert.Gin.S164.Idx → EReal) (j : Cert.Gin.S164.Idx) :
    (Host.divf (F := Ideal) (φ := .f32) a b) j = Ideal.div (a j) (b j) := rfl

/-- The mean row: the row of column sums divided by the row count. -/
theorem mean_arr :
    (W13 (F := Ideal) m ρ c (Proc.devRef .tc main_v62) : Cert.Gin.S164.Idx → EReal)
      = Host.divf (W12 m ρ c (Proc.devRef .tc main_v60_0) : Cert.Gin.S164.Idx → EReal)
          (broadcastInDim S1x64 ![] bcast_S_S1x64 (constant (F := Ideal) S_ .f32 0x47C35000#32)) := by
  show StableHlo.after hostOps6 (W12 m ρ c) (Proc.devRef .tc main_v62) = _
  after_results

/-- The mean of column `d`. -/
theorem mean_apply (d : Fin 64) :
    (W13 (F := Ideal) m ρ c (Proc.devRef .tc main_v62) : Cert.Gin.S164.Idx → EReal) (ix2 (0 : Fin 1) d)
      = Ideal.div ((W12 m ρ c (Proc.devRef .tc main_v60_0) : Cert.Gin.S164.Idx → EReal) (ix2 (0 : Fin 1) d)) Cert.Gin.nf := by
  rw [mean_arr, quot_apply, count_apply]

/-- The reciprocal-deviation row: the row of sums of squares divided by the row count, less the squared mean row,
    plus the offset, under the reciprocal square root. -/
theorem inv_arr :
    (W13 (F := Ideal) m ρ c (Proc.devRef .tc main_v69) : Cert.Gin.S164.Idx → EReal)
      = Host.rsqrt (addf (subf
            (Host.divf (W12 m ρ c (Proc.devRef .tc main_v60_1) : Cert.Gin.S164.Idx → EReal)
              (broadcastInDim S1x64 ![] bcast_S_S1x64 (constant (F := Ideal) S_ .f32 0x47C35000#32)))
            (mulf
              (Host.divf (W12 m ρ c (Proc.devRef .tc main_v60_0) : Cert.Gin.S164.Idx → EReal)
                (broadcastInDim S1x64 ![] bcast_S_S1x64 (constant (F := Ideal) S_ .f32 0x47C35000#32)))
              (Host.divf (W12 m ρ c (Proc.devRef .tc main_v60_0) : Cert.Gin.S164.Idx → EReal)
                (broadcastInDim S1x64 ![] bcast_S_S1x64 (constant (F := Ideal) S_ .f32 0x47C35000#32)))))
          (broadcastInDim S1x64 ![] bcast_S_S1x64 (constant (F := Ideal) S_ .f32 0x3727C5AC#32))) := by
  show StableHlo.after hostOps6 (W12 m ρ c) (Proc.devRef .tc main_v69) = _
  after_results

/-- The reciprocal deviation of column `d`. -/
theorem inv_apply (d : Fin 64) :
    (W13 (F := Ideal) m ρ c (Proc.devRef .tc main_v69) : Cert.Gin.S164.Idx → EReal) (ix2 (0 : Fin 1) d)
      = Ideal.rsqrt
          (Ideal.div ((W12 m ρ c (Proc.devRef .tc main_v60_1) : Cert.Gin.S164.Idx → EReal) (ix2 (0 : Fin 1) d)) Cert.Gin.nf
            - Ideal.div ((W12 m ρ c (Proc.devRef .tc main_v60_0) : Cert.Gin.S164.Idx → EReal) (ix2 (0 : Fin 1) d)) Cert.Gin.nf
              * Ideal.div ((W12 m ρ c (Proc.devRef .tc main_v60_0) : Cert.Gin.S164.Idx → EReal) (ix2 (0 : Fin 1) d)) Cert.Gin.nf
            + Cert.Gin.eps) := by
  rw [inv_arr]
  show Ideal.rsqrt _ = _
  rw [addf_apply, subf_apply, mulf_apply, quot_apply, quot_apply, count_apply, offset_apply]

/-! ## The normalisation and the layer -/

/-- The normalisation region writes (a − mean) · reciprocal deviation, column by column. -/
theorem norm_value :
    (W14 (F := Ideal) m ρ c (Proc.devRef .tc main_v70) : Cert.Gin.SN64.Idx → EReal)
      = fun i => (Cert.Gin.selfAdd (W13 m ρ c (Proc.devRef .tc main_v59)) (W13 m ρ c (Proc.devRef .tc main_v49)) i
            - (W13 m ρ c (Proc.devRef .tc main_v62) : Cert.Gin.S164.Idx → EReal) (ix2 (0 : Fin 1) (i 1)))
          * (W13 m ρ c (Proc.devRef .tc main_v69) : Cert.Gin.S164.Idx → EReal) (ix2 (0 : Fin 1) (i 1)) :=
  (W14_arr m ρ c 4).trans (KReg6.final6 (V13 m ρ) c)

/-- The normalisation over an array `a` whose column sums and sums of squares the statistics are: the layer's
    normalisation of `a`, entry by entry. -/
theorem norm_meets (a : Cert.Gin.SN64.Idx → EReal) (i : Cert.Gin.SN64.Idx) :
    (a i - Ideal.div (Cert.Gin.colSum a (i 1)) Cert.Gin.nf)
        * Ideal.rsqrt (Ideal.div (Cert.Gin.colSum (fun k => a k * a k) (i 1)) Cert.Gin.nf
            - Ideal.div (Cert.Gin.colSum a (i 1)) Cert.Gin.nf * Ideal.div (Cert.Gin.colSum a (i 1)) Cert.Gin.nf
            + Cert.Gin.eps)
      = Cert.Gin.normK a i := rfl

/-- One layer: the normalisation region's result is the specification's layer over the neighbour sum, at the
    features the layer entered with. -/
theorem layer (m : (ℓ : Loc nD τ sig) → Buf (Elt Ideal) ℓ) (ρ : Dev nD → PrngReg) (c : Dev nD) :
    (W14 (F := Ideal) m ρ c (Proc.devRef .tc main_v70) : Cert.Gin.SN64.Idx → EReal)
      = Cert.Gin.layerK (Cert.Gin.aggOf (W10 m ρ c (Proc.devRef .tc main_v1)) (W10 m ρ c (Proc.devRef .tc main_v3)))
          (W10 m ρ c (Proc.devRef .tc main_v49)) := by
  rw [norm_value, agg_after_moments, feat_after_moments, agg_after_stats, feat_after_stats]
  funext i
  rw [mean_apply m ρ c (i 1), inv_apply m ρ c (i 1), stat_sum, stat_sq, agg_value, feat_after_gather]
  exact norm_meets _ i

/-- The two edge columns pass through the layer: no host operation writes them and neither region has them as an
    array. -/
theorem keep (m : (ℓ : Loc nD τ sig) → Buf (Elt Ideal) ℓ) (ρ : Dev nD → PrngReg) (c : Dev nD) (b : Ref sig .tc)
    (hb : b = main_v1 ∨ b = main_v3) :
    W14 (F := Ideal) m ρ c (Proc.devRef .tc b) = W10 m ρ c (Proc.devRef .tc b) := by
  rcases hb with rfl | rfl
  · calc W14 (F := Ideal) m ρ c (Proc.devRef .tc main_v1)
      _ = W13 m ρ c (Proc.devRef .tc main_v1) := W14_of_ne m ρ c main_v1 (by decide)
      _ = W12 m ρ c (Proc.devRef .tc main_v1) := by
          show StableHlo.after hostOps6 (W12 m ρ c) (Proc.devRef .tc main_v1) = _
          after_results
      _ = W11 m ρ c (Proc.devRef .tc main_v1) := W12_of_ne m ρ c main_v1 (by decide)
      _ = W10 m ρ c (Proc.devRef .tc main_v1) := by
          show StableHlo.after hostOps5 (W10 m ρ c) (Proc.devRef .tc main_v1) = _
          after_results
  · calc W14 (F := Ideal) m ρ c (Proc.devRef .tc main_v3)
      _ = W13 m ρ c (Proc.devRef .tc main_v3) := W14_of_ne m ρ c main_v3 (by decide)
      _ = W12 m ρ c (Proc.devRef .tc main_v3) := by
          show StableHlo.after hostOps6 (W12 m ρ c) (Proc.devRef .tc main_v3) = _
          after_results
      _ = W11 m ρ c (Proc.devRef .tc main_v3) := W12_of_ne m ρ c main_v3 (by decide)
      _ = W10 m ρ c (Proc.devRef .tc main_v3) := by
          show StableHlo.after hostOps5 (W10 m ρ c) (Proc.devRef .tc main_v3) = _
          after_results

end Cert.KernelIdeal.KLayer3

end
-- ==== Proof.KReg7.lean ====
/-
  The column statistics of one layer: what the two [1, 64] outputs of the statistics kernel hold when its grid of 20
  points has run, at any contents of the TensorCore's buffers on entry.

  The kernel walks the 100000 rows of two [100000, 64] arrays — the neighbour sums `A` and the features `h` — in 20 blocks
  of 5000 rows. With `a = A + (1/2)·h`, point 0 stores the zero row into both outputs, and every point adds to the first
  output the sums of `a` down the 5000 rows of its block, column by column, and to the second the sums of `a·a`. The
  outputs' block index never moves, so each is carried from point to point and written back once, after point 19.

  Read over the extended reals: after point `n` column `d` of the first output is the sum of `a(·, d)` over the rows below
  `5000·(n + 1)` (by induction on the point; addition of extended reals is associative and zero is its unit, so no
  finiteness is asked), hence after point 19 the sum over all rows; the second output likewise with `a·a`. The one
  write-back writes block (0, 0), which is the whole [1, 64] array.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KReg7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each kind of point leaves in the two outputs

The first point stores the zero row, reads it back and stores the sum's update over it; every later point reads what the
point before left and stores the update. In each case the last store covers the block, so the block holds that store's
payload, with every load read at the contents it loads. -/

section Pieces
variable {F : FTy → Type} [FloatOps F]

/-- Zero offsets, as the stores and loads spell them. -/
theorem hz : (![0, 0] : Fin 2 → Nat) = fun _ => 0 := funext fun a => by fin_cases a <;> rfl

/-- A later point leaves in the first output the sum's update of what it held. -/
theorem out_B_sum (c : Dev nD) (i : grid7.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond7_0 i)
    (x0 x1 : Vec F S5000x64 .f32) (xo2 xo3 : Vec F S1x64 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h3.read_unread,
    View.ld_unit_zero (S := S5000x64) hz, View.ld_unit_zero (S := S1x64) hz]

/-- A later point leaves in the second output the squares' update of what it held. -/
theorem out_B_sq (c : Dev nD) (i : grid7.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond7_0 i)
    (x0 x1 : Vec F S5000x64 .f32) (xo2 xo3 : Vec F S1x64 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h4.read_unread,
    View.ld_unit_zero (S := S5000x64) hz, View.ld_unit_zero (S := S1x64) hz]

/-- The first point leaves in the first output the sum's update of the zero row it has just stored and read back. -/
theorem out_A_sum (c : Dev nD) (i : grid7.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond7_0 i)
    (x0 x1 : Vec F S5000x64 .f32) :
    out7_A_2 c i a1 h1 a2 h2 a3 h3 a4 h4 hc x0 x1 = k7_pay4 x0 x1 (k7_pay1 (F := F)) := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

/-- The first point leaves in the second output the squares' update of the zero row. -/
theorem out_A_sq (c : Dev nD) (i : grid7.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond7_0 i)
    (x0 x1 : Vec F S5000x64 .f32) :
    out7_A_3 c i a1 h1 a2 h2 a3 h3 a4 h4 hc x0 x1 = k7_pay5 x0 x1 (k7_pay2 (F := F)) := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Pieces

/-! ## The arithmetic of one point, read at an index over the extended reals -/

/-- The block the first point stores into the first output before adding: every entry is zero. -/
theorem zeroSum_apply (u : Fin 1) (d : Fin 64) : k7_pay1 (F := Ideal) (ix2 u d) = 0 :=
  Ideal.ofBits_zero_f32

/-- Likewise for the second output. -/
theorem zeroSq_apply (u : Fin 1) (d : Fin 64) : k7_pay2 (F := Ideal) (ix2 u d) = 0 :=
  Ideal.ofBits_zero_f32

/-- The summand: the neighbour-sum block plus one half of the feature block, entry by entry. -/
theorem summand_apply (x0 x1 : Vec Ideal S5000x64 .f32) (r : Fin 5000) (d : Fin 64) :
    k7_pay3 (F := Ideal) x0 x1 (ix2 r d) = x0 (ix2 r d) + Cert.Gin.half * x1 (ix2 r d) := by
  unfold k7_pay3
  simp only [shapeCast_self]
  rfl

/-- The first output after a point: what it held, plus the sum of the summand down the block's 5000 rows
    (the reduction over the row axis is a sum over that axis's coordinates; the cast from [64] to [1, 64]
    keeps the column). -/
theorem stepSum_apply (x0 x1 : Vec Ideal S5000x64 .f32) (acc : Vec Ideal S1x64 .f32) (u : Fin 1) (d : Fin 64) :
    k7_pay4 (F := Ideal) x0 x1 acc (ix2 u d)
      = acc (ix2 u d) + ∑ r : Fin 5000, (x0 (ix2 r d) + Cert.Gin.half * x1 (ix2 r d)) := by
  unfold k7_pay4
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (k7_pay3 (F := Ideal) x0 x1) 0x00000000#32 reduces_S5000x64_S64 (.inl rfl) rfl (ix1 d)).trans ?_
  refine Finset.sum_congr rfl fun r _ => ?_
  exact summand_apply x0 x1 r d

/-- The second output after a point: what it held, plus the sum of the summand's squares down the block's rows. -/
theorem stepSq_apply (x0 x1 : Vec Ideal S5000x64 .f32) (acc : Vec Ideal S1x64 .f32) (u : Fin 1) (d : Fin 64) :
    k7_pay5 (F := Ideal) x0 x1 acc (ix2 u d)
      = acc (ix2 u d) + ∑ r : Fin 5000, ((x0 (ix2 r d) + Cert.Gin.half * x1 (ix2 r d))
          * (x0 (ix2 r d) + Cert.Gin.half * x1 (ix2 r d))) := by
  unfold k7_pay5
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (mulf (k7_pay3 (F := Ideal) x0 x1) (k7_pay3 (F := Ideal) x0 x1)) 0x00000000#32
    reduces_S5000x64_S64 (.inl rfl) rfl (ix1 d)).trans ?_
  refine Finset.sum_congr rfl fun r _ => ?_
  show k7_pay3 (F := Ideal) x0 x1 (ix2 r d) * k7_pay3 (F := Ideal) x0 x1 (ix2 r d) = _
  exact congrArg₂ (· * ·) (summand_apply x0 x1 r d) (summand_apply x0 x1 r d)

/-! ## The blocks of a point, read off the arrays -/

section Values

variable (V : (c : Dev nD) → (b : Ref sig .tc) → Buf (Elt Ideal) ((c : Thread nD τ).loc b))

/-- The neighbour-sum block and the feature block of point `t`, and the two arrays, at their literal types. -/
abbrev blkA (c : Dev nD) (t : Fin cfg7.N) : Vec Ideal S5000x64 .f32 := iblk7 (F := Ideal) V c 0 t
abbrev blkH (c : Dev nD) (t : Fin cfg7.N) : Vec Ideal S5000x64 .f32 := iblk7 (F := Ideal) V c 1 t
abbrev arrA (c : Dev nD) : Vec Ideal S100000x64 .f32 := V c main_v80
abbrev arrH (c : Dev nD) : Vec Ideal S100000x64 .f32 := V c main_v70

/-- Point `t` takes row block `t` and the one column block of each input. -/
theorem index_A : ∀ t : Fin cfg7.N, win7_0.index t 0 = t.val ∧ win7_0.index t 1 = 0 :=
  (by decide +kernel : ∀ t : Fin grid7.N, win7_0.index t 0 = t.val ∧ win7_0.index t 1 = 0)
theorem index_H : ∀ t : Fin cfg7.N, win7_1.index t 0 = t.val ∧ win7_1.index t 1 = 0 :=
  (by decide +kernel : ∀ t : Fin grid7.N, win7_1.index t 0 = t.val ∧ win7_1.index t 1 = 0)

/-- Row `r` of the neighbour-sum block of point `t` is row `5000 t + r` of the array. -/
theorem blkA_apply (c : Dev nD) (t : Fin cfg7.N) (r : Fin 5000) (d : Fin 64) (h : 5000 * t.val + r.val < 100000) :
    blkA V c t (ix2 r d) = arrA V c (ix2 ⟨5000 * t.val + r.val, h⟩ d) := by
  unfold blkA iblk7
  rw [View.read_apply]
  show V c main_v80 _ = V c main_v80 _
  congr 1
  funext a
  apply Fin.ext
  match a with
  | ⟨0, _⟩ => show win7_0.index t 0 * 5000 + 1 * r.val = 5000 * t.val + r.val; rw [(index_A t).1]; omega
  | ⟨1, _⟩ => show win7_0.index t 1 * 64 + 1 * d.val = d.val; rw [(index_A t).2]; omega

/-- Row `r` of the feature block of point `t` is row `5000 t + r` of the array. -/
theorem blkH_apply (c : Dev nD) (t : Fin cfg7.N) (r : Fin 5000) (d : Fin 64) (h : 5000 * t.val + r.val < 100000) :
    blkH V c t (ix2 r d) = arrH V c (ix2 ⟨5000 * t.val + r.val, h⟩ d) := by
  unfold blkH iblk7
  rw [View.read_apply]
  show V c main_v70 _ = V c main_v70 _
  congr 1
  funext a
  apply Fin.ext
  match a with
  | ⟨0, _⟩ => show win7_1.index t 0 * 5000 + 1 * r.val = 5000 * t.val + r.val; rw [(index_H t).1]; omega
  | ⟨1, _⟩ => show win7_1.index t 1 * 64 + 1 * d.val = d.val; rw [(index_H t).2]; omega

end Values

/-! ## Column sums over row ranges -/

/-- Column `d` of an array as a function of a natural row number: zero past the last row, so that a sum over a range
    of row numbers needs no bound in its statement. -/
def rowAt (a : Cert.Gin.SN64.Idx → EReal) (d : Fin 64) (k : ℕ) : EReal :=
  if h : k < 100000 then a (ix2 ⟨k, h⟩ d) else 0

/-- The column sum is the sum over the first 100000 row numbers. -/
theorem colSum_eq_range (a : Cert.Gin.SN64.Idx → EReal) (d : Fin 64) :
    Cert.Gin.colSum a d = ∑ k ∈ Finset.range 100000, rowAt a d k := by
  unfold Cert.Gin.colSum
  rw [← Fin.sum_univ_eq_sum_range (rowAt a d) 100000]
  refine Finset.sum_congr rfl fun i _ => ?_
  unfold rowAt
  rw [dif_pos i.isLt]

section Sums

variable (V : (c : Dev nD) → (b : Ref sig .tc) → Buf (Elt Ideal) ((c : Thread nD τ).loc b))

/-- What is summed: the neighbour sum plus one half of the features, over the whole arrays. -/
abbrev summand (c : Dev nD) : Cert.Gin.SN64.Idx → EReal := Cert.Gin.selfAdd (V c main_v80) (V c main_v70)
/-- and its square. -/
abbrev summandSq (c : Dev nD) : Cert.Gin.SN64.Idx → EReal := fun i => summand V c i * summand V c i

/-- The sum down the rows of point `n`'s blocks is the sum of the summand over row numbers `5000 n … 5000 n + 4999`. -/
theorem blockSum_eq (c : Dev nD) (n : ℕ) (h : n < cfg7.N) (d : Fin 64) :
    ∑ r : Fin 5000, (blkA V c ⟨n, h⟩ (ix2 r d) + Cert.Gin.half * blkH V c ⟨n, h⟩ (ix2 r d))
      = ∑ r ∈ Finset.range 5000, rowAt (summand V c) d (5000 * n + r) := by
  have hN : n < 20 := lt_of_lt_of_eq h (show cfg7.N = 20 from N_7)
  rw [← Fin.sum_univ_eq_sum_range (fun r => rowAt (summand V c) d (5000 * n + r)) 5000]
  refine Finset.sum_congr rfl fun r _ => ?_
  have hr : 5000 * n + r.val < 100000 := by have := r.isLt; omega
  show _ = rowAt (summand V c) d (5000 * n + r.val)
  unfold rowAt
  rw [dif_pos hr, blkA_apply V c ⟨n, h⟩ r d hr, blkH_apply V c ⟨n, h⟩ r d hr]
  rfl

/-- Likewise for the squares. -/
theorem blockSq_eq (c : Dev nD) (n : ℕ) (h : n < cfg7.N) (d : Fin 64) :
    ∑ r : Fin 5000, ((blkA V c ⟨n, h⟩ (ix2 r d) + Cert.Gin.half * blkH V c ⟨n, h⟩ (ix2 r d))
        * (blkA V c ⟨n, h⟩ (ix2 r d) + Cert.Gin.half * blkH V c ⟨n, h⟩ (ix2 r d)))
      = ∑ r ∈ Finset.range 5000, rowAt (summandSq V c) d (5000 * n + r) := by
  have hN : n < 20 := lt_of_lt_of_eq h (show cfg7.N = 20 from N_7)
  rw [← Fin.sum_univ_eq_sum_range (fun r => rowAt (summandSq V c) d (5000 * n + r)) 5000]
  refine Finset.sum_congr rfl fun r _ => ?_
  have hr : 5000 * n + r.val < 100000 := by have := r.isLt; omega
  show _ = rowAt (summandSq V c) d (5000 * n + r.val)
  unfold rowAt
  rw [dif_pos hr, blkA_apply V c ⟨n, h⟩ r d hr, blkH_apply V c ⟨n, h⟩ r d hr]
  rfl

/-! ## The two outputs after each point -/

/-- The first output after a point of the first kind: the zero block plus the point's row sums. -/
theorem pointA_sum (c : Dev nD) (t : Fin cfg7.N) (h0 : t.val % 20 = 0) :
    (outsAt7 (F := Ideal) V c t.val t.isLt).1 = k7_pay4 (F := Ideal) (blkA V c t) (blkH V c t) (k7_pay1 (F := Ideal)) := by
  rw [outsAt7_A V c t h0]
  dsimp only
  exact out_A_sum (F := Ideal) c (grid7.coords t) (ms7_0 t) (hs7_0 t) (ms7_1 t) (hs7_1 t) (ms7_2 t) (hs7_2 t) (ms7_3 t) (hs7_3 t)
    ((hcond7_0 t).mpr h0) (iblk7 (F := Ideal) V c 0 t) (iblk7 (F := Ideal) V c 1 t)

/-- The second output after a point of the first kind. -/
theorem pointA_sq (c : Dev nD) (t : Fin cfg7.N) (h0 : t.val % 20 = 0) :
    (outsAt7 (F := Ideal) V c t.val t.isLt).2 = k7_pay5 (F := Ideal) (blkA V c t) (blkH V c t) (k7_pay2 (F := Ideal)) := by
  rw [outsAt7_A V c t h0]
  dsimp only
  exact out_A_sq (F := Ideal) c (grid7.coords t) (ms7_0 t) (hs7_0 t) (ms7_1 t) (hs7_1 t) (ms7_2 t) (hs7_2 t) (ms7_3 t) (hs7_3 t)
    ((hcond7_0 t).mpr h0) (iblk7 (F := Ideal) V c 0 t) (iblk7 (F := Ideal) V c 1 t)

/-- The first output after a point of the second kind: what the point before left plus the point's row sums. -/
theorem pointB_sum (c : Dev nD) (t : Fin cfg7.N) (h0 : ¬t.val % 20 = 0) :
    (outsAt7 (F := Ideal) V c t.val t.isLt).1 = k7_pay4 (F := Ideal) (blkA V c t) (blkH V c t)
      (outsAt7 (F := Ideal) V c (t.val - 1) (Nat.lt_of_le_of_lt (Nat.sub_le _ _) t.isLt)).1 := by
  rw [outsAt7_B V c t h0]
  dsimp only
  exact out_B_sum (F := Ideal) c (grid7.coords t) (ms7_0 t) (hs7_0 t) (ms7_1 t) (hs7_1 t) (ms7_2 t) (hs7_2 t) (ms7_3 t) (hs7_3 t)
    (fun h => h0 ((hcond7_0 t).mp h)) (iblk7 (F := Ideal) V c 0 t) (iblk7 (F := Ideal) V c 1 t)
    (outsAt7 (F := Ideal) V c (t.val - 1) (Nat.lt_of_le_of_lt (Nat.sub_le _ _) t.isLt)).1
    (outsAt7 (F := Ideal) V c (t.val - 1) (Nat.lt_of_le_of_lt (Nat.sub_le _ _) t.isLt)).2

/-- The second output after a point of the second kind. -/
theorem pointB_sq (c : Dev nD) (t : Fin cfg7.N) (h0 : ¬t.val % 20 = 0) :
    (outsAt7 (F := Ideal) V c t.val t.isLt).2 = k7_pay5 (F := Ideal) (blkA V c t) (blkH V c t)
      (outsAt7 (F := Ideal) V c (t.val - 1) (Nat.lt_of_le_of_lt (Nat.sub_le _ _) t.isLt)).2 := by
  rw [outsAt7_B V c t h0]
  dsimp only
  exact out_B_sq (F := Ideal) c (grid7.coords t) (ms7_0 t) (hs7_0 t) (ms7_1 t) (hs7_1 t) (ms7_2 t) (hs7_2 t) (ms7_3 t) (hs7_3 t)
    (fun h => h0 ((hcond7_0 t).mp h)) (iblk7 (F := Ideal) V c 0 t) (iblk7 (F := Ideal) V c 1 t)
    (outsAt7 (F := Ideal) V c (t.val - 1) (Nat.lt_of_le_of_lt (Nat.sub_le _ _) t.isLt)).1
    (outsAt7 (F := Ideal) V c (t.val - 1) (Nat.lt_of_le_of_lt (Nat.sub_le _ _) t.isLt)).2

end Sums

section Run

variable (V : (c : Dev nD) → (b : Ref sig .tc) → Buf (Elt Ideal) ((c : Thread nD τ).loc b))

/-- THE INVARIANT of the first output: after point `n` its column `d` holds the sum of the summand over the rows below
    `5000 (n + 1)`. By induction on the point: the first point adds its block's rows to zero, every later point adds its
    block's rows to what the point before left, and a sum over a range splits at `5000 (n + 1)`. -/
theorem acc_sum (c : Dev nD) : ∀ (n : ℕ) (h : n < cfg7.N) (u : Fin 1) (d : Fin 64),
    (outsAt7 (F := Ideal) V c n h).1 (ix2 u d) = ∑ k ∈ Finset.range (5000 * (n + 1)), rowAt (summand V c) d k
  | 0, h, u, d => by
    refine (congrFun (pointA_sum V c ⟨0, h⟩ rfl) (ix2 u d)).trans ?_
    refine (stepSum_apply (blkA V c ⟨0, h⟩) (blkH V c ⟨0, h⟩) (k7_pay1 (F := Ideal)) u d).trans ?_
    rw [zeroSum_apply u d, zero_add, blockSum_eq V c 0 h d]
    refine Finset.sum_congr rfl fun r _ => ?_
    rw [Nat.mul_zero, Nat.zero_add]
  | n + 1, h, u, d => by
    have hN : n + 1 < 20 := lt_of_lt_of_eq h (show cfg7.N = 20 from N_7)
    have hB : ¬(⟨n + 1, h⟩ : Fin cfg7.N).val % 20 = 0 := by dsimp only; omega
    refine (congrFun (pointB_sum V c ⟨n + 1, h⟩ hB) (ix2 u d)).trans ?_
    refine (stepSum_apply (blkA V c ⟨n + 1, h⟩) (blkH V c ⟨n + 1, h⟩) _ u d).trans ?_
    show (outsAt7 (F := Ideal) V c n (Nat.lt_of_succ_lt h)).1 (ix2 u d) + _ = _
    rw [acc_sum c n (Nat.lt_of_succ_lt h) u d, blockSum_eq V c (n + 1) h d,
      show 5000 * (n + 1 + 1) = 5000 * (n + 1) + 5000 from by omega, Finset.sum_range_add]

/-- THE INVARIANT of the second output: the same with the summand's square. -/
theorem acc_sq (c : Dev nD) : ∀ (n : ℕ) (h : n < cfg7.N) (u : Fin 1) (d : Fin 64),
    (outsAt7 (F := Ideal) V c n h).2 (ix2 u d) = ∑ k ∈ Finset.range (5000 * (n + 1)), rowAt (summandSq V c) d k
  | 0, h, u, d => by
    refine (congrFun (pointA_sq V c ⟨0, h⟩ rfl) (ix2 u d)).trans ?_
    refine (stepSq_apply (blkA V c ⟨0, h⟩) (blkH V c ⟨0, h⟩) (k7_pay2 (F := Ideal)) u d).trans ?_
    rw [zeroSq_apply u d, zero_add, blockSq_eq V c 0 h d]
    refine Finset.sum_congr rfl fun r _ => ?_
    rw [Nat.mul_zero, Nat.zero_add]
  | n + 1, h, u, d => by
    have hN : n + 1 < 20 := lt_of_lt_of_eq h (show cfg7.N = 20 from N_7)
    have hB : ¬(⟨n + 1, h⟩ : Fin cfg7.N).val % 20 = 0 := by dsimp only; omega
    refine (congrFun (pointB_sq V c ⟨n + 1, h⟩ hB) (ix2 u d)).trans ?_
    refine (stepSq_apply (blkA V c ⟨n + 1, h⟩) (blkH V c ⟨n + 1, h⟩) _ u d).trans ?_
    show (outsAt7 (F := Ideal) V c n (Nat.lt_of_succ_lt h)).2 (ix2 u d) + _ = _
    rw [acc_sq c n (Nat.lt_of_succ_lt h) u d, blockSq_eq V c (n + 1) h d,
      show 5000 * (n + 1 + 1) = 5000 * (n + 1) + 5000 from by omega, Finset.sum_range_add]

/-- The last point. -/
abbrev tLast : Fin cfg7.N := ⟨19, by rw [show cfg7.N = 20 from N_7]; decide⟩

/-- The two results: row 0, column `d` holds the whole column sum of the summand, and of its square. -/
abbrev resultSum (c : Dev nD) : Vec Ideal S1x64 .f32 := fun j => Cert.Gin.colSum (summand V c) (j 1)
abbrev resultSq (c : Dev nD) : Vec Ideal S1x64 .f32 := fun j => Cert.Gin.colSum (summandSq V c) (j 1)

/-- After the last point the rows below `5000 · 20` are all the rows. -/
theorem last_sum (c : Dev nD) : (outsAt7 (F := Ideal) V c tLast.val tLast.isLt).1 = resultSum V c := by
  funext j
  refine (congrArg (outsAt7 (F := Ideal) V c tLast.val tLast.isLt).1 (eq_ix2 j)).trans ?_
  refine (acc_sum V c 19 tLast.isLt (j 0) (j 1)).trans ?_
  exact (colSum_eq_range (summand V c) (j 1)).symm

/-- Likewise for the squares. -/
theorem last_sq (c : Dev nD) : (outsAt7 (F := Ideal) V c tLast.val tLast.isLt).2 = resultSq V c := by
  funext j
  refine (congrArg (outsAt7 (F := Ideal) V c tLast.val tLast.isLt).2 (eq_ix2 j)).trans ?_
  refine (acc_sq V c 19 tLast.isLt (j 0) (j 1)).trans ?_
  exact (colSum_eq_range (summandSq V c) (j 1)).symm

/-! ## The one write-back -/

/-- Only the last point writes the first output back, and its block (0, 0) read through zero offsets is the array. -/
theorem flushed_sum (c : Dev nD) (t : Fin cfg7.N) (hf : (cfg7.win 2).flush t = true) :
    (dat7 (F := Ideal) V c).flushed 2 t = ((cfg7.win 2).blk t).view.read (Elt Ideal) (resultSum V c) := by
  have hN : cfg7.N = 20 := N_7
  have h19 : t.val = 19 := by have := (flush7_2 t).mp hf; have := t.isLt; omega
  obtain rfl : t = tLast := Fin.ext h19
  show (cfg7.win 2).cut (grid7.coords tLast) ((dat7 (F := Ideal) V c).after 2 tLast) = _
  rw [after7_2, last_sum]
  have hz' : (fun a => win7_2.index tLast a * main_v81_0.ty.shape.size a) = fun _ => 0 :=
    funext fun a => by fin_cases a <;> decide +kernel
  exact (Memref.read_access_unit_zero (Elt Ideal) main_v81_0 hz' (fun a => by rw [congrFun hz' a]; simp) (resultSum V c)).symm

/-- Likewise for the second output. -/
theorem flushed_sq (c : Dev nD) (t : Fin cfg7.N) (hf : (cfg7.win 3).flush t = true) :
    (dat7 (F := Ideal) V c).flushed 3 t = ((cfg7.win 3).blk t).view.read (Elt Ideal) (resultSq V c) := by
  have hN : cfg7.N = 20 := N_7
  have h19 : t.val = 19 := by have := (flush7_3 t).mp hf; have := t.isLt; omega
  obtain rfl : t = tLast := Fin.ext h19
  show (cfg7.win 3).cut (grid7.coords tLast) ((dat7 (F := Ideal) V c).after 3 tLast) = _
  rw [after7_3, last_sq]
  have hz' : (fun a => win7_3.index tLast a * main_v81_1.ty.shape.size a) = fun _ => 0 :=
    funext fun a => by fin_cases a <;> decide +kernel
  exact (Memref.read_access_unit_zero (Elt Ideal) main_v81_1 hz' (fun a => by rw [congrFun hz' a]; simp) (resultSq V c)).symm

end Run

/-! ## The result arrays -/

section Final

/-- The first output array ends holding, in column `d` of its one row, the column sum of the neighbour sum plus one half
    of the features: the last point's block covers the array, and no other point writes it back. -/
theorem final7_sum (V : (c : Dev nD) → (b : Ref sig .tc) → Buf (Elt Ideal) ((c : Thread nD τ).loc b)) (c : Dev nD) :
    ((dat7 (F := Ideal) V c).arrAt 2 cfg7.N : Cert.Gin.S164.Idx → EReal)
      = fun j => Cert.Gin.colSum (Cert.Gin.selfAdd (V c main_v80) (V c main_v70)) (j 1) :=
  (dat7 (F := Ideal) V c).arrAt_eq_of_cover 2 (resultSum V c) (flushed_sum V c) fun i =>
    ⟨tLast, (flush7_2 tLast).mpr rfl, by
      show i ∈ ((View.whole main_v81_0).slice (win7_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win7_2.index tLast 0 * win7_2.size 0 ≤ (i 0 : Nat)
          ∧ (i 0 : Nat) < win7_2.index tLast 0 * win7_2.size 0 + win7_2.xsize (grid7.coords tLast) 0
        rw [show win7_2.index tLast 0 * win7_2.size 0 = 0 from by decide +kernel,
          show win7_2.xsize (grid7.coords tLast) 0 = 1 from by decide +kernel]
        omega
      | ⟨1, _⟩ =>
        show win7_2.index tLast 1 * win7_2.size 1 ≤ (i 1 : Nat)
          ∧ (i 1 : Nat) < win7_2.index tLast 1 * win7_2.size 1 + win7_2.xsize (grid7.coords tLast) 1
        rw [show win7_2.index tLast 1 * win7_2.size 1 = 0 from by decide +kernel,
          show win7_2.xsize (grid7.coords tLast) 1 = 64 from by decide +kernel]
        omega⟩

/-- The second output array ends holding the column sums of the square of the same summand. -/
theorem final7_sq (V : (c : Dev nD) → (b : Ref sig .tc) → Buf (Elt Ideal) ((c : Thread nD τ).loc b)) (c : Dev nD) :
    ((dat7 (F := Ideal) V c).arrAt 3 cfg7.N : Cert.Gin.S164.Idx → EReal)
      = fun j => Cert.Gin.colSum (fun i => Cert.Gin.selfAdd (V c main_v80) (V c main_v70) i
          * Cert.Gin.selfAdd (V c main_v80) (V c main_v70) i) (j 1) :=
  (dat7 (F := Ideal) V c).arrAt_eq_of_cover 3 (resultSq V c) (flushed_sq V c) fun i =>
    ⟨tLast, (flush7_3 tLast).mpr rfl, by
      show i ∈ ((View.whole main_v81_1).slice (win7_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win7_3.index tLast 0 * win7_3.size 0 ≤ (i 0 : Nat)
          ∧ (i 0 : Nat) < win7_3.index tLast 0 * win7_3.size 0 + win7_3.xsize (grid7.coords tLast) 0
        rw [show win7_3.index tLast 0 * win7_3.size 0 = 0 from by decide +kernel,
          show win7_3.xsize (grid7.coords tLast) 0 = 1 from by decide +kernel]
        omega
      | ⟨1, _⟩ =>
        show win7_3.index tLast 1 * win7_3.size 1 ≤ (i 1 : Nat)
          ∧ (i 1 : Nat) < win7_3.index tLast 1 * win7_3.size 1 + win7_3.xsize (grid7.coords tLast) 1
        rw [show win7_3.index tLast 1 * win7_3.size 1 = 0 from by decide +kernel,
          show win7_3.xsize (grid7.coords tLast) 1 = 64 from by decide +kernel]
        omega⟩

end Final

end Cert.KernelIdeal.KReg7

end
-- ==== Proof.KReg8.lean ====
/-
  The normalisation kernel's output as one whole-array function.

  The kernel walks the [100000, 64] arrays in 20 blocks of 5000 rows. At each block it reads the block of the
  neighbour sums `A` and of the features `h` at the same rows, and the two [1, 64] rows of column statistics (the
  column means `mu` and the reciprocal standard deviations `iv`, each a single block that is the whole row), and
  writes, at row `p` and column `q` of the block,

      (A[r, q] + (1/2) · h[r, q] − mu[0, q]) · iv[0, q],        r = 5000 · t + p   at block `t`.

  The blocks tile the rows (row `r` lies in block `r / 5000`), every block is written back, and what block `t` writes
  is the restriction to its rows of one function of the whole arrays; so the output array is that function:
  entry `(r, q)` depends on row `r` of `A` and `h` and on column `q` of the two statistics rows only.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The zero offsets of a whole-block rectangle, spelt as a constant function. -/
theorem zero_offsets : (![0, 0] : Fin 2 → Nat) = fun _ => 0 := funext fun a => by fin_cases a <;> rfl

/-- A [1, 64] row broadcast along 5000 rows reads, at `(p, q)`, the row's entry `q`: the row axis of the operand is
    a unit axis and reads 0, the column axis is carried over. -/
theorem row_broadcast_apply (v : Vec Ideal S1x64 .f32) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry `(p, q)` of a block: the neighbour sum plus half the feature, minus the column's
    mean, times the column's reciprocal standard deviation. Every operation is pointwise but the two row
    broadcasts; the same-shape casts are the identity. -/
theorem payload_apply (xa xh : Vec Ideal S5000x64 .f32) (xm xs : Vec Ideal S1x64 .f32) (p : Fin 5000) (q : Fin 64) :
    (k8_pay1 (F := Ideal) xa xh xm xs (ix2 p q) : EReal)
      = ((xa (ix2 p q) : EReal) + Cert.Gin.half * (xh (ix2 p q) : EReal) - (xm (ix2 (0 : Fin 1) q) : EReal))
          * (xs (ix2 (0 : Fin 1) q) : EReal) := by
  unfold k8_pay1
  simp only [shapeCast_self]
  rw [mulf_apply, subf_apply, addf_apply, mulf_apply, broadcast_apply, row_broadcast_apply, row_broadcast_apply]
  rfl

/-- The same at a block index `j`, with the four blocks' entries named as entries of whole arrays: if the two
    [5000, 64] blocks hold at `j` the arrays' entries at `i`, and the two rows hold at `j`'s column the statistics of
    `i`'s column, then the body's entry at `j` is the normalised entry at `i`. -/
theorem payload_of_reads (xa xh : Vec Ideal S5000x64 .f32) (xm xs : Vec Ideal S1x64 .f32)
    (A h : Cert.Gin.SN64.Idx → EReal) (mu iv : Cert.Gin.S164.Idx → EReal) (j : S5000x64.Idx) (i : Cert.Gin.SN64.Idx)
    (ea : (xa j : EReal) = A i) (eh : (xh j : EReal) = h i)
    (em : (xm (ix2 (0 : Fin 1) (j 1)) : EReal) = mu (ix2 (0 : Fin 1) (i 1)))
    (es : (xs (ix2 (0 : Fin 1) (j 1)) : EReal) = iv (ix2 (0 : Fin 1) (i 1))) :
    (k8_pay1 (F := Ideal) xa xh xm xs j : EReal)
      = (Cert.Gin.selfAdd A h i - mu (ix2 (0 : Fin 1) (i 1))) * iv (ix2 (0 : Fin 1) (i 1)) := by
  obtain ⟨p, q, rfl⟩ : ∃ (p : Fin 5000) (q : Fin 64), j = ix2 p q := ⟨j 0, j 1, eq_ix2 j⟩
  rw [payload_apply, ea, eh]
  unfold Cert.Gin.selfAdd
  rw [← em, ← es]

/-! ## Where the blocks sit -/

/-- The windows' index maps over the 20 grid points: the two [5000, 64] inputs and the output sit at block row `t`,
    column block 0; the two [1, 64] rows always at block (0, 0). -/
theorem index_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

section AtContents
variable (V : (c : Dev nD) → (b : Ref sig .tc) → Buf (Elt Ideal) ((c : Thread nD τ).loc b))

/-- The normalised array: entry `i` is the neighbour sum plus half the feature, minus the mean of `i`'s column,
    times that column's reciprocal standard deviation. -/
abbrev normed (c : Dev nD) : Cert.Gin.SN64.Idx → EReal :=
  fun i => (Cert.Gin.selfAdd (V c main_v80) (V c main_v70) i - (V c main_v83 : Cert.Gin.S164.Idx → EReal) (ix2 (0 : Fin 1) (i 1)))
              * (V c main_v90 : Cert.Gin.S164.Idx → EReal) (ix2 (0 : Fin 1) (i 1))

/-- What grid point `t` writes back is rows 5000·t … 5000·t + 4999 of the normalised array: an element of a block
    sits in its array at block index × block size + its own coordinate on each axis, so the two [5000, 64] input
    blocks read the same rows as the output block, and the two statistics rows read column `q` at row 0. -/
theorem flushed_eq (c : Dev nD) (t : Fin cfg8.N) :
    (dat8 (F := Ideal) V c).flushed 4 t = ((cfg8.win 4).blk t).view.read (Elt Ideal) (normed V c) := by
  show (cfg8.win 4).cut (grid8.coords t) ((dat8 V c).after 4 t) = _
  rw [after8_4]
  unfold out8_4
  rw [View.canon_unit_zero zero_offsets]
  simp only [View.ld_unit_zero (S := S5000x64) zero_offsets, View.ld_unit_zero (S := S1x64) zero_offsets]
  obtain ⟨hA0, hA1, hH0, hH1, hM0, hM1, hS0, hS1, hO0, hO1⟩ := index_facts t
  funext j
  show (k8_pay1 (F := Ideal) (iblk8 V c 0 t) (iblk8 V c 1 t) (iblk8 V c 2 t) (iblk8 V c 3 t) j : EReal)
      = normed V c (((cfg8.win 4).blk t).view.emb j)
  refine payload_of_reads (iblk8 V c 0 t) (iblk8 V c 1 t) (iblk8 V c 2 t) (iblk8 V c 3 t)
    (V c main_v80) (V c main_v70) (V c main_v83) (V c main_v90) j (((cfg8.win 4).blk t).view.emb j) ?_ ?_ ?_ ?_
  · show V c main_v80 (((cfg8.win 0).blk t).view.emb j) = V c main_v80 (((cfg8.win 4).blk t).view.emb j)
    refine congrArg (V c main_v80) (funext fun a => Fin.ext ?_)
    match a with
    | ⟨0, _⟩ => show win8_0.index t (0 : Fin 2) * 5000 + 1 * (j 0).val = win8_4.index t (0 : Fin 2) * 5000 + 1 * (j 0).val; omega
    | ⟨1, _⟩ => show win8_0.index t (1 : Fin 2) * 64 + 1 * (j 1).val = win8_4.index t (1 : Fin 2) * 64 + 1 * (j 1).val; omega
  · show V c main_v70 (((cfg8.win 1).blk t).view.emb j) = V c main_v70 (((cfg8.win 4).blk t).view.emb j)
    refine congrArg (V c main_v70) (funext fun a => Fin.ext ?_)
    match a with
    | ⟨0, _⟩ => show win8_1.index t (0 : Fin 2) * 5000 + 1 * (j 0).val = win8_4.index t (0 : Fin 2) * 5000 + 1 * (j 0).val; omega
    | ⟨1, _⟩ => show win8_1.index t (1 : Fin 2) * 64 + 1 * (j 1).val = win8_4.index t (1 : Fin 2) * 64 + 1 * (j 1).val; omega
  · show V c main_v83 (((cfg8.win 2).blk t).view.emb (ix2 (0 : Fin 1) (j 1)))
        = V c main_v83 (ix2 (0 : Fin 1) (((cfg8.win 4).blk t).view.emb j 1))
    refine congrArg (V c main_v83) (funext fun a => Fin.ext ?_)
    match a with
    | ⟨0, _⟩ => show win8_2.index t (0 : Fin 2) * 1 + 1 * 0 = 0; omega
    | ⟨1, _⟩ => show win8_2.index t (1 : Fin 2) * 64 + 1 * (j 1).val = win8_4.index t (1 : Fin 2) * 64 + 1 * (j 1).val; omega
  · show V c main_v90 (((cfg8.win 3).blk t).view.emb (ix2 (0 : Fin 1) (j 1)))
        = V c main_v90 (ix2 (0 : Fin 1) (((cfg8.win 4).blk t).view.emb j 1))
    refine congrArg (V c main_v90) (funext fun a => Fin.ext ?_)
    match a with
    | ⟨0, _⟩ => show win8_3.index t (0 : Fin 2) * 1 + 1 * 0 = 0; omega
    | ⟨1, _⟩ => show win8_3.index t (1 : Fin 2) * 64 + 1 * (j 1).val = win8_4.index t (1 : Fin 2) * 64 + 1 * (j 1).val; omega

end AtContents

/-! ## From the blocks to the array -/

/-- An index of the output array lies in grid point `t`'s block exactly when, on each axis, its coordinate is
    within the block's extent past the block's offset. -/
theorem mem_block (t : Fin cfg8.N) (i : S100000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v91).slice (win8_4.rect t)).set ↔ _
  rw [View.set_slice_whole, Rect.mem_set_unit]
  exact Iff.rfl

/-- The 20 blocks of 5000 rows tile the 100000 rows: row `r` lies in the block of grid point `r / 5000`, and every
    grid point writes its block back. -/
theorem covered (i : S100000x64.Idx) :
    ∃ t : Fin cfg8.N, (cfg8.win 4).flush t = true ∧ i ∈ ((cfg8.win 4).blk t).view.set := by
  have hi0 : (i 0).val < 100000 := (i 0).isLt
  have hi1 : (i 1).val < 64 := (i 1).isLt
  obtain ⟨t, ht⟩ : ∃ t : Fin cfg8.N, t.val = (i 0).val / 5000 :=
    ⟨⟨(i 0).val / 5000, Nat.lt_of_lt_of_eq (by omega : (i 0).val / 5000 < 20) N_8.symm⟩, rfl⟩
  obtain ⟨-, -, -, -, -, -, -, -, hO0, hO1⟩ := index_facts t
  refine ⟨t, flush8_4 t, ?_⟩
  rw [mem_block]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 64 ≤ (i 1).val ∧ (i 1).val < win8_4.index t (1 : Fin 2) * 64 + 64; omega

/-- The output array after the region's 20 grid points: every entry is the normalised entry of the arrays the
    region found — each block written back is the block of one whole-array function, and the blocks cover the array. -/
theorem final8 (V : (c : Dev nD) → (b : Ref sig .tc) → Buf (Elt Ideal) ((c : Thread nD τ).loc b)) (c : Dev nD) :
    ((dat8 (F := Ideal) V c).arrAt 4 cfg8.N : Cert.Gin.SN64.Idx → EReal)
      = fun i => (Cert.Gin.selfAdd (V c main_v80) (V c main_v70) i - (V c main_v83 : Cert.Gin.S164.Idx → EReal) (ix2 (0 : Fin 1) (i 1)))
                  * (V c main_v90 : Cert.Gin.S164.Idx → EReal) (ix2 (0 : Fin 1) (i 1)) :=
  (dat8 (F := Ideal) V c).arrAt_eq_of_cover 4 (normed V c) (fun t _ => flushed_eq V c t) covered

end Cert.KernelIdeal.KReg8

end
-- ==== Proof.KLayer4.lean ====
/-
  One layer of the kernel program, read through the buffer contents at the boundaries of its two regions.

  Between the exit of the region before it and the exit of its normalisation region the layer is four stretches:
    * host operations form the neighbour sum of the feature array (the edge gather and scatter-add);
    * the statistics region leaves the column sums of a = neighbour sum + half the features, and of a·a;
    * host operations divide both by the row count, subtract the squared mean from the mean square, add the variance
      offset and take the reciprocal square root;
    * the normalisation region writes (a − mean) · reciprocal deviation.
  Each stretch rewrites only its own result buffers, so a buffer is walked back through the stretches that do not
  write it, and the four values meet in the layer function of the specification.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg7
import proofs.«415324_j50955491999984_1_alg».proof.Proof.KReg8
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
-- reading a buffer through a host stretch types every buffer the stretch names; the later layers' buffers sit deep in the buffer table
set_option maxHeartbeats 1600000

noncomputable section

namespace Cert.KernelIdeal.KLayer4

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg) (c : Dev nD)

/-! ## The neighbour sum -/

/-- Over any buffer contents the first host stretch leaves the neighbour sum of the features: its gather and
    scatter-add are the specification's, spelled with the same dimension records. -/
theorem agg_value_of (W : Valuation τ sig (Elt Ideal)) :
    (StableHlo.after hostOps7 W (Proc.devRef .tc main_v80) : Cert.Gin.SN64.Idx → EReal)
      = Cert.Gin.aggOf (W (Proc.devRef .tc main_v1)) (W (Proc.devRef .tc main_v3)) (W (Proc.devRef .tc main_v70)) := by
  after_results
  rfl

/-- The same at the contents the layer is entered with. -/
theorem agg_value :
    (W15 (F := Ideal) m ρ c (Proc.devRef .tc main_v80) : Cert.Gin.SN64.Idx → EReal)
      = Cert.Gin.aggOf (W14 m ρ c (Proc.devRef .tc main_v1)) (W14 m ρ c (Proc.devRef .tc main_v3))
          (W14 m ρ c (Proc.devRef .tc main_v70)) :=
  agg_value_of (W14 m ρ c)

/-- The first host stretch does not write the features. -/
theorem feat_after_gather :
    W15 (F := Ideal) m ρ c (Proc.devRef .tc main_v70) = W14 m ρ c (Proc.devRef .tc main_v70) := by
  show StableHlo.after hostOps7 (W14 m ρ c) (Proc.devRef .tc main_v70) = _
  after_results

/-! ## The column statistics -/

/-- The statistics region only reads the neighbour sum and the features: an input array is never written back. -/
theorem agg_after_stats :
    W16 (F := Ideal) m ρ c (Proc.devRef .tc main_v80) = W15 m ρ c (Proc.devRef .tc main_v80) :=
  (W16_arr m ρ c 0).trans ((dat7 (V15 m ρ) c).arrAt_in 0 rfl cfg7.N)

theorem feat_after_stats :
    W16 (F := Ideal) m ρ c (Proc.devRef .tc main_v70) = W15 m ρ c (Proc.devRef .tc main_v70) :=
  (W16_arr m ρ c 1).trans ((dat7 (V15 m ρ) c).arrAt_in 1 rfl cfg7.N)

/-- The statistics region leaves the column sums of a = neighbour sum + half the features … -/
theorem stat_sum :
    (W16 (F := Ideal) m ρ c (Proc.devRef .tc main_v81_0) : Cert.Gin.S164.Idx → EReal)
      = fun j => Cert.Gin.colSum (Cert.Gin.selfAdd (W15 m ρ c (Proc.devRef .tc main_v80))
          (W15 m ρ c (Proc.devRef .tc main_v70))) (j 1) :=
  (W16_arr m ρ c 2).trans (KReg7.final7_sum (V15 m ρ) c)

/-- … and the column sums of a·a. -/
theorem stat_sq :
    (W16 (F := Ideal) m ρ c (Proc.devRef .tc main_v81_1) : Cert.Gin.S164.Idx → EReal)
      = fun j => Cert.Gin.colSum (fun i => Cert.Gin.selfAdd (W15 m ρ c (Proc.devRef .tc main_v80))
            (W15 m ρ c (Proc.devRef .tc main_v70)) i
          * Cert.Gin.selfAdd (W15 m ρ c (Proc.devRef .tc main_v80)) (W15 m ρ c (Proc.devRef .tc main_v70)) i) (j 1) :=
  (W16_arr m ρ c 3).trans (KReg7.final7_sq (V15 m ρ) c)

/-! ## The mean and the reciprocal deviation -/

/-- The second host stretch writes neither the neighbour sum nor the features. -/
theorem agg_after_moments :
    W17 (F := Ideal) m ρ c (Proc.devRef .tc main_v80) = W16 m ρ c (Proc.devRef .tc main_v80) := by
  show StableHlo.after hostOps8 (W16 m ρ c) (Proc.devRef .tc main_v80) = _
  after_results

theorem feat_after_moments :
    W17 (F := Ideal) m ρ c (Proc.devRef .tc main_v70) = W16 m ρ c (Proc.devRef .tc main_v70) := by
  show StableHlo.after hostOps8 (W16 m ρ c) (Proc.devRef .tc main_v70) = _
  after_results

/-- The row count spread over the 64 columns reads the row count at every column: a spread scalar reads the scalar. -/
theorem count_apply (d : Fin 64) :
    (broadcastInDim S1x64 ![] bcast_S_S1x64 (constant (F := Ideal) S_ .f32 0x47C35000#32) : Cert.Gin.S164.Idx → EReal)
      (ix2 (0 : Fin 1) d) = Cert.Gin.nf := rfl

/-- The variance offset spread over the 64 columns reads the offset at every column. -/
theorem offset_apply (d : Fin 64) :
    (broadcastInDim S1x64 ![] bcast_S_S1x64 (constant (F := Ideal) S_ .f32 0x3727C5AC#32) : Cert.Gin.S164.Idx → EReal)
      (ix2 (0 : Fin 1) d) = Cert.Gin.eps := rfl

/-- The host quotient of two rows at a column is the quotient of their entries. -/
theorem quot_apply (a b : Cert.Gin.S164.Idx → EReal) (j : Cert.Gin.S164.Idx) :
    (Host.divf (F := Ideal) (φ := .f32) a b) j = Ideal.div (a j) (b j) := rfl

/-- The mean row: the row of column sums divided by the row count. -/
theorem mean_arr :
    (W17 (F := Ideal) m ρ c (Proc.devRef .tc main_v83) : Cert.Gin.S164.Idx → EReal)
      = Host.divf (W16 m ρ c (Proc.devRef .tc main_v81_0) : Cert.Gin.S164.Idx → EReal)
          (broadcastInDim S1x64 ![] bcast_S_S1x64 (constant (F := Ideal) S_ .f32 0x47C35000#32)) := by
  show StableHlo.after hostOps8 (W16 m ρ c) (Proc.devRef .tc main_v83) = _
  after_results

/-- The mean of column `d`. -/
theorem mean_apply (d : Fin 64) :
    (W17 (F := Ideal) m ρ c (Proc.devRef .tc main_v83) : Cert.Gin.S164.Idx → EReal) (ix2 (0 : Fin 1) d)
      = Ideal.div ((W16 m ρ c (Proc.devRef .tc main_v81_0) : Cert.Gin.S164.Idx → EReal) (ix2 (0 : Fin 1) d)) Cert.Gin.nf := by
  rw [mean_arr, quot_apply, count_apply]

/-- The reciprocal-deviation row: the row of sums of squares divided by the row count, less the squared mean row,
    plus the offset, under the reciprocal square root. -/
theorem inv_arr :
    (W17 (F := Ideal) m ρ c (Proc.devRef .tc main_v90) : Cert.Gin.S164.Idx → EReal)
      = Host.rsqrt (addf (subf
            (Host.divf (W16 m ρ c (Proc.devRef .tc main_v81_1) : Cert.Gin.S164.Idx → EReal)
              (broadcastInDim S1x64 ![] bcast_S_S1x64 (constant (F := Ideal) S_ .f32 0x47C35000#32)))
            (mulf
              (Host.divf (W16 m ρ c (Proc.devRef .tc main_v81_0) : Cert.Gin.S164.Idx → EReal)
                (broadcastInDim S1x64 ![] bcast_S_S1x64 (constant (F := Ideal) S_ .f32 0x47C35000#32)))
              (Host.divf (W16 m ρ c (Proc.devRef .tc main_v81_0) : Cert.Gin.S164.Idx → EReal)
                (broadcastInDim S1x64 ![] bcast_S_S1x64 (constant (F := Ideal) S_ .f32 0x47C35000#32)))))
          (broadcastInDim S1x64 ![] bcast_S_S1x64 (constant (F := Ideal) S_ .f32 0x3727C5AC#32))) := by
  show StableHlo.after hostOps8 (W16 m ρ c) (Proc.devRef .tc main_v90) = _
  after_results

/-- The reciprocal deviation of column `d`. -/
theorem inv_apply (d : Fin 64) :
    (W17 (F := Ideal) m ρ c (Proc.devRef .tc main_v90) : Cert.Gin.S164.Idx → EReal) (ix2 (0 : Fin 1) d)
      = Ideal.rsqrt
          (Ideal.div ((W16 m ρ c (Proc.devRef .tc main_v81_1) : Cert.Gin.S164.Idx → EReal) (ix2 (0 : Fin 1) d)) Cert.Gin.nf
            - Ideal.div ((W16 m ρ c (Proc.devRef .tc main_v81_0) : Cert.Gin.S164.Idx → EReal) (ix2 (0 : Fin 1) d)) Cert.Gin.nf
              * Ideal.div ((W16 m ρ c (Proc.devRef .tc main_v81_0) : Cert.Gin.S164.Idx → EReal) (ix2 (0 : Fin 1) d)) Cert.Gin.nf
            + Cert.Gin.eps) := by
  rw [inv_arr]
  show Ideal.rsqrt _ = _
  rw [addf_apply, subf_apply, mulf_apply, quot_apply, quot_apply, count_apply, offset_apply]

/-! ## The normalisation and the layer -/

/-- The normalisation region writes (a − mean) · reciprocal deviation, column by column. -/
theorem norm_value :
    (W18 (F := Ideal) m ρ c (Proc.devRef .tc main_v91) : Cert.Gin.SN64.Idx → EReal)
      = fun i => (Cert.Gin.selfAdd (W17 m ρ c (Proc.devRef .tc main_v80)) (W17 m ρ c (Proc.devRef .tc main_v70)) i
            - (W17 m ρ c (Proc.devRef .tc main_v83) : Cert.Gin.S164.Idx → EReal) (ix2 (0 : Fin 1) (i 1)))
          * (W17 m ρ c (Proc.devRef .tc main_v90) : Cert.Gin.S164.Idx → EReal) (ix2 (0 : Fin 1) (i 1)) :=
  (W18_arr m ρ c 4).trans (KReg8.final8 (V17 m ρ) c)

/-- The normalisation over an array `a` whose column sums and sums of squares the statistics are: the layer's
    normalisation of `a`, entry by entry. -/
theorem norm_meets (a : Cert.Gin.SN64.Idx → EReal) (i : Cert.Gin.SN64.Idx) :
    (a i - Ideal.div (Cert.Gin.colSum a (i 1)) Cert.Gin.nf)
        * Ideal.rsqrt (Ideal.div (Cert.Gin.colSum (fun k => a k * a k) (i 1)) Cert.Gin.nf
            - Ideal.div (Cert.Gin.colSum a (i 1)) Cert.Gin.nf * Ideal.div (Cert.Gin.colSum a (i 1)) Cert.Gin.nf
            + Cert.Gin.eps)
      = Cert.Gin.normK a i := rfl

/-- One layer: the normalisation region's result is the specification's layer over the neighbour sum, at the
    features the layer entered with. -/
theorem layer (m : (ℓ : Loc nD τ sig) → Buf (Elt Ideal) ℓ) (ρ : Dev nD → PrngReg) (c : Dev nD) :
    (W18 (F := Ideal) m ρ c (Proc.devRef .tc main_v91) : Cert.Gin.SN64.Idx → EReal)
      = Cert.Gin.layerK (Cert.Gin.aggOf (W14 m ρ c (Proc.devRef .tc main_v1)) (W14 m ρ c (Proc.devRef .tc main_v3)))
          (W14 m ρ c (Proc.devRef .tc main_v70)) := by
  rw [norm_value, agg_after_moments, feat_after_moments, agg_after_stats, feat_after_stats]
  funext i
  rw [mean_apply m ρ c (i 1), inv_apply m ρ c (i 1), stat_sum, stat_sq, agg_value, feat_after_gather]
  exact norm_meets _ i

/-- The two edge columns pass through the layer: no host operation writes them and neither region has them as an
    array. -/
theorem keep (m : (ℓ : Loc nD τ sig) → Buf (Elt Ideal) ℓ) (ρ : Dev nD → PrngReg) (c : Dev nD) (b : Ref sig .tc)
    (hb : b = main_v1 ∨ b = main_v3) :
    W18 (F := Ideal) m ρ c (Proc.devRef .tc b) = W14 m ρ c (Proc.devRef .tc b) := by
  rcases hb with rfl | rfl
  · calc W18 (F := Ideal) m ρ c (Proc.devRef .tc main_v1)
      _ = W17 m ρ c (Proc.devRef .tc main_v1) := W18_of_ne m ρ c main_v1 (by decide)
      _ = W16 m ρ c (Proc.devRef .tc main_v1) := by
          show StableHlo.after hostOps8 (W16 m ρ c) (Proc.devRef .tc main_v1) = _
          after_results
      _ = W15 m ρ c (Proc.devRef .tc main_v1) := W16_of_ne m ρ c main_v1 (by decide)
      _ = W14 m ρ c (Proc.devRef .tc main_v1) := by
          show StableHlo.after hostOps7 (W14 m ρ c) (Proc.devRef .tc main_v1) = _
          after_results
  · calc W18 (F := Ideal) m ρ c (Proc.devRef .tc main_v3)
      _ = W17 m ρ c (Proc.devRef .tc main_v3) := W18_of_ne m ρ c main_v3 (by decide)
      _ = W16 m ρ c (Proc.devRef .tc main_v3) := by
          show StableHlo.after hostOps8 (W16 m ρ c) (Proc.devRef .tc main_v3) = _
          after_results
      _ = W15 m ρ c (Proc.devRef .tc main_v3) := W16_of_ne m ρ c main_v3 (by decide)
      _ = W14 m ρ c (Proc.devRef .tc main_v3) := by
          show StableHlo.after hostOps7 (W14 m ρ c) (Proc.devRef .tc main_v3) = _
          after_results

end Cert.KernelIdeal.KLayer4

end
-- ==== Proof.KReg9.lean ====
/-
  The column statistics of one layer: what the two [1, 64] outputs of the statistics kernel hold when its grid of 20
  points has run, at any contents of the TensorCore's buffers on entry.

  The kernel walks the 100000 rows of two [100000, 64] arrays — the neighbour sums `A` and the features `h` — in 20 blocks
  of 5000 rows. With `a = A + (1/2)·h`, point 0 stores the zero row into both outputs, and every point adds to the first
  output the sums of `a` down the 5000 rows of its block, column by column, and to the second the sums of `a·a`. The
  outputs' block index never moves, so each is carried from point to point and written back once, after point 19.

  Read over the extended reals: after point `n` column `d` of the first output is the sum of `a(·, d)` over the rows below
  `5000·(n + 1)` (by induction on the point; addition of extended reals is associative and zero is its unit, so no
  finiteness is asked), hence after point 19 the sum over all rows; the second output likewise with `a·a`. The one
  write-back writes block (0, 0), which is the whole [1, 64] array.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KReg9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## What each kind of point leaves in the two outputs

The first point stores the zero row, reads it back and stores the sum's update over it; every later point reads what the
point before left and stores the update. In each case the last store covers the block, so the block holds that store's
payload, with every load read at the contents it loads. -/

section Pieces
variable {F : FTy → Type} [FloatOps F]

/-- Zero offsets, as the stores and loads spell them. -/
theorem hz : (![0, 0] : Fin 2 → Nat) = fun _ => 0 := funext fun a => by fin_cases a <;> rfl

/-- A later point leaves in the first output the sum's update of what it held. -/
theorem out_B_sum (c : Dev nD) (i : grid9.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond9_0 i)
    (x0 x1 : Vec F S5000x64 .f32) (xo2 xo3 : Vec F S1x64 .f32) :
    out9_B_2 c i a1 h1 a2 h2 a3 h3 a4 h4 hc x0 x1 xo2 xo3 = k9_pay4 x0 x1 xo2 := by
  unfold out9_B_2
  rw [View.read_writes_eq_canon _ _ _ (cover9_B_2 c i a1 h1 a2 h2 a3 h3 a4 h4 hc x0 x1 xo2 xo3)]
  unfold kernelRun9_B
  dsimp only
  sl_unfold_words
  rw [View.canon_unit_zero hz]
  simp only [View.readAt_eq_ld, h1.read_unread, h2.read_unread, h3.read_unread,
    View.ld_unit_zero (S := S5000x64) hz, View.ld_unit_zero (S := S1x64) hz]

/-- A later point leaves in the second output the squares' update of what it held. -/
theorem out_B_sq (c : Dev nD) (i : grid9.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond9_0 i)
    (x0 x1 : Vec F S5000x64 .f32) (xo2 xo3 : Vec F S1x64 .f32) :
    out9_B_3 c i a1 h1 a2 h2 a3 h3 a4 h4 hc x0 x1 xo2 xo3 = k9_pay5 x0 x1 xo3 := by
  unfold out9_B_3
  rw [View.read_writes_eq_canon _ _ _ (cover9_B_3 c i a1 h1 a2 h2 a3 h3 a4 h4 hc x0 x1 xo2 xo3)]
  unfold kernelRun9_B
  dsimp only
  sl_unfold_words
  rw [View.canon_unit_zero hz]
  simp only [View.readAt_eq_ld, h1.read_unread, h2.read_unread, h4.read_unread,
    View.ld_unit_zero (S := S5000x64) hz, View.ld_unit_zero (S := S1x64) hz]

/-- The first point leaves in the first output the sum's update of the zero row it has just stored and read back. -/
theorem out_A_sum (c : Dev nD) (i : grid9.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond9_0 i)
    (x0 x1 : Vec F S5000x64 .f32) :
    out9_A_2 c i a1 h1 a2 h2 a3 h3 a4 h4 hc x0 x1 = k9_pay4 x0 x1 (k9_pay1 (F := F)) := by
  unfold out9_A_2
  rw [View.read_writes_eq_canon _ _ _ (cover9_A_2 c i a1 h1 a2 h2 a3 h3 a4 h4 hc x0 x1)]
  unfold kernelRun9_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

/-- The first point leaves in the second output the squares' update of the zero row. -/
theorem out_A_sq (c : Dev nD) (i : grid9.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond9_0 i)
    (x0 x1 : Vec F S5000x64 .f32) :
    out9_A_3 c i a1 h1 a2 h2 a3 h3 a4 h4 hc x0 x1 = k9_pay5 x0 x1 (k9_pay2 (F := F)) := by
  unfold out9_A_3
  rw [View.read_writes_eq_canon _ _ _ (cover9_A_3 c i a1 h1 a2 h2 a3 h3 a4 h4 hc x0 x1)]
  unfold kernelRun9_A
  dsimp only
  sl_unfold_words
  rw [View.canon_cons_unit_zero (S := S1x64) hz, View.readCov_unit_zero (S := S1x64) _ hz]
  simp only [View.readAt_eq_ld, h1.read_unread, h2.read_unread,
    View.ld_unit_zero (S := S5000x64) hz, View.ld_unit_zero (S := S1x64) hz]

end Pieces

/-! ## The arithmetic of one point, read at an index over the extended reals -/

/-- The block the first point stores into the first output before adding: every entry is zero. -/
theorem zeroSum_apply (u : Fin 1) (d : Fin 64) : k9_pay1 (F := Ideal) (ix2 u d) = 0 :=
  Ideal.ofBits_zero_f32

/-- Likewise for the second output. -/
theorem zeroSq_apply (u : Fin 1) (d : Fin 64) : k9_pay2 (F := Ideal) (ix2 u d) = 0 :=
  Ideal.ofBits_zero_f32

/-- The summand: the neighbour-sum block plus one half of the feature block, entry by entry. -/
theorem summand_apply (x0 x1 : Vec Ideal S5000x64 .f32) (r : Fin 5000) (d : Fin 64) :
    k9_pay3 (F := Ideal) x0 x1 (ix2 r d) = x0 (ix2 r d) + Cert.Gin.half * x1 (ix2 r d) := by
  unfold k9_pay3
  simp only [shapeCast_self]
  rfl

/-- The first output after a point: what it held, plus the sum of the summand down the block's 5000 rows
    (the reduction over the row axis is a sum over that axis's coordinates; the cast from [64] to [1, 64]
    keeps the column). -/
theorem stepSum_apply (x0 x1 : Vec Ideal S5000x64 .f32) (acc : Vec Ideal S1x64 .f32) (u : Fin 1) (d : Fin 64) :
    k9_pay4 (F := Ideal) x0 x1 acc (ix2 u d)
      = acc (ix2 u d) + ∑ r : Fin 5000, (x0 (ix2 r d) + Cert.Gin.half * x1 (ix2 r d)) := by
  unfold k9_pay4
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (k9_pay3 (F := Ideal) x0 x1) 0x00000000#32 reduces_S5000x64_S64 (.inl rfl) rfl (ix1 d)).trans ?_
  refine Finset.sum_congr rfl fun r _ => ?_
  exact summand_apply x0 x1 r d

/-- The second output after a point: what it held, plus the sum of the summand's squares down the block's rows. -/
theorem stepSq_apply (x0 x1 : Vec Ideal S5000x64 .f32) (acc : Vec Ideal S1x64 .f32) (u : Fin 1) (d : Fin 64) :
    k9_pay5 (F := Ideal) x0 x1 acc (ix2 u d)
      = acc (ix2 u d) + ∑ r : Fin 5000, ((x0 (ix2 r d) + Cert.Gin.half * x1 (ix2 r d))
          * (x0 (ix2 r d) + Cert.Gin.half * x1 (ix2 r d))) := by
  unfold k9_pay5
  simp only [shapeCast_self]
  refine (addf_apply _ _ (ix2 u d)).trans ?_
  refine congrArg (acc (ix2 u d) + ·) ?_
  refine (shapeCast_a_1a_apply _ shapeCasts_S64_S1x64 u d).trans ?_
  refine (Ideal.multiReduction_add_single (mulf (k9_pay3 (F := Ideal) x0 x1) (k9_pay3 (F := Ideal) x0 x1)) 0x00000000#32
    reduces_S5000x64_S64 (.inl rfl) rfl (ix1 d)).trans ?_
  refine Finset.sum_congr rfl fun r _ => ?_
  show k9_pay3 (F := Ideal) x0 x1 (ix2 r d) * k9_pay3 (F := Ideal) x0 x1 (ix2 r d) = _
  exact congrArg₂ (· * ·) (summand_apply x0 x1 r d) (summand_apply x0 x1 r d)

/-! ## The blocks of a point, read off the arrays -/

section Values

variable (V : (c : Dev nD) → (b : Ref sig .tc) → Buf (Elt Ideal) ((c : Thread nD τ).loc b))

/-- The neighbour-sum block and the feature block of point `t`, and the two arrays, at their literal types. -/
abbrev blkA (c : Dev nD) (t : Fin cfg9.N) : Vec Ideal S5000x64 .f32 := iblk9 (F := Ideal) V c 0 t
abbrev blkH (c : Dev nD) (t : Fin cfg9.N) : Vec Ideal S5000x64 .f32 := iblk9 (F := Ideal) V c 1 t
abbrev arrA (c : Dev nD) : Vec Ideal S100000x64 .f32 := V c main_v101
abbrev arrH (c : Dev nD) : Vec Ideal S100000x64 .f32 := V c main_v91

/-- Point `t` takes row block `t` and the one column block of each input. -/
theorem index_A : ∀ t : Fin cfg9.N, win9_0.index t 0 = t.val ∧ win9_0.index t 1 = 0 :=
  (by decide +kernel : ∀ t : Fin grid9.N, win9_0.index t 0 = t.val ∧ win9_0.index t 1 = 0)
theorem index_H : ∀ t : Fin cfg9.N, win9_1.index t 0 = t.val ∧ win9_1.index t 1 = 0 :=
  (by decide +kernel : ∀ t : Fin grid9.N, win9_1.index t 0 = t.val ∧ win9_1.index t 1 = 0)

/-- Row `r` of the neighbour-sum block of point `t` is row `5000 t + r` of the array. -/
theorem blkA_apply (c : Dev nD) (t : Fin cfg9.N) (r : Fin 5000) (d : Fin 64) (h : 5000 * t.val + r.val < 100000) :
    blkA V c t (ix2 r d) = arrA V c (ix2 ⟨5000 * t.val + r.val, h⟩ d) := by
  unfold blkA iblk9
  rw [View.read_apply]
  show V c main_v101 _ = V c main_v101 _
  congr 1
  funext a
  apply Fin.ext
  match a with
  | ⟨0, _⟩ => show win9_0.index t 0 * 5000 + 1 * r.val = 5000 * t.val + r.val; rw [(index_A t).1]; omega
  | ⟨1, _⟩ => show win9_0.index t 1 * 64 + 1 * d.val = d.val; rw [(index_A t).2]; omega

/-- Row `r` of the feature block of point `t` is row `5000 t + r` of the array. -/
theorem blkH_apply (c : Dev nD) (t : Fin cfg9.N) (r : Fin 5000) (d : Fin 64) (h : 5000 * t.val + r.val < 100000) :
    blkH V c t (ix2 r d) = arrH V c (ix2 ⟨5000 * t.val + r.val, h⟩ d) := by
  unfold blkH iblk9
  rw [View.read_apply]
  show V c main_v91 _ = V c main_v91 _
  congr 1
  funext a
  apply Fin.ext
  match a with
  | ⟨0, _⟩ => show win9_1.index t 0 * 5000 + 1 * r.val = 5000 * t.val + r.val; rw [(index_H t).1]; omega
  | ⟨1, _⟩ => show win9_1.index t 1 * 64 + 1 * d.val = d.val; rw [(index_H t).2]; omega

end Values

/-! ## Column sums over row ranges -/

/-- Column `d` of an array as a function of a natural row number: zero past the last row, so that a sum over a range
    of row numbers needs no bound in its statement. -/
def rowAt (a : Cert.Gin.SN64.Idx → EReal) (d : Fin 64) (k : ℕ) : EReal :=
  if h : k < 100000 then a (ix2 ⟨k, h⟩ d) else 0

/-- The column sum is the sum over the first 100000 row numbers. -/
theorem colSum_eq_range (a : Cert.Gin.SN64.Idx → EReal) (d : Fin 64) :
    Cert.Gin.colSum a d = ∑ k ∈ Finset.range 100000, rowAt a d k := by
  unfold Cert.Gin.colSum
  rw [← Fin.sum_univ_eq_sum_range (rowAt a d) 100000]
  refine Finset.sum_congr rfl fun i _ => ?_
  unfold rowAt
  rw [dif_pos i.isLt]

section Sums

variable (V : (c : Dev nD) → (b : Ref sig .tc) → Buf (Elt Ideal) ((c : Thread nD τ).loc b))

/-- What is summed: the neighbour sum plus one half of the features, over the whole arrays. -/
abbrev summand (c : Dev nD) : Cert.Gin.SN64.Idx → EReal := Cert.Gin.selfAdd (V c main_v101) (V c main_v91)
/-- and its square. -/
abbrev summandSq (c : Dev nD) : Cert.Gin.SN64.Idx → EReal := fun i => summand V c i * summand V c i

/-- The sum down the rows of point `n`'s blocks is the sum of the summand over row numbers `5000 n … 5000 n + 4999`. -/
theorem blockSum_eq (c : Dev nD) (n : ℕ) (h : n < cfg9.N) (d : Fin 64) :
    ∑ r : Fin 5000, (blkA V c ⟨n, h⟩ (ix2 r d) + Cert.Gin.half * blkH V c ⟨n, h⟩ (ix2 r d))
      = ∑ r ∈ Finset.range 5000, rowAt (summand V c) d (5000 * n + r) := by
  have hN : n < 20 := lt_of_lt_of_eq h (show cfg9.N = 20 from N_9)
  rw [← Fin.sum_univ_eq_sum_range (fun r => rowAt (summand V c) d (5000 * n + r)) 5000]
  refine Finset.sum_congr rfl fun r _ => ?_
  have hr : 5000 * n + r.val < 100000 := by have := r.isLt; omega
  show _ = rowAt (summand V c) d (5000 * n + r.val)
  unfold rowAt
  rw [dif_pos hr, blkA_apply V c ⟨n, h⟩ r d hr, blkH_apply V c ⟨n, h⟩ r d hr]
  rfl

/-- Likewise for the squares. -/
theorem blockSq_eq (c : Dev nD) (n : ℕ) (h : n < cfg9.N) (d : Fin 64) :
    ∑ r : Fin 5000, ((blkA V c ⟨n, h⟩ (ix2 r d) + Cert.Gin.half * blkH V c ⟨n, h⟩ (ix2 r d))
        * (blkA V c ⟨n, h⟩ (ix2 r d) + Cert.Gin.half * blkH V c ⟨n, h⟩ (ix2 r d)))
      = ∑ r ∈ Finset.range 5000, rowAt (summandSq V c) d (5000 * n + r) := by
  have hN : n < 20 := lt_of_lt_of_eq h (show cfg9.N = 20 from N_9)
  rw [← Fin.sum_univ_eq_sum_range (fun r => rowAt (summandSq V c) d (5000 * n + r)) 5000]
  refine Finset.sum_congr rfl fun r _ => ?_
  have hr : 5000 * n + r.val < 100000 := by have := r.isLt; omega
  show _ = rowAt (summandSq V c) d (5000 * n + r.val)
  unfold rowAt
  rw [dif_pos hr, blkA_apply V c ⟨n, h⟩ r d hr, blkH_apply V c ⟨n, h⟩ r d hr]
  rfl

/-! ## The two outputs after each point -/

/-- The first output after a point of the first kind: the zero block plus the point's row sums. -/
theorem pointA_sum (c : Dev nD) (t : Fin cfg9.N) (h0 : t.val % 20 = 0) :
    (outsAt9 (F := Ideal) V c t.val t.isLt).1 = k9_pay4 (F := Ideal) (blkA V c t) (blkH V c t) (k9_pay1 (F := Ideal)) := by
  rw [outsAt9_A V c t h0]
  dsimp only
  exact out_A_sum (F := Ideal) c (grid9.coords t) (ms9_0 t) (hs9_0 t) (ms9_1 t) (hs9_1 t) (ms9_2 t) (hs9_2 t) (ms9_3 t) (hs9_3 t)
    ((hcond9_0 t).mpr h0) (iblk9 (F := Ideal) V c 0 t) (iblk9 (F := Ideal) V c 1 t)

/-- The second output after a point of the first kind. -/
theorem pointA_sq (c : Dev nD) (t : Fin cfg9.N) (h0 : t.val % 20 = 0) :
    (outsAt9 (F := Ideal) V c t.val t.isLt).2 = k9_pay5 (F := Ideal) (blkA V c t) (blkH V c t) (k9_pay2 (F := Ideal)) := by
  rw [outsAt9_A V c t h0]
  dsimp only
  exact out_A_sq (F := Ideal) c (grid9.coords t) (ms9_0 t) (hs9_0 t) (ms9_1 t) (hs9_1 t) (ms9_2 t) (hs9_2 t) (ms9_3 t) (hs9_3 t)
    ((hcond9_0 t).mpr h0) (iblk9 (F := Ideal) V c 0 t) (iblk9 (F := Ideal) V c 1 t)

/-- The first output after a point of the second kind: what the point before left plus the point's row sums. -/
theorem pointB_sum (c : Dev nD) (t : Fin cfg9.N) (h0 : ¬t.val % 20 = 0) :
    (outsAt9 (F := Ideal) V c t.val t.isLt).1 = k9_pay4 (F := Ideal) (blkA V c t) (blkH V c t)
      (outsAt9 (F := Ideal) V c (t.val - 1) (Nat.lt_of_le_of_lt (Nat.sub_le _ _) t.isLt)).1 := by
  rw [outsAt9_B V c t h0]
  dsimp only
  exact out_B_sum (F := Ideal) c (grid9.coords t) (ms9_0 t) (hs9_0 t) (ms9_1 t) (hs9_1 t) (ms9_2 t) (hs9_2 t) (ms9_3 t) (hs9_3 t)
    (fun h => h0 ((hcond9_0 t).mp h)) (iblk9 (F := Ideal) V c 0 t) (iblk9 (F := Ideal) V c 1 t)
    (outsAt9 (F := Ideal) V c (t.val - 1) (Nat.lt_of_le_of_lt (Nat.sub_le _ _) t.isLt)).1
    (outsAt9 (F := Ideal) V c (t.val - 1) (Nat.lt_of_le_of_lt (Nat.sub_le _ _) t.isLt)).2

/-- The second output after a point of the second kind. -/
theorem pointB_sq (c : Dev nD) (t : Fin cfg9.N) (h0 : ¬t.val % 20 = 0) :
    (outsAt9 (F := Ideal) V c t.val t.isLt).2 = k9_pay5 (F := Ideal) (blkA V c t) (blkH V c t)
      (outsAt9 (F := Ideal) V c (t.val - 1) (Nat.lt_of_le_of_lt (Nat.sub_le _ _) t.isLt)).2 := by
  rw [outsAt9_B V c t h0]
  dsimp only
  exact out_B_sq (F := Ideal) c (grid9.coords t) (ms9_0 t) (hs9_0 t) (ms9_1 t) (hs9_1 t) (ms9_2 t) (hs9_2 t) (ms9_3 t) (hs9_3 t)
    (fun h => h0 ((hcond9_0 t).mp h)) (iblk9 (F := Ideal) V c 0 t) (iblk9 (F := Ideal) V c 1 t)
    (outsAt9 (F := Ideal) V c (t.val - 1) (Nat.lt_of_le_of_lt (Nat.sub_le _ _) t.isLt)).1
    (outsAt9 (F := Ideal) V c (t.val - 1) (Nat.lt_of_le_of_lt (Nat.sub_le _ _) t.isLt)).2

end Sums

section Run

variable (V : (c : Dev nD) → (b : Ref sig .tc) → Buf (Elt Ideal) ((c : Thread nD τ).loc b))

/-- THE INVARIANT of the first output: after point `n` its column `d` holds the sum of the summand over the rows below
    `5000 (n + 1)`. By induction on the point: the first point adds its block's rows to zero, every later point adds its
    block's rows to what the point before left, and a sum over a range splits at `5000 (n + 1)`. -/
theorem acc_sum (c : Dev nD) : ∀ (n : ℕ) (h : n < cfg9.N) (u : Fin 1) (d : Fin 64),
    (outsAt9 (F := Ideal) V c n h).1 (ix2 u d) = ∑ k ∈ Finset.range (5000 * (n + 1)), rowAt (summand V c) d k
  | 0, h, u, d => by
    refine (congrFun (pointA_sum V c ⟨0, h⟩ rfl) (ix2 u d)).trans ?_
    refine (stepSum_apply (blkA V c ⟨0, h⟩) (blkH V c ⟨0, h⟩) (k9_pay1 (F := Ideal)) u d).trans ?_
    rw [zeroSum_apply u d, zero_add, blockSum_eq V c 0 h d]
    refine Finset.sum_congr rfl fun r _ => ?_
    rw [Nat.mul_zero, Nat.zero_add]
  | n + 1, h, u, d => by
    have hN : n + 1 < 20 := lt_of_lt_of_eq h (show cfg9.N = 20 from N_9)
    have hB : ¬(⟨n + 1, h⟩ : Fin cfg9.N).val % 20 = 0 := by dsimp only; omega
    refine (congrFun (pointB_sum V c ⟨n + 1, h⟩ hB) (ix2 u d)).trans ?_
    refine (stepSum_apply (blkA V c ⟨n + 1, h⟩) (blkH V c ⟨n + 1, h⟩) _ u d).trans ?_
    show (outsAt9 (F := Ideal) V c n (Nat.lt_of_succ_lt h)).1 (ix2 u d) + _ = _
    rw [acc_sum c n (Nat.lt_of_succ_lt h) u d, blockSum_eq V c (n + 1) h d,
      show 5000 * (n + 1 + 1) = 5000 * (n + 1) + 5000 from by omega, Finset.sum_range_add]

/-- THE INVARIANT of the second output: the same with the summand's square. -/
theorem acc_sq (c : Dev nD) : ∀ (n : ℕ) (h : n < cfg9.N) (u : Fin 1) (d : Fin 64),
    (outsAt9 (F := Ideal) V c n h).2 (ix2 u d) = ∑ k ∈ Finset.range (5000 * (n + 1)), rowAt (summandSq V c) d k
  | 0, h, u, d => by
    refine (congrFun (pointA_sq V c ⟨0, h⟩ rfl) (ix2 u d)).trans ?_
    refine (stepSq_apply (blkA V c ⟨0, h⟩) (blkH V c ⟨0, h⟩) (k9_pay2 (F := Ideal)) u d).trans ?_
    rw [zeroSq_apply u d, zero_add, blockSq_eq V c 0 h d]
    refine Finset.sum_congr rfl fun r _ => ?_
    rw [Nat.mul_zero, Nat.zero_add]
  | n + 1, h, u, d => by
    have hN : n + 1 < 20 := lt_of_lt_of_eq h (show cfg9.N = 20 from N_9)
    have hB : ¬(⟨n + 1, h⟩ : Fin cfg9.N).val % 20 = 0 := by dsimp only; omega
    refine (congrFun (pointB_sq V c ⟨n + 1, h⟩ hB) (ix2 u d)).trans ?_
    refine (stepSq_apply (blkA V c ⟨n + 1, h⟩) (blkH V c ⟨n + 1, h⟩) _ u d).trans ?_
    show (outsAt9 (F := Ideal) V c n (Nat.lt_of_succ_lt h)).2 (ix2 u d) + _ = _
    rw [acc_sq c n (Nat.lt_of_succ_lt h) u d, blockSq_eq V c (n + 1) h d,
      show 5000 * (n + 1 + 1) = 5000 * (n + 1) + 5000 from by omega, Finset.sum_range_add]

/-- The last point. -/
abbrev tLast : Fin cfg9.N := ⟨19, by rw [show cfg9.N = 20 from N_9]; decide⟩

/-- The two results: row 0, column `d` holds the whole column sum of the summand, and of its square. -/
abbrev resultSum (c : Dev nD) : Vec Ideal S1x64 .f32 := fun j => Cert.Gin.colSum (summand V c) (j 1)
abbrev resultSq (c : Dev nD) : Vec Ideal S1x64 .f32 := fun j => Cert.Gin.colSum (summandSq V c) (j 1)

/-- After the last point the rows below `5000 · 20` are all the rows. -/
theorem last_sum (c : Dev nD) : (outsAt9 (F := Ideal) V c tLast.val tLast.isLt).1 = resultSum V c := by
  funext j
  refine (congrArg (outsAt9 (F := Ideal) V c tLast.val tLast.isLt).1 (eq_ix2 j)).trans ?_
  refine (acc_sum V c 19 tLast.isLt (j 0) (j 1)).trans ?_
  exact (colSum_eq_range (summand V c) (j 1)).symm

/-- Likewise for the squares. -/
theorem last_sq (c : Dev nD) : (outsAt9 (F := Ideal) V c tLast.val tLast.isLt).2 = resultSq V c := by
  funext j
  refine (congrArg (outsAt9 (F := Ideal) V c tLast.val tLast.isLt).2 (eq_ix2 j)).trans ?_
  refine (acc_sq V c 19 tLast.isLt (j 0) (j 1)).trans ?_
  exact (colSum_eq_range (summandSq V c) (j 1)).symm

/-! ## The one write-back -/

/-- Only the last point writes the first output back, and its block (0, 0) read through zero offsets is the array. -/
theorem flushed_sum (c : Dev nD) (t : Fin cfg9.N) (hf : (cfg9.win 2).flush t = true) :
    (dat9 (F := Ideal) V c).flushed 2 t = ((cfg9.win 2).blk t).view.read (Elt Ideal) (resultSum V c) := by
  have hN : cfg9.N = 20 := N_9
  have h19 : t.val = 19 := by have := (flush9_2 t).mp hf; have := t.isLt; omega
  obtain rfl : t = tLast := Fin.ext h19
  show (cfg9.win 2).cut (grid9.coords tLast) ((dat9 (F := Ideal) V c).after 2 tLast) = _
  rw [after9_2, last_sum]
  have hz' : (fun a => win9_2.index tLast a * main_v102_0.ty.shape.size a) = fun _ => 0 :=
    funext fun a => by fin_cases a <;> decide +kernel
  exact (Memref.read_access_unit_zero (Elt Ideal) main_v102_0 hz' (fun a => by rw [congrFun hz' a]; simp) (resultSum V c)).symm

/-- Likewise for the second output. -/
theorem flushed_sq (c : Dev nD) (t : Fin cfg9.N) (hf : (cfg9.win 3).flush t = true) :
    (dat9 (F := Ideal) V c).flushed 3 t = ((cfg9.win 3).blk t).view.read (Elt Ideal) (resultSq V c) := by
  have hN : cfg9.N = 20 := N_9
  have h19 : t.val = 19 := by have := (flush9_3 t).mp hf; have := t.isLt; omega
  obtain rfl : t = tLast := Fin.ext h19
  show (cfg9.win 3).cut (grid9.coords tLast) ((dat9 (F := Ideal) V c).after 3 tLast) = _
  rw [after9_3, last_sq]
  have hz' : (fun a => win9_3.index tLast a * main_v102_1.ty.shape.size a) = fun _ => 0 :=
    funext fun a => by fin_cases a <;> decide +kernel
  exact (Memref.read_access_unit_zero (Elt Ideal) main_v102_1 hz' (fun a => by rw [congrFun hz' a]; simp) (resultSq V c)).symm

end Run

/-! ## The result arrays -/

section Final

/-- The first output array ends holding, in column `d` of its one row, the column sum of the neighbour sum plus one half
    of the features: the last point's block covers the array, and no other point writes it back. -/
theorem final9_sum (V : (c : Dev nD) → (b : Ref sig .tc) → Buf (Elt Ideal) ((c : Thread nD τ).loc b)) (c : Dev nD) :
    ((dat9 (F := Ideal) V c).arrAt 2 cfg9.N : Cert.Gin.S164.Idx → EReal)
      = fun j => Cert.Gin.colSum (Cert.Gin.selfAdd (V c main_v101) (V c main_v91)) (j 1) :=
  (dat9 (F := Ideal) V c).arrAt_eq_of_cover 2 (resultSum V c) (flushed_sum V c) fun i =>
    ⟨tLast, (flush9_2 tLast).mpr rfl, by
      show i ∈ ((View.whole main_v102_0).slice (win9_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win9_2.index tLast 0 * win9_2.size 0 ≤ (i 0 : Nat)
          ∧ (i 0 : Nat) < win9_2.index tLast 0 * win9_2.size 0 + win9_2.xsize (grid9.coords tLast) 0
        rw [show win9_2.index tLast 0 * win9_2.size 0 = 0 from by decide +kernel,
          show win9_2.xsize (grid9.coords tLast) 0 = 1 from by decide +kernel]
        omega
      | ⟨1, _⟩ =>
        show win9_2.index tLast 1 * win9_2.size 1 ≤ (i 1 : Nat)
          ∧ (i 1 : Nat) < win9_2.index tLast 1 * win9_2.size 1 + win9_2.xsize (grid9.coords tLast) 1
        rw [show win9_2.index tLast 1 * win9_2.size 1 = 0 from by decide +kernel,
          show win9_2.xsize (grid9.coords tLast) 1 = 64 from by decide +kernel]
        omega⟩

/-- The second output array ends holding the column sums of the square of the same summand. -/
theorem final9_sq (V : (c : Dev nD) → (b : Ref sig .tc) → Buf (Elt Ideal) ((c : Thread nD τ).loc b)) (c : Dev nD) :
    ((dat9 (F := Ideal) V c).arrAt 3 cfg9.N : Cert.Gin.S164.Idx → EReal)
      = fun j => Cert.Gin.colSum (fun i => Cert.Gin.selfAdd (V c main_v101) (V c main_v91) i
          * Cert.Gin.selfAdd (V c main_v101) (V c main_v91) i) (j 1) :=
  (dat9 (F := Ideal) V c).arrAt_eq_of_cover 3 (resultSq V c) (flushed_sq V c) fun i =>
    ⟨tLast, (flush9_3 tLast).mpr rfl, by
      show i ∈ ((View.whole main_v102_1).slice (win9_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win9_3.index tLast 0 * win9_3.size 0 ≤ (i 0 : Nat)
          ∧ (i 0 : Nat) < win9_3.index tLast 0 * win9_3.size 0 + win9_3.xsize (grid9.coords tLast) 0
        rw [show win9_3.index tLast 0 * win9_3.size 0 = 0 from by decide +kernel,
          show win9_3.xsize (grid9.coords tLast) 0 = 1 from by decide +kernel]
        omega
      | ⟨1, _⟩ =>
        show win9_3.index tLast 1 * win9_3.size 1 ≤ (i 1 : Nat)
          ∧ (i 1 : Nat) < win9_3.index tLast 1 * win9_3.size 1 + win9_3.xsize (grid9.coords tLast) 1
        rw [show win9_3.index tLast 1 * win9_3.size 1 = 0 from by decide +kernel,
          show win9_3.xsize (grid9.coords tLast) 1 = 64 from by decide +kernel]
        omega⟩

end Final

end Cert.KernelIdeal.KReg9

end
-- ==== Proof.KReg10.lean ====
/-
  The normalisation kernel's output as one whole-array function.

  The kernel walks the [100000, 64] arrays in 20 blocks of 5000 rows. At each block it reads the block of the
  neighbour sums `A` and of the features `h` at the same rows, and the two [1, 64] rows of column statistics (the
  column means `mu` and the reciprocal standard deviations `iv`, each a single block that is the whole row), and
  writes, at row `p` and column `q` of the block,

      (A[r, q] + (1/2) · h[r, q] − mu[0, q]) · iv[0, q],        r = 5000 · t + p   at block `t`.

  The blocks tile the rows (row `r` lies in block `r / 5000`), every block is written back, and what block `t` writes
  is the restriction to its rows of one function of the whole arrays; so the output array is that function:
  entry `(r, q)` depends on row `r` of `A` and `h` and on column `q` of the two statistics rows only.
-/
import proofs.«415324_j50955491999984_1_alg».proof.Proof.Gen.KernelIdeal.Frame
import proofs.«415324_j50955491999984_1_alg».proof.Proof.Spec
import proofs.«415324_j50955491999984_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The zero offsets of a whole-block rectangle, spelt as a constant function. -/
theorem zero_offsets : (![0, 0] : Fin 2 → Nat) = fun _ => 0 := funext fun a => by fin_cases a <;> rfl

/-- A [1, 64] row broadcast along 5000 rows reads, at `(p, q)`, the row's entry `q`: the row axis of the operand is
    a unit axis and reads 0, the column axis is carried over. -/
theorem row_broadcast_apply (v : Vec Ideal S1x64 .f32) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry `(p, q)` of a block: the neighbour sum plus half the feature, minus the column's
    mean, times the column's reciprocal standard deviation. Every operation is pointwise but the two row
    broadcasts; the same-shape casts are the identity. -/
theorem payload_apply (xa xh : Vec Ideal S5000x64 .f32) (xm xs : Vec Ideal S1x64 .f32) (p : Fin 5000) (q : Fin 64) :
    (k10_pay1 (F := Ideal) xa xh xm xs (ix2 p q) : EReal)
      = ((xa (ix2 p q) : EReal) + Cert.Gin.half * (xh (ix2 p q) : EReal) - (xm (ix2 (0 : Fin 1) q) : EReal))
          * (xs (ix2 (0 : Fin 1) q) : EReal) := by
  unfold k10_pay1
  simp only [shapeCast_self]
  rw [mulf_apply, subf_apply, addf_apply, mulf_apply, broadcast_apply, row_broadcast_apply, row_broadcast_apply]
  rfl

/-- The same at a block index `j`, with the four blocks' entries named as entries of whole arrays: if the two
    [5000, 64] blocks hold at `j` the arrays' entries at `i`, and the two rows hold at `j`'s column the statistics of
    `i`'s column, then the body's entry at `j` is the normalised entry at `i`. -/
theorem payload_of_reads (xa xh : Vec Ideal S5000x64 .f32) (xm xs : Vec Ideal S1x64 .f32)
    (A h : Cert.Gin.SN64.Idx → EReal) (mu iv : Cert.Gin.S164.Idx → EReal) (j : S5000x64.Idx) (i : Cert.Gin.SN64.Idx)
    (ea : (xa j : EReal) = A i) (eh : (xh j : EReal) = h i)
    (em : (xm (ix2 (0 : Fin 1) (j 1)) : EReal) = mu (ix2 (0 : Fin 1) (i 1)))
    (es : (xs (ix2 (0 : Fin 1) (j 1)) : EReal) = iv (ix2 (0 : Fin 1) (i 1))) :
    (k10_pay1 (F := Ideal) xa xh xm xs j : EReal)
      = (Cert.Gin.selfAdd A h i - mu (ix2 (0 : Fin 1) (i 1))) * iv (ix2 (0 : Fin 1) (i 1)) := by
  obtain ⟨p, q, rfl⟩ : ∃ (p : Fin 5000) (q : Fin 64), j = ix2 p q := ⟨j 0, j 1, eq_ix2 j⟩
  rw [payload_apply, ea, eh]
  unfold Cert.Gin.selfAdd
  rw [← em, ← es]

/-! ## Where the blocks sit -/

/-- The windows' index maps over the 20 grid points: the two [5000, 64] inputs and the output sit at block row `t`,
    column block 0; the two [1, 64] rows always at block (0, 0). -/
theorem index_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

section AtContents
variable (V : (c : Dev nD) → (b : Ref sig .tc) → Buf (Elt Ideal) ((c : Thread nD τ).loc b))

/-- The normalised array: entry `i` is the neighbour sum plus half the feature, minus the mean of `i`'s column,
    times that column's reciprocal standard deviation. -/
abbrev normed (c : Dev nD) : Cert.Gin.SN64.Idx → EReal :=
  fun i => (Cert.Gin.selfAdd (V c main_v101) (V c main_v91) i - (V c main_v104 : Cert.Gin.S164.Idx → EReal) (ix2 (0 : Fin 1) (i 1)))
              * (V c main_v111 : Cert.Gin.S164.Idx → EReal) (ix2 (0 : Fin 1) (i 1))

/-- What grid point `t` writes back is rows 5000·t … 5000·t + 4999 of the normalised array: an element of a block
    sits in its array at block index × block size + its own coordinate on each axis, so the two [5000, 64] input
    blocks read the same rows as the output block, and the two statistics rows read column `q` at row 0. -/
theorem flushed_eq (c : Dev nD) (t : Fin cfg10.N) :
    (dat10 (F := Ideal) V c).flushed 4 t = ((cfg10.win 4).blk t).view.read (Elt Ideal) (normed V c) := by
  show (cfg10.win 4).cut (grid10.coords t) ((dat10 V c).after 4 t) = _
  rw [after10_4]
  unfold out10_4
  rw [View.canon_unit_zero zero_offsets]
  simp only [View.ld_unit_zero (S := S5000x64) zero_offsets, View.ld_unit_zero (S := S1x64) zero_offsets]
  obtain ⟨hA0, hA1, hH0, hH1, hM0, hM1, hS0, hS1, hO0, hO1⟩ := index_facts t
  funext j
  show (k10_pay1 (F := Ideal) (iblk10 V c 0 t) (iblk10 V c 1 t) (iblk10 V c 2 t) (iblk10 V c 3 t) j : EReal)
      = normed V c (((cfg10.win 4).blk t).view.emb j)
  refine payload_of_reads (iblk10 V c 0 t) (iblk10 V c 1 t) (iblk10 V c 2 t) (iblk10 V c 3 t)
    (V c main_v101) (V c main_v91) (V c main_v104) (V c main_v111) j (((cfg10.win 4).blk t).view.emb j) ?_ ?_ ?_ ?_
  · show V c main_v101 (((cfg10.win 0).blk t).view.emb j) = V c main_v101 (((cfg10.win 4).blk t).view.emb j)
    refine congrArg (V c main_v101) (funext fun a => Fin.ext ?_)
    match a with
    | ⟨0, _⟩ => show win10_0.index t (0 : Fin 2) * 5000 + 1 * (j 0).val = win10_4.index t (0 : Fin 2) * 5000 + 1 * (j 0).val; omega
    | ⟨1, _⟩ => show win10_0.index t (1 : Fin 2) * 64 + 1 * (j 1).val = win10_4.index t (1 : Fin 2) * 64 + 1 * (j 1).val; omega
  · show V c main_v91 (((cfg10.win 1).blk t).view.emb j) = V c main_v91 (((cfg10.win 4).blk t).view.emb j)
    refine congrArg (V c main_v91) (funext fun a => Fin.ext ?_)
    match a with
    | ⟨0, _⟩ => show win10_1.index t (0 : Fin 2) * 5000 + 1 * (j 0).val = win10_4.index t (0 : Fin 2) * 5000 + 1 * (j 0).val; omega
    | ⟨1, _⟩ => show win10_1.index t (1 : Fin 2) * 64 + 1 * (j 1).val = win10_4.index t (1 : Fin 2) * 64 + 1 * (j 1).val; omega
  · show V c main_v104 (((cfg10.win 2).blk t).view.emb (ix2 (0 : Fin 1) (j 1)))
        = V c main_v104 (ix2 (0 : Fin 1) (((cfg10.win 4).blk t).view.emb j 1))
    refine congrArg (V c main_v104) (funext fun a => Fin.ext ?_)
    match a with
    | ⟨0, _⟩ => show win10_2.index t (0 : Fin 2) * 1 + 1 * 0 = 0; omega
    | ⟨1, _⟩ => show win10_2.index t (1 : Fin 2) * 64 + 1 * (j 1).val = win10_4.index t (1 : Fin 2) * 64 + 1 * (j 1).val; omega
  · show V c main_v111 (((cfg10.win 3).blk t).view.emb (ix2 (0 : Fin 1) (j 1)))
        = V c main_v111 (ix2 (0 : Fin 1) (((cfg10.win 4).blk t).view.emb j 1))
    refine congrArg (V c main_v111) (funext fun a => Fin.ext ?_)
    match a with
    | ⟨0, _⟩ => show win10_3.index t (0 : Fin 2) * 1 + 1 * 0 = 0; omega
    | ⟨1, _⟩ => show win10_3.index t (1 : Fin 2) * 64 + 1 * (j 1).val = win10_4.index t (1 : Fin 2) * 64 + 1 * (j 1).val; omega

end AtContents

/-! ## From the blocks to the array -/

/-- An index of the output array lies in grid point `t`'s block exactly when, on each axis, its coordinate is
    within the block's extent past the block's offset. -/
theorem mem_block (t : Fin cfg10.N) (i : S100000x64.Idx) :
    i ∈ ((cfg10.win 4).blk t).view.set ↔ ∀ a : Fin 2, win10_4.index t a * S5000x64.size a ≤ (i a).val
      ∧ (i a).val < win10_4.index t a * S5000x64.size a + S5000x64.size a := by
  show i ∈ ((View.whole main_v112).slice (win10_4.rect t)).set ↔ _
  rw [View.set_slice_whole, Rect.mem_set_unit]
  exact Iff.rfl

/-- The 20 blocks of 5000 rows tile the 100000 rows: row `r` lies in the block of grid point `r / 5000`, and every
    grid point writes its block back. -/
theorem covered (i : S100000x64.Idx) :
    ∃ t : Fin cfg10.N, (cfg10.win 4).flush t = true ∧ i ∈ ((cfg10.win 4).blk t).view.set := by
  have hi0 : (i 0).val < 100000 := (i 0).isLt
  have hi1 : (i 1).val < 64 := (i 1).isLt
  obtain ⟨t, ht⟩ : ∃ t : Fin cfg10.N, t.val = (i 0).val / 5000 :=
    ⟨⟨(i 0).val / 5000, Nat.lt_of_lt_of_eq (by omega : (i 0).val / 5000 < 20) N_10.symm⟩, rfl⟩
  obtain ⟨-, -, -, -, -, -, -, -, hO0, hO1⟩ := index_facts t
  refine ⟨t, flush10_4 t, ?_⟩
  rw [mem_block]
  intro a
  match a with
  | ⟨0, _⟩ => show win10_4.index t (0 : Fin 2) * 5000 ≤ (i 0).val ∧ (i 0).val < win10_4.index t (0 : Fin 2) * 5000 + 5000; omega
  | ⟨1, _⟩ => show win10_4.index t (1 : Fin 2) * 64 ≤ (i 1).val ∧ (i 1).val < win10_4.index t (1 : Fin 2) * 64 + 64; omega

/-- The output array after the region's 20 grid points: every entry is the normalised entry of the arrays the
    region found — each block written back is the block of one whole-array function, and the blocks cover the array. -/
theorem final10 (V : (c : Dev nD) → (b : Ref sig .tc) → Buf (Elt Ideal) ((c : Thread nD τ).loc b)) (c : Dev nD) :
    ((dat10 (F := Ideal) V c).arrAt 4 cfg10.N : Cert.Gin.SN64.Idx → EReal)
      = fun i => (Cert.Gin.selfAdd (V c main_v101) (V c main_v91) i - (V c main_v104 : Cert.Gin.S164.Idx → EReal) (ix2 (0 : Fin 1) (i 1)))
                  * (V c main_v111 : Cert.Gin.S164.Idx → EReal) (ix2 (0 : Fin 1) (i 1)) :=
  (dat10 (F := Ideal) V c).arrAt_eq_of_cover 4 (normed V c) (fun t _ => flushed_eq V c t) covered

end Cert.KernelIdeal.KReg10

end
-- ==== Proof.KLayer5.lean ====
/-
  One layer of the kernel program, read through the buffer contents at the boundaries of its two regions.

  Between the exit of the region before it and the exit of its normalisation region the layer is four stretches:
    * host operations form the neighbour sum of the feature array (the edge gather and scatter-add);
    * the statistics region leaves the column sums of a = neighbour sum + half the features, and of a·a;
    * host operations divide both by the row count, subtract the squared mean from the mean square, add the variance
      offset and take the reciprocal square root;
    * the normalisation region writes (a − mean) · reciprocal deviation.
  Each stretch rewrites only its own result buffers, so a buffer is walked back through the stretches that do not
  write it, and the four values meet in the layer function of the specification.
-/
import proofs.«415324_j50955491999984_1_alg».proof.Proof.Gen.KernelIdeal.Frame
import proofs.«415324_j50955491999984_1_alg».proof.Proof.Spec
import proofs.«415324_j50955491999984_1_alg».proof.Proof.Agg
import proofs.«415324_j50955491999984_1_alg».proof.Proof.KReg9
import proofs.«415324_j50955491999984_1_alg».proof.Proof.KReg10
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384
-- reading a buffer through a host stretch types every buffer the stretch names; the later layers' buffers sit deep in the buffer table
set_option maxHeartbeats 1600000

noncomputable section

namespace Cert.KernelIdeal.KLayer5

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg) (c : Dev nD)

/-! ## The neighbour sum -/

/-- Over any buffer contents the first host stretch leaves the neighbour sum of the features: its gather and
    scatter-add are the specification's, spelled with the same dimension records. -/
theorem agg_value_of (W : Valuation τ sig (Elt Ideal)) :
    (StableHlo.after hostOps9 W (Proc.devRef .tc main_v101) : Cert.Gin.SN64.Idx → EReal)
      = Cert.Gin.aggOf (W (Proc.devRef .tc main_v1)) (W (Proc.devRef .tc main_v3)) (W (Proc.devRef .tc main_v91)) := by
  after_results
  rfl

/-- The same at the contents the layer is entered with. -/
theorem agg_value :
    (W19 (F := Ideal) m ρ c (Proc.devRef .tc main_v101) : Cert.Gin.SN64.Idx → EReal)
      = Cert.Gin.aggOf (W18 m ρ c (Proc.devRef .tc main_v1)) (W18 m ρ c (Proc.devRef .tc main_v3))
          (W18 m ρ c (Proc.devRef .tc main_v91)) :=
  agg_value_of (W18 m ρ c)

/-- The first host stretch does not write the features. -/
theorem feat_after_gather :
    W19 (F := Ideal) m ρ c (Proc.devRef .tc main_v91) = W18 m ρ c (Proc.devRef .tc main_v91) := by
  show StableHlo.after hostOps9 (W18 m ρ c) (Proc.devRef .tc main_v91) = _
  after_results

/-! ## The column statistics -/

/-- The statistics region only reads the neighbour sum and the features: an input array is never written back. -/
theorem agg_after_stats :
    W20 (F := Ideal) m ρ c (Proc.devRef .tc main_v101) = W19 m ρ c (Proc.devRef .tc main_v101) :=
  (W20_arr m ρ c 0).trans ((dat9 (V19 m ρ) c).arrAt_in 0 rfl cfg9.N)

theorem feat_after_stats :
    W20 (F := Ideal) m ρ c (Proc.devRef .tc main_v91) = W19 m ρ c (Proc.devRef .tc main_v91) :=
  (W20_arr m ρ c 1).trans ((dat9 (V19 m ρ) c).arrAt_in 1 rfl cfg9.N)

/-- The statistics region leaves the column sums of a = neighbour sum + half the features … -/
theorem stat_sum :
    (W20 (F := Ideal) m ρ c (Proc.devRef .tc main_v102_0) : Cert.Gin.S164.Idx → EReal)
      = fun j => Cert.Gin.colSum (Cert.Gin.selfAdd (W19 m ρ c (Proc.devRef .tc main_v101))
          (W19 m ρ c (Proc.devRef .tc main_v91))) (j 1) :=
  (W20_arr m ρ c 2).trans (KReg9.final9_sum (V19 m ρ) c)

/-- … and the column sums of a·a. -/
theorem stat_sq :
    (W20 (F := Ideal) m ρ c (Proc.devRef .tc main_v102_1) : Cert.Gin.S164.Idx → EReal)
      = fun j => Cert.Gin.colSum (fun i => Cert.Gin.selfAdd (W19 m ρ c (Proc.devRef .tc main_v101))
            (W19 m ρ c (Proc.devRef .tc main_v91)) i
          * Cert.Gin.selfAdd (W19 m ρ c (Proc.devRef .tc main_v101)) (W19 m ρ c (Proc.devRef .tc main_v91)) i) (j 1) :=
  (W20_arr m ρ c 3).trans (KReg9.final9_sq (V19 m ρ) c)

/-! ## The mean and the reciprocal deviation -/

/-- The second host stretch writes neither the neighbour sum nor the features. -/
theorem agg_after_moments :
    W21 (F := Ideal) m ρ c (Proc.devRef .tc main_v101) = W20 m ρ c (Proc.devRef .tc main_v101) := by
  show StableHlo.after hostOps10 (W20 m ρ c) (Proc.devRef .tc main_v101) = _
  after_results

theorem feat_after_moments :
    W21 (F := Ideal) m ρ c (Proc.devRef .tc main_v91) = W20 m ρ c (Proc.devRef .tc main_v91) := by
  show StableHlo.after hostOps10 (W20 m ρ c) (Proc.devRef .tc main_v91) = _
  after_results

/-- The row count spread over the 64 columns reads the row count at every column: a spread scalar reads the scalar. -/
theorem count_apply (d : Fin 64) :
    (broadcastInDim S1x64 ![] bcast_S_S1x64 (constant (F := Ideal) S_ .f32 0x47C35000#32) : Cert.Gin.S164.Idx → EReal)
      (ix2 (0 : Fin 1) d) = Cert.Gin.nf := rfl

/-- The variance offset spread over the 64 columns reads the offset at every column. -/
theorem offset_apply (d : Fin 64) :
    (broadcastInDim S1x64 ![] bcast_S_S1x64 (constant (F := Ideal) S_ .f32 0x3727C5AC#32) : Cert.Gin.S164.Idx → EReal)
      (ix2 (0 : Fin 1) d) = Cert.Gin.eps := rfl

/-- The host quotient of two rows at a column is the quotient of their entries. -/
theorem quot_apply (a b : Cert.Gin.S164.Idx → EReal) (j : Cert.Gin.S164.Idx) :
    (Host.divf (F := Ideal) (φ := .f32) a b) j = Ideal.div (a j) (b j) := rfl

/-- The mean row: the row of column sums divided by the row count. -/
theorem mean_arr :
    (W21 (F := Ideal) m ρ c (Proc.devRef .tc main_v104) : Cert.Gin.S164.Idx → EReal)
      = Host.divf (W20 m ρ c (Proc.devRef .tc main_v102_0) : Cert.Gin.S164.Idx → EReal)
          (broadcastInDim S1x64 ![] bcast_S_S1x64 (constant (F := Ideal) S_ .f32 0x47C35000#32)) := by
  show StableHlo.after hostOps10 (W20 m ρ c) (Proc.devRef .tc main_v104) = _
  after_results

/-- The mean of column `d`. -/
theorem mean_apply (d : Fin 64) :
    (W21 (F := Ideal) m ρ c (Proc.devRef .tc main_v104) : Cert.Gin.S164.Idx → EReal) (ix2 (0 : Fin 1) d)
      = Ideal.div ((W20 m ρ c (Proc.devRef .tc main_v102_0) : Cert.Gin.S164.Idx → EReal) (ix2 (0 : Fin 1) d)) Cert.Gin.nf := by
  rw [mean_arr, quot_apply, count_apply]

/-- The reciprocal-deviation row: the row of sums of squares divided by the row count, less the squared mean row,
    plus the offset, under the reciprocal square root. -/
theorem inv_arr :
    (W21 (F := Ideal) m ρ c (Proc.devRef .tc main_v111) : Cert.Gin.S164.Idx → EReal)
      = Host.rsqrt (addf (subf
            (Host.divf (W20 m ρ c (Proc.devRef .tc main_v102_1) : Cert.Gin.S164.Idx → EReal)
              (broadcastInDim S1x64 ![] bcast_S_S1x64 (constant (F := Ideal) S_ .f32 0x47C35000#32)))
            (mulf
              (Host.divf (W20 m ρ c (Proc.devRef .tc main_v102_0) : Cert.Gin.S164.Idx → EReal)
                (broadcastInDim S1x64 ![] bcast_S_S1x64 (constant (F := Ideal) S_ .f32 0x47C35000#32)))
              (Host.divf (W20 m ρ c (Proc.devRef .tc main_v102_0) : Cert.Gin.S164.Idx → EReal)
                (broadcastInDim S1x64 ![] bcast_S_S1x64 (constant (F := Ideal) S_ .f32 0x47C35000#32)))))
          (broadcastInDim S1x64 ![] bcast_S_S1x64 (constant (F := Ideal) S_ .f32 0x3727C5AC#32))) := by
  show StableHlo.after hostOps10 (W20 m ρ c) (Proc.devRef .tc main_v111) = _
  after_results

/-- The reciprocal deviation of column `d`. -/
theorem inv_apply (d : Fin 64) :
    (W21 (F := Ideal) m ρ c (Proc.devRef .tc main_v111) : Cert.Gin.S164.Idx → EReal) (ix2 (0 : Fin 1) d)
      = Ideal.rsqrt
          (Ideal.div ((W20 m ρ c (Proc.devRef .tc main_v102_1) : Cert.Gin.S164.Idx → EReal) (ix2 (0 : Fin 1) d)) Cert.Gin.nf
            - Ideal.div ((W20 m ρ c (Proc.devRef .tc main_v102_0) : Cert.Gin.S164.Idx → EReal) (ix2 (0 : Fin 1) d)) Cert.Gin.nf
              * Ideal.div ((W20 m ρ c (Proc.devRef .tc main_v102_0) : Cert.Gin.S164.Idx → EReal) (ix2 (0 : Fin 1) d)) Cert.Gin.nf
            + Cert.Gin.eps) := by
  rw [inv_arr]
  show Ideal.rsqrt _ = _
  rw [addf_apply, subf_apply, mulf_apply, quot_apply, quot_apply, count_apply, offset_apply]

/-! ## The normalisation and the layer -/

/-- The normalisation region writes (a − mean) · reciprocal deviation, column by column. -/
theorem norm_value :
    (W22 (F := Ideal) m ρ c (Proc.devRef .tc main_v112) : Cert.Gin.SN64.Idx → EReal)
      = fun i => (Cert.Gin.selfAdd (W21 m ρ c (Proc.devRef .tc main_v101)) (W21 m ρ c (Proc.devRef .tc main_v91)) i
            - (W21 m ρ c (Proc.devRef .tc main_v104) : Cert.Gin.S164.Idx → EReal) (ix2 (0 : Fin 1) (i 1)))
          * (W21 m ρ c (Proc.devRef .tc main_v111) : Cert.Gin.S164.Idx → EReal) (ix2 (0 : Fin 1) (i 1)) :=
  (W22_arr m ρ c 4).trans (KReg10.final10 (V21 m ρ) c)

/-- The normalisation over an array `a` whose column sums and sums of squares the statistics are: the layer's
    normalisation of `a`, entry by entry. -/
theorem norm_meets (a : Cert.Gin.SN64.Idx → EReal) (i : Cert.Gin.SN64.Idx) :
    (a i - Ideal.div (Cert.Gin.colSum a (i 1)) Cert.Gin.nf)
        * Ideal.rsqrt (Ideal.div (Cert.Gin.colSum (fun k => a k * a k) (i 1)) Cert.Gin.nf
            - Ideal.div (Cert.Gin.colSum a (i 1)) Cert.Gin.nf * Ideal.div (Cert.Gin.colSum a (i 1)) Cert.Gin.nf
            + Cert.Gin.eps)
      = Cert.Gin.normK a i := rfl

/-- One layer: the normalisation region's result is the specification's layer over the neighbour sum, at the
    features the layer entered with. -/
theorem layer (m : (ℓ : Loc nD τ sig) → Buf (Elt Ideal) ℓ) (ρ : Dev nD → PrngReg) (c : Dev nD) :
    (W22 (F := Ideal) m ρ c (Proc.devRef .tc main_v112) : Cert.Gin.SN64.Idx → EReal)
      = Cert.Gin.layerK (Cert.Gin.aggOf (W18 m ρ c (Proc.devRef .tc main_v1)) (W18 m ρ c (Proc.devRef .tc main_v3)))
          (W18 m ρ c (Proc.devRef .tc main_v91)) := by
  rw [norm_value, agg_after_moments, feat_after_moments, agg_after_stats, feat_after_stats]
  funext i
  rw [mean_apply m ρ c (i 1), inv_apply m ρ c (i 1), stat_sum, stat_sq, agg_value, feat_after_gather]
  exact norm_meets _ i

/-- The two edge columns pass through the layer: no host operation writes them and neither region has them as an
    array. -/
theorem keep (m : (ℓ : Loc nD τ sig) → Buf (Elt Ideal) ℓ) (ρ : Dev nD → PrngReg) (c : Dev nD) (b : Ref sig .tc)
    (hb : b = main_v1 ∨ b = main_v3) :
    W22 (F := Ideal) m ρ c (Proc.devRef .tc b) = W18 m ρ c (Proc.devRef .tc b) := by
  rcases hb with rfl | rfl
  · calc W22 (F := Ideal) m ρ c (Proc.devRef .tc main_v1)
      _ = W21 m ρ c (Proc.devRef .tc main_v1) := W22_of_ne m ρ c main_v1 (by decide)
      _ = W20 m ρ c (Proc.devRef .tc main_v1) := by
          show StableHlo.after hostOps10 (W20 m ρ c) (Proc.devRef .tc main_v1) = _
          after_results
      _ = W19 m ρ c (Proc.devRef .tc main_v1) := W20_of_ne m ρ c main_v1 (by decide)
      _ = W18 m ρ c (Proc.devRef .tc main_v1) := by
          show StableHlo.after hostOps9 (W18 m ρ c) (Proc.devRef .tc main_v1) = _
          after_results
  · calc W22 (F := Ideal) m ρ c (Proc.devRef .tc main_v3)
      _ = W21 m ρ c (Proc.devRef .tc main_v3) := W22_of_ne m ρ c main_v3 (by decide)
      _ = W20 m ρ c (Proc.devRef .tc main_v3) := by
          show StableHlo.after hostOps10 (W20 m ρ c) (Proc.devRef .tc main_v3) = _
          after_results
      _ = W19 m ρ c (Proc.devRef .tc main_v3) := W20_of_ne m ρ c main_v3 (by decide)
      _ = W18 m ρ c (Proc.devRef .tc main_v3) := by
          show StableHlo.after hostOps9 (W18 m ρ c) (Proc.devRef .tc main_v3) = _
          after_results

end Cert.KernelIdeal.KLayer5

end
-- ==== Proof.KValue.lean ====
/-
  The idealized kernel program's result as one function of its arguments: the embedding lookup followed by five layers,
  each layer the neighbour sum, the column statistics taken as sums of the entries and of their squares, and the
  normalisation by the reciprocal standard deviation. The run's last boundary holds it in the result array; the edge
  columns are computed once before the first region and are never written again, so every layer reads the same ones.
-/
import proofs.«415324_j50955491999984_1_alg».proof.Proof.KRun
import proofs.«415324_j50955491999984_1_alg».proof.Proof.KStart
import proofs.«415324_j50955491999984_1_alg».proof.Proof.KLayer1
import proofs.«415324_j50955491999984_1_alg».proof.Proof.KLayer2
import proofs.«415324_j50955491999984_1_alg».proof.Proof.KLayer3
import proofs.«415324_j50955491999984_1_alg».proof.Proof.KLayer4
import proofs.«415324_j50955491999984_1_alg».proof.Proof.KLayer5

set_option maxRecDepth 16384

noncomputable section

namespace Cert.KernelIdeal.KValue

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The kernel program's function of its arguments on one device. -/
abbrev outOf (c : Dev nD) (hx : Cert.Gin.InRange (m ((c : Thread nD τ).loc main_arg0))) : Cert.Gin.SN64.Idx → EReal :=
  Cert.Gin.five (Cert.Gin.layerK (Cert.Gin.aggOf (Cert.Gin.srcOf (m ((c : Thread nD τ).loc main_arg1))) (Cert.Gin.dstOf (m ((c : Thread nD τ).loc main_arg1)))))
    (Cert.Gin.lookup (m ((c : Thread nD τ).loc main_arg0)) hx (m ((c : Thread nD τ).loc main_arg2)))

/-- The last boundary's result array is that function: layer by layer back to the embedding. -/
theorem value (c : Dev nD) (hx : Cert.Gin.InRange (m ((c : Thread nD τ).loc main_arg0))) :
    (W22 (F := Ideal) m ρ c (Proc.devRef .tc main_v112) : Cert.Gin.SN64.Idx → EReal) = outOf m c hx := by
  have s2 := KStart.src m ρ c
  have d2 := KStart.dst m ρ c
  have s6 := (KLayer1.keep m ρ c main_v1 (Or.inl rfl)).trans s2
  have d6 := (KLayer1.keep m ρ c main_v3 (Or.inr rfl)).trans d2
  have s10 := (KLayer2.keep m ρ c main_v1 (Or.inl rfl)).trans s6
  have d10 := (KLayer2.keep m ρ c main_v3 (Or.inr rfl)).trans d6
  have s14 := (KLayer3.keep m ρ c main_v1 (Or.inl rfl)).trans s10
  have d14 := (KLayer3.keep m ρ c main_v3 (Or.inr rfl)).trans d10
  have s18 := (KLayer4.keep m ρ c main_v1 (Or.inl rfl)).trans s14
  have d18 := (KLayer4.keep m ρ c main_v3 (Or.inr rfl)).trans d14
  have e0 := KStart.embed m ρ c hx
  have e1 := KLayer1.layer m ρ c
  have e2 := KLayer2.layer m ρ c
  have e3 := KLayer3.layer m ρ c
  have e4 := KLayer4.layer m ρ c
  have e5 := KLayer5.layer m ρ c
  rw [s2, d2, e0] at e1
  rw [s6, d6, e1] at e2
  rw [s10, d10, e2] at e3
  rw [s14, d14, e3] at e4
  rw [s18, d18, e4] at e5
  exact e5

/-- The run, read: the result array at the program's function of the arguments, the arguments unchanged. -/
theorem run (hx : ∀ c : Dev nD, Cert.Gin.InRange (m ((c : Thread nD τ).loc main_arg0))) :
    θ_run defs (onTc (τ := τ) (main (F := Ideal))) ⟨m, fun _ => 0, ρ⟩ (fun r => ∀ c : Dev nD,
      r.2.mem ((c.tc : Thread nD τ).loc main_v112) = outOf m c (hx c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (value m ρ c (hx c)), (h c).2⟩) (KRun.run m ρ)

end Cert.KernelIdeal.KValue

end
-- ==== Proof.RefOps.lean ====
import proofs.«415324_j50955491999984_1_alg».proof.ReferenceIdeal
import Idealize.ShloMosaic.Lib.StableHlo.Run

noncomputable section

namespace Cert.ReferenceIdeal.RefOps

open Idealize.ShloMosaic Idealize.SL.Sem Cert.ReferenceIdeal

variable {F : FTy → Type} [FloatOps F] [Facts]
open Facts₀ Facts

/-- The edge and node index columns and the embedding lookup: 15 operations. -/
abbrev opsEmbed : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg0 main_v4 ((extractStridedSlice S100000x1 ![0, 0] · slices_S100000x2_S100000x1_0_0) : (⟨S100000x2, .i32⟩ : BufTy).Contents (Elt F) → (⟨S100000x1, .i32⟩ : BufTy).Contents (Elt F)),
    StableHlo.reshape main_v4 main_v5 rfl shapeCasts_S100000x1_S100000,
    StableHlo.nullary main_c (constantI S_ 32 0#32),
    StableHlo.unary main_c main_v6 (broadcastInDim S100000 ![] bcast_S_S100000 : (⟨S_, .i32⟩ : BufTy).Contents (Elt F) → (⟨S100000, .i32⟩ : BufTy).Contents (Elt F)),
    StableHlo.binary main_v5 main_v6 main_v7 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 120#32),
    StableHlo.unary main_c_0 main_v8 (broadcastInDim S100000 ![] bcast_S_S100000 : (⟨S_, .i32⟩ : BufTy).Contents (Elt F) → (⟨S100000, .i32⟩ : BufTy).Contents (Elt F)),
    StableHlo.binary main_v5 main_v8 main_v9 (addi : (⟨S100000, .i32⟩ : BufTy).Contents (Elt F) → (⟨S100000, .i32⟩ : BufTy).Contents (Elt F) → (⟨S100000, .i32⟩ : BufTy).Contents (Elt F)),
    StableHlo.ternary main_v7 main_v9 main_v5 main_v10 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v10 main_v11 (broadcastInDim S100000x1 ![0] bcast_S100000_S100000x1_0 : (⟨S100000, .i32⟩ : BufTy).Contents (Elt F) → (⟨S100000x1, .i32⟩ : BufTy).Contents (Elt F)),
    StableHlo.binary main_arg2 main_v11 main_v12 ((fun x i => Host.gather gather_S120x64_S100000x1_S100000x64_1_0_n_n_0_1_164 x i) : (⟨S120x64, .f32⟩ : BufTy).Contents (Elt F) → (⟨S100000x1, .i32⟩ : BufTy).Contents (Elt F) → (⟨S100000x64, .f32⟩ : BufTy).Contents (Elt F)) ]

/-- Layer 1: 55 operations. -/
abbrev opsLayer1 : List (HloOp τ sig (Elt F)) :=
  [ StableHlo.nullary main_c_1 (constantI S_ 32 0#32),
    StableHlo.unary main_c_1 main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_v12 main_v18 main_v19 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v20 (broadcastInDim S100000x64 ![] bcast_S_S100000x64 : (⟨S_, .f32⟩ : BufTy).Contents (Elt F) → (⟨S100000x64, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_3 (constant S_ .f32 0x3F000000#32),
    StableHlo.unary main_cst_3 main_v23 (broadcastInDim S100000x64 ![] bcast_S_S100000x64 : (⟨S_, .f32⟩ : BufTy).Contents (Elt F) → (⟨S100000x64, .f32⟩ : BufTy).Contents (Elt F)),
    StableHlo.binary main_v23 main_v12 main_v24 (mulf : (⟨S100000x64, .f32⟩ : BufTy).Contents (Elt F) → (⟨S100000x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x00000000#32),
    StableHlo.binary main_v25 main_cst_4 main_v26 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_5 (constant S_ .f32 0x47C35000#32),
    StableHlo.unary main_cst_5 main_v27 (broadcastInDim S64 ![] bcast_S_S64 : (⟨S_, .f32⟩ : BufTy).Contents (Elt F) → (⟨S64, .f32⟩ : BufTy).Contents (Elt F)),
    StableHlo.binary main_v26 main_v27 main_v28 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call0.cst (constant S_ .f32 0x00000000#32),
    StableHlo.TRef.binary (.of main_v25) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v25) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v28 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v31 main_v32 (subf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3727C5AC#32),
    StableHlo.unary main_cst_7 main_v33 (broadcastInDim S64 ![] bcast_S_S64 : (⟨S_, .f32⟩ : BufTy).Contents (Elt F) → (⟨S64, .f32⟩ : BufTy).Contents (Elt F)),
    StableHlo.binary main_v29 main_v33 main_v34 (addf : (⟨S64, .f32⟩ : BufTy).Contents (Elt F) → (⟨S64, .f32⟩ : BufTy).Contents (Elt F) → (⟨S64, .f32⟩ : BufTy).Contents (Elt F)),
    StableHlo.unary main_v34 main_v35 (Host.sqrt : (⟨S64, .f32⟩ : BufTy).Contents (Elt F) → (⟨S64, .f32⟩ : BufTy).Contents (Elt F)),
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v37 main_v38 (Host.divf : (⟨S100000x64, .f32⟩ : BufTy).Contents (Elt F) → (⟨S100000x64, .f32⟩ : BufTy).Contents (Elt F) → (⟨S100000x64, .f32⟩ : BufTy).Contents (Elt F)) ]

/-- Layer 2: 55 operations. -/
abbrev opsLayer2 : List (HloOp τ sig (Elt F)) :=
  [ StableHlo.nullary main_c_8 (constantI S_ 32 0#32),
    StableHlo.unary main_c_8 main_v39 (broadcastInDim S1600000 ![] bcast_S_S1600000 : (⟨S_, .i32⟩ : BufTy).Contents (Elt F) → (⟨S1600000, .i32⟩ : BufTy).Contents (Elt F)),
    StableHlo.binary main_v1 main_v39 main_v40 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v41 (broadcastInDim S1600000 ![] bcast_S_S1600000 : (⟨S_, .i32⟩ : BufTy).Contents (Elt F) → (⟨S1600000, .i32⟩ : BufTy).Contents (Elt F)),
    StableHlo.binary main_v1 main_v41 main_v42 (addi : (⟨S1600000, .i32⟩ : BufTy).Contents (Elt F) → (⟨S1600000, .i32⟩ : BufTy).Contents (Elt F) → (⟨S1600000, .i32⟩ : BufTy).Contents (Elt F)),
    StableHlo.ternary main_v40 main_v42 main_v1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v43 main_v44 (broadcastInDim S1600000x1 ![0] bcast_S1600000_S1600000x1_0 : (⟨S1600000, .i32⟩ : BufTy).Contents (Elt F) → (⟨S1600000x1, .i32⟩ : BufTy).Contents (Elt F)),
    StableHlo.binary main_v38 main_v44 main_v45 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_10 (constant S_ .f32 0x00000000#32),
    StableHlo.unary main_cst_10 main_v46 (broadcastInDim S100000x64 ![] bcast_S_S100000x64 : (⟨S_, .f32⟩ : BufTy).Contents (Elt F) → (⟨S100000x64, .f32⟩ : BufTy).Contents (Elt F)),
    StableHlo.unary main_v3 main_v47 (broadcastInDim S1600000x1 ![0] bcast_S1600000_S1600000x1_0 : (⟨S1600000, .i32⟩ : BufTy).Contents (Elt F) → (⟨S1600000x1, .i32⟩ : BufTy).Contents (Elt F)),
    StableHlo.ternary main_v46 main_v47 main_v45 main_v48 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_11 (constant S_ .f32 0x3F000000#32),
    StableHlo.unary main_cst_11 main_v49 (broadcastInDim S100000x64 ![] bcast_S_S100000x64 : (⟨S_, .f32⟩ : BufTy).Contents (Elt F) → (⟨S100000x64, .f32⟩ : BufTy).Contents (Elt F)),
    StableHlo.binary main_v49 main_v38 main_v50 (mulf : (⟨S100000x64, .f32⟩ : BufTy).Contents (Elt F) → (⟨S100000x64, .f32⟩ : BufTy).Contents (Elt F) → (⟨S100000x64, .f32⟩ : BufTy).Contents (Elt F)),
    StableHlo.binary main_v48 main_v50 main_v51 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v51 main_cst_12 main_v52 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v53 (broadcastInDim S64 ![] bcast_S_S64 : (⟨S_, .f32⟩ : BufTy).Contents (Elt F) → (⟨S64, .f32⟩ : BufTy).Contents (Elt F)),
    StableHlo.binary main_v52 main_v53 main_v54 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call1.cst (constant S_ .f32 0x00000000#32),
    StableHlo.TRef.binary (.of main_v51) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v51) main_call1.v4 main_call1.v5 subf,
    StableHlo.TRef.binary main_call1.v5 main_call1.v5 main_call1.v6 mulf,
    StableHlo.TRef.unary (.of main_c_14) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v54 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v57 main_v58 (subf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v59 (broadcastInDim S64 ![] bcast_S_S64 : (⟨S_, .f32⟩ : BufTy).Contents (Elt F) → (⟨S64, .f32⟩ : BufTy).Contents (Elt F)),
    StableHlo.binary main_v55 main_v59 main_v60 (addf : (⟨S64, .f32⟩ : BufTy).Contents (Elt F) → (⟨S64, .f32⟩ : BufTy).Contents (Elt F) → (⟨S64, .f32⟩ : BufTy).Contents (Elt F)),
    StableHlo.unary main_v60 main_v61 (Host.sqrt : (⟨S64, .f32⟩ : BufTy).Contents (Elt F) → (⟨S64, .f32⟩ : BufTy).Contents (Elt F)),
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v63 main_v64 (Host.divf : (⟨S100000x64, .f32⟩ : BufTy).Contents (Elt F) → (⟨S100000x64, .f32⟩ : BufTy).Contents (Elt F) → (⟨S100000x64, .f32⟩ : BufTy).Contents (Elt F)) ]

/-- Layer 3: 55 operations. -/
abbrev opsLayer3 : List (HloOp τ sig (Elt F)) :=
  [ StableHlo.nullary main_c_16 (constantI S_ 32 0#32),
    StableHlo.unary main_c_16 main_v65 (broadcastInDim S1600000 ![] bcast_S_S1600000 : (⟨S_, .i32⟩ : BufTy).Contents (Elt F) → (⟨S1600000, .i32⟩ : BufTy).Contents (Elt F)),
    StableHlo.binary main_v1 main_v65 main_v66 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v67 (broadcastInDim S1600000 ![] bcast_S_S1600000 : (⟨S_, .i32⟩ : BufTy).Contents (Elt F) → (⟨S1600000, .i32⟩ : BufTy).Contents (Elt F)),
    StableHlo.binary main_v1 main_v67 main_v68 (addi : (⟨S1600000, .i32⟩ : BufTy).Contents (Elt F) → (⟨S1600000, .i32⟩ : BufTy).Contents (Elt F) → (⟨S1600000, .i32⟩ : BufTy).Contents (Elt F)),
    StableHlo.ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v69 main_v70 (broadcastInDim S1600000x1 ![0] bcast_S1600000_S1600000x1_0 : (⟨S1600000, .i32⟩ : BufTy).Contents (Elt F) → (⟨S1600000x1, .i32⟩ : BufTy).Contents (Elt F)),
    StableHlo.binary main_v64 main_v70 main_v71 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_18 (constant S_ .f32 0x00000000#32),
    StableHlo.unary main_cst_18 main_v72 (broadcastInDim S100000x64 ![] bcast_S_S100000x64 : (⟨S_, .f32⟩ : BufTy).Contents (Elt F) → (⟨S100000x64, .f32⟩ : BufTy).Contents (Elt F)),
    StableHlo.unary main_v3 main_v73 (broadcastInDim S1600000x1 ![0] bcast_S1600000_S1600000x1_0 : (⟨S1600000, .i32⟩ : BufTy).Contents (Elt F) → (⟨S1600000x1, .i32⟩ : BufTy).Contents (Elt F)),
    StableHlo.ternary main_v72 main_v73 main_v71 main_v74 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_19 (constant S_ .f32 0x3F000000#32),
    StableHlo.unary main_cst_19 main_v75 (broadcastInDim S100000x64 ![] bcast_S_S100000x64 : (⟨S_, .f32⟩ : BufTy).Contents (Elt F) → (⟨S100000x64, .f32⟩ : BufTy).Contents (Elt F)),
    StableHlo.binary main_v75 main_v64 main_v76 (mulf : (⟨S100000x64, .f32⟩ : BufTy).Contents (Elt F) → (⟨S100000x64, .f32⟩ : BufTy).Contents (Elt F) → (⟨S100000x64, .f32⟩ : BufTy).Contents (Elt F)),
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.binary main_v77 main_cst_20 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v79 (broadcastInDim S64 ![] bcast_S_S64 : (⟨S_, .f32⟩ : BufTy).Contents (Elt F) → (⟨S64, .f32⟩ : BufTy).Contents (Elt F)),
    StableHlo.binary main_v78 main_v79 main_v80 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call2.cst (constant S_ .f32 0x00000000#32),
    StableHlo.TRef.binary (.of main_v77) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v77) main_call2.v4 main_call2.v5 subf,
    StableHlo.TRef.binary main_call2.v5 main_call2.v5 main_call2.v6 mulf,
    StableHlo.TRef.unary (.of main_c_22) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v80 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v83 main_v84 (subf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v85 (broadcastInDim S64 ![] bcast_S_S64 : (⟨S_, .f32⟩ : BufTy).Contents (Elt F) → (⟨S64, .f32⟩ : BufTy).Contents (Elt F)),
    StableHlo.binary main_v81 main_v85 main_v86 (addf : (⟨S64, .f32⟩ : BufTy).Contents (Elt F) → (⟨S64, .f32⟩ : BufTy).Contents (Elt F) → (⟨S64, .f32⟩ : BufTy).Contents (Elt F)),
    StableHlo.unary main_v86 main_v87 (Host.sqrt : (⟨S64, .f32⟩ : BufTy).Contents (Elt F) → (⟨S64, .f32⟩ : BufTy).Contents (Elt F)),
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v89 main_v90 (Host.divf : (⟨S100000x64, .f32⟩ : BufTy).Contents (Elt F) → (⟨S100000x64, .f32⟩ : BufTy).Contents (Elt F) → (⟨S100000x64, .f32⟩ : BufTy).Contents (Elt F)) ]

/-- Layer 4: 55 operations. -/
abbrev opsLayer4 : List (HloOp τ sig (Elt F)) :=
  [ StableHlo.nullary main_c_24 (constantI S_ 32 0#32),
    StableHlo.unary main_c_24 main_v91 (broadcastInDim S1600000 ![] bcast_S_S1600000 : (⟨S_, .i32⟩ : BufTy).Contents (Elt F) → (⟨S1600000, .i32⟩ : BufTy).Contents (Elt F)),
    StableHlo.binary main_v1 main_v91 main_v92 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v93 (broadcastInDim S1600000 ![] bcast_S_S1600000 : (⟨S_, .i32⟩ : BufTy).Contents (Elt F) → (⟨S1600000, .i32⟩ : BufTy).Contents (Elt F)),
    StableHlo.binary main_v1 main_v93 main_v94 (addi : (⟨S1600000, .i32⟩ : BufTy).Contents (Elt F) → (⟨S1600000, .i32⟩ : BufTy).Contents (Elt F) → (⟨S1600000, .i32⟩ : BufTy).Contents (Elt F)),
    StableHlo.ternary main_v92 main_v94 main_v1 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v95 main_v96 (broadcastInDim S1600000x1 ![0] bcast_S1600000_S1600000x1_0 : (⟨S1600000, .i32⟩ : BufTy).Contents (Elt F) → (⟨S1600000x1, .i32⟩ : BufTy).Contents (Elt F)),
    StableHlo.binary main_v90 main_v96 main_v97 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_26 (constant S_ .f32 0x00000000#32),
    StableHlo.unary main_cst_26 main_v98 (broadcastInDim S100000x64 ![] bcast_S_S100000x64 : (⟨S_, .f32⟩ : BufTy).Contents (Elt F) → (⟨S100000x64, .f32⟩ : BufTy).Contents (Elt F)),
    StableHlo.unary main_v3 main_v99 (broadcastInDim S1600000x1 ![0] bcast_S1600000_S1600000x1_0 : (⟨S1600000, .i32⟩ : BufTy).Contents (Elt F) → (⟨S1600000x1, .i32⟩ : BufTy).Contents (Elt F)),
    StableHlo.ternary main_v98 main_v99 main_v97 main_v100 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_27 (constant S_ .f32 0x3F000000#32),
    StableHlo.unary main_cst_27 main_v101 (broadcastInDim S100000x64 ![] bcast_S_S100000x64 : (⟨S_, .f32⟩ : BufTy).Contents (Elt F) → (⟨S100000x64, .f32⟩ : BufTy).Contents (Elt F)),
    StableHlo.binary main_v101 main_v90 main_v102 (mulf : (⟨S100000x64, .f32⟩ : BufTy).Contents (Elt F) → (⟨S100000x64, .f32⟩ : BufTy).Contents (Elt F) → (⟨S100000x64, .f32⟩ : BufTy).Contents (Elt F)),
    StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.binary main_v103 main_cst_28 main_v104 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_29 (constant S_ .f32 0x47C35000#32),
    StableHlo.unary main_cst_29 main_v105 (broadcastInDim S64 ![] bcast_S_S64 : (⟨S_, .f32⟩ : BufTy).Contents (Elt F) → (⟨S64, .f32⟩ : BufTy).Contents (Elt F)),
    StableHlo.binary main_v104 main_v105 main_v106 (Host.divf : (⟨S64, .f32⟩ : BufTy).Contents (Elt F) → (⟨S64, .f32⟩ : BufTy).Contents (Elt F) → (⟨S64, .f32⟩ : BufTy).Contents (Elt F)),
    StableHlo.nullary main_c_30 (constantI S_ 32 0#32),
    StableHlo.TRef.nullary main_call3.cst (constant S_ .f32 0x00000000#32),
    StableHlo.TRef.binary (.of main_v103) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v103) main_call3.v4 main_call3.v5 subf,
    StableHlo.TRef.binary main_call3.v5 main_call3.v5 main_call3.v6 mulf,
    StableHlo.TRef.unary (.of main_c_30) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v106 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v109 main_v110 (subf : (⟨S100000x64, .f32⟩ : BufTy).Contents (Elt F) → (⟨S100000x64, .f32⟩ : BufTy).Contents (Elt F) → (⟨S100000x64, .f32⟩ : BufTy).Contents (Elt F)),
    StableHlo.nullary main_cst_31 (constant S_ .f32 0x3727C5AC#32),
    StableHlo.unary main_cst_31 main_v111 (broadcastInDim S64 ![] bcast_S_S64 : (⟨S_, .f32⟩ : BufTy).Contents (Elt F) → (⟨S64, .f32⟩ : BufTy).Contents (Elt F)),
    StableHlo.binary main_v107 main_v111 main_v112 (addf : (⟨S64, .f32⟩ : BufTy).Contents (Elt F) → (⟨S64, .f32⟩ : BufTy).Contents (Elt F) → (⟨S64, .f32⟩ : BufTy).Contents (Elt F)),
    StableHlo.unary main_v112 main_v113 (Host.sqrt : (⟨S64, .f32⟩ : BufTy).Contents (Elt F) → (⟨S64, .f32⟩ : BufTy).Contents (Elt F)),
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v115 main_v116 (Host.divf : (⟨S100000x64, .f32⟩ : BufTy).Contents (Elt F) → (⟨S100000x64, .f32⟩ : BufTy).Contents (Elt F) → (⟨S100000x64, .f32⟩ : BufTy).Contents (Elt F)) ]

/-- Layer 5: 55 operations. -/
abbrev opsLayer5 : List (HloOp τ sig (Elt F)) :=
  [ StableHlo.nullary main_c_32 (constantI S_ 32 0#32),
    StableHlo.unary main_c_32 main_v117 (broadcastInDim S1600000 ![] bcast_S_S1600000 : (⟨S_, .i32⟩ : BufTy).Contents (Elt F) → (⟨S1600000, .i32⟩ : BufTy).Contents (Elt F)),
    StableHlo.binary main_v1 main_v117 main_v118 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v119 (broadcastInDim S1600000 ![] bcast_S_S1600000 : (⟨S_, .i32⟩ : BufTy).Contents (Elt F) → (⟨S1600000, .i32⟩ : BufTy).Contents (Elt F)),
    StableHlo.binary main_v1 main_v119 main_v120 (addi : (⟨S1600000, .i32⟩ : BufTy).Contents (Elt F) → (⟨S1600000, .i32⟩ : BufTy).Contents (Elt F) → (⟨S1600000, .i32⟩ : BufTy).Contents (Elt F)),
    StableHlo.ternary main_v118 main_v120 main_v1 main_v121 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v121 main_v122 (broadcastInDim S1600000x1 ![0] bcast_S1600000_S1600000x1_0 : (⟨S1600000, .i32⟩ : BufTy).Contents (Elt F) → (⟨S1600000x1, .i32⟩ : BufTy).Contents (Elt F)),
    StableHlo.binary main_v116 main_v122 main_v123 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_34 (constant S_ .f32 0x00000000#32),
    StableHlo.unary main_cst_34 main_v124 (broadcastInDim S100000x64 ![] bcast_S_S100000x64 : (⟨S_, .f32⟩ : BufTy).Contents (Elt F) → (⟨S100000x64, .f32⟩ : BufTy).Contents (Elt F)),
    StableHlo.unary main_v3 main_v125 (broadcastInDim S1600000x1 ![0] bcast_S1600000_S1600000x1_0 : (⟨S1600000, .i32⟩ : BufTy).Contents (Elt F) → (⟨S1600000x1, .i32⟩ : BufTy).Contents (Elt F)),
    StableHlo.ternary main_v124 main_v125 main_v123 main_v126 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_35 (constant S_ .f32 0x3F000000#32),
    StableHlo.unary main_cst_35 main_v127 (broadcastInDim S100000x64 ![] bcast_S_S100000x64 : (⟨S_, .f32⟩ : BufTy).Contents (Elt F) → (⟨S100000x64, .f32⟩ : BufTy).Contents (Elt F)),
    StableHlo.binary main_v127 main_v116 main_v128 (mulf : (⟨S100000x64, .f32⟩ : BufTy).Contents (Elt F) → (⟨S100000x64, .f32⟩ : BufTy).Contents (Elt F) → (⟨S100000x64, .f32⟩ : BufTy).Contents (Elt F)),
    StableHlo.binary main_v126 main_v128 main_v129 (addf : (⟨S100000x64, .f32⟩ : BufTy).Contents (Elt F) → (⟨S100000x64, .f32⟩ : BufTy).Contents (Elt F) → (⟨S100000x64, .f32⟩ : BufTy).Contents (Elt F)),
    StableHlo.nullary main_cst_36 (constant S_ .f32 0x00000000#32),
    StableHlo.binary main_v129 main_cst_36 main_v130 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_37 (constant S_ .f32 0x47C35000#32),
    StableHlo.unary main_cst_37 main_v131 (broadcastInDim S64 ![] bcast_S_S64 : (⟨S_, .f32⟩ : BufTy).Contents (Elt F) → (⟨S64, .f32⟩ : BufTy).Contents (Elt F)),
    StableHlo.binary main_v130 main_v131 main_v132 (Host.divf : (⟨S64, .f32⟩ : BufTy).Contents (Elt F) → (⟨S64, .f32⟩ : BufTy).Contents (Elt F) → (⟨S64, .f32⟩ : BufTy).Contents (Elt F)),
    StableHlo.nullary main_c_38 (constantI S_ 32 0#32),
    StableHlo.TRef.nullary main_call4.cst (constant S_ .f32 0x00000000#32),
    StableHlo.TRef.binary (.of main_v129) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v129) main_call4.v4 main_call4.v5 subf,
    StableHlo.TRef.binary main_call4.v5 main_call4.v5 main_call4.v6 mulf,
    StableHlo.TRef.unary (.of main_c_38) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v132 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v135 main_v136 (subf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x3727C5AC#32),
    StableHlo.unary main_cst_39 main_v137 (broadcastInDim S64 ![] bcast_S_S64 : (⟨S_, .f32⟩ : BufTy).Contents (Elt F) → (⟨S64, .f32⟩ : BufTy).Contents (Elt F)),
    StableHlo.binary main_v133 main_v137 main_v138 (addf : (⟨S64, .f32⟩ : BufTy).Contents (Elt F) → (⟨S64, .f32⟩ : BufTy).Contents (Elt F) → (⟨S64, .f32⟩ : BufTy).Contents (Elt F)),
    StableHlo.unary main_v138 main_v139 (Host.sqrt : (⟨S64, .f32⟩ : BufTy).Contents (Elt F) → (⟨S64, .f32⟩ : BufTy).Contents (Elt F)),
    StableHlo.unary main_v139 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S100000x64 ![0, 1] bcast_S1x64_S100000x64_0_1 : (⟨S1x64, .f32⟩ : BufTy).Contents (Elt F) → (⟨S100000x64, .f32⟩ : BufTy).Contents (Elt F)),
    StableHlo.binary main_v136 main_v141 main_v142 (Host.divf : (⟨S100000x64, .f32⟩ : BufTy).Contents (Elt F) → (⟨S100000x64, .f32⟩ : BufTy).Contents (Elt F) → (⟨S100000x64, .f32⟩ : BufTy).Contents (Elt F)) ]

/-- The whole line. -/
abbrev ops : List (HloOp τ sig (Elt F)) := opsEmbed ++ opsLayer1 ++ opsLayer2 ++ opsLayer3 ++ opsLayer4 ++ opsLayer5

end Cert.ReferenceIdeal.RefOps

end
-- ==== Proof.RefRun.lean ====
import proofs.«415324_j50955491999984_1_alg».proof.Proof.RefOps
import proofs.«415324_j50955491999984_1_alg».proof.Proof.Gen.ReferenceIdeal
import Idealize.ShloMosaic.Lib.StableHlo.Run

/-!
# The run of the idealized reference program

The reference's `@main` is a host program with no kernel: 290 StableHLO operations once its five calls of the
variance function (and, inside each, the call of the select function) are replaced by the callee's statements
over that call's buffers. This module shows that `@main` IS the straight line `seq ops` of those operations,
and concludes from the library's rule for straight lines that every weakly fair execution terminates with each
TensorCore buffer at the fold `after ops` of the operations over the launch contents.

`@main` is printed in four windows of statements, and the windows' ends (after statements 60, 120, 180) fall
inside layers 2, 4 and 5, while the list `ops` is cut after the embedding and after each layer. So each window
is shown to be the line of its own stretch of operations — whole layer lists, and a layer list's first or last
few entries where a window's end falls inside it —, the four stretches are joined by `seq_append`, and their
concatenation is `ops` because a list is its first `n` entries followed by the rest.
-/

noncomputable section

namespace Cert.ReferenceIdeal.RefRun

open Idealize.ShloMosaic Idealize.SL.Sem Idealize.ShloMosaic.StableHlo Cert.ReferenceIdeal Cert.ReferenceIdeal.Gen Cert.ReferenceIdeal.RefOps

variable {F : FTy → Type} [FloatOps F]

/-! ## The four windows as stretches of the operation list

In statements, the embedding is 1 … 15 and layer `k` is the 34 statements from `16 + 34 (k - 1)`, its 24th the
call of the variance function (22 operations: 19 of its own and the select function's 3). Window 0 (statements
1 … 60) therefore ends after layer 2's 11th statement, all of them before that layer's call: 11 operations. Window 1
(61 … 120) ends after layer 4's 3rd statement. Window 2 (121 … 180) ends after layer 5's 29th statement, which is
past the call: 28 + 22 = 50 operations. Window 3 is layer 5's last five operations and the return. -/

/-- Window 0's operations: the embedding, layer 1, and layer 2's first 11. -/
abbrev ops0 : List (HloOp τ sig (Elt F)) := opsEmbed ++ opsLayer1 ++ opsLayer2.take 11
/-- Window 1's operations: the rest of layer 2, layer 3, and layer 4's first 3. -/
abbrev ops1 : List (HloOp τ sig (Elt F)) := opsLayer2.drop 11 ++ opsLayer3 ++ opsLayer4.take 3
/-- Window 2's operations: the rest of layer 4, and layer 5's first 50. -/
abbrev ops2 : List (HloOp τ sig (Elt F)) := opsLayer4.drop 3 ++ opsLayer5.take 50
/-- Window 3's operations: layer 5's last 5. -/
abbrev ops3 : List (HloOp τ sig (Elt F)) := opsLayer5.drop 50

/-- The four stretches in order are the whole list: each split layer list is its first entries followed by its
    rest (`List.take_append_drop`), and concatenation is associative. -/
theorem ops_split : (ops0 ++ (ops1 ++ (ops2 ++ ops3)) : List (HloOp τ sig (Elt F))) = ops := by
  have h2 := List.take_append_drop 11 (opsLayer2 (F := F))
  have h4 := List.take_append_drop 3 (opsLayer4 (F := F))
  have h5 := List.take_append_drop 50 (opsLayer5 (F := F))
  show opsEmbed ++ opsLayer1 ++ opsLayer2.take 11
      ++ (opsLayer2.drop 11 ++ opsLayer3 ++ opsLayer4.take 3 ++ (opsLayer4.drop 3 ++ opsLayer5.take 50 ++ opsLayer5.drop 50))
    = opsEmbed ++ opsLayer1 ++ opsLayer2 ++ opsLayer3 ++ opsLayer4 ++ opsLayer5
  conv_rhs => rw [← h2, ← h4, ← h5]
  simp only [List.append_assoc]

/-! Each window is the line of its stretch by computation: both sides are one chain of `hlo` steps. On the left
the sequencing of the `do` block is `Prog.bind`, which grafts the continuation under each step; a call is the
callee's definition applied to the call's record, whose fields are the very references the list names
(`main_callK.v0`, …, `main_callK.call0.v2`). On the right `seq` unfolds once per entry. A window that ends in an
operation rather than a return agrees with `seq`'s final `pure ⟨⟩` because binding a return after a step's own
return is that return. -/

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl

/-- `@main` is the straight line of the 290 operations: it runs its four windows in order, each the line of its
    stretch, and lines run one after the other are the line of the concatenation (`seq_append`). -/
theorem main_eq (c : Dev nD) : main (F := F) c = seq ops := by
  have h : main (F := F) c
      = main_part0 c >>= fun _ => main_part1 c >>= fun _ => main_part2 c >>= fun _ => main_part3 c := rfl
  rw [h, part0_eq, part1_eq, part2_eq, part3_eq, ← seq_append, ← seq_append, ← seq_append, ops_split]

/-! ## The side conditions of the straight-line rule -/

/-- The signature scopes no TensorCore buffer: every reference is a tensor value's buffer, live across the program. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- A property of every entry of two lists holds of every entry of their concatenation. -/
theorem forall_append {α : Type} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

/-- One entry's buffers are TensorCore references: the builder's own lemma, chosen by the builder's name (the
    goal is matched against each lemma without unfolding a builder; a typed-reference builder is an abbreviation
    of the untyped one at the references it carries, so it matches the same lemma). -/
local macro "bufs_sub_entry" : tactic =>
  `(tactic| with_reducible first
    | exact nullary_bufs_sub .. | exact unary_bufs_sub .. | exact binary_bufs_sub .. | exact ternary_bufs_sub ..
    | exact reshape_bufs_sub ..)

/-- Every entry of a literal list: `List.Forall` computes to the conjunction of the entries' statements, ending
    in the last entry's own. -/
local macro "bufs_sub_list" : tactic =>
  `(tactic| (repeat (first
      | refine And.intro (by bufs_sub_entry) ?_
      | (show HloOp.bufs _ ⊆ tcRefs τ sig; bufs_sub_entry))))

theorem opsEmbed_sub : (opsEmbed : List (HloOp τ sig (Elt F))).Forall fun op => op.bufs ⊆ tcRefs τ sig := by bufs_sub_list
theorem opsLayer1_sub : (opsLayer1 : List (HloOp τ sig (Elt F))).Forall fun op => op.bufs ⊆ tcRefs τ sig := by bufs_sub_list
theorem opsLayer2_sub : (opsLayer2 : List (HloOp τ sig (Elt F))).Forall fun op => op.bufs ⊆ tcRefs τ sig := by bufs_sub_list
theorem opsLayer3_sub : (opsLayer3 : List (HloOp τ sig (Elt F))).Forall fun op => op.bufs ⊆ tcRefs τ sig := by bufs_sub_list
theorem opsLayer4_sub : (opsLayer4 : List (HloOp τ sig (Elt F))).Forall fun op => op.bufs ⊆ tcRefs τ sig := by bufs_sub_list
theorem opsLayer5_sub : (opsLayer5 : List (HloOp τ sig (Elt F))).Forall fun op => op.bufs ⊆ tcRefs τ sig := by bufs_sub_list

/-- Every operation of the line touches TensorCore references only. -/
theorem ops_sub : (ops : List (HloOp τ sig (Elt F))).Forall fun op => op.bufs ⊆ tcRefs τ sig :=
  forall_append (forall_append (forall_append (forall_append (forall_append opsEmbed_sub opsLayer1_sub) opsLayer2_sub)
    opsLayer3_sub) opsLayer4_sub) opsLayer5_sub

/-- Every entry of a literal list determines its results (none allocates a buffer of contents not chosen): by
    computation, entry by entry. -/
local macro "fresh_list" : tactic =>
  `(tactic| (repeat (first | exact rfl | refine And.intro rfl ?_)))

theorem opsEmbed_fresh : (opsEmbed : List (HloOp τ sig (Elt F))).Forall fun op => op.fresh = ∅ := by fresh_list
theorem opsLayer1_fresh : (opsLayer1 : List (HloOp τ sig (Elt F))).Forall fun op => op.fresh = ∅ := by fresh_list
theorem opsLayer2_fresh : (opsLayer2 : List (HloOp τ sig (Elt F))).Forall fun op => op.fresh = ∅ := by fresh_list
theorem opsLayer3_fresh : (opsLayer3 : List (HloOp τ sig (Elt F))).Forall fun op => op.fresh = ∅ := by fresh_list
theorem opsLayer4_fresh : (opsLayer4 : List (HloOp τ sig (Elt F))).Forall fun op => op.fresh = ∅ := by fresh_list
theorem opsLayer5_fresh : (opsLayer5 : List (HloOp τ sig (Elt F))).Forall fun op => op.fresh = ∅ := by fresh_list

/-- No operation of the line leaves a result undetermined. -/
theorem ops_fresh : ∀ op ∈ (ops : List (HloOp τ sig (Elt F))), op.fresh = ∅ :=
  List.forall_iff_forall_mem.mp
    (forall_append (forall_append (forall_append (forall_append (forall_append opsEmbed_fresh opsLayer1_fresh) opsLayer2_fresh)
      opsLayer3_fresh) opsLayer4_fresh) opsLayer5_fresh)

/-! ## The run -/

/-- At the compiled mesh, for any float values, from any memory with zero counters: every weakly fair execution of
    `@main` on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefEmbed.lean ====
/-
  The first fifteen host operations of the reference program, read into the mathematics of the specification:
  the two rows of the edge list as vectors of source and target nodes, and the embedding lookup
  h0[i, :] = table[x[i, 0], :]. The program spells the lookup as Python indexing does: it takes column 0 of the node
  attributes as a vector, adds the table's row count 120 to an entry that is negative when read signed, views the result
  as a column of start indices, and gathers rows of the table there, the gather clamping every start index into the
  table's rows. On atom types that are row numbers of the table neither the wrap nor the clamp changes anything.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.LibGather2
import proofs.«415324_j50955491999984_1_alg».proof.Proof.LibKeepdims
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

noncomputable section

namespace Cert.ReferenceIdeal.RefEmbed

open Idealize.ShloMosaic Idealize.SL.Sem Idealize.ShloMosaic.StableHlo Idealize.ShloMosaic.ValueIdx Cert.ReferenceIdeal Cert.ReferenceIdeal.Gen Cert.ReferenceIdeal.RefOps

/-- The edges' source nodes: row 0 of the edge list with its unit axis dropped, which is the specification's own term. -/
theorem src (V : Valuation τ sig (Elt Ideal)) : (after (opsEmbed (F := Ideal)) V (Proc.devRef .tc main_v1) : IVec Cert.Gin.SE 32) = Cert.Gin.srcOf (V (Proc.devRef .tc main_arg1)) := by
  after_results
  rfl

/-- The edges' target nodes: row 1 of the edge list, likewise. -/
theorem dst (V : Valuation τ sig (Elt Ideal)) : (after (opsEmbed (F := Ideal)) V (Proc.devRef .tc main_v3) : IVec Cert.Gin.SE 32) = Cert.Gin.dstOf (V (Proc.devRef .tc main_arg1)) := by
  after_results
  rfl

/-- None of the fifteen operations writes one of the program's three arguments. -/
theorem keep (V : Valuation τ sig (Elt Ideal)) (b : Ref sig .tc) (hb : b = main_arg0 ∨ b = main_arg1 ∨ b = main_arg2) : after (opsEmbed (F := Ideal)) V (Proc.devRef .tc b) = V (Proc.devRef .tc b) := by
  rcases hb with rfl | rfl | rfl <;> after_results

/-- A 32-bit word below 120 is not negative when read signed, so wrapping it by the table's row count keeps it. -/
theorem wrap_eq (w : BitVec 32) (hw : w.toNat < 120) :
    Scalar.select (IntOp.cmpi .slt w 0#32) (IntOp.addi w 120#32) w = w := by
  have h : ¬ IntOp.cmpi .slt w 0#32 = 1#1 := by
    rw [Predicate.slt_iff_toNat (by omega) (by decide)]
    show ¬ w.toNat < 0
    omega
  exact if_neg h

/-- Such a word read signed and clamped into the table's rows is its unsigned value. -/
theorem clamp_eq (w : BitVec 32) (hw : w.toNat < 120) : min w.toInt.toNat (120 - 1) = w.toNat := by
  rw [Predicate.toInt_eq_toNat_of_lt (by omega), Int.toNat_natCast]
  omega

/-- Column 0 of the node attributes as a length-100000 vector: the slice of the column, its unit axis dropped. -/
def x0vec (x : IVec S100000x2 32) : IVec S100000 32 :=
  shapeCast S100000 (extractStridedSlice S100000x1 ![0, 0] x slices_S100000x2_S100000x1_0_0) shapeCasts_S100000x1_S100000

/-- Entry r of that vector is the attribute array at (r, 0). -/
theorem x0vec_apply (x : IVec S100000x2 32) (r : Fin 100000) : x0vec x (ix1 r) = x (ix2 r (0 : Fin 2)) := by
  unfold x0vec
  rw [shapeCast_apply _ _ (ix1 r) (ix2 r (0 : Fin 1)) (by
    rw [Shape.rowMajor_val_two, Shape.rowMajor_val_one]
    show r.val * 1 + 0 = r.val
    omega)]
  exact slice2_axis1_apply 0 x _ r (0 : Fin 1) (0 : Fin 2) rfl

/-- The lookup at one entry (r, d). The gather reads the table at the row numbered by the start index at (r, 0), read signed and
    clamped to at most 119; that start index is entry r of the wrapped vector; entry r of the vector is x[r, 0], a word below
    120, which the wrap and the clamp leave as it is. -/
theorem embed_at (x : IVec S100000x2 32) (hx : Cert.Gin.InRange x) (tbl : S120x64.Idx → EReal) (r : Fin 100000) (d : Fin 64) :
    Host.gather gather_S120x64_S100000x1_S100000x64_1_0_n_n_0_1_164 tbl
      (broadcastInDim S100000x1 ![0] bcast_S100000_S100000x1_0
        (select (cmpi .slt (x0vec x) (broadcastInDim S100000 ![] bcast_S_S100000 (constantI S_ 32 0#32)))
          (addi (x0vec x) (broadcastInDim S100000 ![] bcast_S_S100000 (constantI S_ 32 120#32)))
          (x0vec x))) (ix2 r d)
    = Cert.Gin.lookup x hx tbl (ix2 r d) := by
  rw [Cert.LibGather2.gather_rows_apply (by decide) _ rfl rfl rfl rfl rfl rfl rfl]
  have hr : (x (ix2 r (0 : Fin 2))).toNat < 120 := hx r
  show tbl (ix2 _ d) = tbl (ix2 (⟨(x (ix2 r (0 : Fin 2))).toNat, hr⟩ : Fin 120) d)
  refine congrArg (fun k : Fin 120 => tbl (ix2 k d)) (Fin.mk_eq_mk.mpr ?_)
  rw [broadcastInDim_apply ![0] bcast_S100000_S100000x1_0 _ (ix2 r (0 : Fin 1)) (ix1 r) (fun a => by
    match a with
    | ⟨0, _⟩ =>
      show r.val = if (100000 : ℕ) = 1 then 0 else r.val
      rw [if_neg (by decide)])]
  rw [select_apply]
  show min (Scalar.select (IntOp.cmpi .slt (x0vec x (ix1 r)) 0#32) (IntOp.addi (x0vec x (ix1 r)) 120#32) (x0vec x (ix1 r))).toInt.toNat (120 - 1) = _
  rw [x0vec_apply, wrap_eq _ hr, clamp_eq _ hr]

/-- The embedding: node i takes the table row numbered by its atom type. The start index at (r, 0) is the wrapped atom type
    of node r; in range it is the atom type itself, and the gather's clamp leaves it. -/
theorem embed (V : Valuation τ sig (Elt Ideal)) (hx : Cert.Gin.InRange (V (Proc.devRef .tc main_arg0))) :
    (after (opsEmbed (F := Ideal)) V (Proc.devRef .tc main_v12) : Cert.Gin.SN64.Idx → EReal)
      = Cert.Gin.lookup (V (Proc.devRef .tc main_arg0)) hx (V (Proc.devRef .tc main_arg2)) := by
  after_results
  funext i
  obtain ⟨r, d, rfl⟩ : ∃ (r : Fin 100000) (d : Fin 64), i = ix2 r d := ⟨i 0, i 1, eq_ix2 i⟩
  exact embed_at _ hx _ r d

end Cert.ReferenceIdeal.RefEmbed

end
-- ==== Proof.RefLayer1.lean ====
/-
  One layer of the reference program, read as mathematics.

  The layer's host operations first form the neighbour sum (every edge adds its source node's feature row into its
  target node's row of a zero array), add one half of the node's own features, and then normalise every column of the
  resulting array `a`: the column mean is the column sum over the row count; the variance is the column sum of the
  squared deviations from that mean over the row count minus a converted integer zero, kept by a comparison that is
  always true (the row count is positive); the output is the deviation over the square root of variance plus offset.

  The module states these operations once as host terms over an arbitrary array (`pre`, `sumV`, `meanV`, `centred`,
  `varV`, `normV`), reads the list of operations into them, and shows entry by entry that they are the
  specification's `selfAdd`, `colSum`, `meanOf`, `varR` and `normR`: a sum over the row axis from the zero word is
  the column sum, a [64] vector shown as a [1, 64] row and repeated down the rows reads its entry of the column, and a
  broadcast scalar reads the scalar. The edge chain is kept as one term: it is the neighbour sum's definition.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.Consts
import proofs.«415324_j50955491999984_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer1

open Idealize.ShloMosaic Idealize.SL.Sem Idealize.ShloMosaic.StableHlo Idealize.ShloMosaic.ValueIdx Cert.ReferenceIdeal Cert.ReferenceIdeal.Gen Cert.ReferenceIdeal.RefOps

/-- The array the normalisation acts on, as the host operations build it: the edge chain's scatter-added rows plus
    one half of the features. -/
def pre (src dst : IVec S1600000 32) (h : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (mulf (broadcastInDim S100000x64 ![] bcast_S_S100000x64 (constant (F := Ideal) S_ .f32 0x3F000000#32)) h)

/-- The column sums of an array as the host takes them: one sum over the row axis from the zero word. -/
def sumV (a : FVec Ideal S100000x64 .f32) : FVec Ideal S64 .f32 :=
  Host.reduceAdd (F := Ideal) a (constant (F := Ideal) S_ .f32 0x00000000#32) reducesTo_S100000x64_S64_d0 h_S_

/-- The column means: the column sums divided by the row count's word. -/
def meanV (a : FVec Ideal S100000x64 .f32) : FVec Ideal S64 .f32 :=
  Host.divf (F := Ideal) (sumV a) (broadcastInDim S64 ![] bcast_S_S64 (constant (F := Ideal) S_ .f32 0x47C35000#32))

/-- The divisor of the variance: the row count minus the converted integer zero. -/
def cnt : FVec Ideal S_ .f32 :=
  subf (constant (F := Ideal) S_ .f32 0x47C35000#32) (sitofp .f32 (constantI S_ 32 0#32))

/-- The deviations from the column means, the means taken again as a [1, 64] row. -/
def centred (a : FVec Ideal S100000x64 .f32) : FVec Ideal S100000x64 .f32 :=
  subf a (broadcastInDim S100000x64 ![0, 1] bcast_S1x64_S100000x64_0_1
    (Host.divf (F := Ideal) (broadcastInDim S1x64 ![1] bcast_S64_S1x64_1 (sumV a))
      (broadcastInDim S1x64 ![] bcast_S_S1x64 (constant (F := Ideal) S_ .f32 0x47C35000#32))))

/-- The column variances: the column sums of squared deviations over the divisor, kept where the divisor is
    positive and replaced by the not-a-number word elsewhere. -/
def varV (a : FVec Ideal S100000x64 .f32) : FVec Ideal S64 .f32 :=
  select (broadcastInDim S64 ![] bcast_S_S64 (cmpf .ogt cnt (constant (F := Ideal) S_ .f32 0x00000000#32)))
    (Host.divf (F := Ideal) (sumV (mulf (centred a) (centred a))) (broadcastInDim S64 ![] bcast_S_S64 cnt))
    (broadcastInDim S64 ![] bcast_S_S64 (id (constant (F := Ideal) S_ .f32 0x7FC00000#32)))

/-- The normalised array: deviations from the broadcast means over the broadcast square roots of variance plus offset. -/
def normV (a : FVec Ideal S100000x64 .f32) : FVec Ideal S100000x64 .f32 :=
  Host.divf (F := Ideal)
    (subf a (broadcastInDim S100000x64 ![0, 1] bcast_S1x64_S100000x64_0_1
      (broadcastInDim S1x64 ![1] bcast_S64_S1x64_1 (meanV a))))
    (broadcastInDim S100000x64 ![0, 1] bcast_S1x64_S100000x64_0_1
      (broadcastInDim S1x64 ![1] bcast_S64_S1x64_1
        (Host.sqrt (F := Ideal) (addf (varV a) (broadcastInDim S64 ![] bcast_S_S64 (constant (F := Ideal) S_ .f32 0x3727C5AC#32))))))

/-! ## The typed references' transports

The outlined variance reads and writes its values through references that carry their array type; at a literal buffer the
transport along the type equation is the identity. -/

/-- Writing through a typed reference and reading back is the identity. -/
theorem ofBuf_toBuf {T : BufTy} (x : TRef sig T) (v : T.Contents (Elt Ideal)) : x.ofBuf (x.toBuf v) = v := by
  obtain ⟨r, rfl, _, _⟩ := x
  exact cast_eq _ _

theorem ofBuf_v25 (p : main_v25.ty = ⟨S100000x64, .f32⟩) (q : main_v25.space ≠ .host) (u : main_v25.isScoped = false)
    (X : main_v25.ty.Contents (Elt Ideal)) : (TRef.of main_v25 p q u).ofBuf X = X := by
  exact cast_eq _ X

theorem ofBuf_c6 (p : main_c_6.ty = ⟨S_, .i32⟩) (q : main_c_6.space ≠ .host) (u : main_c_6.isScoped = false)
    (X : main_c_6.ty.Contents (Elt Ideal)) : (TRef.of main_c_6 p q u).ofBuf X = X := by
  exact cast_eq _ X

theorem toBuf_v29 (p : main_v29.ty = ⟨S64, .f32⟩) (q : main_v29.space ≠ .host) (u : main_v29.isScoped = false)
    (X : (⟨S64, .f32⟩ : BufTy).Contents (Elt Ideal)) : (TRef.of main_v29 p q u).toBuf X = X := by
  exact cast_eq _ X

/-- The layer's operations leave, in the output buffer, the normalised array of the pre-normalisation array, both as the
    host terms above over the edge columns and the features found in the buffers before the layer. -/
theorem read (W : Valuation τ sig (Elt Ideal)) :
    after (opsLayer1 (F := Ideal)) W (Proc.devRef .tc main_v38)
      = normV (pre (W (Proc.devRef .tc main_v1)) (W (Proc.devRef .tc main_v3)) (W (Proc.devRef .tc main_v12))) := by
  after_results_simp
  simp only [ofBuf_toBuf, ofBuf_v25, ofBuf_c6, toBuf_v29]
  unfold normV meanV varV centred sumV cnt pre
  exact rfl

/-! ## Broadcasts read at an index -/

/-- A [1, 64] row repeated down the 100000 rows reads, at (r, d), the row's entry of column d. -/
theorem rowDown_apply {α : Type} (v : S1x64.Idx → α) (r : Fin 100000) (d : Fin 64) :
    broadcastInDim S100000x64 ![0, 1] bcast_S1x64_S100000x64_0_1 v (ix2 r d) = v (ix2 (0 : Fin 1) d) :=
  broadcastInDim_apply _ _ v (ix2 r d) (ix2 (0 : Fin 1) d) fun a =>
    match a with
    | ⟨0, _⟩ => rfl
    | ⟨1, _⟩ => rfl

/-- A [64] vector seen as a [1, 64] row reads, at (0, d), the vector's entry d. -/
theorem asRow_apply {α : Type} (v : S64.Idx → α) (d : Fin 64) :
    broadcastInDim S1x64 ![1] bcast_S64_S1x64_1 v (ix2 (0 : Fin 1) d) = v (ix1 d) :=
  broadcastInDim_apply _ _ v (ix2 (0 : Fin 1) d) (ix1 d) fun a =>
    match a with
    | ⟨0, _⟩ => rfl

/-- Both together: the vector's entry of the column, at every row. -/
theorem vecDown_apply {α : Type} (v : S64.Idx → α) (r : Fin 100000) (d : Fin 64) :
    broadcastInDim S100000x64 ![0, 1] bcast_S1x64_S100000x64_0_1 (broadcastInDim S1x64 ![1] bcast_S64_S1x64_1 v) (ix2 r d)
      = v (ix1 d) := by
  rw [rowDown_apply, asRow_apply]

/-! ## The column statistics read at a column -/

/-- The host's quotient and square root act entry by entry. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- The host's sum over the row axis from the zero word is the column sum. -/
theorem sumV_apply (a : FVec Ideal S100000x64 .f32) (d : Fin 64) : sumV a (ix1 d) = Cert.Gin.colSum a d := by
  show Ideal.hostReduceAdd reducesTo_S100000x64_S64_d0 a (Ideal.ofBits .f32 0x00000000#32) (ix1 d) = _
  rw [Ideal.hostReduceAdd_single reducesTo_S100000x64_S64_d0 (by decide : S100000x64.Reduces [0] S64), Ideal.ofBits_zero_f32,
    zero_add]
  unfold Cert.Gin.colSum
  refine Finset.sum_congr rfl fun k _ => congrArg a (funext fun ax => ?_)
  match ax with
  | ⟨0, _⟩ => rfl
  | ⟨1, _⟩ => rfl

/-- The column mean as the host forms it is the specification's. -/
theorem meanV_apply (a : FVec Ideal S100000x64 .f32) (d : Fin 64) : meanV a (ix1 d) = Cert.Gin.meanOf a d := by
  show Ideal.div (sumV a (ix1 d)) Cert.Gin.nf = _
  rw [sumV_apply]; rfl

/-- The deviations: each entry minus its column's mean. -/
theorem centred_apply (a : FVec Ideal S100000x64 .f32) (r : Fin 100000) (d : Fin 64) :
    centred a (ix2 r d) = a (ix2 r d) - Cert.Gin.meanOf a d := by
  unfold centred
  rw [subf_apply, rowDown_apply, hostDivf_apply, asRow_apply, sumV_apply]
  rfl

/-- The divisor is the row count: the integer zero converts to the real zero. -/
theorem cnt_apply (k : S_.Idx) : cnt k = Cert.Gin.nf := by
  show Cert.Gin.nf - (((0#32 : BitVec 32).toInt : ℝ) : EReal) = _
  simp

/-- The divisor is positive, so the comparison's bit is set. -/
theorem cnt_pos (k : S_.Idx) :
    cmpf .ogt cnt (constant (F := Ideal) S_ .f32 0x00000000#32) k = 1#1 := by
  show Ideal.cmp .ogt (cnt k) (Ideal.ofBits .f32 0x00000000#32) = 1#1
  rw [cnt_apply, Ideal.ofBits_zero_f32, Cert.Gin.nf_eq]
  simp [Ideal.cmp]

/-- The column variance as the host forms it is the specification's: the comparison always keeps the quotient. -/
theorem varV_apply (a : FVec Ideal S100000x64 .f32) (d : Fin 64) : varV a (ix1 d) = Cert.Gin.varR a d := by
  have hp : broadcastInDim S64 ![] bcast_S_S64 (cmpf .ogt cnt (constant (F := Ideal) S_ .f32 0x00000000#32)) (ix1 d) = 1#1 :=
    cnt_pos _
  have hc : broadcastInDim S64 ![] bcast_S_S64 cnt (ix1 d) = Cert.Gin.nf := cnt_apply _
  unfold varV
  rw [select_apply, hp, select_one, hostDivf_apply, hc, sumV_apply]
  unfold Cert.Gin.varR Cert.Gin.colSum
  refine congrArg (fun s => Ideal.div s Cert.Gin.nf) (Finset.sum_congr rfl fun r _ => ?_)
  rw [mulf_apply, centred_apply]

/-- The normalised array as the host forms it is the specification's normalisation. -/
theorem normV_eq (a : FVec Ideal S100000x64 .f32) : normV a = Cert.Gin.normR a := by
  funext i
  obtain ⟨r, d, rfl⟩ : ∃ (r : Fin 100000) (d : Fin 64), i = ix2 r d := ⟨i 0, i 1, eq_ix2 i⟩
  unfold normV
  rw [hostDivf_apply, subf_apply, vecDown_apply, vecDown_apply, meanV_apply, hostSqrt_apply, addf_apply, varV_apply]
  rfl

/-! ## The edge chain is the neighbour sum -/

attribute [local irreducible] Host.scatterAdd Host.gather broadcastInDim in
/-- The compare, add, select, broadcast, gather, zero broadcast and scatter-add of the layer are, term for term, the
    neighbour sum's definition: the two records of dimension numbers are the same structure literals. -/
theorem agg_eq (src dst : IVec S1600000 32) (h : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Gin.aggOf src dst h := rfl

/-- The half word broadcast over the array reads one half everywhere. -/
theorem halfDown_apply (i : S100000x64.Idx) :
    broadcastInDim S100000x64 ![] bcast_S_S100000x64 (constant (F := Ideal) S_ .f32 0x3F000000#32) i = Cert.Gin.half := rfl

/-- The pre-normalisation array is the neighbour sum plus half the features. -/
theorem pre_eq (src dst : IVec S1600000 32) (h : FVec Ideal S100000x64 .f32) :
    pre src dst h = Cert.Gin.selfAdd (Cert.Gin.aggOf src dst h) h := by
  unfold pre
  rw [agg_eq]
  generalize Cert.Gin.aggOf src dst h = A
  funext i
  rw [addf_apply, mulf_apply, halfDown_apply]
  unfold Cert.Gin.selfAdd
  rfl

/-! ## The layer -/

/-- One layer of the reference, from any buffer contents: the output buffer holds the specification's layer function of
    the features, over the neighbour sum along the edges' source and target columns. -/
theorem layer (W : Valuation τ sig (Elt Ideal)) :
    (after (opsLayer1 (F := Ideal)) W (Proc.devRef .tc main_v38) : Cert.Gin.SN64.Idx → EReal)
      = Cert.Gin.layerR (Cert.Gin.aggOf (W (Proc.devRef .tc main_v1)) (W (Proc.devRef .tc main_v3)))
          (W (Proc.devRef .tc main_v12)) := by
  refine (read W).trans ?_
  rw [pre_eq, normV_eq]
  rfl

/-- The layer writes neither edge column nor any of the program's three arguments. -/
theorem keep (W : Valuation τ sig (Elt Ideal)) (b : Ref sig .tc)
    (hb : b = main_v1 ∨ b = main_v3 ∨ b = main_arg0 ∨ b = main_arg1 ∨ b = main_arg2) :
    after (opsLayer1 (F := Ideal)) W (Proc.devRef .tc b) = W (Proc.devRef .tc b) := by
  rcases hb with rfl | rfl | rfl | rfl | rfl
  all_goals after_results_simp

end Cert.ReferenceIdeal.RefLayer1

end
-- ==== Proof.RefLayer2.lean ====
/-
  One layer of the reference program, read as mathematics.

  The layer's host operations first form the neighbour sum (every edge adds its source node's feature row into its
  target node's row of a zero array), add one half of the node's own features, and then normalise every column of the
  resulting array `a`: the column mean is the column sum over the row count; the variance is the column sum of the
  squared deviations from that mean over the row count minus a converted integer zero, kept by a comparison that is
  always true (the row count is positive); the output is the deviation over the square root of variance plus offset.

  The module states these operations once as host terms over an arbitrary array (`pre`, `sumV`, `meanV`, `centred`,
  `varV`, `normV`), reads the list of operations into them, and shows entry by entry that they are the
  specification's `selfAdd`, `colSum`, `meanOf`, `varR` and `normR`: a sum over the row axis from the zero word is
  the column sum, a [64] vector shown as a [1, 64] row and repeated down the rows reads its entry of the column, and a
  broadcast scalar reads the scalar. The edge chain is kept as one term: it is the neighbour sum's definition.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.Consts
import proofs.«415324_j50955491999984_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer2

open Idealize.ShloMosaic Idealize.SL.Sem Idealize.ShloMosaic.StableHlo Idealize.ShloMosaic.ValueIdx Cert.ReferenceIdeal Cert.ReferenceIdeal.Gen Cert.ReferenceIdeal.RefOps

/-- The array the normalisation acts on, as the host operations build it: the edge chain's scatter-added rows plus
    one half of the features. -/
def pre (src dst : IVec S1600000 32) (h : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (mulf (broadcastInDim S100000x64 ![] bcast_S_S100000x64 (constant (F := Ideal) S_ .f32 0x3F000000#32)) h)

/-- The column sums of an array as the host takes them: one sum over the row axis from the zero word. -/
def sumV (a : FVec Ideal S100000x64 .f32) : FVec Ideal S64 .f32 :=
  Host.reduceAdd (F := Ideal) a (constant (F := Ideal) S_ .f32 0x00000000#32) reducesTo_S100000x64_S64_d0 h_S_

/-- The column means: the column sums divided by the row count's word. -/
def meanV (a : FVec Ideal S100000x64 .f32) : FVec Ideal S64 .f32 :=
  Host.divf (F := Ideal) (sumV a) (broadcastInDim S64 ![] bcast_S_S64 (constant (F := Ideal) S_ .f32 0x47C35000#32))

/-- The divisor of the variance: the row count minus the converted integer zero. -/
def cnt : FVec Ideal S_ .f32 :=
  subf (constant (F := Ideal) S_ .f32 0x47C35000#32) (sitofp .f32 (constantI S_ 32 0#32))

/-- The deviations from the column means, the means taken again as a [1, 64] row. -/
def centred (a : FVec Ideal S100000x64 .f32) : FVec Ideal S100000x64 .f32 :=
  subf a (broadcastInDim S100000x64 ![0, 1] bcast_S1x64_S100000x64_0_1
    (Host.divf (F := Ideal) (broadcastInDim S1x64 ![1] bcast_S64_S1x64_1 (sumV a))
      (broadcastInDim S1x64 ![] bcast_S_S1x64 (constant (F := Ideal) S_ .f32 0x47C35000#32))))

/-- The column variances: the column sums of squared deviations over the divisor, kept where the divisor is
    positive and replaced by the not-a-number word elsewhere. -/
def varV (a : FVec Ideal S100000x64 .f32) : FVec Ideal S64 .f32 :=
  select (broadcastInDim S64 ![] bcast_S_S64 (cmpf .ogt cnt (constant (F := Ideal) S_ .f32 0x00000000#32)))
    (Host.divf (F := Ideal) (sumV (mulf (centred a) (centred a))) (broadcastInDim S64 ![] bcast_S_S64 cnt))
    (broadcastInDim S64 ![] bcast_S_S64 (id (constant (F := Ideal) S_ .f32 0x7FC00000#32)))

/-- The normalised array: deviations from the broadcast means over the broadcast square roots of variance plus offset. -/
def normV (a : FVec Ideal S100000x64 .f32) : FVec Ideal S100000x64 .f32 :=
  Host.divf (F := Ideal)
    (subf a (broadcastInDim S100000x64 ![0, 1] bcast_S1x64_S100000x64_0_1
      (broadcastInDim S1x64 ![1] bcast_S64_S1x64_1 (meanV a))))
    (broadcastInDim S100000x64 ![0, 1] bcast_S1x64_S100000x64_0_1
      (broadcastInDim S1x64 ![1] bcast_S64_S1x64_1
        (Host.sqrt (F := Ideal) (addf (varV a) (broadcastInDim S64 ![] bcast_S_S64 (constant (F := Ideal) S_ .f32 0x3727C5AC#32))))))

/-! ## The typed references' transports

The outlined variance reads and writes its values through references that carry their array type; at a literal buffer the
transport along the type equation is the identity. -/

/-- Writing through a typed reference and reading back is the identity. -/
theorem ofBuf_toBuf {T : BufTy} (x : TRef sig T) (v : T.Contents (Elt Ideal)) : x.ofBuf (x.toBuf v) = v := by
  obtain ⟨r, rfl, _, _⟩ := x
  exact cast_eq _ _

theorem ofBuf_v25 (p : main_v51.ty = ⟨S100000x64, .f32⟩) (q : main_v51.space ≠ .host) (u : main_v51.isScoped = false)
    (X : main_v51.ty.Contents (Elt Ideal)) : (TRef.of main_v51 p q u).ofBuf X = X := by
  exact cast_eq _ X

theorem ofBuf_c6 (p : main_c_14.ty = ⟨S_, .i32⟩) (q : main_c_14.space ≠ .host) (u : main_c_14.isScoped = false)
    (X : main_c_14.ty.Contents (Elt Ideal)) : (TRef.of main_c_14 p q u).ofBuf X = X := by
  exact cast_eq _ X

theorem toBuf_v29 (p : main_v55.ty = ⟨S64, .f32⟩) (q : main_v55.space ≠ .host) (u : main_v55.isScoped = false)
    (X : (⟨S64, .f32⟩ : BufTy).Contents (Elt Ideal)) : (TRef.of main_v55 p q u).toBuf X = X := by
  exact cast_eq _ X

/-- The layer's operations leave, in the output buffer, the normalised array of the pre-normalisation array, both as the
    host terms above over the edge columns and the features found in the buffers before the layer. -/
theorem read (W : Valuation τ sig (Elt Ideal)) :
    after (opsLayer2 (F := Ideal)) W (Proc.devRef .tc main_v64)
      = normV (pre (W (Proc.devRef .tc main_v1)) (W (Proc.devRef .tc main_v3)) (W (Proc.devRef .tc main_v38))) := by
  after_results_simp
  simp only [ofBuf_toBuf, ofBuf_v25, ofBuf_c6, toBuf_v29]
  unfold normV meanV varV centred sumV cnt pre
  exact rfl

/-! ## Broadcasts read at an index -/

/-- A [1, 64] row repeated down the 100000 rows reads, at (r, d), the row's entry of column d. -/
theorem rowDown_apply {α : Type} (v : S1x64.Idx → α) (r : Fin 100000) (d : Fin 64) :
    broadcastInDim S100000x64 ![0, 1] bcast_S1x64_S100000x64_0_1 v (ix2 r d) = v (ix2 (0 : Fin 1) d) :=
  broadcastInDim_apply _ _ v (ix2 r d) (ix2 (0 : Fin 1) d) fun a =>
    match a with
    | ⟨0, _⟩ => rfl
    | ⟨1, _⟩ => rfl

/-- A [64] vector seen as a [1, 64] row reads, at (0, d), the vector's entry d. -/
theorem asRow_apply {α : Type} (v : S64.Idx → α) (d : Fin 64) :
    broadcastInDim S1x64 ![1] bcast_S64_S1x64_1 v (ix2 (0 : Fin 1) d) = v (ix1 d) :=
  broadcastInDim_apply _ _ v (ix2 (0 : Fin 1) d) (ix1 d) fun a =>
    match a with
    | ⟨0, _⟩ => rfl

/-- Both together: the vector's entry of the column, at every row. -/
theorem vecDown_apply {α : Type} (v : S64.Idx → α) (r : Fin 100000) (d : Fin 64) :
    broadcastInDim S100000x64 ![0, 1] bcast_S1x64_S100000x64_0_1 (broadcastInDim S1x64 ![1] bcast_S64_S1x64_1 v) (ix2 r d)
      = v (ix1 d) := by
  rw [rowDown_apply, asRow_apply]

/-! ## The column statistics read at a column -/

/-- The host's quotient and square root act entry by entry. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- The host's sum over the row axis from the zero word is the column sum. -/
theorem sumV_apply (a : FVec Ideal S100000x64 .f32) (d : Fin 64) : sumV a (ix1 d) = Cert.Gin.colSum a d := by
  show Ideal.hostReduceAdd reducesTo_S100000x64_S64_d0 a (Ideal.ofBits .f32 0x00000000#32) (ix1 d) = _
  rw [Ideal.hostReduceAdd_single reducesTo_S100000x64_S64_d0 (by decide : S100000x64.Reduces [0] S64), Ideal.ofBits_zero_f32,
    zero_add]
  unfold Cert.Gin.colSum
  refine Finset.sum_congr rfl fun k _ => congrArg a (funext fun ax => ?_)
  match ax with
  | ⟨0, _⟩ => rfl
  | ⟨1, _⟩ => rfl

/-- The column mean as the host forms it is the specification's. -/
theorem meanV_apply (a : FVec Ideal S100000x64 .f32) (d : Fin 64) : meanV a (ix1 d) = Cert.Gin.meanOf a d := by
  show Ideal.div (sumV a (ix1 d)) Cert.Gin.nf = _
  rw [sumV_apply]; rfl

/-- The deviations: each entry minus its column's mean. -/
theorem centred_apply (a : FVec Ideal S100000x64 .f32) (r : Fin 100000) (d : Fin 64) :
    centred a (ix2 r d) = a (ix2 r d) - Cert.Gin.meanOf a d := by
  unfold centred
  rw [subf_apply, rowDown_apply, hostDivf_apply, asRow_apply, sumV_apply]
  rfl

/-- The divisor is the row count: the integer zero converts to the real zero. -/
theorem cnt_apply (k : S_.Idx) : cnt k = Cert.Gin.nf := by
  show Cert.Gin.nf - (((0#32 : BitVec 32).toInt : ℝ) : EReal) = _
  simp

/-- The divisor is positive, so the comparison's bit is set. -/
theorem cnt_pos (k : S_.Idx) :
    cmpf .ogt cnt (constant (F := Ideal) S_ .f32 0x00000000#32) k = 1#1 := by
  show Ideal.cmp .ogt (cnt k) (Ideal.ofBits .f32 0x00000000#32) = 1#1
  rw [cnt_apply, Ideal.ofBits_zero_f32, Cert.Gin.nf_eq]
  simp [Ideal.cmp]

/-- The column variance as the host forms it is the specification's: the comparison always keeps the quotient. -/
theorem varV_apply (a : FVec Ideal S100000x64 .f32) (d : Fin 64) : varV a (ix1 d) = Cert.Gin.varR a d := by
  have hp : broadcastInDim S64 ![] bcast_S_S64 (cmpf .ogt cnt (constant (F := Ideal) S_ .f32 0x00000000#32)) (ix1 d) = 1#1 :=
    cnt_pos _
  have hc : broadcastInDim S64 ![] bcast_S_S64 cnt (ix1 d) = Cert.Gin.nf := cnt_apply _
  unfold varV
  rw [select_apply, hp, select_one, hostDivf_apply, hc, sumV_apply]
  unfold Cert.Gin.varR Cert.Gin.colSum
  refine congrArg (fun s => Ideal.div s Cert.Gin.nf) (Finset.sum_congr rfl fun r _ => ?_)
  rw [mulf_apply, centred_apply]

/-- The normalised array as the host forms it is the specification's normalisation. -/
theorem normV_eq (a : FVec Ideal S100000x64 .f32) : normV a = Cert.Gin.normR a := by
  funext i
  obtain ⟨r, d, rfl⟩ : ∃ (r : Fin 100000) (d : Fin 64), i = ix2 r d := ⟨i 0, i 1, eq_ix2 i⟩
  unfold normV
  rw [hostDivf_apply, subf_apply, vecDown_apply, vecDown_apply, meanV_apply, hostSqrt_apply, addf_apply, varV_apply]
  rfl

/-! ## The edge chain is the neighbour sum -/

attribute [local irreducible] Host.scatterAdd Host.gather broadcastInDim in
/-- The compare, add, select, broadcast, gather, zero broadcast and scatter-add of the layer are, term for term, the
    neighbour sum's definition: the two records of dimension numbers are the same structure literals. -/
theorem agg_eq (src dst : IVec S1600000 32) (h : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Gin.aggOf src dst h := rfl

/-- The half word broadcast over the array reads one half everywhere. -/
theorem halfDown_apply (i : S100000x64.Idx) :
    broadcastInDim S100000x64 ![] bcast_S_S100000x64 (constant (F := Ideal) S_ .f32 0x3F000000#32) i = Cert.Gin.half := rfl

/-- The pre-normalisation array is the neighbour sum plus half the features. -/
theorem pre_eq (src dst : IVec S1600000 32) (h : FVec Ideal S100000x64 .f32) :
    pre src dst h = Cert.Gin.selfAdd (Cert.Gin.aggOf src dst h) h := by
  unfold pre
  rw [agg_eq]
  generalize Cert.Gin.aggOf src dst h = A
  funext i
  rw [addf_apply, mulf_apply, halfDown_apply]
  unfold Cert.Gin.selfAdd
  rfl

/-! ## The layer -/

/-- One layer of the reference, from any buffer contents: the output buffer holds the specification's layer function of
    the features, over the neighbour sum along the edges' source and target columns. -/
theorem layer (W : Valuation τ sig (Elt Ideal)) :
    (after (opsLayer2 (F := Ideal)) W (Proc.devRef .tc main_v64) : Cert.Gin.SN64.Idx → EReal)
      = Cert.Gin.layerR (Cert.Gin.aggOf (W (Proc.devRef .tc main_v1)) (W (Proc.devRef .tc main_v3)))
          (W (Proc.devRef .tc main_v38)) := by
  refine (read W).trans ?_
  rw [pre_eq, normV_eq]
  rfl

/-- The layer writes neither edge column nor any of the program's three arguments. -/
theorem keep (W : Valuation τ sig (Elt Ideal)) (b : Ref sig .tc)
    (hb : b = main_v1 ∨ b = main_v3 ∨ b = main_arg0 ∨ b = main_arg1 ∨ b = main_arg2) :
    after (opsLayer2 (F := Ideal)) W (Proc.devRef .tc b) = W (Proc.devRef .tc b) := by
  rcases hb with rfl | rfl | rfl | rfl | rfl
  all_goals after_results_simp

end Cert.ReferenceIdeal.RefLayer2

end
-- ==== Proof.RefLayer3.lean ====
/-
  One layer of the reference program, read as mathematics.

  The layer's host operations first form the neighbour sum (every edge adds its source node's feature row into its
  target node's row of a zero array), add one half of the node's own features, and then normalise every column of the
  resulting array `a`: the column mean is the column sum over the row count; the variance is the column sum of the
  squared deviations from that mean over the row count minus a converted integer zero, kept by a comparison that is
  always true (the row count is positive); the output is the deviation over the square root of variance plus offset.

  The module states these operations once as host terms over an arbitrary array (`pre`, `sumV`, `meanV`, `centred`,
  `varV`, `normV`), reads the list of operations into them, and shows entry by entry that they are the
  specification's `selfAdd`, `colSum`, `meanOf`, `varR` and `normR`: a sum over the row axis from the zero word is
  the column sum, a [64] vector shown as a [1, 64] row and repeated down the rows reads its entry of the column, and a
  broadcast scalar reads the scalar. The edge chain is kept as one term: it is the neighbour sum's definition.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.Consts
import proofs.«415324_j50955491999984_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer3

open Idealize.ShloMosaic Idealize.SL.Sem Idealize.ShloMosaic.StableHlo Idealize.ShloMosaic.ValueIdx Cert.ReferenceIdeal Cert.ReferenceIdeal.Gen Cert.ReferenceIdeal.RefOps

/-- The array the normalisation acts on, as the host operations build it: the edge chain's scatter-added rows plus
    one half of the features. -/
def pre (src dst : IVec S1600000 32) (h : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (mulf (broadcastInDim S100000x64 ![] bcast_S_S100000x64 (constant (F := Ideal) S_ .f32 0x3F000000#32)) h)

/-- The column sums of an array as the host takes them: one sum over the row axis from the zero word. -/
def sumV (a : FVec Ideal S100000x64 .f32) : FVec Ideal S64 .f32 :=
  Host.reduceAdd (F := Ideal) a (constant (F := Ideal) S_ .f32 0x00000000#32) reducesTo_S100000x64_S64_d0 h_S_

/-- The column means: the column sums divided by the row count's word. -/
def meanV (a : FVec Ideal S100000x64 .f32) : FVec Ideal S64 .f32 :=
  Host.divf (F := Ideal) (sumV a) (broadcastInDim S64 ![] bcast_S_S64 (constant (F := Ideal) S_ .f32 0x47C35000#32))

/-- The divisor of the variance: the row count minus the converted integer zero. -/
def cnt : FVec Ideal S_ .f32 :=
  subf (constant (F := Ideal) S_ .f32 0x47C35000#32) (sitofp .f32 (constantI S_ 32 0#32))

/-- The deviations from the column means, the means taken again as a [1, 64] row. -/
def centred (a : FVec Ideal S100000x64 .f32) : FVec Ideal S100000x64 .f32 :=
  subf a (broadcastInDim S100000x64 ![0, 1] bcast_S1x64_S100000x64_0_1
    (Host.divf (F := Ideal) (broadcastInDim S1x64 ![1] bcast_S64_S1x64_1 (sumV a))
      (broadcastInDim S1x64 ![] bcast_S_S1x64 (constant (F := Ideal) S_ .f32 0x47C35000#32))))

/-- The column variances: the column sums of squared deviations over the divisor, kept where the divisor is
    positive and replaced by the not-a-number word elsewhere. -/
def varV (a : FVec Ideal S100000x64 .f32) : FVec Ideal S64 .f32 :=
  select (broadcastInDim S64 ![] bcast_S_S64 (cmpf .ogt cnt (constant (F := Ideal) S_ .f32 0x00000000#32)))
    (Host.divf (F := Ideal) (sumV (mulf (centred a) (centred a))) (broadcastInDim S64 ![] bcast_S_S64 cnt))
    (broadcastInDim S64 ![] bcast_S_S64 (id (constant (F := Ideal) S_ .f32 0x7FC00000#32)))

/-- The normalised array: deviations from the broadcast means over the broadcast square roots of variance plus offset. -/
def normV (a : FVec Ideal S100000x64 .f32) : FVec Ideal S100000x64 .f32 :=
  Host.divf (F := Ideal)
    (subf a (broadcastInDim S100000x64 ![0, 1] bcast_S1x64_S100000x64_0_1
      (broadcastInDim S1x64 ![1] bcast_S64_S1x64_1 (meanV a))))
    (broadcastInDim S100000x64 ![0, 1] bcast_S1x64_S100000x64_0_1
      (broadcastInDim S1x64 ![1] bcast_S64_S1x64_1
        (Host.sqrt (F := Ideal) (addf (varV a) (broadcastInDim S64 ![] bcast_S_S64 (constant (F := Ideal) S_ .f32 0x3727C5AC#32))))))

/-! ## The typed references' transports

The outlined variance reads and writes its values through references that carry their array type; at a literal buffer the
transport along the type equation is the identity. -/

/-- Writing through a typed reference and reading back is the identity. -/
theorem ofBuf_toBuf {T : BufTy} (x : TRef sig T) (v : T.Contents (Elt Ideal)) : x.ofBuf (x.toBuf v) = v := by
  obtain ⟨r, rfl, _, _⟩ := x
  exact cast_eq _ _

theorem ofBuf_v25 (p : main_v77.ty = ⟨S100000x64, .f32⟩) (q : main_v77.space ≠ .host) (u : main_v77.isScoped = false)
    (X : main_v77.ty.Contents (Elt Ideal)) : (TRef.of main_v77 p q u).ofBuf X = X := by
  exact cast_eq _ X

theorem ofBuf_c6 (p : main_c_22.ty = ⟨S_, .i32⟩) (q : main_c_22.space ≠ .host) (u : main_c_22.isScoped = false)
    (X : main_c_22.ty.Contents (Elt Ideal)) : (TRef.of main_c_22 p q u).ofBuf X = X := by
  exact cast_eq _ X

theorem toBuf_v29 (p : main_v81.ty = ⟨S64, .f32⟩) (q : main_v81.space ≠ .host) (u : main_v81.isScoped = false)
    (X : (⟨S64, .f32⟩ : BufTy).Contents (Elt Ideal)) : (TRef.of main_v81 p q u).toBuf X = X := by
  exact cast_eq _ X

/-- The layer's operations leave, in the output buffer, the normalised array of the pre-normalisation array, both as the
    host terms above over the edge columns and the features found in the buffers before the layer. -/
theorem read (W : Valuation τ sig (Elt Ideal)) :
    after (opsLayer3 (F := Ideal)) W (Proc.devRef .tc main_v90)
      = normV (pre (W (Proc.devRef .tc main_v1)) (W (Proc.devRef .tc main_v3)) (W (Proc.devRef .tc main_v64))) := by
  after_results_simp
  simp only [ofBuf_toBuf, ofBuf_v25, ofBuf_c6, toBuf_v29]
  unfold normV meanV varV centred sumV cnt pre
  exact rfl

/-! ## Broadcasts read at an index -/

/-- A [1, 64] row repeated down the 100000 rows reads, at (r, d), the row's entry of column d. -/
theorem rowDown_apply {α : Type} (v : S1x64.Idx → α) (r : Fin 100000) (d : Fin 64) :
    broadcastInDim S100000x64 ![0, 1] bcast_S1x64_S100000x64_0_1 v (ix2 r d) = v (ix2 (0 : Fin 1) d) :=
  broadcastInDim_apply _ _ v (ix2 r d) (ix2 (0 : Fin 1) d) fun a =>
    match a with
    | ⟨0, _⟩ => rfl
    | ⟨1, _⟩ => rfl

/-- A [64] vector seen as a [1, 64] row reads, at (0, d), the vector's entry d. -/
theorem asRow_apply {α : Type} (v : S64.Idx → α) (d : Fin 64) :
    broadcastInDim S1x64 ![1] bcast_S64_S1x64_1 v (ix2 (0 : Fin 1) d) = v (ix1 d) :=
  broadcastInDim_apply _ _ v (ix2 (0 : Fin 1) d) (ix1 d) fun a =>
    match a with
    | ⟨0, _⟩ => rfl

/-- Both together: the vector's entry of the column, at every row. -/
theorem vecDown_apply {α : Type} (v : S64.Idx → α) (r : Fin 100000) (d : Fin 64) :
    broadcastInDim S100000x64 ![0, 1] bcast_S1x64_S100000x64_0_1 (broadcastInDim S1x64 ![1] bcast_S64_S1x64_1 v) (ix2 r d)
      = v (ix1 d) := by
  rw [rowDown_apply, asRow_apply]

/-! ## The column statistics read at a column -/

/-- The host's quotient and square root act entry by entry. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- The host's sum over the row axis from the zero word is the column sum. -/
theorem sumV_apply (a : FVec Ideal S100000x64 .f32) (d : Fin 64) : sumV a (ix1 d) = Cert.Gin.colSum a d := by
  show Ideal.hostReduceAdd reducesTo_S100000x64_S64_d0 a (Ideal.ofBits .f32 0x00000000#32) (ix1 d) = _
  rw [Ideal.hostReduceAdd_single reducesTo_S100000x64_S64_d0 (by decide : S100000x64.Reduces [0] S64), Ideal.ofBits_zero_f32,
    zero_add]
  unfold Cert.Gin.colSum
  refine Finset.sum_congr rfl fun k _ => congrArg a (funext fun ax => ?_)
  match ax with
  | ⟨0, _⟩ => rfl
  | ⟨1, _⟩ => rfl

/-- The column mean as the host forms it is the specification's. -/
theorem meanV_apply (a : FVec Ideal S100000x64 .f32) (d : Fin 64) : meanV a (ix1 d) = Cert.Gin.meanOf a d := by
  show Ideal.div (sumV a (ix1 d)) Cert.Gin.nf = _
  rw [sumV_apply]; rfl

/-- The deviations: each entry minus its column's mean. -/
theorem centred_apply (a : FVec Ideal S100000x64 .f32) (r : Fin 100000) (d : Fin 64) :
    centred a (ix2 r d) = a (ix2 r d) - Cert.Gin.meanOf a d := by
  unfold centred
  rw [subf_apply, rowDown_apply, hostDivf_apply, asRow_apply, sumV_apply]
  rfl

/-- The divisor is the row count: the integer zero converts to the real zero. -/
theorem cnt_apply (k : S_.Idx) : cnt k = Cert.Gin.nf := by
  show Cert.Gin.nf - (((0#32 : BitVec 32).toInt : ℝ) : EReal) = _
  simp

/-- The divisor is positive, so the comparison's bit is set. -/
theorem cnt_pos (k : S_.Idx) :
    cmpf .ogt cnt (constant (F := Ideal) S_ .f32 0x00000000#32) k = 1#1 := by
  show Ideal.cmp .ogt (cnt k) (Ideal.ofBits .f32 0x00000000#32) = 1#1
  rw [cnt_apply, Ideal.ofBits_zero_f32, Cert.Gin.nf_eq]
  simp [Ideal.cmp]

/-- The column variance as the host forms it is the specification's: the comparison always keeps the quotient. -/
theorem varV_apply (a : FVec Ideal S100000x64 .f32) (d : Fin 64) : varV a (ix1 d) = Cert.Gin.varR a d := by
  have hp : broadcastInDim S64 ![] bcast_S_S64 (cmpf .ogt cnt (constant (F := Ideal) S_ .f32 0x00000000#32)) (ix1 d) = 1#1 :=
    cnt_pos _
  have hc : broadcastInDim S64 ![] bcast_S_S64 cnt (ix1 d) = Cert.Gin.nf := cnt_apply _
  unfold varV
  rw [select_apply, hp, select_one, hostDivf_apply, hc, sumV_apply]
  unfold Cert.Gin.varR Cert.Gin.colSum
  refine congrArg (fun s => Ideal.div s Cert.Gin.nf) (Finset.sum_congr rfl fun r _ => ?_)
  rw [mulf_apply, centred_apply]

/-- The normalised array as the host forms it is the specification's normalisation. -/
theorem normV_eq (a : FVec Ideal S100000x64 .f32) : normV a = Cert.Gin.normR a := by
  funext i
  obtain ⟨r, d, rfl⟩ : ∃ (r : Fin 100000) (d : Fin 64), i = ix2 r d := ⟨i 0, i 1, eq_ix2 i⟩
  unfold normV
  rw [hostDivf_apply, subf_apply, vecDown_apply, vecDown_apply, meanV_apply, hostSqrt_apply, addf_apply, varV_apply]
  rfl

/-! ## The edge chain is the neighbour sum -/

attribute [local irreducible] Host.scatterAdd Host.gather broadcastInDim in
/-- The compare, add, select, broadcast, gather, zero broadcast and scatter-add of the layer are, term for term, the
    neighbour sum's definition: the two records of dimension numbers are the same structure literals. -/
theorem agg_eq (src dst : IVec S1600000 32) (h : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Gin.aggOf src dst h := rfl

/-- The half word broadcast over the array reads one half everywhere. -/
theorem halfDown_apply (i : S100000x64.Idx) :
    broadcastInDim S100000x64 ![] bcast_S_S100000x64 (constant (F := Ideal) S_ .f32 0x3F000000#32) i = Cert.Gin.half := rfl

/-- The pre-normalisation array is the neighbour sum plus half the features. -/
theorem pre_eq (src dst : IVec S1600000 32) (h : FVec Ideal S100000x64 .f32) :
    pre src dst h = Cert.Gin.selfAdd (Cert.Gin.aggOf src dst h) h := by
  unfold pre
  rw [agg_eq]
  generalize Cert.Gin.aggOf src dst h = A
  funext i
  rw [addf_apply, mulf_apply, halfDown_apply]
  unfold Cert.Gin.selfAdd
  rfl

/-! ## The layer -/

/-- One layer of the reference, from any buffer contents: the output buffer holds the specification's layer function of
    the features, over the neighbour sum along the edges' source and target columns. -/
theorem layer (W : Valuation τ sig (Elt Ideal)) :
    (after (opsLayer3 (F := Ideal)) W (Proc.devRef .tc main_v90) : Cert.Gin.SN64.Idx → EReal)
      = Cert.Gin.layerR (Cert.Gin.aggOf (W (Proc.devRef .tc main_v1)) (W (Proc.devRef .tc main_v3)))
          (W (Proc.devRef .tc main_v64)) := by
  refine (read W).trans ?_
  rw [pre_eq, normV_eq]
  rfl

/-- The layer writes neither edge column nor any of the program's three arguments. -/
theorem keep (W : Valuation τ sig (Elt Ideal)) (b : Ref sig .tc)
    (hb : b = main_v1 ∨ b = main_v3 ∨ b = main_arg0 ∨ b = main_arg1 ∨ b = main_arg2) :
    after (opsLayer3 (F := Ideal)) W (Proc.devRef .tc b) = W (Proc.devRef .tc b) := by
  rcases hb with rfl | rfl | rfl | rfl | rfl
  all_goals after_results_simp

end Cert.ReferenceIdeal.RefLayer3

end
-- ==== Proof.RefLayer4.lean ====
/-
  One layer of the reference program, read as mathematics.

  The layer's host operations first form the neighbour sum (every edge adds its source node's feature row into its
  target node's row of a zero array), add one half of the node's own features, and then normalise every column of the
  resulting array `a`: the column mean is the column sum over the row count; the variance is the column sum of the
  squared deviations from that mean over the row count minus a converted integer zero, kept by a comparison that is
  always true (the row count is positive); the output is the deviation over the square root of variance plus offset.

  The module states these operations once as host terms over an arbitrary array (`pre`, `sumV`, `meanV`, `centred`,
  `varV`, `normV`), reads the list of operations into them, and shows entry by entry that they are the
  specification's `selfAdd`, `colSum`, `meanOf`, `varR` and `normR`: a sum over the row axis from the zero word is
  the column sum, a [64] vector shown as a [1, 64] row and repeated down the rows reads its entry of the column, and a
  broadcast scalar reads the scalar. The edge chain is kept as one term: it is the neighbour sum's definition.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.Consts
import proofs.«415324_j50955491999984_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer4

open Idealize.ShloMosaic Idealize.SL.Sem Idealize.ShloMosaic.StableHlo Idealize.ShloMosaic.ValueIdx Cert.ReferenceIdeal Cert.ReferenceIdeal.Gen Cert.ReferenceIdeal.RefOps

/-- The array the normalisation acts on, as the host operations build it: the edge chain's scatter-added rows plus
    one half of the features. -/
def pre (src dst : IVec S1600000 32) (h : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (mulf (broadcastInDim S100000x64 ![] bcast_S_S100000x64 (constant (F := Ideal) S_ .f32 0x3F000000#32)) h)

/-- The column sums of an array as the host takes them: one sum over the row axis from the zero word. -/
def sumV (a : FVec Ideal S100000x64 .f32) : FVec Ideal S64 .f32 :=
  Host.reduceAdd (F := Ideal) a (constant (F := Ideal) S_ .f32 0x00000000#32) reducesTo_S100000x64_S64_d0 h_S_

/-- The column means: the column sums divided by the row count's word. -/
def meanV (a : FVec Ideal S100000x64 .f32) : FVec Ideal S64 .f32 :=
  Host.divf (F := Ideal) (sumV a) (broadcastInDim S64 ![] bcast_S_S64 (constant (F := Ideal) S_ .f32 0x47C35000#32))

/-- The divisor of the variance: the row count minus the converted integer zero. -/
def cnt : FVec Ideal S_ .f32 :=
  subf (constant (F := Ideal) S_ .f32 0x47C35000#32) (sitofp .f32 (constantI S_ 32 0#32))

/-- The deviations from the column means, the means taken again as a [1, 64] row. -/
def centred (a : FVec Ideal S100000x64 .f32) : FVec Ideal S100000x64 .f32 :=
  subf a (broadcastInDim S100000x64 ![0, 1] bcast_S1x64_S100000x64_0_1
    (Host.divf (F := Ideal) (broadcastInDim S1x64 ![1] bcast_S64_S1x64_1 (sumV a))
      (broadcastInDim S1x64 ![] bcast_S_S1x64 (constant (F := Ideal) S_ .f32 0x47C35000#32))))

/-- The column variances: the column sums of squared deviations over the divisor, kept where the divisor is
    positive and replaced by the not-a-number word elsewhere. -/
def varV (a : FVec Ideal S100000x64 .f32) : FVec Ideal S64 .f32 :=
  select (broadcastInDim S64 ![] bcast_S_S64 (cmpf .ogt cnt (constant (F := Ideal) S_ .f32 0x00000000#32)))
    (Host.divf (F := Ideal) (sumV (mulf (centred a) (centred a))) (broadcastInDim S64 ![] bcast_S_S64 cnt))
    (broadcastInDim S64 ![] bcast_S_S64 (id (constant (F := Ideal) S_ .f32 0x7FC00000#32)))

/-- The normalised array: deviations from the broadcast means over the broadcast square roots of variance plus offset. -/
def normV (a : FVec Ideal S100000x64 .f32) : FVec Ideal S100000x64 .f32 :=
  Host.divf (F := Ideal)
    (subf a (broadcastInDim S100000x64 ![0, 1] bcast_S1x64_S100000x64_0_1
      (broadcastInDim S1x64 ![1] bcast_S64_S1x64_1 (meanV a))))
    (broadcastInDim S100000x64 ![0, 1] bcast_S1x64_S100000x64_0_1
      (broadcastInDim S1x64 ![1] bcast_S64_S1x64_1
        (Host.sqrt (F := Ideal) (addf (varV a) (broadcastInDim S64 ![] bcast_S_S64 (constant (F := Ideal) S_ .f32 0x3727C5AC#32))))))

/-! ## The typed references' transports

The outlined variance reads and writes its values through references that carry their array type; at a literal buffer the
transport along the type equation is the identity. -/

/-- Writing through a typed reference and reading back is the identity. -/
theorem ofBuf_toBuf {T : BufTy} (x : TRef sig T) (v : T.Contents (Elt Ideal)) : x.ofBuf (x.toBuf v) = v := by
  obtain ⟨r, rfl, _, _⟩ := x
  exact cast_eq _ _

theorem ofBuf_v25 (p : main_v103.ty = ⟨S100000x64, .f32⟩) (q : main_v103.space ≠ .host) (u : main_v103.isScoped = false)
    (X : main_v103.ty.Contents (Elt Ideal)) : (TRef.of main_v103 p q u).ofBuf X = X := by
  exact cast_eq _ X

theorem ofBuf_c6 (p : main_c_30.ty = ⟨S_, .i32⟩) (q : main_c_30.space ≠ .host) (u : main_c_30.isScoped = false)
    (X : main_c_30.ty.Contents (Elt Ideal)) : (TRef.of main_c_30 p q u).ofBuf X = X := by
  exact cast_eq _ X

theorem toBuf_v29 (p : main_v107.ty = ⟨S64, .f32⟩) (q : main_v107.space ≠ .host) (u : main_v107.isScoped = false)
    (X : (⟨S64, .f32⟩ : BufTy).Contents (Elt Ideal)) : (TRef.of main_v107 p q u).toBuf X = X := by
  exact cast_eq _ X

/-- The layer's operations leave, in the output buffer, the normalised array of the pre-normalisation array, both as the
    host terms above over the edge columns and the features found in the buffers before the layer. -/
theorem read (W : Valuation τ sig (Elt Ideal)) :
    after (opsLayer4 (F := Ideal)) W (Proc.devRef .tc main_v116)
      = normV (pre (W (Proc.devRef .tc main_v1)) (W (Proc.devRef .tc main_v3)) (W (Proc.devRef .tc main_v90))) := by
  after_results_simp
  simp only [ofBuf_toBuf, ofBuf_v25, ofBuf_c6, toBuf_v29]
  unfold normV meanV varV centred sumV cnt pre
  exact rfl

/-! ## Broadcasts read at an index -/

/-- A [1, 64] row repeated down the 100000 rows reads, at (r, d), the row's entry of column d. -/
theorem rowDown_apply {α : Type} (v : S1x64.Idx → α) (r : Fin 100000) (d : Fin 64) :
    broadcastInDim S100000x64 ![0, 1] bcast_S1x64_S100000x64_0_1 v (ix2 r d) = v (ix2 (0 : Fin 1) d) :=
  broadcastInDim_apply _ _ v (ix2 r d) (ix2 (0 : Fin 1) d) fun a =>
    match a with
    | ⟨0, _⟩ => rfl
    | ⟨1, _⟩ => rfl

/-- A [64] vector seen as a [1, 64] row reads, at (0, d), the vector's entry d. -/
theorem asRow_apply {α : Type} (v : S64.Idx → α) (d : Fin 64) :
    broadcastInDim S1x64 ![1] bcast_S64_S1x64_1 v (ix2 (0 : Fin 1) d) = v (ix1 d) :=
  broadcastInDim_apply _ _ v (ix2 (0 : Fin 1) d) (ix1 d) fun a =>
    match a with
    | ⟨0, _⟩ => rfl

/-- Both together: the vector's entry of the column, at every row. -/
theorem vecDown_apply {α : Type} (v : S64.Idx → α) (r : Fin 100000) (d : Fin 64) :
    broadcastInDim S100000x64 ![0, 1] bcast_S1x64_S100000x64_0_1 (broadcastInDim S1x64 ![1] bcast_S64_S1x64_1 v) (ix2 r d)
      = v (ix1 d) := by
  rw [rowDown_apply, asRow_apply]

/-! ## The column statistics read at a column -/

/-- The host's quotient and square root act entry by entry. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- The host's sum over the row axis from the zero word is the column sum. -/
theorem sumV_apply (a : FVec Ideal S100000x64 .f32) (d : Fin 64) : sumV a (ix1 d) = Cert.Gin.colSum a d := by
  show Ideal.hostReduceAdd reducesTo_S100000x64_S64_d0 a (Ideal.ofBits .f32 0x00000000#32) (ix1 d) = _
  rw [Ideal.hostReduceAdd_single reducesTo_S100000x64_S64_d0 (by decide : S100000x64.Reduces [0] S64), Ideal.ofBits_zero_f32,
    zero_add]
  unfold Cert.Gin.colSum
  refine Finset.sum_congr rfl fun k _ => congrArg a (funext fun ax => ?_)
  match ax with
  | ⟨0, _⟩ => rfl
  | ⟨1, _⟩ => rfl

/-- The column mean as the host forms it is the specification's. -/
theorem meanV_apply (a : FVec Ideal S100000x64 .f32) (d : Fin 64) : meanV a (ix1 d) = Cert.Gin.meanOf a d := by
  show Ideal.div (sumV a (ix1 d)) Cert.Gin.nf = _
  rw [sumV_apply]; rfl

/-- The deviations: each entry minus its column's mean. -/
theorem centred_apply (a : FVec Ideal S100000x64 .f32) (r : Fin 100000) (d : Fin 64) :
    centred a (ix2 r d) = a (ix2 r d) - Cert.Gin.meanOf a d := by
  unfold centred
  rw [subf_apply, rowDown_apply, hostDivf_apply, asRow_apply, sumV_apply]
  rfl

/-- The divisor is the row count: the integer zero converts to the real zero. -/
theorem cnt_apply (k : S_.Idx) : cnt k = Cert.Gin.nf := by
  show Cert.Gin.nf - (((0#32 : BitVec 32).toInt : ℝ) : EReal) = _
  simp

/-- The divisor is positive, so the comparison's bit is set. -/
theorem cnt_pos (k : S_.Idx) :
    cmpf .ogt cnt (constant (F := Ideal) S_ .f32 0x00000000#32) k = 1#1 := by
  show Ideal.cmp .ogt (cnt k) (Ideal.ofBits .f32 0x00000000#32) = 1#1
  rw [cnt_apply, Ideal.ofBits_zero_f32, Cert.Gin.nf_eq]
  simp [Ideal.cmp]

/-- The column variance as the host forms it is the specification's: the comparison always keeps the quotient. -/
theorem varV_apply (a : FVec Ideal S100000x64 .f32) (d : Fin 64) : varV a (ix1 d) = Cert.Gin.varR a d := by
  have hp : broadcastInDim S64 ![] bcast_S_S64 (cmpf .ogt cnt (constant (F := Ideal) S_ .f32 0x00000000#32)) (ix1 d) = 1#1 :=
    cnt_pos _
  have hc : broadcastInDim S64 ![] bcast_S_S64 cnt (ix1 d) = Cert.Gin.nf := cnt_apply _
  unfold varV
  rw [select_apply, hp, select_one, hostDivf_apply, hc, sumV_apply]
  unfold Cert.Gin.varR Cert.Gin.colSum
  refine congrArg (fun s => Ideal.div s Cert.Gin.nf) (Finset.sum_congr rfl fun r _ => ?_)
  rw [mulf_apply, centred_apply]

/-- The normalised array as the host forms it is the specification's normalisation. -/
theorem normV_eq (a : FVec Ideal S100000x64 .f32) : normV a = Cert.Gin.normR a := by
  funext i
  obtain ⟨r, d, rfl⟩ : ∃ (r : Fin 100000) (d : Fin 64), i = ix2 r d := ⟨i 0, i 1, eq_ix2 i⟩
  unfold normV
  rw [hostDivf_apply, subf_apply, vecDown_apply, vecDown_apply, meanV_apply, hostSqrt_apply, addf_apply, varV_apply]
  rfl

/-! ## The edge chain is the neighbour sum -/

attribute [local irreducible] Host.scatterAdd Host.gather broadcastInDim in
/-- The compare, add, select, broadcast, gather, zero broadcast and scatter-add of the layer are, term for term, the
    neighbour sum's definition: the two records of dimension numbers are the same structure literals. -/
theorem agg_eq (src dst : IVec S1600000 32) (h : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Gin.aggOf src dst h := rfl

/-- The half word broadcast over the array reads one half everywhere. -/
theorem halfDown_apply (i : S100000x64.Idx) :
    broadcastInDim S100000x64 ![] bcast_S_S100000x64 (constant (F := Ideal) S_ .f32 0x3F000000#32) i = Cert.Gin.half := rfl

/-- The pre-normalisation array is the neighbour sum plus half the features. -/
theorem pre_eq (src dst : IVec S1600000 32) (h : FVec Ideal S100000x64 .f32) :
    pre src dst h = Cert.Gin.selfAdd (Cert.Gin.aggOf src dst h) h := by
  unfold pre
  rw [agg_eq]
  generalize Cert.Gin.aggOf src dst h = A
  funext i
  rw [addf_apply, mulf_apply, halfDown_apply]
  unfold Cert.Gin.selfAdd
  rfl

/-! ## The layer -/

/-- One layer of the reference, from any buffer contents: the output buffer holds the specification's layer function of
    the features, over the neighbour sum along the edges' source and target columns. -/
theorem layer (W : Valuation τ sig (Elt Ideal)) :
    (after (opsLayer4 (F := Ideal)) W (Proc.devRef .tc main_v116) : Cert.Gin.SN64.Idx → EReal)
      = Cert.Gin.layerR (Cert.Gin.aggOf (W (Proc.devRef .tc main_v1)) (W (Proc.devRef .tc main_v3)))
          (W (Proc.devRef .tc main_v90)) := by
  refine (read W).trans ?_
  rw [pre_eq, normV_eq]
  rfl

/-- The layer writes neither edge column nor any of the program's three arguments. -/
theorem keep (W : Valuation τ sig (Elt Ideal)) (b : Ref sig .tc)
    (hb : b = main_v1 ∨ b = main_v3 ∨ b = main_arg0 ∨ b = main_arg1 ∨ b = main_arg2) :
    after (opsLayer4 (F := Ideal)) W (Proc.devRef .tc b) = W (Proc.devRef .tc b) := by
  rcases hb with rfl | rfl | rfl | rfl | rfl
  all_goals after_results_simp

end Cert.ReferenceIdeal.RefLayer4

end
-- ==== Proof.RefLayer5.lean ====
/-
  One layer of the reference program, read as mathematics.

  The layer's host operations first form the neighbour sum (every edge adds its source node's feature row into its
  target node's row of a zero array), add one half of the node's own features, and then normalise every column of the
  resulting array `a`: the column mean is the column sum over the row count; the variance is the column sum of the
  squared deviations from that mean over the row count minus a converted integer zero, kept by a comparison that is
  always true (the row count is positive); the output is the deviation over the square root of variance plus offset.

  The module states these operations once as host terms over an arbitrary array (`pre`, `sumV`, `meanV`, `centred`,
  `varV`, `normV`), reads the list of operations into them, and shows entry by entry that they are the
  specification's `selfAdd`, `colSum`, `meanOf`, `varR` and `normR`: a sum over the row axis from the zero word is
  the column sum, a [64] vector shown as a [1, 64] row and repeated down the rows reads its entry of the column, and a
  broadcast scalar reads the scalar. The edge chain is kept as one term: it is the neighbour sum's definition.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.Consts
import proofs.«415324_j50955491999984_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer5

open Idealize.ShloMosaic Idealize.SL.Sem Idealize.ShloMosaic.StableHlo Idealize.ShloMosaic.ValueIdx Cert.ReferenceIdeal Cert.ReferenceIdeal.Gen Cert.ReferenceIdeal.RefOps

/-- The array the normalisation acts on, as the host operations build it: the edge chain's scatter-added rows plus
    one half of the features. -/
def pre (src dst : IVec S1600000 32) (h : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (mulf (broadcastInDim S100000x64 ![] bcast_S_S100000x64 (constant (F := Ideal) S_ .f32 0x3F000000#32)) h)

/-- The column sums of an array as the host takes them: one sum over the row axis from the zero word. -/
def sumV (a : FVec Ideal S100000x64 .f32) : FVec Ideal S64 .f32 :=
  Host.reduceAdd (F := Ideal) a (constant (F := Ideal) S_ .f32 0x00000000#32) reducesTo_S100000x64_S64_d0 h_S_

/-- The column means: the column sums divided by the row count's word. -/
def meanV (a : FVec Ideal S100000x64 .f32) : FVec Ideal S64 .f32 :=
  Host.divf (F := Ideal) (sumV a) (broadcastInDim S64 ![] bcast_S_S64 (constant (F := Ideal) S_ .f32 0x47C35000#32))

/-- The divisor of the variance: the row count minus the converted integer zero. -/
def cnt : FVec Ideal S_ .f32 :=
  subf (constant (F := Ideal) S_ .f32 0x47C35000#32) (sitofp .f32 (constantI S_ 32 0#32))

/-- The deviations from the column means, the means taken again as a [1, 64] row. -/
def centred (a : FVec Ideal S100000x64 .f32) : FVec Ideal S100000x64 .f32 :=
  subf a (broadcastInDim S100000x64 ![0, 1] bcast_S1x64_S100000x64_0_1
    (Host.divf (F := Ideal) (broadcastInDim S1x64 ![1] bcast_S64_S1x64_1 (sumV a))
      (broadcastInDim S1x64 ![] bcast_S_S1x64 (constant (F := Ideal) S_ .f32 0x47C35000#32))))

/-- The column variances: the column sums of squared deviations over the divisor, kept where the divisor is
    positive and replaced by the not-a-number word elsewhere. -/
def varV (a : FVec Ideal S100000x64 .f32) : FVec Ideal S64 .f32 :=
  select (broadcastInDim S64 ![] bcast_S_S64 (cmpf .ogt cnt (constant (F := Ideal) S_ .f32 0x00000000#32)))
    (Host.divf (F := Ideal) (sumV (mulf (centred a) (centred a))) (broadcastInDim S64 ![] bcast_S_S64 cnt))
    (broadcastInDim S64 ![] bcast_S_S64 (id (constant (F := Ideal) S_ .f32 0x7FC00000#32)))

/-- The normalised array: deviations from the broadcast means over the broadcast square roots of variance plus offset. -/
def normV (a : FVec Ideal S100000x64 .f32) : FVec Ideal S100000x64 .f32 :=
  Host.divf (F := Ideal)
    (subf a (broadcastInDim S100000x64 ![0, 1] bcast_S1x64_S100000x64_0_1
      (broadcastInDim S1x64 ![1] bcast_S64_S1x64_1 (meanV a))))
    (broadcastInDim S100000x64 ![0, 1] bcast_S1x64_S100000x64_0_1
      (broadcastInDim S1x64 ![1] bcast_S64_S1x64_1
        (Host.sqrt (F := Ideal) (addf (varV a) (broadcastInDim S64 ![] bcast_S_S64 (constant (F := Ideal) S_ .f32 0x3727C5AC#32))))))

/-! ## The typed references' transports

The outlined variance reads and writes its values through references that carry their array type; at a literal buffer the
transport along the type equation is the identity. -/

/-- Writing through a typed reference and reading back is the identity. -/
theorem ofBuf_toBuf {T : BufTy} (x : TRef sig T) (v : T.Contents (Elt Ideal)) : x.ofBuf (x.toBuf v) = v := by
  obtain ⟨r, rfl, _, _⟩ := x
  exact cast_eq _ _

theorem ofBuf_v25 (p : main_v129.ty = ⟨S100000x64, .f32⟩) (q : main_v129.space ≠ .host) (u : main_v129.isScoped = false)
    (X : main_v129.ty.Contents (Elt Ideal)) : (TRef.of main_v129 p q u).ofBuf X = X := by
  exact cast_eq _ X

theorem ofBuf_c6 (p : main_c_38.ty = ⟨S_, .i32⟩) (q : main_c_38.space ≠ .host) (u : main_c_38.isScoped = false)
    (X : main_c_38.ty.Contents (Elt Ideal)) : (TRef.of main_c_38 p q u).ofBuf X = X := by
  exact cast_eq _ X

theorem toBuf_v29 (p : main_v133.ty = ⟨S64, .f32⟩) (q : main_v133.space ≠ .host) (u : main_v133.isScoped = false)
    (X : (⟨S64, .f32⟩ : BufTy).Contents (Elt Ideal)) : (TRef.of main_v133 p q u).toBuf X = X := by
  exact cast_eq _ X

/-- The layer's operations leave, in the output buffer, the normalised array of the pre-normalisation array, both as the
    host terms above over the edge columns and the features found in the buffers before the layer. -/
theorem read (W : Valuation τ sig (Elt Ideal)) :
    after (opsLayer5 (F := Ideal)) W (Proc.devRef .tc main_v142)
      = normV (pre (W (Proc.devRef .tc main_v1)) (W (Proc.devRef .tc main_v3)) (W (Proc.devRef .tc main_v116))) := by
  after_results_simp
  simp only [ofBuf_toBuf, ofBuf_v25, ofBuf_c6, toBuf_v29]
  unfold normV meanV varV centred sumV cnt pre
  exact rfl

/-! ## Broadcasts read at an index -/

/-- A [1, 64] row repeated down the 100000 rows reads, at (r, d), the row's entry of column d. -/
theorem rowDown_apply {α : Type} (v : S1x64.Idx → α) (r : Fin 100000) (d : Fin 64) :
    broadcastInDim S100000x64 ![0, 1] bcast_S1x64_S100000x64_0_1 v (ix2 r d) = v (ix2 (0 : Fin 1) d) :=
  broadcastInDim_apply _ _ v (ix2 r d) (ix2 (0 : Fin 1) d) fun a =>
    match a with
    | ⟨0, _⟩ => rfl
    | ⟨1, _⟩ => rfl

/-- A [64] vector seen as a [1, 64] row reads, at (0, d), the vector's entry d. -/
theorem asRow_apply {α : Type} (v : S64.Idx → α) (d : Fin 64) :
    broadcastInDim S1x64 ![1] bcast_S64_S1x64_1 v (ix2 (0 : Fin 1) d) = v (ix1 d) :=
  broadcastInDim_apply _ _ v (ix2 (0 : Fin 1) d) (ix1 d) fun a =>
    match a with
    | ⟨0, _⟩ => rfl

/-- Both together: the vector's entry of the column, at every row. -/
theorem vecDown_apply {α : Type} (v : S64.Idx → α) (r : Fin 100000) (d : Fin 64) :
    broadcastInDim S100000x64 ![0, 1] bcast_S1x64_S100000x64_0_1 (broadcastInDim S1x64 ![1] bcast_S64_S1x64_1 v) (ix2 r d)
      = v (ix1 d) := by
  rw [rowDown_apply, asRow_apply]

/-! ## The column statistics read at a column -/

/-- The host's quotient and square root act entry by entry. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- The host's sum over the row axis from the zero word is the column sum. -/
theorem sumV_apply (a : FVec Ideal S100000x64 .f32) (d : Fin 64) : sumV a (ix1 d) = Cert.Gin.colSum a d := by
  show Ideal.hostReduceAdd reducesTo_S100000x64_S64_d0 a (Ideal.ofBits .f32 0x00000000#32) (ix1 d) = _
  rw [Ideal.hostReduceAdd_single reducesTo_S100000x64_S64_d0 (by decide : S100000x64.Reduces [0] S64), Ideal.ofBits_zero_f32,
    zero_add]
  unfold Cert.Gin.colSum
  refine Finset.sum_congr rfl fun k _ => congrArg a (funext fun ax => ?_)
  match ax with
  | ⟨0, _⟩ => rfl
  | ⟨1, _⟩ => rfl

/-- The column mean as the host forms it is the specification's. -/
theorem meanV_apply (a : FVec Ideal S100000x64 .f32) (d : Fin 64) : meanV a (ix1 d) = Cert.Gin.meanOf a d := by
  show Ideal.div (sumV a (ix1 d)) Cert.Gin.nf = _
  rw [sumV_apply]; rfl

/-- The deviations: each entry minus its column's mean. -/
theorem centred_apply (a : FVec Ideal S100000x64 .f32) (r : Fin 100000) (d : Fin 64) :
    centred a (ix2 r d) = a (ix2 r d) - Cert.Gin.meanOf a d := by
  unfold centred
  rw [subf_apply, rowDown_apply, hostDivf_apply, asRow_apply, sumV_apply]
  rfl

/-- The divisor is the row count: the integer zero converts to the real zero. -/
theorem cnt_apply (k : S_.Idx) : cnt k = Cert.Gin.nf := by
  show Cert.Gin.nf - (((0#32 : BitVec 32).toInt : ℝ) : EReal) = _
  simp

/-- The divisor is positive, so the comparison's bit is set. -/
theorem cnt_pos (k : S_.Idx) :
    cmpf .ogt cnt (constant (F := Ideal) S_ .f32 0x00000000#32) k = 1#1 := by
  show Ideal.cmp .ogt (cnt k) (Ideal.ofBits .f32 0x00000000#32) = 1#1
  rw [cnt_apply, Ideal.ofBits_zero_f32, Cert.Gin.nf_eq]
  simp [Ideal.cmp]

/-- The column variance as the host forms it is the specification's: the comparison always keeps the quotient. -/
theorem varV_apply (a : FVec Ideal S100000x64 .f32) (d : Fin 64) : varV a (ix1 d) = Cert.Gin.varR a d := by
  have hp : broadcastInDim S64 ![] bcast_S_S64 (cmpf .ogt cnt (constant (F := Ideal) S_ .f32 0x00000000#32)) (ix1 d) = 1#1 :=
    cnt_pos _
  have hc : broadcastInDim S64 ![] bcast_S_S64 cnt (ix1 d) = Cert.Gin.nf := cnt_apply _
  unfold varV
  rw [select_apply, hp, select_one, hostDivf_apply, hc, sumV_apply]
  unfold Cert.Gin.varR Cert.Gin.colSum
  refine congrArg (fun s => Ideal.div s Cert.Gin.nf) (Finset.sum_congr rfl fun r _ => ?_)
  rw [mulf_apply, centred_apply]

/-- The normalised array as the host forms it is the specification's normalisation. -/
theorem normV_eq (a : FVec Ideal S100000x64 .f32) : normV a = Cert.Gin.normR a := by
  funext i
  obtain ⟨r, d, rfl⟩ : ∃ (r : Fin 100000) (d : Fin 64), i = ix2 r d := ⟨i 0, i 1, eq_ix2 i⟩
  unfold normV
  rw [hostDivf_apply, subf_apply, vecDown_apply, vecDown_apply, meanV_apply, hostSqrt_apply, addf_apply, varV_apply]
  rfl

/-! ## The edge chain is the neighbour sum -/

attribute [local irreducible] Host.scatterAdd Host.gather broadcastInDim in
/-- The compare, add, select, broadcast, gather, zero broadcast and scatter-add of the layer are, term for term, the
    neighbour sum's definition: the two records of dimension numbers are the same structure literals. -/
theorem agg_eq (src dst : IVec S1600000 32) (h : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = Cert.Gin.aggOf src dst h := rfl

/-- The half word broadcast over the array reads one half everywhere. -/
theorem halfDown_apply (i : S100000x64.Idx) :
    broadcastInDim S100000x64 ![] bcast_S_S100000x64 (constant (F := Ideal) S_ .f32 0x3F000000#32) i = Cert.Gin.half := rfl

/-- The pre-normalisation array is the neighbour sum plus half the features. -/
theorem pre_eq (src dst : IVec S1600000 32) (h : FVec Ideal S100000x64 .f32) :
    pre src dst h = Cert.Gin.selfAdd (Cert.Gin.aggOf src dst h) h := by
  unfold pre
  rw [agg_eq]
  generalize Cert.Gin.aggOf src dst h = A
  funext i
  rw [addf_apply, mulf_apply, halfDown_apply]
  unfold Cert.Gin.selfAdd
  rfl

/-! ## The layer -/

/-- One layer of the reference, from any buffer contents: the output buffer holds the specification's layer function of
    the features, over the neighbour sum along the edges' source and target columns. -/
theorem layer (W : Valuation τ sig (Elt Ideal)) :
    (after (opsLayer5 (F := Ideal)) W (Proc.devRef .tc main_v142) : Cert.Gin.SN64.Idx → EReal)
      = Cert.Gin.layerR (Cert.Gin.aggOf (W (Proc.devRef .tc main_v1)) (W (Proc.devRef .tc main_v3)))
          (W (Proc.devRef .tc main_v116)) := by
  refine (read W).trans ?_
  rw [pre_eq, normV_eq]
  rfl

/-- The layer writes neither edge column nor any of the program's three arguments. -/
theorem keep (W : Valuation τ sig (Elt Ideal)) (b : Ref sig .tc)
    (hb : b = main_v1 ∨ b = main_v3 ∨ b = main_arg0 ∨ b = main_arg1 ∨ b = main_arg2) :
    after (opsLayer5 (F := Ideal)) W (Proc.devRef .tc b) = W (Proc.devRef .tc b) := by
  rcases hb with rfl | rfl | rfl | rfl | rfl
  all_goals after_results_simp

end Cert.ReferenceIdeal.RefLayer5

end
-- ==== Proof.RefRead.lean ====
/-
  The reference program's whole line of host operations read into the specification: the line is the embedding's fifteen
  operations followed by the five layers' operations, so what it leaves at the output buffer is obtained stage by stage.
  The embedding's stage leaves the looked-up features and the source and target vectors of the edge list; every layer's
  stage leaves one normalised layer of the features before it, taken with the neighbour sum along those two vectors, and
  writes neither vector nor any argument. Composing the six stages gives five layers over the lookup.
-/
import proofs.«415324_j50955491999984_1_alg».proof.Proof.RefOps
import proofs.«415324_j50955491999984_1_alg».proof.Proof.Gen.ReferenceIdeal
import proofs.«415324_j50955491999984_1_alg».proof.Proof.Spec
import proofs.«415324_j50955491999984_1_alg».proof.Proof.Agg
import proofs.«415324_j50955491999984_1_alg».proof.Proof.RefEmbed
import proofs.«415324_j50955491999984_1_alg».proof.Proof.RefLayer1
import proofs.«415324_j50955491999984_1_alg».proof.Proof.RefLayer2
import proofs.«415324_j50955491999984_1_alg».proof.Proof.RefLayer3
import proofs.«415324_j50955491999984_1_alg».proof.Proof.RefLayer4
import proofs.«415324_j50955491999984_1_alg».proof.Proof.RefLayer5
import Idealize.ShloMosaic.Lib.StableHlo.Run

noncomputable section

namespace Cert.ReferenceIdeal.RefRead
open Idealize.ShloMosaic Idealize.SL.Sem Idealize.ShloMosaic.StableHlo Idealize.ShloMosaic.ValueIdx Cert.ReferenceIdeal Cert.ReferenceIdeal.Gen Cert.ReferenceIdeal.RefOps

/-- Running one line and then another is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih =>
    rw [List.cons_append, after_cons, after_cons]
    exact ih _

/-- The whole line is the embedding's operations followed by the five layers', each run from where the one before ended. -/
theorem ops_eq (V : Valuation τ sig (Elt Ideal)) :
    after (ops (F := Ideal)) V
      = after opsLayer5 (after opsLayer4 (after opsLayer3 (after opsLayer2 (after opsLayer1 (after opsEmbed V))))) :=
  (after_append _ opsLayer5 V).trans (congrArg (after opsLayer5)
    ((after_append _ opsLayer4 V).trans (congrArg (after opsLayer4)
      ((after_append _ opsLayer3 V).trans (congrArg (after opsLayer3)
        ((after_append _ opsLayer2 V).trans (congrArg (after opsLayer2)
          (after_append opsEmbed opsLayer1 V))))))))

/-- The six stages as valuations named apart, each given only by the line that produced it from the one before. Every layer
    reads the source and target vectors the embedding's stage made (no layer writes them) and the features the stage before
    it made, so the last stage's output is five layers over the looked-up features. -/
theorem chain (V V0 V1 V2 V3 V4 V5 : Valuation τ sig (Elt Ideal))
    (h0 : V0 = after (opsEmbed (F := Ideal)) V) (h1 : V1 = after (opsLayer1 (F := Ideal)) V0)
    (h2 : V2 = after (opsLayer2 (F := Ideal)) V1) (h3 : V3 = after (opsLayer3 (F := Ideal)) V2)
    (h4 : V4 = after (opsLayer4 (F := Ideal)) V3) (h5 : V5 = after (opsLayer5 (F := Ideal)) V4)
    (hx : Cert.Gin.InRange (V (Proc.devRef .tc main_arg0))) :
    (V5 (Proc.devRef .tc main_v142) : Cert.Gin.SN64.Idx → EReal)
      = Cert.Gin.five (Cert.Gin.layerR (Cert.Gin.aggOf (Cert.Gin.srcOf (V (Proc.devRef .tc main_arg1))) (Cert.Gin.dstOf (V (Proc.devRef .tc main_arg1)))))
          (Cert.Gin.lookup (V (Proc.devRef .tc main_arg0)) hx (V (Proc.devRef .tc main_arg2))) := by
  have e0 : (V0 (Proc.devRef .tc main_v12) : Cert.Gin.SN64.Idx → EReal)
      = Cert.Gin.lookup (V (Proc.devRef .tc main_arg0)) hx (V (Proc.devRef .tc main_arg2)) := by
    rw [h0]; exact RefEmbed.embed V hx
  have s0 : (V0 (Proc.devRef .tc main_v1) : IVec Cert.Gin.SE 32) = Cert.Gin.srcOf (V (Proc.devRef .tc main_arg1)) := by
    rw [h0]; exact RefEmbed.src V
  have d0 : (V0 (Proc.devRef .tc main_v3) : IVec Cert.Gin.SE 32) = Cert.Gin.dstOf (V (Proc.devRef .tc main_arg1)) := by
    rw [h0]; exact RefEmbed.dst V
  have e1 : (V1 (Proc.devRef .tc main_v38) : Cert.Gin.SN64.Idx → EReal)
      = Cert.Gin.layerR (Cert.Gin.aggOf (V0 (Proc.devRef .tc main_v1)) (V0 (Proc.devRef .tc main_v3))) (V0 (Proc.devRef .tc main_v12)) := by
    rw [h1]; exact RefLayer1.layer V0
  have s1 : V1 (Proc.devRef .tc main_v1) = V0 (Proc.devRef .tc main_v1) := by
    rw [h1]; exact RefLayer1.keep V0 main_v1 (Or.inl rfl)
  have d1 : V1 (Proc.devRef .tc main_v3) = V0 (Proc.devRef .tc main_v3) := by
    rw [h1]; exact RefLayer1.keep V0 main_v3 (Or.inr (Or.inl rfl))
  have e2 : (V2 (Proc.devRef .tc main_v64) : Cert.Gin.SN64.Idx → EReal)
      = Cert.Gin.layerR (Cert.Gin.aggOf (V1 (Proc.devRef .tc main_v1)) (V1 (Proc.devRef .tc main_v3))) (V1 (Proc.devRef .tc main_v38)) := by
    rw [h2]; exact RefLayer2.layer V1
  have s2 : V2 (Proc.devRef .tc main_v1) = V1 (Proc.devRef .tc main_v1) := by
    rw [h2]; exact RefLayer2.keep V1 main_v1 (Or.inl rfl)
  have d2 : V2 (Proc.devRef .tc main_v3) = V1 (Proc.devRef .tc main_v3) := by
    rw [h2]; exact RefLayer2.keep V1 main_v3 (Or.inr (Or.inl rfl))
  have e3 : (V3 (Proc.devRef .tc main_v90) : Cert.Gin.SN64.Idx → EReal)
      = Cert.Gin.layerR (Cert.Gin.aggOf (V2 (Proc.devRef .tc main_v1)) (V2 (Proc.devRef .tc main_v3))) (V2 (Proc.devRef .tc main_v64)) := by
    rw [h3]; exact RefLayer3.layer V2
  have s3 : V3 (Proc.devRef .tc main_v1) = V2 (Proc.devRef .tc main_v1) := by
    rw [h3]; exact RefLayer3.keep V2 main_v1 (Or.inl rfl)
  have d3 : V3 (Proc.devRef .tc main_v3) = V2 (Proc.devRef .tc main_v3) := by
    rw [h3]; exact RefLayer3.keep V2 main_v3 (Or.inr (Or.inl rfl))
  have e4 : (V4 (Proc.devRef .tc main_v116) : Cert.Gin.SN64.Idx → EReal)
      = Cert.Gin.layerR (Cert.Gin.aggOf (V3 (Proc.devRef .tc main_v1)) (V3 (Proc.devRef .tc main_v3))) (V3 (Proc.devRef .tc main_v90)) := by
    rw [h4]; exact RefLayer4.layer V3
  have s4 : V4 (Proc.devRef .tc main_v1) = V3 (Proc.devRef .tc main_v1) := by
    rw [h4]; exact RefLayer4.keep V3 main_v1 (Or.inl rfl)
  have d4 : V4 (Proc.devRef .tc main_v3) = V3 (Proc.devRef .tc main_v3) := by
    rw [h4]; exact RefLayer4.keep V3 main_v3 (Or.inr (Or.inl rfl))
  have e5 : (V5 (Proc.devRef .tc main_v142) : Cert.Gin.SN64.Idx → EReal)
      = Cert.Gin.layerR (Cert.Gin.aggOf (V4 (Proc.devRef .tc main_v1)) (V4 (Proc.devRef .tc main_v3))) (V4 (Proc.devRef .tc main_v116)) := by
    rw [h5]; exact RefLayer5.layer V4
  have s5 : V5 (Proc.devRef .tc main_v1) = V4 (Proc.devRef .tc main_v1) := by
    rw [h5]; exact RefLayer5.keep V4 main_v1 (Or.inl rfl)
  have d5 : V5 (Proc.devRef .tc main_v3) = V4 (Proc.devRef .tc main_v3) := by
    rw [h5]; exact RefLayer5.keep V4 main_v3 (Or.inr (Or.inl rfl))
  rw [e5, s4, d4, e4, s3, d3, e3, s2, d2, e2, s1, d1, e1, s0, d0, e0]
  rfl

/-- The reference program's output: five layers over the embedding lookup, the neighbour sum taken along the edge list. -/
theorem read (V : Valuation τ sig (Elt Ideal)) (hx : Cert.Gin.InRange (V (Proc.devRef .tc main_arg0))) :
    (after (ops (F := Ideal)) V (Proc.devRef .tc main_v142) : Cert.Gin.SN64.Idx → EReal)
      = Cert.Gin.five (Cert.Gin.layerR (Cert.Gin.aggOf (Cert.Gin.srcOf (V (Proc.devRef .tc main_arg1))) (Cert.Gin.dstOf (V (Proc.devRef .tc main_arg1)))))
          (Cert.Gin.lookup (V (Proc.devRef .tc main_arg0)) hx (V (Proc.devRef .tc main_arg2))) :=
  (congrFun (ops_eq V) (Proc.devRef .tc main_v142)).trans (chain V _ _ _ _ _ _ rfl rfl rfl rfl rfl rfl hx)

/-- No operation of the whole line writes one of the program's three arguments. -/
theorem read_arg (V : Valuation τ sig (Elt Ideal)) (b : Ref sig .tc) (hb : b = main_arg0 ∨ b = main_arg1 ∨ b = main_arg2) :
    after (ops (F := Ideal)) V (Proc.devRef .tc b) = V (Proc.devRef .tc b) :=
  have hb' : b = main_v1 ∨ b = main_v3 ∨ b = main_arg0 ∨ b = main_arg1 ∨ b = main_arg2 := Or.inr (Or.inr hb)
  (congrFun (ops_eq V) (Proc.devRef .tc b)).trans
    ((RefLayer5.keep _ b hb').trans ((RefLayer4.keep _ b hb').trans ((RefLayer3.keep _ b hb').trans
      ((RefLayer2.keep _ b hb').trans ((RefLayer1.keep _ b hb').trans (RefEmbed.keep V b hb))))))

end Cert.ReferenceIdeal.RefRead

end
-- ==== Proof.RefValue.lean ====
/-
  The idealized reference program's result as one function of its arguments: its whole line of host operations,
  read from the launch contents, is the embedding lookup followed by five layers, each layer the neighbour sum, the
  column mean, the mean of squared deviations, and the division by the standard deviation.
-/
import proofs.«415324_j50955491999984_1_alg».proof.Proof.RefRun
import proofs.«415324_j50955491999984_1_alg».proof.Proof.RefRead

noncomputable section

namespace Cert.ReferenceIdeal.RefValue

open Idealize.ShloMosaic Idealize.SL.Sem Idealize.ShloMosaic.StableHlo Idealize.ShloMosaic.ValueIdx Cert.ReferenceIdeal Cert.ReferenceIdeal.Gen

variable (m : (ℓ : Loc nD τ sig) → Buf (Elt Ideal) ℓ) (ρ : Dev nD → PrngReg)

/-- The reference program's function of its arguments on one device. -/
abbrev outOf (c : Dev nD) (hx : Cert.Gin.InRange (m ((c.tc : Thread nD τ).loc main_arg0))) : Cert.Gin.SN64.Idx → EReal :=
  Cert.Gin.five (Cert.Gin.layerR (Cert.Gin.aggOf (Cert.Gin.srcOf (m ((c.tc : Thread nD τ).loc main_arg1))) (Cert.Gin.dstOf (m ((c.tc : Thread nD τ).loc main_arg1)))))
    (Cert.Gin.lookup (m ((c.tc : Thread nD τ).loc main_arg0)) hx (m ((c.tc : Thread nD τ).loc main_arg2)))

/-- The run, read: the result array at the program's function of the arguments, the arguments unchanged. -/
theorem run (hx : ∀ c : Dev nD, Cert.Gin.InRange (m ((c.tc : Thread nD τ).loc main_arg0))) :
    θ_run defs (onTc (τ := τ) (main (F := Ideal))) ⟨m, fun _ => 0, ρ⟩ (fun r => ∀ c : Dev nD,
      r.2.mem ((c.tc : Thread nD τ).loc main_v142) = outOf m c (hx c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v142).trans (RefRead.read (launchContents m c) (hx c)),
       (h c main_arg0).trans (RefRead.read_arg (launchContents m c) main_arg0 (Or.inl rfl)),
       (h c main_arg1).trans (RefRead.read_arg (launchContents m c) main_arg1 (Or.inr (Or.inl rfl))),
       (h c main_arg2).trans (RefRead.read_arg (launchContents m c) main_arg2 (Or.inr (Or.inr rfl)))⟩)
    (RefRun.run m ρ)

/-- The frame alone needs no hypothesis: no operation writes an argument. -/
theorem frame :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_arg0).trans (RefRead.read_arg (launchContents m c) main_arg0 (Or.inl rfl)),
       (h c main_arg1).trans (RefRead.read_arg (launchContents m c) main_arg1 (Or.inr (Or.inl rfl))),
       (h c main_arg2).trans (RefRead.read_arg (launchContents m c) main_arg2 (Or.inr (Or.inr rfl)))⟩)
    (RefRun.run m ρ)

end Cert.ReferenceIdeal.RefValue

end
-- ==== Proof.lean ====
/-
  The certificate of the five-layer graph network: a one-hot matrix product for the embedding lookup, then per layer a
  neighbour sum on the host, a grid accumulation of the column sums of `a = A + h/2` and of `a²`, the host's
  `mean = Σa / n`, `inv = rsqrt (Σa²/n − mean² + eps)`, and an elementwise `(a − mean) · inv` — against the reference's
  table lookup, the same neighbour sum, `jnp.mean`, `jnp.var` and a division by `sqrt (var + eps)`.

  Under the precondition (the table finite; every atom type a row number of the table) both programs compute, at the
  extended reals, the same function of the arguments:
    * the embedding: a one-hot row times the table is the table's row, and the reference's gather reads that row;
    * the neighbour sum is spelled by the same host operations in both, and keeps real entries real;
    * on real entries the variance is the mean square minus the squared mean, it is not negative, and multiplying by the
      reciprocal square root is dividing by the square root.
  The frames of the two kernel programs are the generated ones; the reference's frame is its run with the result dropped.
  No operation was rewritten by the idealization, so there is nothing to preserve.
-/
import proofs.«415324_j50955491999984_1_alg».proof.Defs
import proofs.«415324_j50955491999984_1_alg».proof.Proof.Gen.Kernel
import proofs.«415324_j50955491999984_1_alg».proof.Proof.Gen.Kernel.Frame
import proofs.«415324_j50955491999984_1_alg».proof.Proof.Gen.KernelIdeal
import proofs.«415324_j50955491999984_1_alg».proof.Proof.Gen.KernelIdeal.Frame
import proofs.«415324_j50955491999984_1_alg».proof.Proof.Gen.ReferenceIdeal
import proofs.«415324_j50955491999984_1_alg».proof.Proof.Gen.Pre_finite_inputs
import proofs.«415324_j50955491999984_1_alg».proof.Proof.PreDecode
import proofs.«415324_j50955491999984_1_alg».proof.Proof.Algebra
import proofs.«415324_j50955491999984_1_alg».proof.Proof.Agg
import proofs.«415324_j50955491999984_1_alg».proof.Proof.KValue
import proofs.«415324_j50955491999984_1_alg».proof.Proof.RefValue
import Idealize.ShloMosaic.Adequacy
import Idealize.ShloMosaic.Init

noncomputable section

namespace Cert.Proof

open Idealize.ShloMosaic Idealize.SL.Sem

/-- The lookup depends on the node attributes only through their values. -/
theorem lookup_congr (x x' : IVec Cert.Gin.SN2 32) (e : x' = x) (hx : Cert.Gin.InRange x) (hx' : Cert.Gin.InRange x')
    (tbl : Cert.Gin.SV64.Idx → EReal) : Cert.Gin.lookup x' hx' tbl = Cert.Gin.lookup x hx tbl := by
  subst e; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefValue.frame m ρ

/-- Both idealized programs end at the same function of arguments that agree: five layers over the same neighbour sum
    from the same lookup, the two ways of taking the column statistics equal on real entries. -/
theorem algebraic : Cert.algebraic_KernelIdeal_ReferenceIdeal := by
  intro m ρ m' ρ' hpre hagree
  have hdec := fun c => Cert.PreDecode.decode _ _ _ (hpre c)
  have hx : ∀ c : Dev Cert.KernelIdeal.nD, Cert.Gin.InRange (m ((c.tc : Thread Cert.KernelIdeal.nD Cert.KernelIdeal.τ).loc Cert.KernelIdeal.main_arg0)) :=
    fun c => (hdec c).1
  have hx' : ∀ c : Dev Cert.ReferenceIdeal.nD, Cert.Gin.InRange (m' ((c.tc : Thread Cert.ReferenceIdeal.nD Cert.ReferenceIdeal.τ).loc Cert.ReferenceIdeal.main_arg0)) :=
    fun c => by rw [(hagree c).1]; exact hx c
  refine ⟨fun c => Cert.KernelIdeal.KValue.outOf m c (hx c), Cert.KernelIdeal.KValue.run m ρ hx, ?_⟩
  refine (θ_run Cert.ReferenceIdeal.defs _ _).mono (fun _ h c => ⟨(h c).1.trans ?_, (h c).2⟩)
    (Cert.ReferenceIdeal.RefValue.run m' ρ' hx')
  show Cert.ReferenceIdeal.RefValue.outOf m' c (hx' c) = Cert.KernelIdeal.KValue.outOf m c (hx c)
  unfold Cert.ReferenceIdeal.RefValue.outOf Cert.KernelIdeal.KValue.outOf
  rw [lookup_congr _ _ (hagree c).1 (hx c) (hx' c), (hagree c).2.1, (hagree c).2.2]
  exact (Cert.Gin.five_layer_eq _ (fun h hh => Cert.Gin.aggOf_fin _ _ h hh) _
    (Cert.Gin.lookup_fin _ (hx c) _ (hdec c).2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
